-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x512 : Shape := ⟨2, ![512, 512]⟩
abbrev S512 : Shape := ⟨1, ![512]⟩
abbrev S512x64 : Shape := ⟨2, ![512, 64]⟩
abbrev S64 : Shape := ⟨1, ![64]⟩
abbrev S64x64 : Shape := ⟨2, ![64, 64]⟩
abbrev S512x128 : Shape := ⟨2, ![512, 128]⟩
abbrev S128 : Shape := ⟨1, ![128]⟩
abbrev S128x128 : Shape := ⟨2, ![128, 128]⟩
abbrev S256x128 : Shape := ⟨2, ![256, 128]⟩
abbrev S128x64 : Shape := ⟨2, ![128, 64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part5 {F : FTy → Type} [FloatOps F] (main_arg1 : IVec S2x800000 32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_c_34 : IVec S_ 32 := constantI S_ 32 0#32
  let main_v89 : IVec S2x800000 32 := broadcastInDim S2x800000 ![] bcast_S_S2x800000 main_c_34
  let main_v90 : IVec S2x800000 1 := cmpi .sge main_arg1 main_v89
  let main_c_35 : IVec S_ 32 := constantI S_ 32 50000#32
  let main_v91 : IVec S2x800000 32 := broadcastInDim S2x800000 ![] bcast_S_S2x800000 main_c_35
  let main_v92 : IVec S2x800000 1 := cmpi .slt main_arg1 main_v91
  let main_v93 : IVec S2x800000 1 := andi main_v90 main_v92
  let main_c_36 : IVec S_ 1 := constantI S_ 1 1#1
  let main_v94 : IVec S_ 1 := (fun x v => Host.reduce IntOp.andi x v reducesTo_S2x800000_S_d0_1 h_S_) main_v93 main_c_36
  let main_v95 : IVec S_ 1 := andi main_v88 main_v94
  main_v95

def fn_part4 {F : FTy → Type} [FloatOps F] (main_arg1 : IVec S2x800000 32) (main_arg15 : FVec F S256x128 .f32) (main_arg16 : FVec F S128 .f32) (main_arg17 : FVec F S128x64 .f32) (main_arg18 : FVec F S64 .f32) (main_v63 : IVec S_ 1) (main_v67 : IVec S_ 1) : IVec S_ 1 :=
  let main_v68 : IVec S_ 1 := andi main_v63 main_v67
  let main_v69 : FVec F S256x128 .f32 := Host.absf main_arg15
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x64 .f32 := Host.absf main_arg17
  let main_cst_30 : FVec F S_ .f32 := constant S_ .f32 0x7F800000#32
  let main_v80 : FVec F S128x64 .f32 := broadcastInDim S128x64 ![] bcast_S_S128x64 main_cst_30
  let main_v81 : IVec S128x64 1 := cmpf .olt main_v79 main_v80
  let main_c_31 : IVec S_ 1 := constantI S_ 1 1#1
  let main_v82 : IVec S_ 1 := (fun x v => Host.reduce IntOp.andi x v reducesTo_S128x64_S_d0_1 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_arg1 main_v83 main_v84 main_cst_32

def fn_part3 {F : FTy → Type} [FloatOps F] (main_arg1 : IVec S2x800000 32) (main_arg12 : FVec F S128 .f32) (main_arg13 : FVec F S128x128 .f32) (main_arg14 : FVec F S128 .f32) (main_arg15 : FVec F S256x128 .f32) (main_arg16 : FVec F S128 .f32) (main_arg17 : FVec F S128x64 .f32) (main_arg18 : FVec F S64 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg15 main_arg16 main_arg17 main_arg18 main_v63 main_v67

def fn_part2 {F : FTy → Type} [FloatOps F] (main_arg1 : IVec S2x800000 32) (main_arg8 : FVec F S64x64 .f32) (main_arg9 : FVec F S512x128 .f32) (main_arg10 : FVec F S128 .f32) (main_arg11 : FVec F S128x128 .f32) (main_arg12 : FVec F S128 .f32) (main_arg13 : FVec F S128x128 .f32) (main_arg14 : FVec F S128 .f32) (main_arg15 : FVec F S256x128 .f32) (main_arg16 : FVec F S128 .f32) (main_arg17 : FVec F S128x64 .f32) (main_arg18 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S512x128 .f32 := Host.absf main_arg9
  let main_cst_14 : FVec F S_ .f32 := constant S_ .f32 0x7F800000#32
  let main_v40 : FVec F S512x128 .f32 := broadcastInDim S512x128 ![] bcast_S_S512x128 main_cst_14
  let main_v41 : IVec S512x128 1 := cmpf .olt main_v39 main_v40
  let main_c_15 : IVec S_ 1 := constantI S_ 1 1#1
  let main_v42 : IVec S_ 1 := (fun x v => Host.reduce IntOp.andi x v reducesTo_S512x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg1 main_arg12 main_arg13 main_arg14 main_arg15 main_arg16 main_arg17 main_arg18 main_v48 main_v49 main_v50

def fn_part1 {F : FTy → Type} [FloatOps F] (main_arg1 : IVec S2x800000 32) (main_arg5 : FVec F S64 .f32) (main_arg6 : FVec F S64x64 .f32) (main_arg7 : FVec F S64 .f32) (main_arg8 : FVec F S64x64 .f32) (main_arg9 : FVec F S512x128 .f32) (main_arg10 : FVec F S128 .f32) (main_arg11 : FVec F S128x128 .f32) (main_arg12 : FVec F S128 .f32) (main_arg13 : FVec F S128x128 .f32) (main_arg14 : FVec F S128 .f32) (main_arg15 : FVec F S256x128 .f32) (main_arg16 : FVec F S128 .f32) (main_arg17 : FVec F S128x64 .f32) (main_arg18 : FVec F S64 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_v33

def fn {F : FTy → Type} [FloatOps F] (main_arg0 : FVec F S50000x512 .f32) (main_arg1 : IVec S2x800000 32) (main_arg2 : FVec F S512x512 .f32) (main_arg3 : FVec F S512 .f32) (main_arg4 : FVec F S512x64 .f32) (main_arg5 : FVec F S64 .f32) (main_arg6 : FVec F S64x64 .f32) (main_arg7 : FVec F S64 .f32) (main_arg8 : FVec F S64x64 .f32) (main_arg9 : FVec F S512x128 .f32) (main_arg10 : FVec F S128 .f32) (main_arg11 : FVec F S128x128 .f32) (main_arg12 : FVec F S128 .f32) (main_arg13 : FVec F S128x128 .f32) (main_arg14 : FVec F S128 .f32) (main_arg15 : FVec F S256x128 .f32) (main_arg16 : FVec F S128 .f32) (main_arg17 : FVec F S128x64 .f32) (main_arg18 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x64 .f32 := Host.absf main_arg4
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_v13 main_v16
-- ==== Kernel.lean ====
abbrev S50000x512 : Shape := ⟨2, ![50000, 512]⟩
abbrev S2x800000 : Shape := ⟨2, ![2, 800000]⟩
abbrev S512x512 : Shape := ⟨2, ![512, 512]⟩
abbrev S512 : Shape := ⟨1, ![512]⟩
abbrev S512x64 : Shape := ⟨2, ![512, 64]⟩
abbrev S64 : Shape := ⟨1, ![64]⟩
abbrev S64x64 : Shape := ⟨2, ![64, 64]⟩
abbrev S512x128 : Shape := ⟨2, ![512, 128]⟩
abbrev S128 : Shape := ⟨1, ![128]⟩
abbrev S128x128 : Shape := ⟨2, ![128, 128]⟩
abbrev S256x128 : Shape := ⟨2, ![256, 128]⟩
abbrev S128x64 : Shape := ⟨2, ![128, 64]⟩
abbrev S1x800000 : Shape := ⟨2, ![1, 800000]⟩
abbrev S800000 : Shape := ⟨1, ![800000]⟩
abbrev S_ : Shape := ⟨0, ![]⟩
abbrev S1x512 : Shape := ⟨2, ![1, 512]⟩
abbrev S1x64 : Shape := ⟨2, ![1, 64]⟩
abbrev S50000x64 : Shape := ⟨2, ![50000, 64]⟩
abbrev S50000x128 : Shape := ⟨2, ![50000, 128]⟩
abbrev S2000x512 : Shape := ⟨2, ![2000, 512]⟩
abbrev S2000x64 : Shape := ⟨2, ![2000, 64]⟩
abbrev S2000x128 : Shape := ⟨2, ![2000, 128]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S50000 : Shape := ⟨1, ![50000]⟩
abbrev S850000 : Shape := ⟨1, ![850000]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 236
  | .vmem => 36
  | .smem => 0
  | _ => 0

abbrev hbmTy0_0 (i : Nat) : BufTy := match i % 128 with
  | 0 => ⟨S50000x512, .f32⟩
  | 1 => ⟨S2x800000, .i32⟩
  | 2 => ⟨S512x512, .f32⟩
  | 3 => ⟨S512, .f32⟩
  | 4 => ⟨S512x64, .f32⟩
  | 5 => ⟨S64, .f32⟩
  | 6 => ⟨S64x64, .f32⟩
  | 7 => ⟨S64, .f32⟩
  | 8 => ⟨S64x64, .f32⟩
  | 9 => ⟨S512x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S256x128, .f32⟩
  | 16 => ⟨S128, .f32⟩
  | 17 => ⟨S128x64, .f32⟩
  | 18 => ⟨S64, .f32⟩
  | 19 => ⟨S1x800000, .i32⟩
  | 20 => ⟨S800000, .i32⟩
  | 21 => ⟨S1x800000, .i32⟩
  | 22 => ⟨S800000, .i32⟩
  | 23 => ⟨S_, .f32⟩
  | 24 => ⟨S64x64, .f32⟩
  | 25 => ⟨S64x64, .f32⟩
  | 26 => ⟨S_, .f32⟩
  | 27 => ⟨S64x64, .f32⟩
  | 28 => ⟨S64x64, .f32⟩
  | 29 => ⟨S1x512, .f32⟩
  | 30 => ⟨S1x64, .f32⟩
  | 31 => ⟨S1x64, .f32⟩
  | 32 => ⟨S50000x64, .f32⟩
  | 33 => ⟨S50000x64, .f32⟩
  | 34 => ⟨S50000x128, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S1, .i32⟩
  | 44 => ⟨S_, .i32⟩
  | 45 => ⟨S800000x1, .i32⟩
  | 46 => ⟨S800000x1, .i1⟩
  | 47 => ⟨S1x1, .i32⟩
  | 48 => ⟨S800000x1, .i32⟩
  | 49 => ⟨S800000x1, .i1⟩
  | 50 => ⟨S800000x1, .i1⟩
  | 51 => ⟨S_, .i1⟩
  | 52 => ⟨S800000, .i1⟩
  | 53 => ⟨S800000x64, .f32⟩
  | 54 => ⟨S800000x64, .i1⟩
  | 55 => ⟨S_, .f32⟩
  | 56 => ⟨S800000x64, .f32⟩
  | 57 => ⟨S800000x64, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S1, .i32⟩
  | 67 => ⟨S_, .i32⟩
  | 68 => ⟨S800000x1, .i32⟩
  | 69 => ⟨S800000x1, .i1⟩
  | 70 => ⟨S1x1, .i32⟩
  | 71 => ⟨S800000x1, .i32⟩
  | 72 => ⟨S800000x1, .i1⟩
  | 73 => ⟨S800000x1, .i1⟩
  | 74 => ⟨S_, .i1⟩
  | 75 => ⟨S800000, .i1⟩
  | 76 => ⟨S800000x64, .f32⟩
  | 77 => ⟨S800000x64, .i1⟩
  | 78 => ⟨S_, .f32⟩
  | 79 => ⟨S800000x64, .f32⟩
  | 80 => ⟨S800000x64, .f32⟩
  | 81 => ⟨S800000x64, .f32⟩
  | 82 => ⟨S_, .f32⟩
  | 83 => ⟨S800000, .f32⟩
  | 84 => ⟨S_, .f32⟩
  | 85 => ⟨S_, .f32⟩
  | 86 => ⟨S_, .f32⟩
  | 87 => ⟨S_, .f32⟩
  | 88 => ⟨S_, .i32⟩
  | 89 => ⟨S_, .f32⟩
  | 90 => ⟨S_, .f32⟩
  | 91 => ⟨S1, .f32⟩
  | 92 => ⟨S_, .f32⟩
  | 93 => ⟨S1, .f32⟩
  | 94 => ⟨S1, .f32⟩
  | 95 => ⟨S800000, .f32⟩
  | 96 => ⟨S800000, .f32⟩
  | 97 => ⟨S800000, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .i1⟩
  | 106 => ⟨S_, .f32⟩
  | 107 => ⟨S_, .f32⟩
  | 108 => ⟨S_, .f32⟩
  | 109 => ⟨S800000, .f32⟩
  | 110 => ⟨S800000, .f32⟩
  | 111 => ⟨S_, .f32⟩
  | 112 => ⟨S_, .f32⟩
  | 113 => ⟨S_, .f32⟩
  | 114 => ⟨S800000, .f32⟩
  | 115 => ⟨S800000, .f32⟩
  | 116 => ⟨S_, .f32⟩
  | 117 => ⟨S800000, .f32⟩
  | 118 => ⟨S800000, .f32⟩
  | 119 => ⟨S50000, .i32⟩
  | 120 => ⟨S850000, .i32⟩
  | 121 => ⟨S850000, .i32⟩
  | 122 => ⟨S_, .f32⟩
  | 123 => ⟨S50000, .f32⟩
  | 124 => ⟨S850000, .f32⟩
  | 125 => ⟨S_, .f32⟩
  | 126 => ⟨S50000, .f32⟩
  | 127 => ⟨S850000x1, .i32⟩
  | _ => ⟨S50000x512, .f32⟩

abbrev hbmTy0_1 (i : Nat) : BufTy := match i % 128 with
  | 0 => ⟨S50000, .f32⟩
  | 1 => ⟨S_, .f32⟩
  | 2 => ⟨S50000, .f32⟩
  | 3 => ⟨S50000, .i1⟩
  | 4 => ⟨S50000, .f32⟩
  | 5 => ⟨S_, .f32⟩
  | 6 => ⟨S_, .f32⟩
  | 7 => ⟨S50000, .f32⟩
  | 8 => ⟨S50000, .f32⟩
  | 9 => ⟨S_, .i32⟩
  | 10 => ⟨S850000, .i32⟩
  | 11 => ⟨S850000, .i1⟩
  | 12 => ⟨S_, .i32⟩
  | 13 => ⟨S850000, .i32⟩
  | 14 => ⟨S850000, .i32⟩
  | 15 => ⟨S850000, .i32⟩
  | 16 => ⟨S850000x1, .i32⟩
  | 17 => ⟨S850000, .f32⟩
  | 18 => ⟨S850000, .f32⟩
  | 19 => ⟨S_, .i32⟩
  | 20 => ⟨S850000, .i32⟩
  | 21 => ⟨S850000, .i1⟩
  | 22 => ⟨S_, .i32⟩
  | 23 => ⟨S850000, .i32⟩
  | 24 => ⟨S850000, .i32⟩
  | 25 => ⟨S850000, .i32⟩
  | 26 => ⟨S850000x1, .i32⟩
  | 27 => ⟨S850000, .f32⟩
  | 28 => ⟨S850000, .f32⟩
  | 29 => ⟨S850000x1, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000x128, .f32⟩
  | 39 => ⟨S850000x128, .f32⟩
  | 40 => ⟨S850000x128, .f32⟩
  | 41 => ⟨S_, .f32⟩
  | 42 => ⟨S50000x128, .f32⟩
  | 43 => ⟨S850000x1, .i32⟩
  | 44 => ⟨S50000x128, .f32⟩
  | 45 => ⟨S1x128, .f32⟩
  | 46 => ⟨S50000x128, .f32⟩
  | 47 => ⟨S50000x128, .f32⟩
  | 48 => ⟨S50000, .i32⟩
  | 49 => ⟨S850000, .i32⟩
  | 50 => ⟨S850000, .i32⟩
  | 51 => ⟨S_, .f32⟩
  | 52 => ⟨S50000, .f32⟩
  | 53 => ⟨S850000, .f32⟩
  | 54 => ⟨S_, .f32⟩
  | 55 => ⟨S50000, .f32⟩
  | 56 => ⟨S850000x1, .i32⟩
  | 57 => ⟨S50000, .f32⟩
  | 58 => ⟨S_, .f32⟩
  | 59 => ⟨S50000, .f32⟩
  | 60 => ⟨S50000, .i1⟩
  | 61 => ⟨S50000, .f32⟩
  | 62 => ⟨S_, .f32⟩
  | 63 => ⟨S_, .f32⟩
  | 64 => ⟨S50000, .f32⟩
  | 65 => ⟨S50000, .f32⟩
  | 66 => ⟨S_, .i32⟩
  | 67 => ⟨S850000, .i32⟩
  | 68 => ⟨S850000, .i1⟩
  | 69 => ⟨S_, .i32⟩
  | 70 => ⟨S850000, .i32⟩
  | 71 => ⟨S850000, .i32⟩
  | 72 => ⟨S850000, .i32⟩
  | 73 => ⟨S850000x1, .i32⟩
  | 74 => ⟨S850000, .f32⟩
  | 75 => ⟨S850000, .f32⟩
  | 76 => ⟨S_, .i32⟩
  | 77 => ⟨S850000, .i32⟩
  | 78 => ⟨S850000, .i1⟩
  | 79 => ⟨S_, .i32⟩
  | 80 => ⟨S850000, .i32⟩
  | 81 => ⟨S850000, .i32⟩
  | 82 => ⟨S850000, .i32⟩
  | 83 => ⟨S850000x1, .i32⟩
  | 84 => ⟨S850000, .f32⟩
  | 85 => ⟨S850000, .f32⟩
  | 86 => ⟨S850000x1, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000x128, .f32⟩
  | 96 => ⟨S850000x128, .f32⟩
  | 97 => ⟨S850000x128, .f32⟩
  | 98 => ⟨S_, .f32⟩
  | 99 => ⟨S50000x128, .f32⟩
  | 100 => ⟨S850000x1, .i32⟩
  | 101 => ⟨S50000x128, .f32⟩
  | 102 => ⟨S128x128, .f32⟩
  | 103 => ⟨S128x128, .f32⟩
  | 104 => ⟨S1x128, .f32⟩
  | 105 => ⟨S1x128, .f32⟩
  | 106 => ⟨S1x64, .f32⟩
  | 107 => ⟨S50000x64, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S1x512, .f32⟩
  | .local _ .vmem, ⟨4, _⟩ => ⟨S512x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S512x128, .f32⟩
  | .local _ .vmem, ⟨9, _⟩ => ⟨S64x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S1x128, .f32⟩
  | .local _ .vmem, ⟨19, _⟩ => ⟨S128x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S1x128, .f32⟩
  | .local _ .vmem, ⟨29, _⟩ => ⟨S128x128, .f32⟩
  | .local _ .vmem, ⟨30, _⟩ => ⟨S128x128, .f32⟩
  | .local _ .vmem, ⟨31, _⟩ => ⟨S1x128, .f32⟩
  | .local _ .vmem, ⟨32, _⟩ => ⟨S128x64, .f32⟩
  | .local _ .vmem, ⟨33, _⟩ => ⟨S1x64, .f32⟩
  | .local _ .vmem, ⟨34, _⟩ => ⟨S2000x64, .f32⟩
  | .local _ .vmem, ⟨35, _⟩ => ⟨S2000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_v5 : Ref sig .tc := ⟨.hbm, 25, rfl⟩
abbrev main_call0_cst : Ref sig .tc := ⟨.hbm, 26, rfl⟩
abbrev main_call0_v0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10_0 : Ref sig .tc := ⟨.hbm, 32, rfl⟩
abbrev main_v10_1 : Ref sig .tc := ⟨.hbm, 33, rfl⟩
abbrev main_v10_2 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v11 : Ref sig .tc := ⟨.hbm, 57, rfl⟩
abbrev main_call2_c : Ref sig .tc := ⟨.hbm, 58, rfl⟩
abbrev main_call2_v0 : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_c_1 : Ref sig .tc := ⟨.hbm, 66, rfl⟩
abbrev main_call2_c_2 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_3 : Ref sig .tc := ⟨.hbm, 74, rfl⟩
abbrev main_call2_v12 : Ref sig .tc := ⟨.hbm, 75, rfl⟩
abbrev main_call2_v13 : Ref sig .tc := ⟨.hbm, 76, rfl⟩
abbrev main_call2_v14 : Ref sig .tc := ⟨.hbm, 77, rfl⟩
abbrev main_call2_cst : Ref sig .tc := ⟨.hbm, 78, rfl⟩
abbrev main_call2_v15 : Ref sig .tc := ⟨.hbm, 79, rfl⟩
abbrev main_v12 : Ref sig .tc := ⟨.hbm, 80, rfl⟩
abbrev main_v13 : Ref sig .tc := ⟨.hbm, 81, rfl⟩
abbrev main_cst_0 : Ref sig .tc := ⟨.hbm, 82, rfl⟩
abbrev main_v14 : Ref sig .tc := ⟨.hbm, 83, rfl⟩
abbrev main_cst_1 : Ref sig .tc := ⟨.hbm, 84, rfl⟩
abbrev main_v15 : Ref sig .tc := ⟨.hbm, 85, rfl⟩
abbrev main_cst_2 : Ref sig .tc := ⟨.hbm, 86, rfl⟩
abbrev main_v16 : Ref sig .tc := ⟨.hbm, 87, rfl⟩
abbrev main_c : Ref sig .tc := ⟨.hbm, 88, rfl⟩
abbrev main_call3_cst : Ref sig .tc := ⟨.hbm, 89, rfl⟩
abbrev main_call3_v0 : Ref sig .tc := ⟨.hbm, 90, rfl⟩
abbrev main_call3_v1 : Ref sig .tc := ⟨.hbm, 91, rfl⟩
abbrev main_call3_cst_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_v6 : Ref sig .tc := ⟨.hbm, 97, rfl⟩
abbrev main_call3_v7 : Ref sig .tc := ⟨.hbm, 98, rfl⟩
abbrev main_call3_cst_1 : Ref sig .tc := ⟨.hbm, 99, rfl⟩
abbrev main_call3_v8 : Ref sig .tc := ⟨.hbm, 100, rfl⟩
abbrev main_call3_cst_2 : Ref sig .tc := ⟨.hbm, 101, rfl⟩
abbrev main_call3_v9 : Ref sig .tc := ⟨.hbm, 102, rfl⟩
abbrev main_call3_v10 : Ref sig .tc := ⟨.hbm, 103, rfl⟩
abbrev main_call3_cst_3 : Ref sig .tc := ⟨.hbm, 104, rfl⟩
abbrev main_call3_v11 : Ref sig .tc := ⟨.hbm, 105, rfl⟩
abbrev main_call3_cst_4 : Ref sig .tc := ⟨.hbm, 106, rfl⟩
abbrev main_call3_call0_v0 : Ref sig .tc := ⟨.hbm, 107, rfl⟩
abbrev main_v17 : Ref sig .tc := ⟨.hbm, 108, rfl⟩
abbrev main_v18 : Ref sig .tc := ⟨.hbm, 109, rfl⟩
abbrev main_v19 : Ref sig .tc := ⟨.hbm, 110, rfl⟩
abbrev main_cst_3 : Ref sig .tc := ⟨.hbm, 111, rfl⟩
abbrev main_v20 : Ref sig .tc := ⟨.hbm, 112, rfl⟩
abbrev main_v21 : Ref sig .tc := ⟨.hbm, 113, rfl⟩
abbrev main_v22 : Ref sig .tc := ⟨.hbm, 114, rfl⟩
abbrev main_v23 : Ref sig .tc := ⟨.hbm, 115, rfl⟩
abbrev main_cst_4 : Ref sig .tc := ⟨.hbm, 116, rfl⟩
abbrev main_v24 : Ref sig .tc := ⟨.hbm, 117, rfl⟩
abbrev main_v25 : Ref sig .tc := ⟨.hbm, 118, rfl⟩
abbrev main_v26 : Ref sig .tc := ⟨.hbm, 119, rfl⟩
abbrev main_v27 : Ref sig .tc := ⟨.hbm, 120, rfl⟩
abbrev main_v28 : Ref sig .tc := ⟨.hbm, 121, rfl⟩
abbrev main_cst_5 : Ref sig .tc := ⟨.hbm, 122, rfl⟩
abbrev main_v29 : Ref sig .tc := ⟨.hbm, 123, rfl⟩
abbrev main_v30 : Ref sig .tc := ⟨.hbm, 124, rfl⟩
abbrev main_cst_6 : Ref sig .tc := ⟨.hbm, 125, rfl⟩
abbrev main_v31 : Ref sig .tc := ⟨.hbm, 126, rfl⟩
abbrev main_v32 : Ref sig .tc := ⟨.hbm, 127, rfl⟩
abbrev main_v33 : Ref sig .tc := ⟨.hbm, 128, rfl⟩
abbrev main_cst_7 : Ref sig .tc := ⟨.hbm, 129, rfl⟩
abbrev main_v34 : Ref sig .tc := ⟨.hbm, 130, rfl⟩
abbrev main_v35 : Ref sig .tc := ⟨.hbm, 131, rfl⟩
abbrev main_v36 : Ref sig .tc := ⟨.hbm, 132, rfl⟩
abbrev main_cst_8 : Ref sig .tc := ⟨.hbm, 133, rfl⟩
abbrev main_call4_v0 : Ref sig .tc := ⟨.hbm, 134, rfl⟩
abbrev main_call4_v1 : Ref sig .tc := ⟨.hbm, 135, rfl⟩
abbrev main_v37 : Ref sig .tc := ⟨.hbm, 136, rfl⟩
abbrev main_c_9 : Ref sig .tc := ⟨.hbm, 137, rfl⟩
abbrev main_v38 : Ref sig .tc := ⟨.hbm, 138, rfl⟩
abbrev main_v39 : Ref sig .tc := ⟨.hbm, 139, rfl⟩
abbrev main_c_10 : Ref sig .tc := ⟨.hbm, 140, rfl⟩
abbrev main_v40 : Ref sig .tc := ⟨.hbm, 141, rfl⟩
abbrev main_v41 : Ref sig .tc := ⟨.hbm, 142, rfl⟩
abbrev main_v42 : Ref sig .tc := ⟨.hbm, 143, rfl⟩
abbrev main_v43 : Ref sig .tc := ⟨.hbm, 144, rfl⟩
abbrev main_v44 : Ref sig .tc := ⟨.hbm, 145, rfl⟩
abbrev main_v45 : Ref sig .tc := ⟨.hbm, 146, rfl⟩
abbrev main_c_11 : Ref sig .tc := ⟨.hbm, 147, rfl⟩
abbrev main_v46 : Ref sig .tc := ⟨.hbm, 148, rfl⟩
abbrev main_v47 : Ref sig .tc := ⟨.hbm, 149, rfl⟩
abbrev main_c_12 : Ref sig .tc := ⟨.hbm, 150, rfl⟩
abbrev main_v48 : Ref sig .tc := ⟨.hbm, 151, rfl⟩
abbrev main_v49 : Ref sig .tc := ⟨.hbm, 152, rfl⟩
abbrev main_v50 : Ref sig .tc := ⟨.hbm, 153, rfl⟩
abbrev main_v51 : Ref sig .tc := ⟨.hbm, 154, rfl⟩
abbrev main_v52 : Ref sig .tc := ⟨.hbm, 155, rfl⟩
abbrev main_v53 : Ref sig .tc := ⟨.hbm, 156, rfl⟩
abbrev main_v54 : Ref sig .tc := ⟨.hbm, 157, rfl⟩
abbrev main_c_13 : Ref sig .tc := ⟨.hbm, 158, rfl⟩
abbrev main_v55 : Ref sig .tc := ⟨.hbm, 159, rfl⟩
abbrev main_v56 : Ref sig .tc := ⟨.hbm, 160, rfl⟩
abbrev main_c_14 : Ref sig .tc := ⟨.hbm, 161, rfl⟩
abbrev main_v57 : Ref sig .tc := ⟨.hbm, 162, rfl⟩
abbrev main_v58 : Ref sig .tc := ⟨.hbm, 163, rfl⟩
abbrev main_v59 : Ref sig .tc := ⟨.hbm, 164, rfl⟩
abbrev main_v60 : Ref sig .tc := ⟨.hbm, 165, rfl⟩
abbrev main_v61 : Ref sig .tc := ⟨.hbm, 166, rfl⟩
abbrev main_v62 : Ref sig .tc := ⟨.hbm, 167, rfl⟩
abbrev main_v63 : Ref sig .tc := ⟨.hbm, 168, rfl⟩
abbrev main_cst_15 : Ref sig .tc := ⟨.hbm, 169, rfl⟩
abbrev main_v64 : Ref sig .tc := ⟨.hbm, 170, rfl⟩
abbrev main_v65 : Ref sig .tc := ⟨.hbm, 171, rfl⟩
abbrev main_v66 : Ref sig .tc := ⟨.hbm, 172, rfl⟩
abbrev main_v67 : Ref sig .tc := ⟨.hbm, 173, rfl⟩
abbrev main_v68_0 : Ref sig .tc := ⟨.hbm, 174, rfl⟩
abbrev main_v68_1 : Ref sig .tc := ⟨.hbm, 175, rfl⟩
abbrev main_v69 : Ref sig .tc := ⟨.hbm, 176, rfl⟩
abbrev main_v70 : Ref sig .tc := ⟨.hbm, 177, rfl⟩
abbrev main_v71 : Ref sig .tc := ⟨.hbm, 178, rfl⟩
abbrev main_cst_16 : Ref sig .tc := ⟨.hbm, 179, rfl⟩
abbrev main_v72 : Ref sig .tc := ⟨.hbm, 180, rfl⟩
abbrev main_v73 : Ref sig .tc := ⟨.hbm, 181, rfl⟩
abbrev main_cst_17 : Ref sig .tc := ⟨.hbm, 182, rfl⟩
abbrev main_v74 : Ref sig .tc := ⟨.hbm, 183, rfl⟩
abbrev main_v75 : Ref sig .tc := ⟨.hbm, 184, rfl⟩
abbrev main_v76 : Ref sig .tc := ⟨.hbm, 185, rfl⟩
abbrev main_cst_18 : Ref sig .tc := ⟨.hbm, 186, rfl⟩
abbrev main_v77 : Ref sig .tc := ⟨.hbm, 187, rfl⟩
abbrev main_v78 : Ref sig .tc := ⟨.hbm, 188, rfl⟩
abbrev main_v79 : Ref sig .tc := ⟨.hbm, 189, rfl⟩
abbrev main_cst_19 : Ref sig .tc := ⟨.hbm, 190, rfl⟩
abbrev main_call5_v0 : Ref sig .tc := ⟨.hbm, 191, rfl⟩
abbrev main_call5_v1 : Ref sig .tc := ⟨.hbm, 192, rfl⟩
abbrev main_v80 : Ref sig .tc := ⟨.hbm, 193, rfl⟩
abbrev main_c_20 : Ref sig .tc := ⟨.hbm, 194, rfl⟩
abbrev main_v81 : Ref sig .tc := ⟨.hbm, 195, rfl⟩
abbrev main_v82 : Ref sig .tc := ⟨.hbm, 196, rfl⟩
abbrev main_c_21 : Ref sig .tc := ⟨.hbm, 197, rfl⟩
abbrev main_v83 : Ref sig .tc := ⟨.hbm, 198, rfl⟩
abbrev main_v84 : Ref sig .tc := ⟨.hbm, 199, rfl⟩
abbrev main_v85 : Ref sig .tc := ⟨.hbm, 200, rfl⟩
abbrev main_v86 : Ref sig .tc := ⟨.hbm, 201, rfl⟩
abbrev main_v87 : Ref sig .tc := ⟨.hbm, 202, rfl⟩
abbrev main_v88 : Ref sig .tc := ⟨.hbm, 203, rfl⟩
abbrev main_c_22 : Ref sig .tc := ⟨.hbm, 204, rfl⟩
abbrev main_v89 : Ref sig .tc := ⟨.hbm, 205, rfl⟩
abbrev main_v90 : Ref sig .tc := ⟨.hbm, 206, rfl⟩
abbrev main_c_23 : Ref sig .tc := ⟨.hbm, 207, rfl⟩
abbrev main_v91 : Ref sig .tc := ⟨.hbm, 208, rfl⟩
abbrev main_v92 : Ref sig .tc := ⟨.hbm, 209, rfl⟩
abbrev main_v93 : Ref sig .tc := ⟨.hbm, 210, rfl⟩
abbrev main_v94 : Ref sig .tc := ⟨.hbm, 211, rfl⟩
abbrev main_v95 : Ref sig .tc := ⟨.hbm, 212, rfl⟩
abbrev main_v96 : Ref sig .tc := ⟨.hbm, 213, rfl⟩
abbrev main_v97 : Ref sig .tc := ⟨.hbm, 214, rfl⟩
abbrev main_c_24 : Ref sig .tc := ⟨.hbm, 215, rfl⟩
abbrev main_v98 : Ref sig .tc := ⟨.hbm, 216, rfl⟩
abbrev main_v99 : Ref sig .tc := ⟨.hbm, 217, rfl⟩
abbrev main_c_25 : Ref sig .tc := ⟨.hbm, 218, rfl⟩
abbrev main_v100 : Ref sig .tc := ⟨.hbm, 219, rfl⟩
abbrev main_v101 : Ref sig .tc := ⟨.hbm, 220, rfl⟩
abbrev main_v102 : Ref sig .tc := ⟨.hbm, 221, rfl⟩
abbrev main_v103 : Ref sig .tc := ⟨.hbm, 222, rfl⟩
abbrev main_v104 : Ref sig .tc := ⟨.hbm, 223, rfl⟩
abbrev main_v105 : Ref sig .tc := ⟨.hbm, 224, rfl⟩
abbrev main_v106 : Ref sig .tc := ⟨.hbm, 225, rfl⟩
abbrev main_cst_26 : Ref sig .tc := ⟨.hbm, 226, rfl⟩
abbrev main_v107 : Ref sig .tc := ⟨.hbm, 227, rfl⟩
abbrev main_v108 : Ref sig .tc := ⟨.hbm, 228, rfl⟩
abbrev main_v109 : Ref sig .tc := ⟨.hbm, 229, rfl⟩
abbrev main_v110 : Ref sig .tc := ⟨.hbm, 230, rfl⟩
abbrev main_v111 : Ref sig .tc := ⟨.hbm, 231, rfl⟩
abbrev main_v112 : Ref sig .tc := ⟨.hbm, 232, rfl⟩
abbrev main_v113 : Ref sig .tc := ⟨.hbm, 233, rfl⟩
abbrev main_v114 : Ref sig .tc := ⟨.hbm, 234, rfl⟩
abbrev main_v115 : Ref sig .tc := ⟨.hbm, 235, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg8_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem3_1 : DmaSem sig := 21
abbrev cc1_sem4_0 : DmaSem sig := 22
abbrev cc1_sem4_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem8_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S64x64 : S_.BroadcastsInDim S64x64 (![] : Fin 0 → Fin S64x64.rank)
  shapeCasts_S512_S1x512 : S512.ShapeCasts S1x512
  shapeCasts_S64_S1x64 : S64.ShapeCasts S1x64
  inb_S2000x512_S2000x512_0_0 : ∀ a, (![0, 0] : Fin 2 → Nat) a + S2000x512.size a ≤ S2000x512.size a
  h_S2000x512 : 0 < S2000x512.numel
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  inb_S2000x64_S2000x64_0_0 : ∀ a, (![0, 0] : Fin 2 → Nat) a + S2000x64.size a ≤ S2000x64.size a
  h_S2000x64 : 0 < S2000x64.numel
  shapeCasts_S64x64_S64x64 : S64x64.ShapeCasts S64x64
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  reducesTo_S800000x64_S800000_d1 : S800000x64.ReducesTo [1] S800000
  reducesTo_S800000_S_d0 : S800000.ReducesTo [0] S_
  bcast_S_S1 : S_.BroadcastsInDim S1 (![] : Fin 0 → Fin S1.rank)
  bcast_S1_S800000_0 : S1.BroadcastsInDim S800000 (![0] : Fin 1 → Fin S800000.rank)
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  slices_S256x128_S128x128_0_0 : S256x128.Slices ![0, 0] S128x128
  slices_S256x128_S128x128_128_0 : S256x128.Slices ![128, 0] S128x128
  shapeCasts_S128x128_S128x128 : S128x128.ShapeCasts S128x128
  inb_S128x64_S128x64_0_0 : ∀ a, (![0, 0] : Fin 2 → Nat) a + S128x64.size a ≤ S128x64.size a
  h_S128x64 : 0 < S128x64.numel
  dot_S2000x512_S512x512_S2000x512_1_0_0_1_n_n_wf : DotDims.WF S2000x512 S512x512 S2000x512 [1] [0] [0] [1] [] []
  dot_S2000x512_S512x64_S2000x64_1_0_0_1_n_n_wf : DotDims.WF S2000x512 S512x64 S2000x64 [1] [0] [0] [1] [] []
  dot_S2000x64_S64x64_S2000x64_1_0_0_1_n_n_wf : DotDims.WF S2000x64 S64x64 S2000x64 [1] [0] [0] [1] [] []
  dot_S2000x512_S512x128_S2000x128_1_0_0_1_n_n_wf : DotDims.WF S2000x512 S512x128 S2000x128 [1] [0] [0] [1] [] []
  gather_S50000x64_S800000x1_S800000x64_1_0_n_n_0_1_164_wf : GatherDims.WF S50000x64 S800000x1 S800000x64 [1] [0] [] [0] [] 1 ![1, 64]
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S512x64.size a
  hwx0_3 : ∀ i : grid0.Coords, EltTy.bits .f32 = 32 ∨ (Rect.block (s := S512x64) S512x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S512x128.size a
  hwx0_7 : ∀ i : grid0.Coords, EltTy.bits .f32 = 32 ∨ (Rect.block (s := S512x128) S512x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x64.size a ≤ S50000x64.size a
  hwx0_9 : ∀ i : grid0.Coords, EltTy.bits .f32 = 32 ∨ (Rect.block (s := S50000x64) S2000x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x64.size a ≤ S50000x64.size a
  hwx0_10 : ∀ i : grid0.Coords, EltTy.bits .f32 = 32 ∨ (Rect.block (s := S50000x64) S2000x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x128.size a ≤ S50000x128.size a
  hwx0_11 : ∀ i : grid0.Coords, EltTy.bits .f32 = 32 ∨ (Rect.block (s := S50000x128) S2000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x64.size a ≤ S128x64.size a
  hwx2_6 : ∀ i : grid2.Coords, EltTy.bits .f32 = 32 ∨ (Rect.block (s := S128x64) S128x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x64.size a ≤ S50000x64.size a
  hwx2_8 : ∀ i : grid2.Coords, EltTy.bits .f32 = 32 ∨ (Rect.block (s := S50000x64) S2000x64.size (cc2_transform_8 i) (hinb2_8 i)).WholeWords (EltTy.packing .f32)

variable [Facts₀]

def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S512x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10_0) S2000x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v10_1) S2000x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v10_2) S2000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v66) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v67) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v68_0) S2000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v68_1) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v68_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v109) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v112) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v110) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v111) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v113) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg17) S128x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v114) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v115) S2000x64.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x512 : Shape := ⟨2, ![512, 512]⟩
abbrev S512 : Shape := ⟨1, ![512]⟩
abbrev S512x64 : Shape := ⟨2, ![512, 64]⟩
abbrev S64 : Shape := ⟨1, ![64]⟩
abbrev S64x64 : Shape := ⟨2, ![64, 64]⟩
abbrev S512x128 : Shape := ⟨2, ![512, 128]⟩
abbrev S128 : Shape := ⟨1, ![128]⟩
abbrev S128x128 : Shape := ⟨2, ![128, 128]⟩
abbrev S256x128 : Shape := ⟨2, ![256, 128]⟩
abbrev S128x64 : Shape := ⟨2, ![128, 64]⟩
abbrev S1x512 : Shape := ⟨2, ![1, 512]⟩
abbrev S_ : Shape := ⟨0, ![]⟩
abbrev S50000x64 : Shape := ⟨2, ![50000, 64]⟩
abbrev S1x64 : Shape := ⟨2, ![1, 64]⟩
abbrev S1x800000 : Shape := ⟨2, ![1, 800000]⟩
abbrev S800000 : Shape := ⟨1, ![800000]⟩
abbrev S800000x1 : Shape := ⟨2, ![800000, 1]⟩
abbrev S800000x64 : Shape := ⟨2, ![800000, 64]⟩
abbrev S1 : Shape := ⟨1, ![1]⟩
abbrev S50000x128 : Shape := ⟨2, ![50000, 128]⟩
abbrev S50000 : Shape := ⟨1, ![50000]⟩
abbrev S850000 : Shape := ⟨1, ![850000]⟩
abbrev S850000x1 : Shape := ⟨2, ![850000, 1]⟩
abbrev S850000x128 : Shape := ⟨2, ![850000, 128]⟩
abbrev S1x128 : Shape := ⟨2, ![1, 128]⟩
abbrev S50000x256 : Shape := ⟨2, ![50000, 256]⟩

abbrev nBuf : Space → Nat
  | .hbm => 246
  | .vmem => 0
  | .smem => 0
  | _ => 0

abbrev hbmTy0_0 (i : Nat) : BufTy := match i % 128 with
  | 0 => ⟨S50000x512, .f32⟩
  | 1 => ⟨S2x800000, .i32⟩
  | 2 => ⟨S512x512, .f32⟩
  | 3 => ⟨S512, .f32⟩
  | 4 => ⟨S512x64, .f32⟩
  | 5 => ⟨S64, .f32⟩
  | 6 => ⟨S64x64, .f32⟩
  | 7 => ⟨S64, .f32⟩
  | 8 => ⟨S64x64, .f32⟩
  | 9 => ⟨S512x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S256x128, .f32⟩
  | 16 => ⟨S128, .f32⟩
  | 17 => ⟨S128x64, .f32⟩
  | 18 => ⟨S64, .f32⟩
  | 19 => ⟨S50000x512, .f32⟩
  | 20 => ⟨S1x512, .f32⟩
  | 21 => ⟨S50000x512, .f32⟩
  | 22 => ⟨S50000x512, .f32⟩
  | 23 => ⟨S_, .f32⟩
  | 24 => ⟨S50000x512, .f32⟩
  | 25 => ⟨S50000x512, .f32⟩
  | 26 => ⟨S50000x64, .f32⟩
  | 27 => ⟨S1x64, .f32⟩
  | 28 => ⟨S50000x64, .f32⟩
  | 29 => ⟨S50000x64, .f32⟩
  | 30 => ⟨S_, .f32⟩
  | 31 => ⟨S50000x64, .f32⟩
  | 32 => ⟨S50000x64, .f32⟩
  | 33 => ⟨S50000x64, .f32⟩
  | 34 => ⟨S1x64, .f32⟩
  | 35 => ⟨S50000x64, .f32⟩
  | 36 => ⟨S50000x64, .f32⟩
  | 37 => ⟨S_, .f32⟩
  | 38 => ⟨S64x64, .f32⟩
  | 39 => ⟨S64x64, .f32⟩
  | 40 => ⟨S_, .f32⟩
  | 41 => ⟨S64x64, .f32⟩
  | 42 => ⟨S64x64, .f32⟩
  | 43 => ⟨S1x800000, .i32⟩
  | 44 => ⟨S800000, .i32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x64, .f32⟩
  | 54 => ⟨S1x800000, .i32⟩
  | 55 => ⟨S800000, .i32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x64, .f32⟩
  | 65 => ⟨S800000x64, .f32⟩
  | 66 => ⟨S800000x64, .f32⟩
  | 67 => ⟨S_, .f32⟩
  | 68 => ⟨S800000, .f32⟩
  | 69 => ⟨S_, .f32⟩
  | 70 => ⟨S_, .f32⟩
  | 71 => ⟨S_, .f32⟩
  | 72 => ⟨S_, .f32⟩
  | 73 => ⟨S_, .i32⟩
  | 74 => ⟨S_, .f32⟩
  | 75 => ⟨S_, .f32⟩
  | 76 => ⟨S1, .f32⟩
  | 77 => ⟨S_, .f32⟩
  | 78 => ⟨S1, .f32⟩
  | 79 => ⟨S1, .f32⟩
  | 80 => ⟨S800000, .f32⟩
  | 81 => ⟨S800000, .f32⟩
  | 82 => ⟨S800000, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .i1⟩
  | 91 => ⟨S_, .f32⟩
  | 92 => ⟨S_, .f32⟩
  | 93 => ⟨S_, .f32⟩
  | 94 => ⟨S800000, .f32⟩
  | 95 => ⟨S800000, .f32⟩
  | 96 => ⟨S_, .f32⟩
  | 97 => ⟨S_, .f32⟩
  | 98 => ⟨S_, .f32⟩
  | 99 => ⟨S800000, .f32⟩
  | 100 => ⟨S800000, .f32⟩
  | 101 => ⟨S_, .f32⟩
  | 102 => ⟨S800000, .f32⟩
  | 103 => ⟨S800000, .f32⟩
  | 104 => ⟨S50000x128, .f32⟩
  | 105 => ⟨S1x800000, .i32⟩
  | 106 => ⟨S800000, .i32⟩
  | 107 => ⟨S1x800000, .i32⟩
  | 108 => ⟨S800000, .i32⟩
  | 109 => ⟨S50000, .i32⟩
  | 110 => ⟨S850000, .i32⟩
  | 111 => ⟨S850000, .i32⟩
  | 112 => ⟨S_, .f32⟩
  | 113 => ⟨S50000, .f32⟩
  | 114 => ⟨S850000, .f32⟩
  | 115 => ⟨S_, .f32⟩
  | 116 => ⟨S50000, .f32⟩
  | 117 => ⟨S850000x1, .i32⟩
  | 118 => ⟨S50000, .f32⟩
  | 119 => ⟨S_, .f32⟩
  | 120 => ⟨S50000, .f32⟩
  | 121 => ⟨S50000, .i1⟩
  | 122 => ⟨S50000, .f32⟩
  | 123 => ⟨S_, .f32⟩
  | 124 => ⟨S_, .f32⟩
  | 125 => ⟨S50000, .f32⟩
  | 126 => ⟨S50000, .f32⟩
  | 127 => ⟨S_, .i32⟩
  | _ => ⟨S50000x512, .f32⟩

abbrev hbmTy0_1 (i : Nat) : BufTy := match i % 128 with
  | 0 => ⟨S850000, .i32⟩
  | 1 => ⟨S850000, .i1⟩
  | 2 => ⟨S_, .i32⟩
  | 3 => ⟨S850000, .i32⟩
  | 4 => ⟨S850000, .i32⟩
  | 5 => ⟨S850000, .i32⟩
  | 6 => ⟨S850000x1, .i32⟩
  | 7 => ⟨S850000, .f32⟩
  | 8 => ⟨S850000, .f32⟩
  | 9 => ⟨S_, .i32⟩
  | 10 => ⟨S850000, .i32⟩
  | 11 => ⟨S850000, .i1⟩
  | 12 => ⟨S_, .i32⟩
  | 13 => ⟨S850000, .i32⟩
  | 14 => ⟨S850000, .i32⟩
  | 15 => ⟨S850000, .i32⟩
  | 16 => ⟨S850000x1, .i32⟩
  | 17 => ⟨S850000, .f32⟩
  | 18 => ⟨S850000, .f32⟩
  | 19 => ⟨S850000x1, .f32⟩
  | 20 => ⟨S_, .i32⟩
  | 21 => ⟨S850000, .i32⟩
  | 22 => ⟨S850000, .i1⟩
  | 23 => ⟨S_, .i32⟩
  | 24 => ⟨S850000, .i32⟩
  | 25 => ⟨S850000, .i32⟩
  | 26 => ⟨S850000, .i32⟩
  | 27 => ⟨S850000x1, .i32⟩
  | 28 => ⟨S850000x128, .f32⟩
  | 29 => ⟨S850000x128, .f32⟩
  | 30 => ⟨S850000x128, .f32⟩
  | 31 => ⟨S_, .f32⟩
  | 32 => ⟨S50000x128, .f32⟩
  | 33 => ⟨S850000x1, .i32⟩
  | 34 => ⟨S50000x128, .f32⟩
  | 35 => ⟨S1x128, .f32⟩
  | 36 => ⟨S50000x128, .f32⟩
  | 37 => ⟨S50000x128, .f32⟩
  | 38 => ⟨S_, .f32⟩
  | 39 => ⟨S50000x128, .f32⟩
  | 40 => ⟨S50000x128, .f32⟩
  | 41 => ⟨S50000x128, .f32⟩
  | 42 => ⟨S1x800000, .i32⟩
  | 43 => ⟨S800000, .i32⟩
  | 44 => ⟨S1x800000, .i32⟩
  | 45 => ⟨S800000, .i32⟩
  | 46 => ⟨S50000, .i32⟩
  | 47 => ⟨S850000, .i32⟩
  | 48 => ⟨S850000, .i32⟩
  | 49 => ⟨S_, .f32⟩
  | 50 => ⟨S50000, .f32⟩
  | 51 => ⟨S850000, .f32⟩
  | 52 => ⟨S_, .f32⟩
  | 53 => ⟨S50000, .f32⟩
  | 54 => ⟨S850000x1, .i32⟩
  | 55 => ⟨S50000, .f32⟩
  | 56 => ⟨S_, .f32⟩
  | 57 => ⟨S50000, .f32⟩
  | 58 => ⟨S50000, .i1⟩
  | 59 => ⟨S50000, .f32⟩
  | 60 => ⟨S_, .f32⟩
  | 61 => ⟨S_, .f32⟩
  | 62 => ⟨S50000, .f32⟩
  | 63 => ⟨S50000, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000, .f32⟩
  | 73 => ⟨S850000, .f32⟩
  | 74 => ⟨S_, .i32⟩
  | 75 => ⟨S850000, .i32⟩
  | 76 => ⟨S850000, .i1⟩
  | 77 => ⟨S_, .i32⟩
  | 78 => ⟨S850000, .i32⟩
  | 79 => ⟨S850000, .i32⟩
  | 80 => ⟨S850000, .i32⟩
  | 81 => ⟨S850000x1, .i32⟩
  | 82 => ⟨S850000, .f32⟩
  | 83 => ⟨S850000, .f32⟩
  | 84 => ⟨S850000x1, .f32⟩
  | 85 => ⟨S_, .i32⟩
  | 86 => ⟨S850000, .i32⟩
  | 87 => ⟨S850000, .i1⟩
  | 88 => ⟨S_, .i32⟩
  | 89 => ⟨S850000, .i32⟩
  | 90 => ⟨S850000, .i32⟩
  | 91 => ⟨S850000, .i32⟩
  | 92 => ⟨S850000x1, .i32⟩
  | 93 => ⟨S850000x128, .f32⟩
  | 94 => ⟨S850000x128, .f32⟩
  | 95 => ⟨S850000x128, .f32⟩
  | 96 => ⟨S_, .f32⟩
  | 97 => ⟨S50000x128, .f32⟩
  | 98 => ⟨S850000x1, .i32⟩
  | 99 => ⟨S50000x128, .f32⟩
  | 100 => ⟨S1x128, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S50000x256, .f32⟩
  | 107 => ⟨S50000x128, .f32⟩
  | 108 => ⟨S1x128, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S50000x64, .f32⟩
  | 115 => ⟨S1x64, .f32⟩
  | 116 => ⟨S50000x64, .f32⟩
  | 117 => ⟨S50000x64, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_call0_cst : Ref sig .tc := ⟨.hbm, 23, rfl⟩
abbrev main_call0_v0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_call1_cst : Ref sig .tc := ⟨.hbm, 30, rfl⟩
abbrev main_call1_v0 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst : Ref sig .tc := ⟨.hbm, 37, rfl⟩
abbrev main_v14 : Ref sig .tc := ⟨.hbm, 38, rfl⟩
abbrev main_v15 : Ref sig .tc := ⟨.hbm, 39, rfl⟩
abbrev main_call2_cst : Ref sig .tc := ⟨.hbm, 40, rfl⟩
abbrev main_call2_v0 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c : Ref sig .tc := ⟨.hbm, 45, rfl⟩
abbrev main_v19 : Ref sig .tc := ⟨.hbm, 46, rfl⟩
abbrev main_v20 : Ref sig .tc := ⟨.hbm, 47, rfl⟩
abbrev main_c_0 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_1 : Ref sig .tc := ⟨.hbm, 56, rfl⟩
abbrev main_v28 : Ref sig .tc := ⟨.hbm, 57, rfl⟩
abbrev main_v29 : Ref sig .tc := ⟨.hbm, 58, rfl⟩
abbrev main_c_2 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_3 : Ref sig .tc := ⟨.hbm, 67, rfl⟩
abbrev main_v37 : Ref sig .tc := ⟨.hbm, 68, rfl⟩
abbrev main_cst_4 : Ref sig .tc := ⟨.hbm, 69, rfl⟩
abbrev main_v38 : Ref sig .tc := ⟨.hbm, 70, rfl⟩
abbrev main_cst_5 : Ref sig .tc := ⟨.hbm, 71, rfl⟩
abbrev main_v39 : Ref sig .tc := ⟨.hbm, 72, rfl⟩
abbrev main_c_6 : Ref sig .tc := ⟨.hbm, 73, rfl⟩
abbrev main_call3_cst : Ref sig .tc := ⟨.hbm, 74, rfl⟩
abbrev main_call3_v0 : Ref sig .tc := ⟨.hbm, 75, rfl⟩
abbrev main_call3_v1 : Ref sig .tc := ⟨.hbm, 76, rfl⟩
abbrev main_call3_cst_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_v6 : Ref sig .tc := ⟨.hbm, 82, rfl⟩
abbrev main_call3_v7 : Ref sig .tc := ⟨.hbm, 83, rfl⟩
abbrev main_call3_cst_1 : Ref sig .tc := ⟨.hbm, 84, rfl⟩
abbrev main_call3_v8 : Ref sig .tc := ⟨.hbm, 85, rfl⟩
abbrev main_call3_cst_2 : Ref sig .tc := ⟨.hbm, 86, rfl⟩
abbrev main_call3_v9 : Ref sig .tc := ⟨.hbm, 87, rfl⟩
abbrev main_call3_v10 : Ref sig .tc := ⟨.hbm, 88, rfl⟩
abbrev main_call3_cst_3 : Ref sig .tc := ⟨.hbm, 89, rfl⟩
abbrev main_call3_v11 : Ref sig .tc := ⟨.hbm, 90, rfl⟩
abbrev main_call3_cst_4 : Ref sig .tc := ⟨.hbm, 91, rfl⟩
abbrev main_call3_call0_v0 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_cst_7 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_cst_8 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_cst_9 : Ref sig .tc := ⟨.hbm, 112, rfl⟩
abbrev main_v57 : Ref sig .tc := ⟨.hbm, 113, rfl⟩
abbrev main_v58 : Ref sig .tc := ⟨.hbm, 114, rfl⟩
abbrev main_cst_10 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_cst_11 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_cst_12 : Ref sig .tc := ⟨.hbm, 123, rfl⟩
abbrev main_call4_v0 : Ref sig .tc := ⟨.hbm, 124, rfl⟩
abbrev main_call4_v1 : Ref sig .tc := ⟨.hbm, 125, rfl⟩
abbrev main_v65 : Ref sig .tc := ⟨.hbm, 126, rfl⟩
abbrev main_c_13 : Ref sig .tc := ⟨.hbm, 127, rfl⟩
abbrev main_v66 : Ref sig .tc := ⟨.hbm, 128, rfl⟩
abbrev main_v67 : Ref sig .tc := ⟨.hbm, 129, rfl⟩
abbrev main_c_14 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_c_15 : Ref sig .tc := ⟨.hbm, 137, rfl⟩
abbrev main_v74 : Ref sig .tc := ⟨.hbm, 138, rfl⟩
abbrev main_v75 : Ref sig .tc := ⟨.hbm, 139, rfl⟩
abbrev main_c_16 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_c_17 : Ref sig .tc := ⟨.hbm, 148, rfl⟩
abbrev main_v83 : Ref sig .tc := ⟨.hbm, 149, rfl⟩
abbrev main_v84 : Ref sig .tc := ⟨.hbm, 150, rfl⟩
abbrev main_c_18 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_cst_19 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_call5_cst : Ref sig .tc := ⟨.hbm, 166, rfl⟩
abbrev main_call5_v0 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_cst_20 : Ref sig .tc := ⟨.hbm, 177, rfl⟩
abbrev main_v107 : Ref sig .tc := ⟨.hbm, 178, rfl⟩
abbrev main_v108 : Ref sig .tc := ⟨.hbm, 179, rfl⟩
abbrev main_cst_21 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_cst_22 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_cst_23 : Ref sig .tc := ⟨.hbm, 188, rfl⟩
abbrev main_call6_v0 : Ref sig .tc := ⟨.hbm, 189, rfl⟩
abbrev main_call6_v1 : Ref sig .tc := ⟨.hbm, 190, rfl⟩
abbrev main_v115 : Ref sig .tc := ⟨.hbm, 191, rfl⟩
abbrev main_c_24 : Ref sig .tc := ⟨.hbm, 192, rfl⟩
abbrev main_v116 : Ref sig .tc := ⟨.hbm, 193, rfl⟩
abbrev main_v117 : Ref sig .tc := ⟨.hbm, 194, rfl⟩
abbrev main_c_25 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_c_26 : Ref sig .tc := ⟨.hbm, 202, rfl⟩
abbrev main_v124 : Ref sig .tc := ⟨.hbm, 203, rfl⟩
abbrev main_v125 : Ref sig .tc := ⟨.hbm, 204, rfl⟩
abbrev main_c_27 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_c_28 : Ref sig .tc := ⟨.hbm, 213, rfl⟩
abbrev main_v133 : Ref sig .tc := ⟨.hbm, 214, rfl⟩
abbrev main_v134 : Ref sig .tc := ⟨.hbm, 215, rfl⟩
abbrev main_c_29 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_cst_30 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_call7_cst : Ref sig .tc := ⟨.hbm, 231, rfl⟩
abbrev main_call7_v0 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev main_call8_cst : Ref sig .tc := ⟨.hbm, 239, rfl⟩
abbrev main_call8_v0 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S64x64 : S_.BroadcastsInDim S64x64 (![] : Fin 0 → Fin S64x64.rank)
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_1_0 : S2x800000.Slices ![1, 0] S1x800000
  reducesTo_S800000x64_S800000_d1 : S800000x64.ReducesTo [1] S800000
  h_S_ : 0 < S_.numel
  reducesTo_S800000_S_d0 : S800000.ReducesTo [0] S_
  bcast_S_S1 : S_.BroadcastsInDim S1 (![] : Fin 0 → Fin S1.rank)
  bcast_S1_S800000_0 : S1.BroadcastsInDim S800000 (![0] : Fin 1 → Fin S800000.rank)
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x256_d1 : Shape.Concatenates [S50000x128, S50000x128] S50000x256 1
  dot_S50000x512_S512x512_S50000x512_1_0_0_1_n_n_wf : DotDims.WF S50000x512 S512x512 S50000x512 [1] [0] [0] [1] [] []
  dot_S50000x512_S512x64_S50000x64_1_0_0_1_n_n_wf : DotDims.WF S50000x512 S512x64 S50000x64 [1] [0] [0] [1] [] []
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  dot_S800000x64_S64x64_S800000x64_1_0_0_1_n_n_wf : DotDims.WF S800000x64 S64x64 S800000x64 [1] [0] [0] [1] [] []
  dot_S50000x512_S512x128_S50000x128_1_0_0_1_n_n_wf : DotDims.WF S50000x512 S512x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S50000x256_S256x128_S50000x128_1_0_0_1_n_n_wf : DotDims.WF S50000x256 S256x128 S50000x128 [1] [0] [0] [1] [] []
  dot_S50000x128_S128x64_S50000x64_1_0_0_1_n_n_wf : DotDims.WF S50000x128 S128x64 S50000x64 [1] [0] [0] [1] [] []

variable [Facts₀]

def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def dot_S50000x512_S512x64_S50000x64_1_0_0_1_n_n : DotDims S50000x512 S512x64 S50000x64 where
  lhsContracting := [1]
  rhsContracting := [0]
  lhsNonContracting := [0]
  rhsNonContracting := [1]
  lhsBatch := []
  rhsBatch := []
  wf := dot_S50000x512_S512x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.RefOps.lean ====
/- The reference program's host operations as literal lists, the module-local functions' bodies written out at their
   calls over each call's buffers: once cut where @main's text is cut into windows (win0 to win3), once cut by what is
   computed (rLogits the three-layer perceptron's output, rParsing the rectified doubled parsing matrix, rScore the
   per-edge bilinear score, rWeight its standardisation into edge weights, rLin0 / rLin1 the two layers' linear
   maps, rIdx0 / rIdx1 the two index rows read again, rAgg0 / rAgg1 the layers' normalised neighbourhood sums, rAct1 / rAct2 bias and rectifier, rHead the
   concatenation and the two closing linear layers). Both cuts list the same 227 operations in the same order.
   With each stage: the buffers it writes, and that any other buffer keeps its contents through it. -/
import proofs.«415847_j84524956385823_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- Window 0 of @main's text: 85 operations. -/
abbrev win0 : List (HloOp τ sig (Elt F)) :=
  [ StableHlo.binary main_arg0 main_arg2 main_v0 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    StableHlo.unary main_arg3 main_v1 (broadcastInDim S1x512 ![1] bcast_S512_S1x512_1 : (⟨S512, .f32⟩ : BufTy).Contents (Elt F) → (⟨S1x512, .f32⟩ : BufTy).Contents (Elt F)),
    StableHlo.unary main_v1 main_v2 (broadcastInDim S50000x512 ![0, 1] bcast_S1x512_S50000x512_0_1 : (⟨S1x512, .f32⟩ : BufTy).Contents (Elt F) → (⟨S50000x512, .f32⟩ : BufTy).Contents (Elt F)),
    StableHlo.binary main_v0 main_v2 main_v3 (addf : (⟨S50000x512, .f32⟩ : BufTy).Contents (Elt F) → (⟨S50000x512, .f32⟩ : BufTy).Contents (Elt F) → (⟨S50000x512, .f32⟩ : BufTy).Contents (Elt F)),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S50000x512, .f32⟩) (broadcastInDim S50000x512 ![] bcast_S_S50000x512),
    StableHlo.TRef.binary (.of main_v3 : StableHlo.TRef sig ⟨S50000x512, .f32⟩) (.of main_call0_v0 : StableHlo.TRef sig ⟨S50000x512, .f32⟩) (.of main_v4 : StableHlo.TRef sig ⟨S50000x512, .f32⟩) maximumf,
    StableHlo.binary main_v4 main_arg4 main_v5 ((fun l r => Host.dotGeneral dot_S50000x512_S512x64_S50000x64_1_0_0_1_n_n none l r) : (⟨S50000x512, .f32⟩ : BufTy).Contents (Elt F) → (⟨S512x64, .f32⟩ : BufTy).Contents (Elt F) → (⟨S50000x64, .f32⟩ : BufTy).Contents (Elt F)),
    StableHlo.unary main_arg5 main_v6 (broadcastInDim S1x64 ![1] bcast_S64_S1x64_1 : (⟨S64, .f32⟩ : BufTy).Contents (Elt F) → (⟨S1x64, .f32⟩ : BufTy).Contents (Elt F)),
    StableHlo.unary main_v6 main_v7 (broadcastInDim S50000x64 ![0, 1] bcast_S1x64_S50000x64_0_1 : (⟨S1x64, .f32⟩ : BufTy).Contents (Elt F) → (⟨S50000x64, .f32⟩ : BufTy).Contents (Elt F)),
    StableHlo.binary main_v5 main_v7 main_v8 (addf : (⟨S50000x64, .f32⟩ : BufTy).Contents (Elt F) → (⟨S50000x64, .f32⟩ : BufTy).Contents (Elt F) → (⟨S50000x64, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x64, .f32⟩) (broadcastInDim S50000x64 ![] bcast_S_S50000x64),
    StableHlo.TRef.binary (.of main_v8 : StableHlo.TRef sig ⟨S50000x64, .f32⟩) (.of main_call1_v0 : StableHlo.TRef sig ⟨S50000x64, .f32⟩) (.of main_v9 : StableHlo.TRef sig ⟨S50000x64, .f32⟩) maximumf,
    StableHlo.binary main_v9 main_arg6 main_v10 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg7 main_v11 (broadcastInDim S1x64 ![1] bcast_S64_S1x64_1 : (⟨S64, .f32⟩ : BufTy).Contents (Elt F) → (⟨S1x64, .f32⟩ : BufTy).Contents (Elt F)),
    StableHlo.unary main_v11 main_v12 (broadcastInDim S50000x64 ![0, 1] bcast_S1x64_S50000x64_0_1 : (⟨S1x64, .f32⟩ : BufTy).Contents (Elt F) → (⟨S50000x64, .f32⟩ : BufTy).Contents (Elt F)),
    StableHlo.binary main_v10 main_v12 main_v13 (addf : (⟨S50000x64, .f32⟩ : BufTy).Contents (Elt F) → (⟨S50000x64, .f32⟩ : BufTy).Contents (Elt F) → (⟨S50000x64, .f32⟩ : BufTy).Contents (Elt F)),
    StableHlo.nullary main_cst (constant S_ .f32 0x40000000#32),
    StableHlo.unary main_cst main_v14 (broadcastInDim S64x64 ![] bcast_S_S64x64 : (⟨S_, .f32⟩ : BufTy).Contents (Elt F) → (⟨S64x64, .f32⟩ : BufTy).Contents (Elt F)),
    StableHlo.binary main_v14 main_arg8 main_v15 (mulf : (⟨S64x64, .f32⟩ : BufTy).Contents (Elt F) → (⟨S64x64, .f32⟩ : BufTy).Contents (Elt F) → (⟨S64x64, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S64x64, .f32⟩) (broadcastInDim S64x64 ![] bcast_S_S64x64),
    StableHlo.TRef.binary (.of main_v15 : StableHlo.TRef sig ⟨S64x64, .f32⟩) (.of main_call2_v0 : StableHlo.TRef sig ⟨S64x64, .f32⟩) (.of main_v16 : StableHlo.TRef sig ⟨S64x64, .f32⟩) maximumf,
    StableHlo.unary main_arg1 main_v17 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v17 main_v18 rfl shapeCasts_S1x800000_S800000,
    StableHlo.nullary main_c (constantI S_ 32 0#32),
    StableHlo.unary main_c main_v19 (broadcastInDim S800000 ![] bcast_S_S800000 : (⟨S_, .i32⟩ : BufTy).Contents (Elt F) → (⟨S800000, .i32⟩ : BufTy).Contents (Elt F)),
    StableHlo.binary main_v18 main_v19 main_v20 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v21 (broadcastInDim S800000 ![] bcast_S_S800000 : (⟨S_, .i32⟩ : BufTy).Contents (Elt F) → (⟨S800000, .i32⟩ : BufTy).Contents (Elt F)),
    StableHlo.binary main_v18 main_v21 main_v22 (addi : (⟨S800000, .i32⟩ : BufTy).Contents (Elt F) → (⟨S800000, .i32⟩ : BufTy).Contents (Elt F) → (⟨S800000, .i32⟩ : BufTy).Contents (Elt F)),
    StableHlo.ternary main_v20 main_v22 main_v18 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v23 main_v24 (broadcastInDim S800000x1 ![0] bcast_S800000_S800000x1_0 : (⟨S800000, .i32⟩ : BufTy).Contents (Elt F) → (⟨S800000x1, .i32⟩ : BufTy).Contents (Elt F)),
    StableHlo.binary main_v13 main_v24 main_v25 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.unary main_arg1 main_v26 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v26 main_v27 rfl shapeCasts_S1x800000_S800000,
    StableHlo.nullary main_c_1 (constantI S_ 32 0#32),
    StableHlo.unary main_c_1 main_v28 (broadcastInDim S800000 ![] bcast_S_S800000 : (⟨S_, .i32⟩ : BufTy).Contents (Elt F) → (⟨S800000, .i32⟩ : BufTy).Contents (Elt F)),
    StableHlo.binary main_v27 main_v28 main_v29 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v30 (broadcastInDim S800000 ![] bcast_S_S800000 : (⟨S_, .i32⟩ : BufTy).Contents (Elt F) → (⟨S800000, .i32⟩ : BufTy).Contents (Elt F)),
    StableHlo.binary main_v27 main_v30 main_v31 (addi : (⟨S800000, .i32⟩ : BufTy).Contents (Elt F) → (⟨S800000, .i32⟩ : BufTy).Contents (Elt F) → (⟨S800000, .i32⟩ : BufTy).Contents (Elt F)),
    StableHlo.ternary main_v29 main_v31 main_v27 main_v32 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v32 main_v33 (broadcastInDim S800000x1 ![0] bcast_S800000_S800000x1_0 : (⟨S800000, .i32⟩ : BufTy).Contents (Elt F) → (⟨S800000x1, .i32⟩ : BufTy).Contents (Elt F)),
    StableHlo.binary main_v13 main_v33 main_v34 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.binary main_v34 main_v16 main_v35 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    StableHlo.binary main_v35 main_v25 main_v36 (mulf : (⟨S800000x64, .f32⟩ : BufTy).Contents (Elt F) → (⟨S800000x64, .f32⟩ : BufTy).Contents (Elt F) → (⟨S800000x64, .f32⟩ : BufTy).Contents (Elt F)),
    StableHlo.nullary main_cst_3 (constant S_ .f32 0x00000000#32),
    StableHlo.binary main_v36 main_cst_3 main_v37 ((fun x v => Host.reduceAdd x v reducesTo_S800000x64_S800000_d1 h_S_) : (⟨S800000x64, .f32⟩ : BufTy).Contents (Elt F) → (⟨S_, .f32⟩ : BufTy).Contents (Elt F) → (⟨S800000, .f32⟩ : BufTy).Contents (Elt F)),
    StableHlo.nullary main_cst_4 (constant S_ .f32 0x00000000#32),
    StableHlo.binary main_v37 main_cst_4 main_v38 ((fun x v => Host.reduceAdd x v reducesTo_S800000_S_d0 h_S_) : (⟨S800000, .f32⟩ : BufTy).Contents (Elt F) → (⟨S_, .f32⟩ : BufTy).Contents (Elt F) → (⟨S_, .f32⟩ : BufTy).Contents (Elt F)),
    StableHlo.nullary main_cst_5 (constant S_ .f32 0x49435000#32),
    StableHlo.binary main_v38 main_cst_5 main_v39 (Host.divf : (⟨S_, .f32⟩ : BufTy).Contents (Elt F) → (⟨S_, .f32⟩ : BufTy).Contents (Elt F) → (⟨S_, .f32⟩ : BufTy).Contents (Elt F)),
    StableHlo.nullary main_c_6 (constantI S_ 32 1#32),
    StableHlo.TRef.nullary (.of main_call3_cst : StableHlo.TRef sig ⟨S_, .f32⟩) (constant S_ .f32 0x00000000#32),
    StableHlo.TRef.binary (.of main_v37 : StableHlo.TRef sig ⟨S800000, .f32⟩) (.of main_call3_cst : StableHlo.TRef sig ⟨S_, .f32⟩) (.of main_call3_v0 : StableHlo.TRef sig ⟨S_, .f32⟩) (fun x v => Host.reduceAdd x v reducesTo_S800000_S_d0 h_S_),
    StableHlo.TRef.unary (.of main_call3_v0 : StableHlo.TRef sig ⟨S_, .f32⟩) (.of main_call3_v1 : StableHlo.TRef sig ⟨S1, .f32⟩) (broadcastInDim S1 ![] bcast_S_S1),
    StableHlo.TRef.nullary (.of main_call3_cst_0 : StableHlo.TRef sig ⟨S_, .f32⟩) (constant S_ .f32 0x49435000#32),
    StableHlo.TRef.unary (.of main_call3_cst_0 : StableHlo.TRef sig ⟨S_, .f32⟩) (.of main_call3_v2 : StableHlo.TRef sig ⟨S1, .f32⟩) (broadcastInDim S1 ![] bcast_S_S1),
    StableHlo.TRef.binary (.of main_call3_v1 : StableHlo.TRef sig ⟨S1, .f32⟩) (.of main_call3_v2 : StableHlo.TRef sig ⟨S1, .f32⟩) (.of main_call3_v3 : StableHlo.TRef sig ⟨S1, .f32⟩) Host.divf,
    StableHlo.TRef.unary (.of main_call3_v3 : StableHlo.TRef sig ⟨S1, .f32⟩) (.of main_call3_v4 : StableHlo.TRef sig ⟨S800000, .f32⟩) (broadcastInDim S800000 ![0] bcast_S1_S800000_0),
    StableHlo.TRef.binary (.of main_v37 : StableHlo.TRef sig ⟨S800000, .f32⟩) (.of main_call3_v4 : StableHlo.TRef sig ⟨S800000, .f32⟩) (.of main_call3_v5 : StableHlo.TRef sig ⟨S800000, .f32⟩) subf,
    StableHlo.TRef.binary (.of main_call3_v5 : StableHlo.TRef sig ⟨S800000, .f32⟩) (.of main_call3_v5 : StableHlo.TRef sig ⟨S800000, .f32⟩) (.of main_call3_v6 : StableHlo.TRef sig ⟨S800000, .f32⟩) mulf,
    StableHlo.TRef.unary (.of main_c_6 : StableHlo.TRef sig ⟨S_, .i32⟩) (.of main_call3_v7 : StableHlo.TRef sig ⟨S_, .f32⟩) (sitofp .f32),
    StableHlo.TRef.nullary (.of main_call3_cst_1 : StableHlo.TRef sig ⟨S_, .f32⟩) (constant S_ .f32 0x49435000#32),
    StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
    StableHlo.TRef.nullary (.of main_call3_cst_2 : StableHlo.TRef sig ⟨S_, .f32⟩) (constant S_ .f32 0x00000000#32),
    StableHlo.TRef.binary (.of main_call3_v6 : StableHlo.TRef sig ⟨S800000, .f32⟩) (.of main_call3_cst_2 : StableHlo.TRef sig ⟨S_, .f32⟩) (.of main_call3_v9 : StableHlo.TRef sig ⟨S_, .f32⟩) (fun x v => Host.reduceAdd x v reducesTo_S800000_S_d0 h_S_),
    StableHlo.TRef.binary (.of main_call3_v9 : StableHlo.TRef sig ⟨S_, .f32⟩) (.of main_call3_v8 : StableHlo.TRef sig ⟨S_, .f32⟩) (.of main_call3_v10 : StableHlo.TRef sig ⟨S_, .f32⟩) Host.divf,
    StableHlo.TRef.nullary (.of main_call3_cst_3 : StableHlo.TRef sig ⟨S_, .f32⟩) (constant S_ .f32 0x00000000#32),
    StableHlo.TRef.binary (.of main_call3_v8 : StableHlo.TRef sig ⟨S_, .f32⟩) (.of main_call3_cst_3 : StableHlo.TRef sig ⟨S_, .f32⟩) (.of main_call3_v11 : StableHlo.TRef sig ⟨S_, .i1⟩) (cmpf .ogt),
    StableHlo.TRef.nullary (.of main_call3_cst_4 : StableHlo.TRef sig ⟨S_, .f32⟩) (constant S_ .f32 0x7FC00000#32),
    StableHlo.TRef.unary (.of main_call3_cst_4 : StableHlo.TRef sig ⟨S_, .f32⟩) (.of main_call3_call0_v0 : StableHlo.TRef sig ⟨S_, .f32⟩) id,
    StableHlo.TRef.ternary (.of main_call3_v11 : StableHlo.TRef sig ⟨S_, .i1⟩) (.of main_call3_v10 : StableHlo.TRef sig ⟨S_, .f32⟩) (.of main_call3_call0_v0 : StableHlo.TRef sig ⟨S_, .f32⟩) (.of main_v40 : StableHlo.TRef sig ⟨S_, .f32⟩) select,
    StableHlo.unary main_v39 main_v41 (broadcastInDim S800000 ![] bcast_S_S800000 : (⟨S_, .f32⟩ : BufTy).Contents (Elt F) → (⟨S800000, .f32⟩ : BufTy).Contents (Elt F)),
    StableHlo.binary main_v37 main_v41 main_v42 (subf : (⟨S800000, .f32⟩ : BufTy).Contents (Elt F) → (⟨S800000, .f32⟩ : BufTy).Contents (Elt F) → (⟨S800000, .f32⟩ : BufTy).Contents (Elt F)),
    StableHlo.nullary main_cst_7 (constant S_ .f32 0x38D1B717#32),
    StableHlo.binary main_cst_7 main_v40 main_v43 (Host.divf : (⟨S_, .f32⟩ : BufTy).Contents (Elt F) → (⟨S_, .f32⟩ : BufTy).Contents (Elt F) → (⟨S_, .f32⟩ : BufTy).Contents (Elt F)),
    StableHlo.unary main_v43 main_v44 (Host.sqrt : (⟨S_, .f32⟩ : BufTy).Contents (Elt F) → (⟨S_, .f32⟩ : BufTy).Contents (Elt F)),
    StableHlo.unary main_v44 main_v45 (broadcastInDim S800000 ![] bcast_S_S800000 : (⟨S_, .f32⟩ : BufTy).Contents (Elt F) → (⟨S800000, .f32⟩ : BufTy).Contents (Elt F)),
    StableHlo.binary main_v42 main_v45 main_v46 (mulf : (⟨S800000, .f32⟩ : BufTy).Contents (Elt F) → (⟨S800000, .f32⟩ : BufTy).Contents (Elt F) → (⟨S800000, .f32⟩ : BufTy).Contents (Elt F)),
    StableHlo.nullary main_cst_8 (constant S_ .f32 0x3F800000#32),
    StableHlo.unary main_cst_8 main_v47 (broadcastInDim S800000 ![] bcast_S_S800000 : (⟨S_, .f32⟩ : BufTy).Contents (Elt F) → (⟨S800000, .f32⟩ : BufTy).Contents (Elt F)),
    StableHlo.binary main_v46 main_v47 main_v48 (addf : (⟨S800000, .f32⟩ : BufTy).Contents (Elt F) → (⟨S800000, .f32⟩ : BufTy).Contents (Elt F) → (⟨S800000, .f32⟩ : BufTy).Contents (Elt F)) ]
theorem win0_sub : (win0 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub .., StableHlo.unary_bufs_sub .., StableHlo.ternary_bufs_sub .., StableHlo.unary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- Window 1 of @main's text: 62 operations. -/
abbrev win1 : List (HloOp τ sig (Elt F)) :=
  [ StableHlo.binary main_arg0 main_arg9 main_v49 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)),
    StableHlo.unary main_arg1 main_v50 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v50 main_v51 rfl shapeCasts_S1x800000_S800000,
    StableHlo.unary main_arg1 main_v52 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v52 main_v53 rfl shapeCasts_S1x800000_S800000,
    StableHlo.nullary main_v54 (iotaInDim S50000 32 0),
    StableHlo.binary main_v51 main_v54 main_v55 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v53 main_v54 main_v56 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_9 (constant S_ .f32 0x3F800000#32),
    StableHlo.unary main_cst_9 main_v57 (broadcastInDim S50000 ![] bcast_S_S50000 : (⟨S_, .f32⟩ : BufTy).Contents (Elt F) → (⟨S50000, .f32⟩ : BufTy).Contents (Elt F)),
    StableHlo.binary main_v48 main_v57 main_v58 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    StableHlo.nullary main_cst_10 (constant S_ .f32 0x00000000#32),
    StableHlo.unary main_cst_10 main_v59 (broadcastInDim S50000 ![] bcast_S_S50000 : (⟨S_, .f32⟩ : BufTy).Contents (Elt F) → (⟨S50000, .f32⟩ : BufTy).Contents (Elt F)),
    StableHlo.unary main_v56 main_v60 (broadcastInDim S850000x1 ![0] bcast_S850000_S850000x1_0 : (⟨S850000, .i32⟩ : BufTy).Contents (Elt F) → (⟨S850000x1, .i32⟩ : BufTy).Contents (Elt F)),
    StableHlo.ternary main_v59 main_v60 main_v58 main_v61 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_11 (constant S_ .f32 0x00000000#32),
    StableHlo.unary main_cst_11 main_v62 (broadcastInDim S50000 ![] bcast_S_S50000 : (⟨S_, .f32⟩ : BufTy).Contents (Elt F) → (⟨S50000, .f32⟩ : BufTy).Contents (Elt F)),
    StableHlo.binary main_v61 main_v62 main_v63 (cmpf .ogt : (⟨S50000, .f32⟩ : BufTy).Contents (Elt F) → (⟨S50000, .f32⟩ : BufTy).Contents (Elt F) → (⟨S50000, .i1⟩ : BufTy).Contents (Elt F)),
    StableHlo.unary main_v61 main_v64 (Host.rsqrt : (⟨S50000, .f32⟩ : BufTy).Contents (Elt F) → (⟨S50000, .f32⟩ : BufTy).Contents (Elt F)),
    StableHlo.nullary main_cst_12 (constant S_ .f32 0x00000000#32),
    StableHlo.TRef.unary (.of main_cst_12 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S50000, .f32⟩) (broadcastInDim S50000 ![] bcast_S_S50000),
    StableHlo.TRef.ternary (.of main_v63 : StableHlo.TRef sig ⟨S50000, .i1⟩) (.of main_v64 : StableHlo.TRef sig ⟨S50000, .f32⟩) (.of main_call4_v1 : StableHlo.TRef sig ⟨S50000, .f32⟩) (.of main_v65 : StableHlo.TRef sig ⟨S50000, .f32⟩) select,
    StableHlo.nullary main_c_13 (constantI S_ 32 0#32),
    StableHlo.unary main_c_13 main_v66 (broadcastInDim S850000 ![] bcast_S_S850000 : (⟨S_, .i32⟩ : BufTy).Contents (Elt F) → (⟨S850000, .i32⟩ : BufTy).Contents (Elt F)),
    StableHlo.binary main_v55 main_v66 main_v67 (cmpi .slt : (⟨S850000, .i32⟩ : BufTy).Contents (Elt F) → (⟨S850000, .i32⟩ : BufTy).Contents (Elt F) → (⟨S850000, .i1⟩ : BufTy).Contents (Elt F)),
    StableHlo.nullary main_c_14 (constantI S_ 32 50000#32),
    StableHlo.unary main_c_14 main_v68 (broadcastInDim S850000 ![] bcast_S_S850000 : (⟨S_, .i32⟩ : BufTy).Contents (Elt F) → (⟨S850000, .i32⟩ : BufTy).Contents (Elt F)),
    StableHlo.binary main_v55 main_v68 main_v69 (addi : (⟨S850000, .i32⟩ : BufTy).Contents (Elt F) → (⟨S850000, .i32⟩ : BufTy).Contents (Elt F) → (⟨S850000, .i32⟩ : BufTy).Contents (Elt F)),
    StableHlo.ternary main_v67 main_v69 main_v55 main_v70 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v70 main_v71 (broadcastInDim S850000x1 ![0] bcast_S850000_S850000x1_0 : (⟨S850000, .i32⟩ : BufTy).Contents (Elt F) → (⟨S850000x1, .i32⟩ : BufTy).Contents (Elt F)),
    StableHlo.binary main_v65 main_v71 main_v72 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v72 main_v58 main_v73 (mulf : (⟨S850000, .f32⟩ : BufTy).Contents (Elt F) → (⟨S850000, .f32⟩ : BufTy).Contents (Elt F) → (⟨S850000, .f32⟩ : BufTy).Contents (Elt F)),
    StableHlo.nullary main_c_15 (constantI S_ 32 0#32),
    StableHlo.unary main_c_15 main_v74 (broadcastInDim S850000 ![] bcast_S_S850000 : (⟨S_, .i32⟩ : BufTy).Contents (Elt F) → (⟨S850000, .i32⟩ : BufTy).Contents (Elt F)),
    StableHlo.binary main_v56 main_v74 main_v75 (cmpi .slt : (⟨S850000, .i32⟩ : BufTy).Contents (Elt F) → (⟨S850000, .i32⟩ : BufTy).Contents (Elt F) → (⟨S850000, .i1⟩ : BufTy).Contents (Elt F)),
    StableHlo.nullary main_c_16 (constantI S_ 32 50000#32),
    StableHlo.unary main_c_16 main_v76 (broadcastInDim S850000 ![] bcast_S_S850000 : (⟨S_, .i32⟩ : BufTy).Contents (Elt F) → (⟨S850000, .i32⟩ : BufTy).Contents (Elt F)),
    StableHlo.binary main_v56 main_v76 main_v77 (addi : (⟨S850000, .i32⟩ : BufTy).Contents (Elt F) → (⟨S850000, .i32⟩ : BufTy).Contents (Elt F) → (⟨S850000, .i32⟩ : BufTy).Contents (Elt F)),
    StableHlo.ternary main_v75 main_v77 main_v56 main_v78 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v78 main_v79 (broadcastInDim S850000x1 ![0] bcast_S850000_S850000x1_0 : (⟨S850000, .i32⟩ : BufTy).Contents (Elt F) → (⟨S850000x1, .i32⟩ : BufTy).Contents (Elt F)),
    StableHlo.binary main_v65 main_v79 main_v80 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v73 main_v80 main_v81 (mulf : (⟨S850000, .f32⟩ : BufTy).Contents (Elt F) → (⟨S850000, .f32⟩ : BufTy).Contents (Elt F) → (⟨S850000, .f32⟩ : BufTy).Contents (Elt F)),
    StableHlo.unary main_v81 main_v82 (broadcastInDim S850000x1 ![0] bcast_S850000_S850000x1_0 : (⟨S850000, .f32⟩ : BufTy).Contents (Elt F) → (⟨S850000x1, .f32⟩ : BufTy).Contents (Elt F)),
    StableHlo.nullary main_c_17 (constantI S_ 32 0#32),
    StableHlo.unary main_c_17 main_v83 (broadcastInDim S850000 ![] bcast_S_S850000 : (⟨S_, .i32⟩ : BufTy).Contents (Elt F) → (⟨S850000, .i32⟩ : BufTy).Contents (Elt F)),
    StableHlo.binary main_v55 main_v83 main_v84 (cmpi .slt : (⟨S850000, .i32⟩ : BufTy).Contents (Elt F) → (⟨S850000, .i32⟩ : BufTy).Contents (Elt F) → (⟨S850000, .i1⟩ : BufTy).Contents (Elt F)),
    StableHlo.nullary main_c_18 (constantI S_ 32 50000#32),
    StableHlo.unary main_c_18 main_v85 (broadcastInDim S850000 ![] bcast_S_S850000 : (⟨S_, .i32⟩ : BufTy).Contents (Elt F) → (⟨S850000, .i32⟩ : BufTy).Contents (Elt F)),
    StableHlo.binary main_v55 main_v85 main_v86 (addi : (⟨S850000, .i32⟩ : BufTy).Contents (Elt F) → (⟨S850000, .i32⟩ : BufTy).Contents (Elt F) → (⟨S850000, .i32⟩ : BufTy).Contents (Elt F)),
    StableHlo.ternary main_v84 main_v86 main_v55 main_v87 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v87 main_v88 (broadcastInDim S850000x1 ![0] bcast_S850000_S850000x1_0 : (⟨S850000, .i32⟩ : BufTy).Contents (Elt F) → (⟨S850000x1, .i32⟩ : BufTy).Contents (Elt F)),
    StableHlo.binary main_v49 main_v88 main_v89 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v82 main_v90 (broadcastInDim S850000x128 ![0, 1] bcast_S850000x1_S850000x128_0_1 : (⟨S850000x1, .f32⟩ : BufTy).Contents (Elt F) → (⟨S850000x128, .f32⟩ : BufTy).Contents (Elt F)),
    StableHlo.binary main_v90 main_v89 main_v91 (mulf : (⟨S850000x128, .f32⟩ : BufTy).Contents (Elt F) → (⟨S850000x128, .f32⟩ : BufTy).Contents (Elt F) → (⟨S850000x128, .f32⟩ : BufTy).Contents (Elt F)),
    StableHlo.nullary main_cst_19 (constant S_ .f32 0x00000000#32),
    StableHlo.unary main_cst_19 main_v92 (broadcastInDim S50000x128 ![] bcast_S_S50000x128 : (⟨S_, .f32⟩ : BufTy).Contents (Elt F) → (⟨S50000x128, .f32⟩ : BufTy).Contents (Elt F)),
    StableHlo.unary main_v56 main_v93 (broadcastInDim S850000x1 ![0] bcast_S850000_S850000x1_0 : (⟨S850000, .i32⟩ : BufTy).Contents (Elt F) → (⟨S850000x1, .i32⟩ : BufTy).Contents (Elt F)),
    StableHlo.ternary main_v92 main_v93 main_v91 main_v94 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg10 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S50000x128 ![0, 1] bcast_S1x128_S50000x128_0_1 : (⟨S1x128, .f32⟩ : BufTy).Contents (Elt F) → (⟨S50000x128, .f32⟩ : BufTy).Contents (Elt F)),
    StableHlo.binary main_v94 main_v96 main_v97 (addf : (⟨S50000x128, .f32⟩ : BufTy).Contents (Elt F) → (⟨S50000x128, .f32⟩ : BufTy).Contents (Elt F) → (⟨S50000x128, .f32⟩ : BufTy).Contents (Elt F)) ]
theorem win1_sub : (win1 : List (HloOp τ sig (Elt F))).Forall fun op => op.bufs ⊆ StableHlo.tcRefs τ sig :=
  ⟨StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩

/-- Window 2 of @main's text: 64 operations. -/
abbrev win2 : List (HloOp τ sig (Elt F)) :=
  [ StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S50000x128, .f32⟩) (broadcastInDim S50000x128 ![] bcast_S_S50000x128),
    StableHlo.TRef.binary (.of main_v97 : StableHlo.TRef sig ⟨S50000x128, .f32⟩) (.of main_call5_v0 : StableHlo.TRef sig ⟨S50000x128, .f32⟩) (.of main_v98 : StableHlo.TRef sig ⟨S50000x128, .f32⟩) maximumf,
    StableHlo.binary main_v98 main_arg11 main_v99 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg1 main_v100 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v100 main_v101 rfl shapeCasts_S1x800000_S800000,
    StableHlo.unary main_arg1 main_v102 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v102 main_v103 rfl shapeCasts_S1x800000_S800000,
    StableHlo.nullary main_v104 (iotaInDim S50000 32 0),
    StableHlo.binary main_v101 main_v104 main_v105 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v103 main_v104 main_v106 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_20 (constant S_ .f32 0x3F800000#32),
    StableHlo.unary main_cst_20 main_v107 (broadcastInDim S50000 ![] bcast_S_S50000 : (⟨S_, .f32⟩ : BufTy).Contents (Elt F) → (⟨S50000, .f32⟩ : BufTy).Contents (Elt F)),
    StableHlo.binary main_v48 main_v107 main_v108 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    StableHlo.nullary main_cst_21 (constant S_ .f32 0x00000000#32),
    StableHlo.unary main_cst_21 main_v109 (broadcastInDim S50000 ![] bcast_S_S50000 : (⟨S_, .f32⟩ : BufTy).Contents (Elt F) → (⟨S50000, .f32⟩ : BufTy).Contents (Elt F)),
    StableHlo.unary main_v106 main_v110 (broadcastInDim S850000x1 ![0] bcast_S850000_S850000x1_0 : (⟨S850000, .i32⟩ : BufTy).Contents (Elt F) → (⟨S850000x1, .i32⟩ : BufTy).Contents (Elt F)),
    StableHlo.ternary main_v109 main_v110 main_v108 main_v111 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_22 (constant S_ .f32 0x00000000#32),
    StableHlo.unary main_cst_22 main_v112 (broadcastInDim S50000 ![] bcast_S_S50000 : (⟨S_, .f32⟩ : BufTy).Contents (Elt F) → (⟨S50000, .f32⟩ : BufTy).Contents (Elt F)),
    StableHlo.binary main_v111 main_v112 main_v113 (cmpf .ogt : (⟨S50000, .f32⟩ : BufTy).Contents (Elt F) → (⟨S50000, .f32⟩ : BufTy).Contents (Elt F) → (⟨S50000, .i1⟩ : BufTy).Contents (Elt F)),
    StableHlo.unary main_v111 main_v114 (Host.rsqrt : (⟨S50000, .f32⟩ : BufTy).Contents (Elt F) → (⟨S50000, .f32⟩ : BufTy).Contents (Elt F)),
    StableHlo.nullary main_cst_23 (constant S_ .f32 0x00000000#32),
    StableHlo.TRef.unary (.of main_cst_23 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S50000, .f32⟩) (broadcastInDim S50000 ![] bcast_S_S50000),
    StableHlo.TRef.ternary (.of main_v113 : StableHlo.TRef sig ⟨S50000, .i1⟩) (.of main_v114 : StableHlo.TRef sig ⟨S50000, .f32⟩) (.of main_call6_v1 : StableHlo.TRef sig ⟨S50000, .f32⟩) (.of main_v115 : StableHlo.TRef sig ⟨S50000, .f32⟩) select,
    StableHlo.nullary main_c_24 (constantI S_ 32 0#32),
    StableHlo.unary main_c_24 main_v116 (broadcastInDim S850000 ![] bcast_S_S850000 : (⟨S_, .i32⟩ : BufTy).Contents (Elt F) → (⟨S850000, .i32⟩ : BufTy).Contents (Elt F)),
    StableHlo.binary main_v105 main_v116 main_v117 (cmpi .slt : (⟨S850000, .i32⟩ : BufTy).Contents (Elt F) → (⟨S850000, .i32⟩ : BufTy).Contents (Elt F) → (⟨S850000, .i1⟩ : BufTy).Contents (Elt F)),
    StableHlo.nullary main_c_25 (constantI S_ 32 50000#32),
    StableHlo.unary main_c_25 main_v118 (broadcastInDim S850000 ![] bcast_S_S850000 : (⟨S_, .i32⟩ : BufTy).Contents (Elt F) → (⟨S850000, .i32⟩ : BufTy).Contents (Elt F)),
    StableHlo.binary main_v105 main_v118 main_v119 (addi : (⟨S850000, .i32⟩ : BufTy).Contents (Elt F) → (⟨S850000, .i32⟩ : BufTy).Contents (Elt F) → (⟨S850000, .i32⟩ : BufTy).Contents (Elt F)),
    StableHlo.ternary main_v117 main_v119 main_v105 main_v120 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v120 main_v121 (broadcastInDim S850000x1 ![0] bcast_S850000_S850000x1_0 : (⟨S850000, .i32⟩ : BufTy).Contents (Elt F) → (⟨S850000x1, .i32⟩ : BufTy).Contents (Elt F)),
    StableHlo.binary main_v115 main_v121 main_v122 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v122 main_v108 main_v123 (mulf : (⟨S850000, .f32⟩ : BufTy).Contents (Elt F) → (⟨S850000, .f32⟩ : BufTy).Contents (Elt F) → (⟨S850000, .f32⟩ : BufTy).Contents (Elt F)),
    StableHlo.nullary main_c_26 (constantI S_ 32 0#32),
    StableHlo.unary main_c_26 main_v124 (broadcastInDim S850000 ![] bcast_S_S850000 : (⟨S_, .i32⟩ : BufTy).Contents (Elt F) → (⟨S850000, .i32⟩ : BufTy).Contents (Elt F)),
    StableHlo.binary main_v106 main_v124 main_v125 (cmpi .slt : (⟨S850000, .i32⟩ : BufTy).Contents (Elt F) → (⟨S850000, .i32⟩ : BufTy).Contents (Elt F) → (⟨S850000, .i1⟩ : BufTy).Contents (Elt F)),
    StableHlo.nullary main_c_27 (constantI S_ 32 50000#32),
    StableHlo.unary main_c_27 main_v126 (broadcastInDim S850000 ![] bcast_S_S850000 : (⟨S_, .i32⟩ : BufTy).Contents (Elt F) → (⟨S850000, .i32⟩ : BufTy).Contents (Elt F)),
    StableHlo.binary main_v106 main_v126 main_v127 (addi : (⟨S850000, .i32⟩ : BufTy).Contents (Elt F) → (⟨S850000, .i32⟩ : BufTy).Contents (Elt F) → (⟨S850000, .i32⟩ : BufTy).Contents (Elt F)),
    StableHlo.ternary main_v125 main_v127 main_v106 main_v128 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v128 main_v129 (broadcastInDim S850000x1 ![0] bcast_S850000_S850000x1_0 : (⟨S850000, .i32⟩ : BufTy).Contents (Elt F) → (⟨S850000x1, .i32⟩ : BufTy).Contents (Elt F)),
    StableHlo.binary main_v115 main_v129 main_v130 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v123 main_v130 main_v131 (mulf : (⟨S850000, .f32⟩ : BufTy).Contents (Elt F) → (⟨S850000, .f32⟩ : BufTy).Contents (Elt F) → (⟨S850000, .f32⟩ : BufTy).Contents (Elt F)),
    StableHlo.unary main_v131 main_v132 (broadcastInDim S850000x1 ![0] bcast_S850000_S850000x1_0 : (⟨S850000, .f32⟩ : BufTy).Contents (Elt F) → (⟨S850000x1, .f32⟩ : BufTy).Contents (Elt F)),
    StableHlo.nullary main_c_28 (constantI S_ 32 0#32),
    StableHlo.unary main_c_28 main_v133 (broadcastInDim S850000 ![] bcast_S_S850000 : (⟨S_, .i32⟩ : BufTy).Contents (Elt F) → (⟨S850000, .i32⟩ : BufTy).Contents (Elt F)),
    StableHlo.binary main_v105 main_v133 main_v134 (cmpi .slt : (⟨S850000, .i32⟩ : BufTy).Contents (Elt F) → (⟨S850000, .i32⟩ : BufTy).Contents (Elt F) → (⟨S850000, .i1⟩ : BufTy).Contents (Elt F)),
    StableHlo.nullary main_c_29 (constantI S_ 32 50000#32),
    StableHlo.unary main_c_29 main_v135 (broadcastInDim S850000 ![] bcast_S_S850000 : (⟨S_, .i32⟩ : BufTy).Contents (Elt F) → (⟨S850000, .i32⟩ : BufTy).Contents (Elt F)),
    StableHlo.binary main_v105 main_v135 main_v136 (addi : (⟨S850000, .i32⟩ : BufTy).Contents (Elt F) → (⟨S850000, .i32⟩ : BufTy).Contents (Elt F) → (⟨S850000, .i32⟩ : BufTy).Contents (Elt F)),
    StableHlo.ternary main_v134 main_v136 main_v105 main_v137 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v137 main_v138 (broadcastInDim S850000x1 ![0] bcast_S850000_S850000x1_0 : (⟨S850000, .i32⟩ : BufTy).Contents (Elt F) → (⟨S850000x1, .i32⟩ : BufTy).Contents (Elt F)),
    StableHlo.binary main_v99 main_v138 main_v139 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v132 main_v140 (broadcastInDim S850000x128 ![0, 1] bcast_S850000x1_S850000x128_0_1 : (⟨S850000x1, .f32⟩ : BufTy).Contents (Elt F) → (⟨S850000x128, .f32⟩ : BufTy).Contents (Elt F)),
    StableHlo.binary main_v140 main_v139 main_v141 (mulf : (⟨S850000x128, .f32⟩ : BufTy).Contents (Elt F) → (⟨S850000x128, .f32⟩ : BufTy).Contents (Elt F) → (⟨S850000x128, .f32⟩ : BufTy).Contents (Elt F)),
    StableHlo.nullary main_cst_30 (constant S_ .f32 0x00000000#32),
    StableHlo.unary main_cst_30 main_v142 (broadcastInDim S50000x128 ![] bcast_S_S50000x128 : (⟨S_, .f32⟩ : BufTy).Contents (Elt F) → (⟨S50000x128, .f32⟩ : BufTy).Contents (Elt F)),
    StableHlo.unary main_v106 main_v143 (broadcastInDim S850000x1 ![0] bcast_S850000_S850000x1_0 : (⟨S850000, .i32⟩ : BufTy).Contents (Elt F) → (⟨S850000x1, .i32⟩ : BufTy).Contents (Elt F)),
    StableHlo.ternary main_v142 main_v143 main_v141 main_v144 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg12 main_v145 (broadcastInDim S1x128 ![1] bcast_S128_S1x128_1 : (⟨S128, .f32⟩ : BufTy).Contents (Elt F) → (⟨S1x128, .f32⟩ : BufTy).Contents (Elt F)),
    StableHlo.unary main_v145 main_v146 (broadcastInDim S50000x128 ![0, 1] bcast_S1x128_S50000x128_0_1 : (⟨S1x128, .f32⟩ : BufTy).Contents (Elt F) → (⟨S50000x128, .f32⟩ : BufTy).Contents (Elt F)) ]
theorem win2_sub : (win2 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub ..⟩

/-- Window 3 of @main's text: 16 operations. -/
abbrev win3 : List (HloOp τ sig (Elt F)) :=
  [ StableHlo.binary main_v144 main_v146 main_v147 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S50000x128, .f32⟩) (broadcastInDim S50000x128 ![] bcast_S_S50000x128),
    StableHlo.TRef.binary (.of main_v147 : StableHlo.TRef sig ⟨S50000x128, .f32⟩) (.of main_call7_v0 : StableHlo.TRef sig ⟨S50000x128, .f32⟩) (.of main_v148 : StableHlo.TRef sig ⟨S50000x128, .f32⟩) maximumf,
    StableHlo.binary main_v98 main_v148 main_v149 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    StableHlo.binary main_v149 main_arg15 main_v150 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg16 main_v151 (broadcastInDim S1x128 ![1] bcast_S128_S1x128_1 : (⟨S128, .f32⟩ : BufTy).Contents (Elt F) → (⟨S1x128, .f32⟩ : BufTy).Contents (Elt F)),
    StableHlo.unary main_v151 main_v152 (broadcastInDim S50000x128 ![0, 1] bcast_S1x128_S50000x128_0_1 : (⟨S1x128, .f32⟩ : BufTy).Contents (Elt F) → (⟨S50000x128, .f32⟩ : BufTy).Contents (Elt F)),
    StableHlo.binary main_v150 main_v152 main_v153 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call8_cst : StableHlo.TRef sig ⟨S_, .f32⟩) (constant S_ .f32 0x00000000#32),
    StableHlo.TRef.unary (.of main_call8_cst : StableHlo.TRef sig ⟨S_, .f32⟩) (.of main_call8_v0 : StableHlo.TRef sig ⟨S50000x128, .f32⟩) (broadcastInDim S50000x128 ![] bcast_S_S50000x128),
    StableHlo.TRef.binary (.of main_v153 : StableHlo.TRef sig ⟨S50000x128, .f32⟩) (.of main_call8_v0 : StableHlo.TRef sig ⟨S50000x128, .f32⟩) (.of main_v154 : StableHlo.TRef sig ⟨S50000x128, .f32⟩) maximumf,
    StableHlo.binary main_v154 main_arg17 main_v155 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg18 main_v156 (broadcastInDim S1x64 ![1] bcast_S64_S1x64_1 : (⟨S64, .f32⟩ : BufTy).Contents (Elt F) → (⟨S1x64, .f32⟩ : BufTy).Contents (Elt F)),
    StableHlo.unary main_v156 main_v157 (broadcastInDim S50000x64 ![0, 1] bcast_S1x64_S50000x64_0_1 : (⟨S1x64, .f32⟩ : BufTy).Contents (Elt F) → (⟨S50000x64, .f32⟩ : BufTy).Contents (Elt F)),
    StableHlo.binary main_v155 main_v157 main_v158 (addf : (⟨S50000x64, .f32⟩ : BufTy).Contents (Elt F) → (⟨S50000x64, .f32⟩ : BufTy).Contents (Elt F) → (⟨S50000x64, .f32⟩ : BufTy).Contents (Elt F)) ]
theorem win3_sub : (win3 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub ..⟩

/-- 18 operations, ending with %13. -/
abbrev rLogits : List (HloOp τ sig (Elt F)) :=
  [ StableHlo.binary main_arg0 main_arg2 main_v0 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    StableHlo.unary main_arg3 main_v1 (broadcastInDim S1x512 ![1] bcast_S512_S1x512_1 : (⟨S512, .f32⟩ : BufTy).Contents (Elt F) → (⟨S1x512, .f32⟩ : BufTy).Contents (Elt F)),
    StableHlo.unary main_v1 main_v2 (broadcastInDim S50000x512 ![0, 1] bcast_S1x512_S50000x512_0_1 : (⟨S1x512, .f32⟩ : BufTy).Contents (Elt F) → (⟨S50000x512, .f32⟩ : BufTy).Contents (Elt F)),
    StableHlo.binary main_v0 main_v2 main_v3 (addf : (⟨S50000x512, .f32⟩ : BufTy).Contents (Elt F) → (⟨S50000x512, .f32⟩ : BufTy).Contents (Elt F) → (⟨S50000x512, .f32⟩ : BufTy).Contents (Elt F)),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S50000x512, .f32⟩) (broadcastInDim S50000x512 ![] bcast_S_S50000x512),
    StableHlo.TRef.binary (.of main_v3 : StableHlo.TRef sig ⟨S50000x512, .f32⟩) (.of main_call0_v0 : StableHlo.TRef sig ⟨S50000x512, .f32⟩) (.of main_v4 : StableHlo.TRef sig ⟨S50000x512, .f32⟩) maximumf,
    StableHlo.binary main_v4 main_arg4 main_v5 ((fun l r => Host.dotGeneral dot_S50000x512_S512x64_S50000x64_1_0_0_1_n_n none l r) : (⟨S50000x512, .f32⟩ : BufTy).Contents (Elt F) → (⟨S512x64, .f32⟩ : BufTy).Contents (Elt F) → (⟨S50000x64, .f32⟩ : BufTy).Contents (Elt F)),
    StableHlo.unary main_arg5 main_v6 (broadcastInDim S1x64 ![1] bcast_S64_S1x64_1 : (⟨S64, .f32⟩ : BufTy).Contents (Elt F) → (⟨S1x64, .f32⟩ : BufTy).Contents (Elt F)),
    StableHlo.unary main_v6 main_v7 (broadcastInDim S50000x64 ![0, 1] bcast_S1x64_S50000x64_0_1 : (⟨S1x64, .f32⟩ : BufTy).Contents (Elt F) → (⟨S50000x64, .f32⟩ : BufTy).Contents (Elt F)),
    StableHlo.binary main_v5 main_v7 main_v8 (addf : (⟨S50000x64, .f32⟩ : BufTy).Contents (Elt F) → (⟨S50000x64, .f32⟩ : BufTy).Contents (Elt F) → (⟨S50000x64, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x64, .f32⟩) (broadcastInDim S50000x64 ![] bcast_S_S50000x64),
    StableHlo.TRef.binary (.of main_v8 : StableHlo.TRef sig ⟨S50000x64, .f32⟩) (.of main_call1_v0 : StableHlo.TRef sig ⟨S50000x64, .f32⟩) (.of main_v9 : StableHlo.TRef sig ⟨S50000x64, .f32⟩) maximumf,
    StableHlo.binary main_v9 main_arg6 main_v10 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg7 main_v11 (broadcastInDim S1x64 ![1] bcast_S64_S1x64_1 : (⟨S64, .f32⟩ : BufTy).Contents (Elt F) → (⟨S1x64, .f32⟩ : BufTy).Contents (Elt F)),
    StableHlo.unary main_v11 main_v12 (broadcastInDim S50000x64 ![0, 1] bcast_S1x64_S50000x64_0_1 : (⟨S1x64, .f32⟩ : BufTy).Contents (Elt F) → (⟨S50000x64, .f32⟩ : BufTy).Contents (Elt F)),
    StableHlo.binary main_v10 main_v12 main_v13 (addf : (⟨S50000x64, .f32⟩ : BufTy).Contents (Elt F) → (⟨S50000x64, .f32⟩ : BufTy).Contents (Elt F) → (⟨S50000x64, .f32⟩ : BufTy).Contents (Elt F)) ]
theorem rLogits_sub : (rLogits : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub ..⟩
/-- The buffers rLogits writes, in order. -/
abbrev rLogits_outs : List (Ref sig .tc) :=
  [main_v0, main_v1, main_v2, main_v3, main_call0_cst, main_call0_v0, main_v4, main_v5, main_v6, main_v7, main_v8, main_call1_cst, main_call1_v0, main_v9, main_v10, main_v11, main_v12, main_v13]
/-- A buffer that rLogits does not write keeps its contents through it. -/
theorem keep_rLogits (V : Valuation τ sig (Elt F)) (r : Ref sig .tc) (hr : r ∉ rLogits_outs) :
    StableHlo.after rLogits V (Proc.devRef .tc r) = V (Proc.devRef .tc r) :=
  StableHlo.after_of_forall_not_mem (b := Proc.devRef .tc r) _ _ (List.forall_iff_forall_mem.mp (by
    simp only [rLogits, List.Forall, StableHlo.nullary_writes, StableHlo.unary_writes, StableHlo.binary_writes, StableHlo.ternary_writes, StableHlo.reshape_writes, Finset.mem_singleton]
    repeat' apply And.intro
    all_goals exact StableHlo.devRef_ne_of_ne (fun e => hr (by rw [e]; decide))))

/-- 6 operations, ending with %16. -/
abbrev rParsing : List (HloOp τ sig (Elt F)) :=
  [ StableHlo.nullary main_cst (constant S_ .f32 0x40000000#32),
    StableHlo.unary main_cst main_v14 (broadcastInDim S64x64 ![] bcast_S_S64x64 : (⟨S_, .f32⟩ : BufTy).Contents (Elt F) → (⟨S64x64, .f32⟩ : BufTy).Contents (Elt F)),
    StableHlo.binary main_v14 main_arg8 main_v15 (mulf : (⟨S64x64, .f32⟩ : BufTy).Contents (Elt F) → (⟨S64x64, .f32⟩ : BufTy).Contents (Elt F) → (⟨S64x64, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S64x64, .f32⟩) (broadcastInDim S64x64 ![] bcast_S_S64x64),
    StableHlo.TRef.binary (.of main_v15 : StableHlo.TRef sig ⟨S64x64, .f32⟩) (.of main_call2_v0 : StableHlo.TRef sig ⟨S64x64, .f32⟩) (.of main_v16 : StableHlo.TRef sig ⟨S64x64, .f32⟩) maximumf ]
theorem rParsing_sub : (rParsing : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub ..⟩
/-- The buffers rParsing writes, in order. -/
abbrev rParsing_outs : List (Ref sig .tc) :=
  [main_cst, main_v14, main_v15, main_call2_cst, main_call2_v0, main_v16]
/-- A buffer that rParsing does not write keeps its contents through it. -/
theorem keep_rParsing (V : Valuation τ sig (Elt F)) (r : Ref sig .tc) (hr : r ∉ rParsing_outs) :
    StableHlo.after rParsing V (Proc.devRef .tc r) = V (Proc.devRef .tc r) :=
  StableHlo.after_of_forall_not_mem (b := Proc.devRef .tc r) _ _ (List.forall_iff_forall_mem.mp (by
    simp only [rParsing, List.Forall, StableHlo.nullary_writes, StableHlo.unary_writes, StableHlo.binary_writes, StableHlo.ternary_writes, StableHlo.reshape_writes, Finset.mem_singleton]
    repeat' apply And.intro
    all_goals exact StableHlo.devRef_ne_of_ne (fun e => hr (by rw [e]; decide))))

/-- 26 operations, ending with %37. -/
abbrev rScore : List (HloOp τ sig (Elt F)) :=
  [ StableHlo.unary main_arg1 main_v17 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v17 main_v18 rfl shapeCasts_S1x800000_S800000,
    StableHlo.nullary main_c (constantI S_ 32 0#32),
    StableHlo.unary main_c main_v19 (broadcastInDim S800000 ![] bcast_S_S800000 : (⟨S_, .i32⟩ : BufTy).Contents (Elt F) → (⟨S800000, .i32⟩ : BufTy).Contents (Elt F)),
    StableHlo.binary main_v18 main_v19 main_v20 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v21 (broadcastInDim S800000 ![] bcast_S_S800000 : (⟨S_, .i32⟩ : BufTy).Contents (Elt F) → (⟨S800000, .i32⟩ : BufTy).Contents (Elt F)),
    StableHlo.binary main_v18 main_v21 main_v22 (addi : (⟨S800000, .i32⟩ : BufTy).Contents (Elt F) → (⟨S800000, .i32⟩ : BufTy).Contents (Elt F) → (⟨S800000, .i32⟩ : BufTy).Contents (Elt F)),
    StableHlo.ternary main_v20 main_v22 main_v18 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v23 main_v24 (broadcastInDim S800000x1 ![0] bcast_S800000_S800000x1_0 : (⟨S800000, .i32⟩ : BufTy).Contents (Elt F) → (⟨S800000x1, .i32⟩ : BufTy).Contents (Elt F)),
    StableHlo.binary main_v13 main_v24 main_v25 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.unary main_arg1 main_v26 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v26 main_v27 rfl shapeCasts_S1x800000_S800000,
    StableHlo.nullary main_c_1 (constantI S_ 32 0#32),
    StableHlo.unary main_c_1 main_v28 (broadcastInDim S800000 ![] bcast_S_S800000 : (⟨S_, .i32⟩ : BufTy).Contents (Elt F) → (⟨S800000, .i32⟩ : BufTy).Contents (Elt F)),
    StableHlo.binary main_v27 main_v28 main_v29 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v30 (broadcastInDim S800000 ![] bcast_S_S800000 : (⟨S_, .i32⟩ : BufTy).Contents (Elt F) → (⟨S800000, .i32⟩ : BufTy).Contents (Elt F)),
    StableHlo.binary main_v27 main_v30 main_v31 (addi : (⟨S800000, .i32⟩ : BufTy).Contents (Elt F) → (⟨S800000, .i32⟩ : BufTy).Contents (Elt F) → (⟨S800000, .i32⟩ : BufTy).Contents (Elt F)),
    StableHlo.ternary main_v29 main_v31 main_v27 main_v32 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v32 main_v33 (broadcastInDim S800000x1 ![0] bcast_S800000_S800000x1_0 : (⟨S800000, .i32⟩ : BufTy).Contents (Elt F) → (⟨S800000x1, .i32⟩ : BufTy).Contents (Elt F)),
    StableHlo.binary main_v13 main_v33 main_v34 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.binary main_v34 main_v16 main_v35 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    StableHlo.binary main_v35 main_v25 main_v36 (mulf : (⟨S800000x64, .f32⟩ : BufTy).Contents (Elt F) → (⟨S800000x64, .f32⟩ : BufTy).Contents (Elt F) → (⟨S800000x64, .f32⟩ : BufTy).Contents (Elt F)),
    StableHlo.nullary main_cst_3 (constant S_ .f32 0x00000000#32),
    StableHlo.binary main_v36 main_cst_3 main_v37 ((fun x v => Host.reduceAdd x v reducesTo_S800000x64_S800000_d1 h_S_) : (⟨S800000x64, .f32⟩ : BufTy).Contents (Elt F) → (⟨S_, .f32⟩ : BufTy).Contents (Elt F) → (⟨S800000, .f32⟩ : BufTy).Contents (Elt F)) ]
theorem rScore_sub : (rScore : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.nullary_bufs_sub .., StableHlo.binary_bufs_sub ..⟩
/-- The buffers rScore writes, in order. -/
abbrev rScore_outs : List (Ref sig .tc) :=
  [main_v17, main_v18, main_c, main_v19, main_v20, main_c_0, main_v21, main_v22, main_v23, main_v24, main_v25, main_v26, main_v27, main_c_1, main_v28, main_v29, main_c_2, main_v30, main_v31, main_v32, main_v33, main_v34, main_v35, main_v36, main_cst_3, main_v37]
/-- A buffer that rScore does not write keeps its contents through it. -/
theorem keep_rScore (V : Valuation τ sig (Elt F)) (r : Ref sig .tc) (hr : r ∉ rScore_outs) :
    StableHlo.after rScore V (Proc.devRef .tc r) = V (Proc.devRef .tc r) :=
  StableHlo.after_of_forall_not_mem (b := Proc.devRef .tc r) _ _ (List.forall_iff_forall_mem.mp (by
    simp only [rScore, List.Forall, StableHlo.nullary_writes, StableHlo.unary_writes, StableHlo.binary_writes, StableHlo.ternary_writes, StableHlo.reshape_writes, Finset.mem_singleton]
    repeat' apply And.intro
    all_goals exact StableHlo.devRef_ne_of_ne (fun e => hr (by rw [e]; decide))))

/-- 35 operations, ending with %48. -/
abbrev rWeight : List (HloOp τ sig (Elt F)) :=
  [ StableHlo.nullary main_cst_4 (constant S_ .f32 0x00000000#32),
    StableHlo.binary main_v37 main_cst_4 main_v38 ((fun x v => Host.reduceAdd x v reducesTo_S800000_S_d0 h_S_) : (⟨S800000, .f32⟩ : BufTy).Contents (Elt F) → (⟨S_, .f32⟩ : BufTy).Contents (Elt F) → (⟨S_, .f32⟩ : BufTy).Contents (Elt F)),
    StableHlo.nullary main_cst_5 (constant S_ .f32 0x49435000#32),
    StableHlo.binary main_v38 main_cst_5 main_v39 (Host.divf : (⟨S_, .f32⟩ : BufTy).Contents (Elt F) → (⟨S_, .f32⟩ : BufTy).Contents (Elt F) → (⟨S_, .f32⟩ : BufTy).Contents (Elt F)),
    StableHlo.nullary main_c_6 (constantI S_ 32 1#32),
    StableHlo.TRef.nullary (.of main_call3_cst : StableHlo.TRef sig ⟨S_, .f32⟩) (constant S_ .f32 0x00000000#32),
    StableHlo.TRef.binary (.of main_v37 : StableHlo.TRef sig ⟨S800000, .f32⟩) (.of main_call3_cst : StableHlo.TRef sig ⟨S_, .f32⟩) (.of main_call3_v0 : StableHlo.TRef sig ⟨S_, .f32⟩) (fun x v => Host.reduceAdd x v reducesTo_S800000_S_d0 h_S_),
    StableHlo.TRef.unary (.of main_call3_v0 : StableHlo.TRef sig ⟨S_, .f32⟩) (.of main_call3_v1 : StableHlo.TRef sig ⟨S1, .f32⟩) (broadcastInDim S1 ![] bcast_S_S1),
    StableHlo.TRef.nullary (.of main_call3_cst_0 : StableHlo.TRef sig ⟨S_, .f32⟩) (constant S_ .f32 0x49435000#32),
    StableHlo.TRef.unary (.of main_call3_cst_0 : StableHlo.TRef sig ⟨S_, .f32⟩) (.of main_call3_v2 : StableHlo.TRef sig ⟨S1, .f32⟩) (broadcastInDim S1 ![] bcast_S_S1),
    StableHlo.TRef.binary (.of main_call3_v1 : StableHlo.TRef sig ⟨S1, .f32⟩) (.of main_call3_v2 : StableHlo.TRef sig ⟨S1, .f32⟩) (.of main_call3_v3 : StableHlo.TRef sig ⟨S1, .f32⟩) Host.divf,
    StableHlo.TRef.unary (.of main_call3_v3 : StableHlo.TRef sig ⟨S1, .f32⟩) (.of main_call3_v4 : StableHlo.TRef sig ⟨S800000, .f32⟩) (broadcastInDim S800000 ![0] bcast_S1_S800000_0),
    StableHlo.TRef.binary (.of main_v37 : StableHlo.TRef sig ⟨S800000, .f32⟩) (.of main_call3_v4 : StableHlo.TRef sig ⟨S800000, .f32⟩) (.of main_call3_v5 : StableHlo.TRef sig ⟨S800000, .f32⟩) subf,
    StableHlo.TRef.binary (.of main_call3_v5 : StableHlo.TRef sig ⟨S800000, .f32⟩) (.of main_call3_v5 : StableHlo.TRef sig ⟨S800000, .f32⟩) (.of main_call3_v6 : StableHlo.TRef sig ⟨S800000, .f32⟩) mulf,
    StableHlo.TRef.unary (.of main_c_6 : StableHlo.TRef sig ⟨S_, .i32⟩) (.of main_call3_v7 : StableHlo.TRef sig ⟨S_, .f32⟩) (sitofp .f32),
    StableHlo.TRef.nullary (.of main_call3_cst_1 : StableHlo.TRef sig ⟨S_, .f32⟩) (constant S_ .f32 0x49435000#32),
    StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
    StableHlo.TRef.nullary (.of main_call3_cst_2 : StableHlo.TRef sig ⟨S_, .f32⟩) (constant S_ .f32 0x00000000#32),
    StableHlo.TRef.binary (.of main_call3_v6 : StableHlo.TRef sig ⟨S800000, .f32⟩) (.of main_call3_cst_2 : StableHlo.TRef sig ⟨S_, .f32⟩) (.of main_call3_v9 : StableHlo.TRef sig ⟨S_, .f32⟩) (fun x v => Host.reduceAdd x v reducesTo_S800000_S_d0 h_S_),
    StableHlo.TRef.binary (.of main_call3_v9 : StableHlo.TRef sig ⟨S_, .f32⟩) (.of main_call3_v8 : StableHlo.TRef sig ⟨S_, .f32⟩) (.of main_call3_v10 : StableHlo.TRef sig ⟨S_, .f32⟩) Host.divf,
    StableHlo.TRef.nullary (.of main_call3_cst_3 : StableHlo.TRef sig ⟨S_, .f32⟩) (constant S_ .f32 0x00000000#32),
    StableHlo.TRef.binary (.of main_call3_v8 : StableHlo.TRef sig ⟨S_, .f32⟩) (.of main_call3_cst_3 : StableHlo.TRef sig ⟨S_, .f32⟩) (.of main_call3_v11 : StableHlo.TRef sig ⟨S_, .i1⟩) (cmpf .ogt),
    StableHlo.TRef.nullary (.of main_call3_cst_4 : StableHlo.TRef sig ⟨S_, .f32⟩) (constant S_ .f32 0x7FC00000#32),
    StableHlo.TRef.unary (.of main_call3_cst_4 : StableHlo.TRef sig ⟨S_, .f32⟩) (.of main_call3_call0_v0 : StableHlo.TRef sig ⟨S_, .f32⟩) id,
    StableHlo.TRef.ternary (.of main_call3_v11 : StableHlo.TRef sig ⟨S_, .i1⟩) (.of main_call3_v10 : StableHlo.TRef sig ⟨S_, .f32⟩) (.of main_call3_call0_v0 : StableHlo.TRef sig ⟨S_, .f32⟩) (.of main_v40 : StableHlo.TRef sig ⟨S_, .f32⟩) select,
    StableHlo.unary main_v39 main_v41 (broadcastInDim S800000 ![] bcast_S_S800000 : (⟨S_, .f32⟩ : BufTy).Contents (Elt F) → (⟨S800000, .f32⟩ : BufTy).Contents (Elt F)),
    StableHlo.binary main_v37 main_v41 main_v42 (subf : (⟨S800000, .f32⟩ : BufTy).Contents (Elt F) → (⟨S800000, .f32⟩ : BufTy).Contents (Elt F) → (⟨S800000, .f32⟩ : BufTy).Contents (Elt F)),
    StableHlo.nullary main_cst_7 (constant S_ .f32 0x38D1B717#32),
    StableHlo.binary main_cst_7 main_v40 main_v43 (Host.divf : (⟨S_, .f32⟩ : BufTy).Contents (Elt F) → (⟨S_, .f32⟩ : BufTy).Contents (Elt F) → (⟨S_, .f32⟩ : BufTy).Contents (Elt F)),
    StableHlo.unary main_v43 main_v44 (Host.sqrt : (⟨S_, .f32⟩ : BufTy).Contents (Elt F) → (⟨S_, .f32⟩ : BufTy).Contents (Elt F)),
    StableHlo.unary main_v44 main_v45 (broadcastInDim S800000 ![] bcast_S_S800000 : (⟨S_, .f32⟩ : BufTy).Contents (Elt F) → (⟨S800000, .f32⟩ : BufTy).Contents (Elt F)),
    StableHlo.binary main_v42 main_v45 main_v46 (mulf : (⟨S800000, .f32⟩ : BufTy).Contents (Elt F) → (⟨S800000, .f32⟩ : BufTy).Contents (Elt F) → (⟨S800000, .f32⟩ : BufTy).Contents (Elt F)),
    StableHlo.nullary main_cst_8 (constant S_ .f32 0x3F800000#32),
    StableHlo.unary main_cst_8 main_v47 (broadcastInDim S800000 ![] bcast_S_S800000 : (⟨S_, .f32⟩ : BufTy).Contents (Elt F) → (⟨S800000, .f32⟩ : BufTy).Contents (Elt F)),
    StableHlo.binary main_v46 main_v47 main_v48 (addf : (⟨S800000, .f32⟩ : BufTy).Contents (Elt F) → (⟨S800000, .f32⟩ : BufTy).Contents (Elt F) → (⟨S800000, .f32⟩ : BufTy).Contents (Elt F)) ]
theorem rWeight_sub : (rWeight : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub .., StableHlo.unary_bufs_sub .., StableHlo.ternary_bufs_sub .., StableHlo.unary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩
/-- The buffers rWeight writes, in order. -/
abbrev rWeight_outs : List (Ref sig .tc) :=
  [main_cst_4, main_v38, main_cst_5, main_v39, main_c_6, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_cst_3, main_call3_v11, main_call3_cst_4, main_call3_call0_v0, main_v40, main_v41, main_v42, main_cst_7, main_v43, main_v44, main_v45, main_v46, main_cst_8, main_v47, main_v48]
/-- A buffer that rWeight does not write keeps its contents through it. -/
theorem keep_rWeight (V : Valuation τ sig (Elt F)) (r : Ref sig .tc) (hr : r ∉ rWeight_outs) :
    StableHlo.after rWeight V (Proc.devRef .tc r) = V (Proc.devRef .tc r) :=
  StableHlo.after_of_forall_not_mem (b := Proc.devRef .tc r) _ _ (List.forall_iff_forall_mem.mp (by
    simp only [rWeight, List.Forall, StableHlo.nullary_writes, StableHlo.unary_writes, StableHlo.binary_writes, StableHlo.ternary_writes, StableHlo.reshape_writes, Finset.mem_singleton]
    repeat' apply And.intro
    all_goals exact StableHlo.devRef_ne_of_ne (fun e => hr (by rw [e]; decide))))

/-- 1 operations, ending with %49. -/
abbrev rLin0 : List (HloOp τ sig (Elt F)) :=
  [ StableHlo.binary main_arg0 main_arg9 main_v49 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)) ]
theorem rLin0_sub : (rLin0 : List (HloOp τ sig (Elt F))).Forall fun op => op.bufs ⊆ StableHlo.tcRefs τ sig :=
  StableHlo.binary_bufs_sub ..
/-- The buffers rLin0 writes, in order. -/
abbrev rLin0_outs : List (Ref sig .tc) :=
  [main_v49]
/-- A buffer that rLin0 does not write keeps its contents through it. -/
theorem keep_rLin0 (V : Valuation τ sig (Elt F)) (r : Ref sig .tc) (hr : r ∉ rLin0_outs) :
    StableHlo.after rLin0 V (Proc.devRef .tc r) = V (Proc.devRef .tc r) :=
  StableHlo.after_of_forall_not_mem (b := Proc.devRef .tc r) _ _ (List.forall_iff_forall_mem.mp (by
    simp only [rLin0, List.Forall, StableHlo.nullary_writes, StableHlo.unary_writes, StableHlo.binary_writes, StableHlo.ternary_writes, StableHlo.reshape_writes, Finset.mem_singleton]
    repeat' apply And.intro
    all_goals exact StableHlo.devRef_ne_of_ne (fun e => hr (by rw [e]; decide))))

/-- 4 operations, ending with %53. -/
abbrev rIdx0 : List (HloOp τ sig (Elt F)) :=
  [ StableHlo.unary main_arg1 main_v50 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v50 main_v51 rfl shapeCasts_S1x800000_S800000,
    StableHlo.unary main_arg1 main_v52 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v52 main_v53 rfl shapeCasts_S1x800000_S800000 ]
theorem rIdx0_sub : (rIdx0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub ..⟩
/-- The buffers rIdx0 writes, in order. -/
abbrev rIdx0_outs : List (Ref sig .tc) :=
  [main_v50, main_v51, main_v52, main_v53]
/-- A buffer that rIdx0 does not write keeps its contents through it. -/
theorem keep_rIdx0 (V : Valuation τ sig (Elt F)) (r : Ref sig .tc) (hr : r ∉ rIdx0_outs) :
    StableHlo.after rIdx0 V (Proc.devRef .tc r) = V (Proc.devRef .tc r) :=
  StableHlo.after_of_forall_not_mem (b := Proc.devRef .tc r) _ _ (List.forall_iff_forall_mem.mp (by
    simp only [rIdx0, List.Forall, StableHlo.nullary_writes, StableHlo.unary_writes, StableHlo.binary_writes, StableHlo.ternary_writes, StableHlo.reshape_writes, Finset.mem_singleton]
    repeat' apply And.intro
    all_goals exact StableHlo.devRef_ne_of_ne (fun e => hr (by rw [e]; decide))))

/-- 54 operations, ending with %94. -/
abbrev rAgg0 : List (HloOp τ sig (Elt F)) :=
  [ StableHlo.nullary main_v54 (iotaInDim S50000 32 0),
    StableHlo.binary main_v51 main_v54 main_v55 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v53 main_v54 main_v56 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_9 (constant S_ .f32 0x3F800000#32),
    StableHlo.unary main_cst_9 main_v57 (broadcastInDim S50000 ![] bcast_S_S50000 : (⟨S_, .f32⟩ : BufTy).Contents (Elt F) → (⟨S50000, .f32⟩ : BufTy).Contents (Elt F)),
    StableHlo.binary main_v48 main_v57 main_v58 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    StableHlo.nullary main_cst_10 (constant S_ .f32 0x00000000#32),
    StableHlo.unary main_cst_10 main_v59 (broadcastInDim S50000 ![] bcast_S_S50000 : (⟨S_, .f32⟩ : BufTy).Contents (Elt F) → (⟨S50000, .f32⟩ : BufTy).Contents (Elt F)),
    StableHlo.unary main_v56 main_v60 (broadcastInDim S850000x1 ![0] bcast_S850000_S850000x1_0 : (⟨S850000, .i32⟩ : BufTy).Contents (Elt F) → (⟨S850000x1, .i32⟩ : BufTy).Contents (Elt F)),
    StableHlo.ternary main_v59 main_v60 main_v58 main_v61 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_11 (constant S_ .f32 0x00000000#32),
    StableHlo.unary main_cst_11 main_v62 (broadcastInDim S50000 ![] bcast_S_S50000 : (⟨S_, .f32⟩ : BufTy).Contents (Elt F) → (⟨S50000, .f32⟩ : BufTy).Contents (Elt F)),
    StableHlo.binary main_v61 main_v62 main_v63 (cmpf .ogt : (⟨S50000, .f32⟩ : BufTy).Contents (Elt F) → (⟨S50000, .f32⟩ : BufTy).Contents (Elt F) → (⟨S50000, .i1⟩ : BufTy).Contents (Elt F)),
    StableHlo.unary main_v61 main_v64 (Host.rsqrt : (⟨S50000, .f32⟩ : BufTy).Contents (Elt F) → (⟨S50000, .f32⟩ : BufTy).Contents (Elt F)),
    StableHlo.nullary main_cst_12 (constant S_ .f32 0x00000000#32),
    StableHlo.TRef.unary (.of main_cst_12 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S50000, .f32⟩) (broadcastInDim S50000 ![] bcast_S_S50000),
    StableHlo.TRef.ternary (.of main_v63 : StableHlo.TRef sig ⟨S50000, .i1⟩) (.of main_v64 : StableHlo.TRef sig ⟨S50000, .f32⟩) (.of main_call4_v1 : StableHlo.TRef sig ⟨S50000, .f32⟩) (.of main_v65 : StableHlo.TRef sig ⟨S50000, .f32⟩) select,
    StableHlo.nullary main_c_13 (constantI S_ 32 0#32),
    StableHlo.unary main_c_13 main_v66 (broadcastInDim S850000 ![] bcast_S_S850000 : (⟨S_, .i32⟩ : BufTy).Contents (Elt F) → (⟨S850000, .i32⟩ : BufTy).Contents (Elt F)),
    StableHlo.binary main_v55 main_v66 main_v67 (cmpi .slt : (⟨S850000, .i32⟩ : BufTy).Contents (Elt F) → (⟨S850000, .i32⟩ : BufTy).Contents (Elt F) → (⟨S850000, .i1⟩ : BufTy).Contents (Elt F)),
    StableHlo.nullary main_c_14 (constantI S_ 32 50000#32),
    StableHlo.unary main_c_14 main_v68 (broadcastInDim S850000 ![] bcast_S_S850000 : (⟨S_, .i32⟩ : BufTy).Contents (Elt F) → (⟨S850000, .i32⟩ : BufTy).Contents (Elt F)),
    StableHlo.binary main_v55 main_v68 main_v69 (addi : (⟨S850000, .i32⟩ : BufTy).Contents (Elt F) → (⟨S850000, .i32⟩ : BufTy).Contents (Elt F) → (⟨S850000, .i32⟩ : BufTy).Contents (Elt F)),
    StableHlo.ternary main_v67 main_v69 main_v55 main_v70 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v70 main_v71 (broadcastInDim S850000x1 ![0] bcast_S850000_S850000x1_0 : (⟨S850000, .i32⟩ : BufTy).Contents (Elt F) → (⟨S850000x1, .i32⟩ : BufTy).Contents (Elt F)),
    StableHlo.binary main_v65 main_v71 main_v72 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v72 main_v58 main_v73 (mulf : (⟨S850000, .f32⟩ : BufTy).Contents (Elt F) → (⟨S850000, .f32⟩ : BufTy).Contents (Elt F) → (⟨S850000, .f32⟩ : BufTy).Contents (Elt F)),
    StableHlo.nullary main_c_15 (constantI S_ 32 0#32),
    StableHlo.unary main_c_15 main_v74 (broadcastInDim S850000 ![] bcast_S_S850000 : (⟨S_, .i32⟩ : BufTy).Contents (Elt F) → (⟨S850000, .i32⟩ : BufTy).Contents (Elt F)),
    StableHlo.binary main_v56 main_v74 main_v75 (cmpi .slt : (⟨S850000, .i32⟩ : BufTy).Contents (Elt F) → (⟨S850000, .i32⟩ : BufTy).Contents (Elt F) → (⟨S850000, .i1⟩ : BufTy).Contents (Elt F)),
    StableHlo.nullary main_c_16 (constantI S_ 32 50000#32),
    StableHlo.unary main_c_16 main_v76 (broadcastInDim S850000 ![] bcast_S_S850000 : (⟨S_, .i32⟩ : BufTy).Contents (Elt F) → (⟨S850000, .i32⟩ : BufTy).Contents (Elt F)),
    StableHlo.binary main_v56 main_v76 main_v77 (addi : (⟨S850000, .i32⟩ : BufTy).Contents (Elt F) → (⟨S850000, .i32⟩ : BufTy).Contents (Elt F) → (⟨S850000, .i32⟩ : BufTy).Contents (Elt F)),
    StableHlo.ternary main_v75 main_v77 main_v56 main_v78 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v78 main_v79 (broadcastInDim S850000x1 ![0] bcast_S850000_S850000x1_0 : (⟨S850000, .i32⟩ : BufTy).Contents (Elt F) → (⟨S850000x1, .i32⟩ : BufTy).Contents (Elt F)),
    StableHlo.binary main_v65 main_v79 main_v80 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v73 main_v80 main_v81 (mulf : (⟨S850000, .f32⟩ : BufTy).Contents (Elt F) → (⟨S850000, .f32⟩ : BufTy).Contents (Elt F) → (⟨S850000, .f32⟩ : BufTy).Contents (Elt F)),
    StableHlo.unary main_v81 main_v82 (broadcastInDim S850000x1 ![0] bcast_S850000_S850000x1_0 : (⟨S850000, .f32⟩ : BufTy).Contents (Elt F) → (⟨S850000x1, .f32⟩ : BufTy).Contents (Elt F)),
    StableHlo.nullary main_c_17 (constantI S_ 32 0#32),
    StableHlo.unary main_c_17 main_v83 (broadcastInDim S850000 ![] bcast_S_S850000 : (⟨S_, .i32⟩ : BufTy).Contents (Elt F) → (⟨S850000, .i32⟩ : BufTy).Contents (Elt F)),
    StableHlo.binary main_v55 main_v83 main_v84 (cmpi .slt : (⟨S850000, .i32⟩ : BufTy).Contents (Elt F) → (⟨S850000, .i32⟩ : BufTy).Contents (Elt F) → (⟨S850000, .i1⟩ : BufTy).Contents (Elt F)),
    StableHlo.nullary main_c_18 (constantI S_ 32 50000#32),
    StableHlo.unary main_c_18 main_v85 (broadcastInDim S850000 ![] bcast_S_S850000 : (⟨S_, .i32⟩ : BufTy).Contents (Elt F) → (⟨S850000, .i32⟩ : BufTy).Contents (Elt F)),
    StableHlo.binary main_v55 main_v85 main_v86 (addi : (⟨S850000, .i32⟩ : BufTy).Contents (Elt F) → (⟨S850000, .i32⟩ : BufTy).Contents (Elt F) → (⟨S850000, .i32⟩ : BufTy).Contents (Elt F)),
    StableHlo.ternary main_v84 main_v86 main_v55 main_v87 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v87 main_v88 (broadcastInDim S850000x1 ![0] bcast_S850000_S850000x1_0 : (⟨S850000, .i32⟩ : BufTy).Contents (Elt F) → (⟨S850000x1, .i32⟩ : BufTy).Contents (Elt F)),
    StableHlo.binary main_v49 main_v88 main_v89 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v82 main_v90 (broadcastInDim S850000x128 ![0, 1] bcast_S850000x1_S850000x128_0_1 : (⟨S850000x1, .f32⟩ : BufTy).Contents (Elt F) → (⟨S850000x128, .f32⟩ : BufTy).Contents (Elt F)),
    StableHlo.binary main_v90 main_v89 main_v91 (mulf : (⟨S850000x128, .f32⟩ : BufTy).Contents (Elt F) → (⟨S850000x128, .f32⟩ : BufTy).Contents (Elt F) → (⟨S850000x128, .f32⟩ : BufTy).Contents (Elt F)),
    StableHlo.nullary main_cst_19 (constant S_ .f32 0x00000000#32),
    StableHlo.unary main_cst_19 main_v92 (broadcastInDim S50000x128 ![] bcast_S_S50000x128 : (⟨S_, .f32⟩ : BufTy).Contents (Elt F) → (⟨S50000x128, .f32⟩ : BufTy).Contents (Elt F)),
    StableHlo.unary main_v56 main_v93 (broadcastInDim S850000x1 ![0] bcast_S850000_S850000x1_0 : (⟨S850000, .i32⟩ : BufTy).Contents (Elt F) → (⟨S850000x1, .i32⟩ : BufTy).Contents (Elt F)),
    StableHlo.ternary main_v92 main_v93 main_v91 main_v94 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]
theorem rAgg0_sub : (rAgg0 : List (HloOp τ sig (Elt F))).Forall fun op => op.bufs ⊆ StableHlo.tcRefs τ sig :=
  ⟨StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub ..⟩
/-- The buffers rAgg0 writes, in order. -/
abbrev rAgg0_outs : List (Ref sig .tc) :=
  [main_v54, main_v55, main_v56, main_cst_9, main_v57, main_v58, main_cst_10, main_v59, main_v60, main_v61, main_cst_11, main_v62, main_v63, main_v64, main_cst_12, main_call4_v0, main_call4_v1, main_v65, main_c_13, main_v66, main_v67, main_c_14, main_v68, main_v69, main_v70, main_v71, main_v72, main_v73, main_c_15, main_v74, main_v75, main_c_16, main_v76, main_v77, main_v78, main_v79, main_v80, main_v81, main_v82, main_c_17, main_v83, main_v84, main_c_18, main_v85, main_v86, main_v87, main_v88, main_v89, main_v90, main_v91, main_cst_19, main_v92, main_v93, main_v94]
/-- A buffer that rAgg0 does not write keeps its contents through it. -/
theorem keep_rAgg0 (V : Valuation τ sig (Elt F)) (r : Ref sig .tc) (hr : r ∉ rAgg0_outs) :
    StableHlo.after rAgg0 V (Proc.devRef .tc r) = V (Proc.devRef .tc r) :=
  StableHlo.after_of_forall_not_mem (b := Proc.devRef .tc r) _ _ (List.forall_iff_forall_mem.mp (by
    simp only [rAgg0, List.Forall, StableHlo.nullary_writes, StableHlo.unary_writes, StableHlo.binary_writes, StableHlo.ternary_writes, StableHlo.reshape_writes, Finset.mem_singleton]
    repeat' apply And.intro
    all_goals exact StableHlo.devRef_ne_of_ne (fun e => hr (by rw [e]; decide))))

/-- 6 operations, ending with %98. -/
abbrev rAct1 : List (HloOp τ sig (Elt F)) :=
  [ StableHlo.unary main_arg10 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S50000x128 ![0, 1] bcast_S1x128_S50000x128_0_1 : (⟨S1x128, .f32⟩ : BufTy).Contents (Elt F) → (⟨S50000x128, .f32⟩ : BufTy).Contents (Elt F)),
    StableHlo.binary main_v94 main_v96 main_v97 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S50000x128, .f32⟩) (broadcastInDim S50000x128 ![] bcast_S_S50000x128),
    StableHlo.TRef.binary (.of main_v97 : StableHlo.TRef sig ⟨S50000x128, .f32⟩) (.of main_call5_v0 : StableHlo.TRef sig ⟨S50000x128, .f32⟩) (.of main_v98 : StableHlo.TRef sig ⟨S50000x128, .f32⟩) maximumf ]
theorem rAct1_sub : (rAct1 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub ..⟩
/-- The buffers rAct1 writes, in order. -/
abbrev rAct1_outs : List (Ref sig .tc) :=
  [main_v95, main_v96, main_v97, main_call5_cst, main_call5_v0, main_v98]
/-- A buffer that rAct1 does not write keeps its contents through it. -/
theorem keep_rAct1 (V : Valuation τ sig (Elt F)) (r : Ref sig .tc) (hr : r ∉ rAct1_outs) :
    StableHlo.after rAct1 V (Proc.devRef .tc r) = V (Proc.devRef .tc r) :=
  StableHlo.after_of_forall_not_mem (b := Proc.devRef .tc r) _ _ (List.forall_iff_forall_mem.mp (by
    simp only [rAct1, List.Forall, StableHlo.nullary_writes, StableHlo.unary_writes, StableHlo.binary_writes, StableHlo.ternary_writes, StableHlo.reshape_writes, Finset.mem_singleton]
    repeat' apply And.intro
    all_goals exact StableHlo.devRef_ne_of_ne (fun e => hr (by rw [e]; decide))))

/-- 1 operations, ending with %99. -/
abbrev rLin1 : List (HloOp τ sig (Elt F)) :=
  [ StableHlo.binary main_v98 main_arg11 main_v99 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]
theorem rLin1_sub : (rLin1 : List (HloOp τ sig (Elt F))).Forall fun op => op.bufs ⊆ StableHlo.tcRefs τ sig :=
  StableHlo.binary_bufs_sub ..
/-- The buffers rLin1 writes, in order. -/
abbrev rLin1_outs : List (Ref sig .tc) :=
  [main_v99]
/-- A buffer that rLin1 does not write keeps its contents through it. -/
theorem keep_rLin1 (V : Valuation τ sig (Elt F)) (r : Ref sig .tc) (hr : r ∉ rLin1_outs) :
    StableHlo.after rLin1 V (Proc.devRef .tc r) = V (Proc.devRef .tc r) :=
  StableHlo.after_of_forall_not_mem (b := Proc.devRef .tc r) _ _ (List.forall_iff_forall_mem.mp (by
    simp only [rLin1, List.Forall, StableHlo.nullary_writes, StableHlo.unary_writes, StableHlo.binary_writes, StableHlo.ternary_writes, StableHlo.reshape_writes, Finset.mem_singleton]
    repeat' apply And.intro
    all_goals exact StableHlo.devRef_ne_of_ne (fun e => hr (by rw [e]; decide))))

/-- 4 operations, ending with %103. -/
abbrev rIdx1 : List (HloOp τ sig (Elt F)) :=
  [ StableHlo.unary main_arg1 main_v100 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v100 main_v101 rfl shapeCasts_S1x800000_S800000,
    StableHlo.unary main_arg1 main_v102 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v102 main_v103 rfl shapeCasts_S1x800000_S800000 ]
theorem rIdx1_sub : (rIdx1 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub ..⟩
/-- The buffers rIdx1 writes, in order. -/
abbrev rIdx1_outs : List (Ref sig .tc) :=
  [main_v100, main_v101, main_v102, main_v103]
/-- A buffer that rIdx1 does not write keeps its contents through it. -/
theorem keep_rIdx1 (V : Valuation τ sig (Elt F)) (r : Ref sig .tc) (hr : r ∉ rIdx1_outs) :
    StableHlo.after rIdx1 V (Proc.devRef .tc r) = V (Proc.devRef .tc r) :=
  StableHlo.after_of_forall_not_mem (b := Proc.devRef .tc r) _ _ (List.forall_iff_forall_mem.mp (by
    simp only [rIdx1, List.Forall, StableHlo.nullary_writes, StableHlo.unary_writes, StableHlo.binary_writes, StableHlo.ternary_writes, StableHlo.reshape_writes, Finset.mem_singleton]
    repeat' apply And.intro
    all_goals exact StableHlo.devRef_ne_of_ne (fun e => hr (by rw [e]; decide))))

/-- 54 operations, ending with %144. -/
abbrev rAgg1 : List (HloOp τ sig (Elt F)) :=
  [ StableHlo.nullary main_v104 (iotaInDim S50000 32 0),
    StableHlo.binary main_v101 main_v104 main_v105 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v103 main_v104 main_v106 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_20 (constant S_ .f32 0x3F800000#32),
    StableHlo.unary main_cst_20 main_v107 (broadcastInDim S50000 ![] bcast_S_S50000 : (⟨S_, .f32⟩ : BufTy).Contents (Elt F) → (⟨S50000, .f32⟩ : BufTy).Contents (Elt F)),
    StableHlo.binary main_v48 main_v107 main_v108 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    StableHlo.nullary main_cst_21 (constant S_ .f32 0x00000000#32),
    StableHlo.unary main_cst_21 main_v109 (broadcastInDim S50000 ![] bcast_S_S50000 : (⟨S_, .f32⟩ : BufTy).Contents (Elt F) → (⟨S50000, .f32⟩ : BufTy).Contents (Elt F)),
    StableHlo.unary main_v106 main_v110 (broadcastInDim S850000x1 ![0] bcast_S850000_S850000x1_0 : (⟨S850000, .i32⟩ : BufTy).Contents (Elt F) → (⟨S850000x1, .i32⟩ : BufTy).Contents (Elt F)),
    StableHlo.ternary main_v109 main_v110 main_v108 main_v111 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_22 (constant S_ .f32 0x00000000#32),
    StableHlo.unary main_cst_22 main_v112 (broadcastInDim S50000 ![] bcast_S_S50000 : (⟨S_, .f32⟩ : BufTy).Contents (Elt F) → (⟨S50000, .f32⟩ : BufTy).Contents (Elt F)),
    StableHlo.binary main_v111 main_v112 main_v113 (cmpf .ogt : (⟨S50000, .f32⟩ : BufTy).Contents (Elt F) → (⟨S50000, .f32⟩ : BufTy).Contents (Elt F) → (⟨S50000, .i1⟩ : BufTy).Contents (Elt F)),
    StableHlo.unary main_v111 main_v114 (Host.rsqrt : (⟨S50000, .f32⟩ : BufTy).Contents (Elt F) → (⟨S50000, .f32⟩ : BufTy).Contents (Elt F)),
    StableHlo.nullary main_cst_23 (constant S_ .f32 0x00000000#32),
    StableHlo.TRef.unary (.of main_cst_23 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S50000, .f32⟩) (broadcastInDim S50000 ![] bcast_S_S50000),
    StableHlo.TRef.ternary (.of main_v113 : StableHlo.TRef sig ⟨S50000, .i1⟩) (.of main_v114 : StableHlo.TRef sig ⟨S50000, .f32⟩) (.of main_call6_v1 : StableHlo.TRef sig ⟨S50000, .f32⟩) (.of main_v115 : StableHlo.TRef sig ⟨S50000, .f32⟩) select,
    StableHlo.nullary main_c_24 (constantI S_ 32 0#32),
    StableHlo.unary main_c_24 main_v116 (broadcastInDim S850000 ![] bcast_S_S850000 : (⟨S_, .i32⟩ : BufTy).Contents (Elt F) → (⟨S850000, .i32⟩ : BufTy).Contents (Elt F)),
    StableHlo.binary main_v105 main_v116 main_v117 (cmpi .slt : (⟨S850000, .i32⟩ : BufTy).Contents (Elt F) → (⟨S850000, .i32⟩ : BufTy).Contents (Elt F) → (⟨S850000, .i1⟩ : BufTy).Contents (Elt F)),
    StableHlo.nullary main_c_25 (constantI S_ 32 50000#32),
    StableHlo.unary main_c_25 main_v118 (broadcastInDim S850000 ![] bcast_S_S850000 : (⟨S_, .i32⟩ : BufTy).Contents (Elt F) → (⟨S850000, .i32⟩ : BufTy).Contents (Elt F)),
    StableHlo.binary main_v105 main_v118 main_v119 (addi : (⟨S850000, .i32⟩ : BufTy).Contents (Elt F) → (⟨S850000, .i32⟩ : BufTy).Contents (Elt F) → (⟨S850000, .i32⟩ : BufTy).Contents (Elt F)),
    StableHlo.ternary main_v117 main_v119 main_v105 main_v120 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v120 main_v121 (broadcastInDim S850000x1 ![0] bcast_S850000_S850000x1_0 : (⟨S850000, .i32⟩ : BufTy).Contents (Elt F) → (⟨S850000x1, .i32⟩ : BufTy).Contents (Elt F)),
    StableHlo.binary main_v115 main_v121 main_v122 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v122 main_v108 main_v123 (mulf : (⟨S850000, .f32⟩ : BufTy).Contents (Elt F) → (⟨S850000, .f32⟩ : BufTy).Contents (Elt F) → (⟨S850000, .f32⟩ : BufTy).Contents (Elt F)),
    StableHlo.nullary main_c_26 (constantI S_ 32 0#32),
    StableHlo.unary main_c_26 main_v124 (broadcastInDim S850000 ![] bcast_S_S850000 : (⟨S_, .i32⟩ : BufTy).Contents (Elt F) → (⟨S850000, .i32⟩ : BufTy).Contents (Elt F)),
    StableHlo.binary main_v106 main_v124 main_v125 (cmpi .slt : (⟨S850000, .i32⟩ : BufTy).Contents (Elt F) → (⟨S850000, .i32⟩ : BufTy).Contents (Elt F) → (⟨S850000, .i1⟩ : BufTy).Contents (Elt F)),
    StableHlo.nullary main_c_27 (constantI S_ 32 50000#32),
    StableHlo.unary main_c_27 main_v126 (broadcastInDim S850000 ![] bcast_S_S850000 : (⟨S_, .i32⟩ : BufTy).Contents (Elt F) → (⟨S850000, .i32⟩ : BufTy).Contents (Elt F)),
    StableHlo.binary main_v106 main_v126 main_v127 (addi : (⟨S850000, .i32⟩ : BufTy).Contents (Elt F) → (⟨S850000, .i32⟩ : BufTy).Contents (Elt F) → (⟨S850000, .i32⟩ : BufTy).Contents (Elt F)),
    StableHlo.ternary main_v125 main_v127 main_v106 main_v128 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v128 main_v129 (broadcastInDim S850000x1 ![0] bcast_S850000_S850000x1_0 : (⟨S850000, .i32⟩ : BufTy).Contents (Elt F) → (⟨S850000x1, .i32⟩ : BufTy).Contents (Elt F)),
    StableHlo.binary main_v115 main_v129 main_v130 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v123 main_v130 main_v131 (mulf : (⟨S850000, .f32⟩ : BufTy).Contents (Elt F) → (⟨S850000, .f32⟩ : BufTy).Contents (Elt F) → (⟨S850000, .f32⟩ : BufTy).Contents (Elt F)),
    StableHlo.unary main_v131 main_v132 (broadcastInDim S850000x1 ![0] bcast_S850000_S850000x1_0 : (⟨S850000, .f32⟩ : BufTy).Contents (Elt F) → (⟨S850000x1, .f32⟩ : BufTy).Contents (Elt F)),
    StableHlo.nullary main_c_28 (constantI S_ 32 0#32),
    StableHlo.unary main_c_28 main_v133 (broadcastInDim S850000 ![] bcast_S_S850000 : (⟨S_, .i32⟩ : BufTy).Contents (Elt F) → (⟨S850000, .i32⟩ : BufTy).Contents (Elt F)),
    StableHlo.binary main_v105 main_v133 main_v134 (cmpi .slt : (⟨S850000, .i32⟩ : BufTy).Contents (Elt F) → (⟨S850000, .i32⟩ : BufTy).Contents (Elt F) → (⟨S850000, .i1⟩ : BufTy).Contents (Elt F)),
    StableHlo.nullary main_c_29 (constantI S_ 32 50000#32),
    StableHlo.unary main_c_29 main_v135 (broadcastInDim S850000 ![] bcast_S_S850000 : (⟨S_, .i32⟩ : BufTy).Contents (Elt F) → (⟨S850000, .i32⟩ : BufTy).Contents (Elt F)),
    StableHlo.binary main_v105 main_v135 main_v136 (addi : (⟨S850000, .i32⟩ : BufTy).Contents (Elt F) → (⟨S850000, .i32⟩ : BufTy).Contents (Elt F) → (⟨S850000, .i32⟩ : BufTy).Contents (Elt F)),
    StableHlo.ternary main_v134 main_v136 main_v105 main_v137 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v137 main_v138 (broadcastInDim S850000x1 ![0] bcast_S850000_S850000x1_0 : (⟨S850000, .i32⟩ : BufTy).Contents (Elt F) → (⟨S850000x1, .i32⟩ : BufTy).Contents (Elt F)),
    StableHlo.binary main_v99 main_v138 main_v139 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v132 main_v140 (broadcastInDim S850000x128 ![0, 1] bcast_S850000x1_S850000x128_0_1 : (⟨S850000x1, .f32⟩ : BufTy).Contents (Elt F) → (⟨S850000x128, .f32⟩ : BufTy).Contents (Elt F)),
    StableHlo.binary main_v140 main_v139 main_v141 (mulf : (⟨S850000x128, .f32⟩ : BufTy).Contents (Elt F) → (⟨S850000x128, .f32⟩ : BufTy).Contents (Elt F) → (⟨S850000x128, .f32⟩ : BufTy).Contents (Elt F)),
    StableHlo.nullary main_cst_30 (constant S_ .f32 0x00000000#32),
    StableHlo.unary main_cst_30 main_v142 (broadcastInDim S50000x128 ![] bcast_S_S50000x128 : (⟨S_, .f32⟩ : BufTy).Contents (Elt F) → (⟨S50000x128, .f32⟩ : BufTy).Contents (Elt F)),
    StableHlo.unary main_v106 main_v143 (broadcastInDim S850000x1 ![0] bcast_S850000_S850000x1_0 : (⟨S850000, .i32⟩ : BufTy).Contents (Elt F) → (⟨S850000x1, .i32⟩ : BufTy).Contents (Elt F)),
    StableHlo.ternary main_v142 main_v143 main_v141 main_v144 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]
theorem rAgg1_sub : (rAgg1 : List (HloOp τ sig (Elt F))).Forall fun op => op.bufs ⊆ StableHlo.tcRefs τ sig :=
  ⟨StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub ..⟩
/-- The buffers rAgg1 writes, in order. -/
abbrev rAgg1_outs : List (Ref sig .tc) :=
  [main_v104, main_v105, main_v106, main_cst_20, main_v107, main_v108, main_cst_21, main_v109, main_v110, main_v111, main_cst_22, main_v112, main_v113, main_v114, main_cst_23, main_call6_v0, main_call6_v1, main_v115, main_c_24, main_v116, main_v117, main_c_25, main_v118, main_v119, main_v120, main_v121, main_v122, main_v123, main_c_26, main_v124, main_v125, main_c_27, main_v126, main_v127, main_v128, main_v129, main_v130, main_v131, main_v132, main_c_28, main_v133, main_v134, main_c_29, main_v135, main_v136, main_v137, main_v138, main_v139, main_v140, main_v141, main_cst_30, main_v142, main_v143, main_v144]
/-- A buffer that rAgg1 does not write keeps its contents through it. -/
theorem keep_rAgg1 (V : Valuation τ sig (Elt F)) (r : Ref sig .tc) (hr : r ∉ rAgg1_outs) :
    StableHlo.after rAgg1 V (Proc.devRef .tc r) = V (Proc.devRef .tc r) :=
  StableHlo.after_of_forall_not_mem (b := Proc.devRef .tc r) _ _ (List.forall_iff_forall_mem.mp (by
    simp only [rAgg1, List.Forall, StableHlo.nullary_writes, StableHlo.unary_writes, StableHlo.binary_writes, StableHlo.ternary_writes, StableHlo.reshape_writes, Finset.mem_singleton]
    repeat' apply And.intro
    all_goals exact StableHlo.devRef_ne_of_ne (fun e => hr (by rw [e]; decide))))

/-- 6 operations, ending with %148. -/
abbrev rAct2 : List (HloOp τ sig (Elt F)) :=
  [ StableHlo.unary main_arg12 main_v145 (broadcastInDim S1x128 ![1] bcast_S128_S1x128_1 : (⟨S128, .f32⟩ : BufTy).Contents (Elt F) → (⟨S1x128, .f32⟩ : BufTy).Contents (Elt F)),
    StableHlo.unary main_v145 main_v146 (broadcastInDim S50000x128 ![0, 1] bcast_S1x128_S50000x128_0_1 : (⟨S1x128, .f32⟩ : BufTy).Contents (Elt F) → (⟨S50000x128, .f32⟩ : BufTy).Contents (Elt F)),
    StableHlo.binary main_v144 main_v146 main_v147 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S50000x128, .f32⟩) (broadcastInDim S50000x128 ![] bcast_S_S50000x128),
    StableHlo.TRef.binary (.of main_v147 : StableHlo.TRef sig ⟨S50000x128, .f32⟩) (.of main_call7_v0 : StableHlo.TRef sig ⟨S50000x128, .f32⟩) (.of main_v148 : StableHlo.TRef sig ⟨S50000x128, .f32⟩) maximumf ]
theorem rAct2_sub : (rAct2 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub ..⟩
/-- The buffers rAct2 writes, in order. -/
abbrev rAct2_outs : List (Ref sig .tc) :=
  [main_v145, main_v146, main_v147, main_call7_cst, main_call7_v0, main_v148]
/-- A buffer that rAct2 does not write keeps its contents through it. -/
theorem keep_rAct2 (V : Valuation τ sig (Elt F)) (r : Ref sig .tc) (hr : r ∉ rAct2_outs) :
    StableHlo.after rAct2 V (Proc.devRef .tc r) = V (Proc.devRef .tc r) :=
  StableHlo.after_of_forall_not_mem (b := Proc.devRef .tc r) _ _ (List.forall_iff_forall_mem.mp (by
    simp only [rAct2, List.Forall, StableHlo.nullary_writes, StableHlo.unary_writes, StableHlo.binary_writes, StableHlo.ternary_writes, StableHlo.reshape_writes, Finset.mem_singleton]
    repeat' apply And.intro
    all_goals exact StableHlo.devRef_ne_of_ne (fun e => hr (by rw [e]; decide))))

/-- 12 operations, ending with %158. -/
abbrev rHead : List (HloOp τ sig (Elt F)) :=
  [ StableHlo.binary main_v98 main_v148 main_v149 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    StableHlo.binary main_v149 main_arg15 main_v150 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg16 main_v151 (broadcastInDim S1x128 ![1] bcast_S128_S1x128_1 : (⟨S128, .f32⟩ : BufTy).Contents (Elt F) → (⟨S1x128, .f32⟩ : BufTy).Contents (Elt F)),
    StableHlo.unary main_v151 main_v152 (broadcastInDim S50000x128 ![0, 1] bcast_S1x128_S50000x128_0_1 : (⟨S1x128, .f32⟩ : BufTy).Contents (Elt F) → (⟨S50000x128, .f32⟩ : BufTy).Contents (Elt F)),
    StableHlo.binary main_v150 main_v152 main_v153 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call8_cst : StableHlo.TRef sig ⟨S_, .f32⟩) (constant S_ .f32 0x00000000#32),
    StableHlo.TRef.unary (.of main_call8_cst : StableHlo.TRef sig ⟨S_, .f32⟩) (.of main_call8_v0 : StableHlo.TRef sig ⟨S50000x128, .f32⟩) (broadcastInDim S50000x128 ![] bcast_S_S50000x128),
    StableHlo.TRef.binary (.of main_v153 : StableHlo.TRef sig ⟨S50000x128, .f32⟩) (.of main_call8_v0 : StableHlo.TRef sig ⟨S50000x128, .f32⟩) (.of main_v154 : StableHlo.TRef sig ⟨S50000x128, .f32⟩) maximumf,
    StableHlo.binary main_v154 main_arg17 main_v155 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg18 main_v156 (broadcastInDim S1x64 ![1] bcast_S64_S1x64_1 : (⟨S64, .f32⟩ : BufTy).Contents (Elt F) → (⟨S1x64, .f32⟩ : BufTy).Contents (Elt F)),
    StableHlo.unary main_v156 main_v157 (broadcastInDim S50000x64 ![0, 1] bcast_S1x64_S50000x64_0_1 : (⟨S1x64, .f32⟩ : BufTy).Contents (Elt F) → (⟨S50000x64, .f32⟩ : BufTy).Contents (Elt F)),
    StableHlo.binary main_v155 main_v157 main_v158 (addf : (⟨S50000x64, .f32⟩ : BufTy).Contents (Elt F) → (⟨S50000x64, .f32⟩ : BufTy).Contents (Elt F) → (⟨S50000x64, .f32⟩ : BufTy).Contents (Elt F)) ]
theorem rHead_sub : (rHead : List (HloOp τ sig (Elt F))).Forall fun op => op.bufs ⊆ StableHlo.tcRefs τ sig :=
  ⟨StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub ..⟩
/-- The buffers rHead writes, in order. -/
abbrev rHead_outs : List (Ref sig .tc) :=
  [main_v149, main_v150, main_v151, main_v152, main_v153, main_call8_cst, main_call8_v0, main_v154, main_v155, main_v156, main_v157, main_v158]
/-- A buffer that rHead does not write keeps its contents through it. -/
theorem keep_rHead (V : Valuation τ sig (Elt F)) (r : Ref sig .tc) (hr : r ∉ rHead_outs) :
    StableHlo.after rHead V (Proc.devRef .tc r) = V (Proc.devRef .tc r) :=
  StableHlo.after_of_forall_not_mem (b := Proc.devRef .tc r) _ _ (List.forall_iff_forall_mem.mp (by
    simp only [rHead, List.Forall, StableHlo.nullary_writes, StableHlo.unary_writes, StableHlo.binary_writes, StableHlo.ternary_writes, StableHlo.reshape_writes, Finset.mem_singleton]
    repeat' apply And.intro
    all_goals exact StableHlo.devRef_ne_of_ne (fun e => hr (by rw [e]; decide))))

end Cert.ReferenceIdeal.Hand

end
-- ==== Proof.RefRun.lean ====
/-
  The reference program's run, read back. Its @main is a straight line of host operations: each window of its text,
  with the module-local functions written out at their calls, IS the sequence of the window's operation list, so the
  whole @main is the sequence of all 227 operations, and every weakly fair execution ends with each buffer at the fold
  of those operations over the launch contents. The fold is then taken apart stage by stage: the operations are the
  concatenation of thirteen stages, and the fold of a concatenation is the fold of its second part over the fold of its
  first.
-/
import proofs.«415847_j84524956385823_2_alg».proof.Proof.RefOps
import Idealize.ShloMosaic.Lib.Pipeline.Frame
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem
open Idealize.ShloMosaic.StableHlo

variable {F : FTy → Type} [FloatOps F]

/-- Each window of @main's text is the sequence of its operations. -/
theorem part0_eq (c : Dev nD) : main_part0 (F := F) c = seq win0 := by chain_rfl
theorem part1_eq (c : Dev nD) : main_part1 (F := F) c = seq win1 := by chain_rfl
theorem part2_eq (c : Dev nD) : main_part2 (F := F) c = seq win2 := by chain_rfl
theorem part3_eq (c : Dev nD) : main_part3 (F := F) c = seq win3 := by chain_rfl

/-- All of @main's operations, stage after stage. -/
abbrev allOps : List (HloOp τ sig (Elt F)) :=
  rLogits ++ (rParsing ++ (rScore ++ (rWeight ++ (rLin0 ++ (rIdx0 ++ (rAgg0 ++ (rAct1 ++ (rLin1 ++ (rIdx1 ++ (rAgg1 ++ (rAct2 ++ rHead)))))))))))

/-- The two cuts list the same operations. -/
theorem wins_eq : (win0 ++ (win1 ++ (win2 ++ win3)) : List (HloOp τ sig (Elt F))) = allOps := rfl

theorem main_eq (c : Dev nD) : main (F := F) c = seq allOps := by
  rw [← wins_eq, seq_append, seq_append, seq_append, ← part0_eq c, ← part1_eq c, ← part2_eq c, ← part3_eq c]
  rfl

theorem forall_append {α : Type} {P : α → Prop} {l₁ l₂ : List α} (h₁ : l₁.Forall P) (h₂ : l₂.Forall P) : (l₁ ++ l₂).Forall P :=
  List.forall_iff_forall_mem.mpr fun x hx =>
    (List.mem_append.mp hx).elim (List.forall_iff_forall_mem.mp h₁ x) (List.forall_iff_forall_mem.mp h₂ x)

theorem allOps_sub : (allOps : List (HloOp τ sig (Elt F))).Forall fun op => op.bufs ⊆ tcRefs τ sig :=
  forall_append rLogits_sub (forall_append rParsing_sub (forall_append rScore_sub (forall_append rWeight_sub
    (forall_append rLin0_sub (forall_append rIdx0_sub (forall_append rAgg0_sub (forall_append rAct1_sub (forall_append rLin1_sub
      (forall_append rIdx1_sub (forall_append rAgg1_sub (forall_append rAct2_sub rHead_sub)))))))))))

theorem scopedRefs_eq : (Finset.univ.filter fun b : Ref sig .tc => b.isScoped) = ∅ := by decide
theorem scopedSems_eq : (Finset.univ.filter fun sm : SemLoc sig => sm.isScoped .tc) = ∅ := by decide

/-- Every weakly fair execution of the reference's @main terminates, nothing faulting, with every TensorCore buffer at
    the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after allOps (launchContents m c) (b : DevRef τ sig) :=
  run_seq scopedRefs_eq scopedSems_eq defs main (fun _ => allOps) main_eq (fun _ => allOps_sub) m ρ

/-- The contents after each stage, from the launch contents `V`. -/
abbrev R1 (V : Valuation τ sig (Elt F)) : Valuation τ sig (Elt F) := after rLogits V
abbrev R2 (V : Valuation τ sig (Elt F)) : Valuation τ sig (Elt F) := after rParsing (R1 V)
abbrev R3 (V : Valuation τ sig (Elt F)) : Valuation τ sig (Elt F) := after rScore (R2 V)
abbrev R4 (V : Valuation τ sig (Elt F)) : Valuation τ sig (Elt F) := after rWeight (R3 V)
abbrev R5 (V : Valuation τ sig (Elt F)) : Valuation τ sig (Elt F) := after rLin0 (R4 V)
abbrev R6 (V : Valuation τ sig (Elt F)) : Valuation τ sig (Elt F) := after rIdx0 (R5 V)
abbrev R7 (V : Valuation τ sig (Elt F)) : Valuation τ sig (Elt F) := after rAgg0 (R6 V)
abbrev R8 (V : Valuation τ sig (Elt F)) : Valuation τ sig (Elt F) := after rAct1 (R7 V)
abbrev R9 (V : Valuation τ sig (Elt F)) : Valuation τ sig (Elt F) := after rLin1 (R8 V)
abbrev R10 (V : Valuation τ sig (Elt F)) : Valuation τ sig (Elt F) := after rIdx1 (R9 V)
abbrev R11 (V : Valuation τ sig (Elt F)) : Valuation τ sig (Elt F) := after rAgg1 (R10 V)
abbrev R12 (V : Valuation τ sig (Elt F)) : Valuation τ sig (Elt F) := after rAct2 (R11 V)
abbrev R13 (V : Valuation τ sig (Elt F)) : Valuation τ sig (Elt F) := after rHead (R12 V)

/-- The fold of all the operations is the stages' folds, one over the other. -/
theorem after_allOps (V : Valuation τ sig (Elt F)) : after allOps V = R13 V := by
  simp only [allOps, StableHlo.after_append]

end Cert.ReferenceIdeal.Hand

end
-- ==== Proof.RefKeep.lean ====
/-
  The reference program's stages, one after the other, never write an argument array, nor any buffer an earlier stage
  filled: a buffer outside every stage's outputs has, after any number of stages, the contents it started with.
-/
import proofs.«415847_j84524956385823_2_alg».proof.Proof.RefRun

noncomputable section

namespace Cert.ReferenceIdeal.Hand

open Cert.ReferenceIdeal Cert.ReferenceIdeal.Gen Idealize.ShloMosaic Idealize.ShloMosaic.TcCoe Idealize.SL.Sem
open Idealize.ShloMosaic.StableHlo

variable {F : FTy → Type} [FloatOps F]

/-- Every buffer some stage writes. -/
abbrev allOuts : List (Ref sig .tc) :=
  rLogits_outs ++ (rParsing_outs ++ (rScore_outs ++ (rWeight_outs ++ (rLin0_outs ++ (rIdx0_outs ++ (rAgg0_outs ++ (rAct1_outs ++
    (rLin1_outs ++ (rIdx1_outs ++ (rAgg1_outs ++ (rAct2_outs ++ rHead_outs)))))))))))

theorem nl {α : Type} {x : α} {l₁ l₂ : List α} (h : x ∉ l₁ ++ l₂) : x ∉ l₁ := fun h' => h (List.mem_append_left _ h')
theorem nr {α : Type} {x : α} {l₁ l₂ : List α} (h : x ∉ l₁ ++ l₂) : x ∉ l₂ := fun h' => h (List.mem_append_right _ h')

variable (V : Valuation τ sig (Elt F)) (r : Ref sig .tc) (h : r ∉ allOuts)
include h

theorem R1_keep : R1 V (Proc.devRef .tc r) = V (Proc.devRef .tc r) := keep_rLogits V r (nl h)
theorem R2_keep : R2 V (Proc.devRef .tc r) = V (Proc.devRef .tc r) := (keep_rParsing _ r (nl (nr h))).trans (R1_keep V r h)
theorem R3_keep : R3 V (Proc.devRef .tc r) = V (Proc.devRef .tc r) := (keep_rScore _ r (nl (nr (nr h)))).trans (R2_keep V r h)
theorem R4_keep : R4 V (Proc.devRef .tc r) = V (Proc.devRef .tc r) := (keep_rWeight _ r (nl (nr (nr (nr h))))).trans (R3_keep V r h)
theorem R5_keep : R5 V (Proc.devRef .tc r) = V (Proc.devRef .tc r) := (keep_rLin0 _ r (nl (nr (nr (nr (nr h)))))).trans (R4_keep V r h)
theorem R6_keep : R6 V (Proc.devRef .tc r) = V (Proc.devRef .tc r) := (keep_rIdx0 _ r (nl (nr (nr (nr (nr (nr h))))))).trans (R5_keep V r h)
theorem R7_keep : R7 V (Proc.devRef .tc r) = V (Proc.devRef .tc r) := (keep_rAgg0 _ r (nl (nr (nr (nr (nr (nr (nr h)))))))).trans (R6_keep V r h)
theorem R8_keep : R8 V (Proc.devRef .tc r) = V (Proc.devRef .tc r) := (keep_rAct1 _ r (nl (nr (nr (nr (nr (nr (nr (nr h))))))))).trans (R7_keep V r h)
theorem R9_keep : R9 V (Proc.devRef .tc r) = V (Proc.devRef .tc r) := (keep_rLin1 _ r (nl (nr (nr (nr (nr (nr (nr (nr (nr h)))))))))).trans (R8_keep V r h)
theorem R10_keep : R10 V (Proc.devRef .tc r) = V (Proc.devRef .tc r) := (keep_rIdx1 _ r (nl (nr (nr (nr (nr (nr (nr (nr (nr (nr h))))))))))).trans (R9_keep V r h)
theorem R11_keep : R11 V (Proc.devRef .tc r) = V (Proc.devRef .tc r) := (keep_rAgg1 _ r (nl (nr (nr (nr (nr (nr (nr (nr (nr (nr (nr h)))))))))))).trans (R10_keep V r h)
theorem R12_keep : R12 V (Proc.devRef .tc r) = V (Proc.devRef .tc r) := (keep_rAct2 _ r (nl (nr (nr (nr (nr (nr (nr (nr (nr (nr (nr (nr h))))))))))))).trans (R11_keep V r h)
theorem R13_keep : R13 V (Proc.devRef .tc r) = V (Proc.devRef .tc r) := (keep_rHead _ r (nr (nr (nr (nr (nr (nr (nr (nr (nr (nr (nr (nr h))))))))))))).trans (R12_keep V r h)

omit h in
/-- At the end of the reference's run a buffer no stage writes holds its launch contents. -/
theorem end_keep (m : (ℓ : Loc nD τ sig) → Buf (Elt F) ℓ) (c : Dev nD) (r : Ref sig .tc) (h : r ∉ allOuts) :
    after allOps (launchContents m c) (Proc.devRef .tc r) = m ((c.tc : Thread nD τ).loc r) := by
  rw [after_allOps]
  exact R13_keep _ r h

end Cert.ReferenceIdeal.Hand

end
-- ==== Proof.KernelOps.lean ====
/- The kernel program's host operations between its regions, as literal lists cut by what is computed: kPre before the
   first region (the two index rows, the rectified doubled parsing matrix, the biases as rows), then between the first
   and the second region kScore (the two row selections, their product, the row sums: the per-edge score), kWeight (its
   standardisation into edge weights) and kAgg0 (the first layer's normalised neighbourhood sum, and its bias as a row),
   and kAgg1 between the second and the third region (the second layer's sum, the head's weight halves and biases as rows).
   With each list: the buffers it writes, and that any other buffer keeps its contents through it.
   The closing equations say each is the concatenation of the generated stretches it was cut from. -/
import proofs.«415847_j84524956385823_2_alg».proof.Proof.Gen.KernelIdeal.Frame
import Idealize.ShloMosaic.Lib.StableHlo.Run
import Idealize.ShloMosaic.Lib.Pipeline.Frame

noncomputable section

namespace Cert.KernelIdeal.Hand

open Cert.KernelIdeal Cert.KernelIdeal.Gen Idealize.ShloMosaic Idealize.ShloMosaic.TcCoe Idealize.SL.Sem

variable {F : FTy → Type} [FloatOps F]

/-- 13 operations. -/
abbrev kPre : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_cst (constant S_ .f32 0x40000000#32),
    StableHlo.unary main_cst main_v4 (broadcastInDim S64x64 ![] bcast_S_S64x64 : (⟨S_, .f32⟩ : BufTy).Contents (Elt F) → (⟨S64x64, .f32⟩ : BufTy).Contents (Elt F)),
    StableHlo.binary main_v4 main_arg8 main_v5 (mulf : (⟨S64x64, .f32⟩ : BufTy).Contents (Elt F) → (⟨S64x64, .f32⟩ : BufTy).Contents (Elt F) → (⟨S64x64, .f32⟩ : BufTy).Contents (Elt F)),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S64x64, .f32⟩) (broadcastInDim S64x64 ![] bcast_S_S64x64),
    StableHlo.TRef.binary (.of main_v5 : StableHlo.TRef sig ⟨S64x64, .f32⟩) (.of main_call0_v0 : StableHlo.TRef sig ⟨S64x64, .f32⟩) (.of main_v6 : StableHlo.TRef sig ⟨S64x64, .f32⟩) maximumf,
    StableHlo.reshape main_arg3 main_v7 rfl shapeCasts_S512_S1x512,
    StableHlo.reshape main_arg5 main_v8 rfl shapeCasts_S64_S1x64,
    StableHlo.reshape main_arg7 main_v9 rfl shapeCasts_S64_S1x64 ]
/-- The buffers kPre writes, in order. -/
abbrev kPre_outs : List (Ref sig .tc) :=
  [main_v0, main_v1, main_v2, main_v3, main_cst, main_v4, main_v5, main_call0_cst, main_call0_v0, main_v6, main_v7, main_v8, main_v9]
/-- A buffer that kPre does not write keeps its contents through it. -/
theorem keep_kPre (V : Valuation τ sig (Elt F)) (r : Ref sig .tc) (hr : r ∉ kPre_outs) :
    StableHlo.after kPre V (Proc.devRef .tc r) = V (Proc.devRef .tc r) :=
  StableHlo.after_of_forall_not_mem (b := Proc.devRef .tc r) _ _ (List.forall_iff_forall_mem.mp (by
    simp only [kPre, List.Forall, StableHlo.nullary_writes, StableHlo.unary_writes, StableHlo.binary_writes, StableHlo.ternary_writes, StableHlo.reshape_writes, Finset.mem_singleton]
    repeat' apply And.intro
    all_goals exact StableHlo.devRef_ne_of_ne (fun e => hr (by rw [e]; decide))))

/-- 49 operations. -/
abbrev kScore : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S800000, .i32⟩) (broadcastInDim S800000 ![] bcast_S_S800000),
    StableHlo.TRef.binary (.of main_v1 : StableHlo.TRef sig ⟨S800000, .i32⟩) (.of main_call1_v0 : StableHlo.TRef sig ⟨S800000, .i32⟩) (.of main_call1_v1 : StableHlo.TRef sig ⟨S800000, .i1⟩) (cmpi .slt),
    StableHlo.TRef.nullary (.of main_call1_c_0 : StableHlo.TRef sig ⟨S_, .i32⟩) (constantI S_ 32 50000#32),
    StableHlo.TRef.unary (.of main_call1_c_0 : StableHlo.TRef sig ⟨S_, .i32⟩) (.of main_call1_v2 : StableHlo.TRef sig ⟨S800000, .i32⟩) (broadcastInDim S800000 ![] bcast_S_S800000),
    StableHlo.TRef.binary (.of main_v1 : StableHlo.TRef sig ⟨S800000, .i32⟩) (.of main_call1_v2 : StableHlo.TRef sig ⟨S800000, .i32⟩) (.of main_call1_v3 : StableHlo.TRef sig ⟨S800000, .i32⟩) addi,
    StableHlo.TRef.ternary (.of main_call1_v1 : StableHlo.TRef sig ⟨S800000, .i1⟩) (.of main_call1_v3 : StableHlo.TRef sig ⟨S800000, .i32⟩) (.of main_v1 : StableHlo.TRef sig ⟨S800000, .i32⟩) (.of main_call1_v4 : StableHlo.TRef sig ⟨S800000, .i32⟩) select,
    StableHlo.TRef.unary main_call1_call0.v0 (.of main_call1_v5 : StableHlo.TRef sig ⟨S800000x1, .i32⟩) (broadcastInDim S800000x1 ![0] bcast_S800000_S800000x1_0),
    StableHlo.TRef.nullary (.of main_call1_c_1 : StableHlo.TRef sig ⟨S1, .i32⟩) (constantI S1 32 49999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S800000x1, .i32⟩) (broadcastInDim S800000x1 ![] bcast_S_S800000x1),
    StableHlo.TRef.binary (.of main_call1_v5 : StableHlo.TRef sig ⟨S800000x1, .i32⟩) (.of main_call1_v6 : StableHlo.TRef sig ⟨S800000x1, .i32⟩) (.of main_call1_v7 : StableHlo.TRef sig ⟨S800000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S800000x1, .i32⟩) (broadcastInDim S800000x1 ![0, 1] bcast_S1x1_S800000x1_0_1),
    StableHlo.TRef.binary (.of main_call1_v5 : StableHlo.TRef sig ⟨S800000x1, .i32⟩) (.of main_call1_v9 : StableHlo.TRef sig ⟨S800000x1, .i32⟩) (.of main_call1_v10 : StableHlo.TRef sig ⟨S800000x1, .i1⟩) (cmpi .sle),
    StableHlo.TRef.binary (.of main_call1_v7 : StableHlo.TRef sig ⟨S800000x1, .i1⟩) (.of main_call1_v10 : StableHlo.TRef sig ⟨S800000x1, .i1⟩) (.of main_call1_v11 : StableHlo.TRef sig ⟨S800000x1, .i1⟩) andi,
    StableHlo.TRef.nullary (.of main_call1_c_3 : StableHlo.TRef sig ⟨S_, .i1⟩) (constantI S_ 1 1#1),
    StableHlo.TRef.binary (.of main_call1_v11 : StableHlo.TRef sig ⟨S800000x1, .i1⟩) (.of main_call1_c_3 : StableHlo.TRef sig ⟨S_, .i1⟩) (.of main_call1_v12 : StableHlo.TRef sig ⟨S800000, .i1⟩) (fun x v => Host.reduce IntOp.andi x v reducesTo_S800000x1_S800000_d1 h_S_),
    StableHlo.TRef.binary (.of main_v10_0 : StableHlo.TRef sig ⟨S50000x64, .f32⟩) (.of main_call1_v5 : StableHlo.TRef sig ⟨S800000x1, .i32⟩) (.of main_call1_v13 : StableHlo.TRef sig ⟨S800000x64, .f32⟩) (fun x i => Host.gather gather_S50000x64_S800000x1_S800000x64_1_0_n_n_0_1_164 x i),
    StableHlo.TRef.unary (.of main_call1_v12 : StableHlo.TRef sig ⟨S800000, .i1⟩) (.of main_call1_v14 : StableHlo.TRef sig ⟨S800000x64, .i1⟩) (broadcastInDim S800000x64 ![0] bcast_S800000_S800000x64_0),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S800000x64, .f32⟩) (broadcastInDim S800000x64 ![] bcast_S_S800000x64),
    StableHlo.TRef.ternary (.of main_call1_v14 : StableHlo.TRef sig ⟨S800000x64, .i1⟩) (.of main_call1_v13 : StableHlo.TRef sig ⟨S800000x64, .f32⟩) (.of main_call1_v15 : StableHlo.TRef sig ⟨S800000x64, .f32⟩) (.of main_v11 : StableHlo.TRef sig ⟨S800000x64, .f32⟩) select,
    StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S800000, .i32⟩) (broadcastInDim S800000 ![] bcast_S_S800000),
    StableHlo.TRef.binary (.of main_v3 : StableHlo.TRef sig ⟨S800000, .i32⟩) (.of main_call2_v0 : StableHlo.TRef sig ⟨S800000, .i32⟩) (.of main_call2_v1 : StableHlo.TRef sig ⟨S800000, .i1⟩) (cmpi .slt),
    StableHlo.TRef.nullary (.of main_call2_c_0 : StableHlo.TRef sig ⟨S_, .i32⟩) (constantI S_ 32 50000#32),
    StableHlo.TRef.unary (.of main_call2_c_0 : StableHlo.TRef sig ⟨S_, .i32⟩) (.of main_call2_v2 : StableHlo.TRef sig ⟨S800000, .i32⟩) (broadcastInDim S800000 ![] bcast_S_S800000),
    StableHlo.TRef.binary (.of main_v3 : StableHlo.TRef sig ⟨S800000, .i32⟩) (.of main_call2_v2 : StableHlo.TRef sig ⟨S800000, .i32⟩) (.of main_call2_v3 : StableHlo.TRef sig ⟨S800000, .i32⟩) addi,
    StableHlo.TRef.ternary (.of main_call2_v1 : StableHlo.TRef sig ⟨S800000, .i1⟩) (.of main_call2_v3 : StableHlo.TRef sig ⟨S800000, .i32⟩) (.of main_v3 : StableHlo.TRef sig ⟨S800000, .i32⟩) (.of main_call2_v4 : StableHlo.TRef sig ⟨S800000, .i32⟩) select,
    StableHlo.TRef.unary main_call2_call0.v0 (.of main_call2_v5 : StableHlo.TRef sig ⟨S800000x1, .i32⟩) (broadcastInDim S800000x1 ![0] bcast_S800000_S800000x1_0),
    StableHlo.TRef.nullary (.of main_call2_c_1 : StableHlo.TRef sig ⟨S1, .i32⟩) (constantI S1 32 49999#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S800000x1, .i32⟩) (broadcastInDim S800000x1 ![] bcast_S_S800000x1),
    StableHlo.TRef.binary (.of main_call2_v5 : StableHlo.TRef sig ⟨S800000x1, .i32⟩) (.of main_call2_v6 : StableHlo.TRef sig ⟨S800000x1, .i32⟩) (.of main_call2_v7 : StableHlo.TRef sig ⟨S800000x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] bcast_S1_S1x1_1),
    StableHlo.TRef.unary (.of main_call2_v8 : StableHlo.TRef sig ⟨S1x1, .i32⟩) (.of main_call2_v9 : StableHlo.TRef sig ⟨S800000x1, .i32⟩) (broadcastInDim S800000x1 ![0, 1] bcast_S1x1_S800000x1_0_1),
    StableHlo.TRef.binary (.of main_call2_v5 : StableHlo.TRef sig ⟨S800000x1, .i32⟩) (.of main_call2_v9 : StableHlo.TRef sig ⟨S800000x1, .i32⟩) (.of main_call2_v10 : StableHlo.TRef sig ⟨S800000x1, .i1⟩) (cmpi .sle),
    StableHlo.TRef.binary (.of main_call2_v7 : StableHlo.TRef sig ⟨S800000x1, .i1⟩) (.of main_call2_v10 : StableHlo.TRef sig ⟨S800000x1, .i1⟩) (.of main_call2_v11 : StableHlo.TRef sig ⟨S800000x1, .i1⟩) andi,
    StableHlo.TRef.nullary (.of main_call2_c_3 : StableHlo.TRef sig ⟨S_, .i1⟩) (constantI S_ 1 1#1),
    StableHlo.TRef.binary (.of main_call2_v11 : StableHlo.TRef sig ⟨S800000x1, .i1⟩) (.of main_call2_c_3 : StableHlo.TRef sig ⟨S_, .i1⟩) (.of main_call2_v12 : StableHlo.TRef sig ⟨S800000, .i1⟩) (fun x v => Host.reduce IntOp.andi x v reducesTo_S800000x1_S800000_d1 h_S_),
    StableHlo.TRef.binary (.of main_v10_1 : StableHlo.TRef sig ⟨S50000x64, .f32⟩) (.of main_call2_v5 : StableHlo.TRef sig ⟨S800000x1, .i32⟩) (.of main_call2_v13 : StableHlo.TRef sig ⟨S800000x64, .f32⟩) (fun x i => Host.gather gather_S50000x64_S800000x1_S800000x64_1_0_n_n_0_1_164 x i),
    StableHlo.TRef.unary (.of main_call2_v12 : StableHlo.TRef sig ⟨S800000, .i1⟩) (.of main_call2_v14 : StableHlo.TRef sig ⟨S800000x64, .i1⟩) (broadcastInDim S800000x64 ![0] bcast_S800000_S800000x64_0),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v15 : StableHlo.TRef sig ⟨S800000x64, .f32⟩) (broadcastInDim S800000x64 ![] bcast_S_S800000x64),
    StableHlo.TRef.ternary (.of main_call2_v14 : StableHlo.TRef sig ⟨S800000x64, .i1⟩) (.of main_call2_v13 : StableHlo.TRef sig ⟨S800000x64, .f32⟩) (.of main_call2_v15 : StableHlo.TRef sig ⟨S800000x64, .f32⟩) (.of main_v12 : StableHlo.TRef sig ⟨S800000x64, .f32⟩) select,
    StableHlo.binary main_v11 main_v12 main_v13 (mulf : (⟨S800000x64, .f32⟩ : BufTy).Contents (Elt F) → (⟨S800000x64, .f32⟩ : BufTy).Contents (Elt F) → (⟨S800000x64, .f32⟩ : BufTy).Contents (Elt F)),
    StableHlo.nullary main_cst_0 (constant S_ .f32 0x00000000#32),
    StableHlo.binary main_v13 main_cst_0 main_v14 ((fun x v => Host.reduceAdd x v reducesTo_S800000x64_S800000_d1 h_S_) : (⟨S800000x64, .f32⟩ : BufTy).Contents (Elt F) → (⟨S_, .f32⟩ : BufTy).Contents (Elt F) → (⟨S800000, .f32⟩ : BufTy).Contents (Elt F)) ]
/-- The buffers kScore writes, in order. -/
abbrev kScore_outs : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v11, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v12, main_v13, main_cst_0, main_v14]
/-- A buffer that kScore does not write keeps its contents through it. -/
theorem keep_kScore (V : Valuation τ sig (Elt F)) (r : Ref sig .tc) (hr : r ∉ kScore_outs) :
    StableHlo.after kScore V (Proc.devRef .tc r) = V (Proc.devRef .tc r) :=
  StableHlo.after_of_forall_not_mem (b := Proc.devRef .tc r) _ _ (List.forall_iff_forall_mem.mp (by
    simp only [kScore, List.Forall, StableHlo.nullary_writes, StableHlo.unary_writes, StableHlo.binary_writes, StableHlo.ternary_writes, StableHlo.reshape_writes, Finset.mem_singleton]
    repeat' apply And.intro
    all_goals exact StableHlo.devRef_ne_of_ne (fun e => hr (by rw [e]; decide))))

/-- 35 operations. -/
abbrev kWeight : List (HloOp τ sig (Elt F)) :=
  [ StableHlo.nullary main_cst_1 (constant S_ .f32 0x00000000#32),
    StableHlo.binary main_v14 main_cst_1 main_v15 ((fun x v => Host.reduceAdd x v reducesTo_S800000_S_d0 h_S_) : (⟨S800000, .f32⟩ : BufTy).Contents (Elt F) → (⟨S_, .f32⟩ : BufTy).Contents (Elt F) → (⟨S_, .f32⟩ : BufTy).Contents (Elt F)),
    StableHlo.nullary main_cst_2 (constant S_ .f32 0x49435000#32),
    StableHlo.binary main_v15 main_cst_2 main_v16 (Host.divf : (⟨S_, .f32⟩ : BufTy).Contents (Elt F) → (⟨S_, .f32⟩ : BufTy).Contents (Elt F) → (⟨S_, .f32⟩ : BufTy).Contents (Elt F)),
    StableHlo.nullary main_c (constantI S_ 32 1#32),
    StableHlo.TRef.nullary (.of main_call3_cst : StableHlo.TRef sig ⟨S_, .f32⟩) (constant S_ .f32 0x00000000#32),
    StableHlo.TRef.binary (.of main_v14 : StableHlo.TRef sig ⟨S800000, .f32⟩) (.of main_call3_cst : StableHlo.TRef sig ⟨S_, .f32⟩) (.of main_call3_v0 : StableHlo.TRef sig ⟨S_, .f32⟩) (fun x v => Host.reduceAdd x v reducesTo_S800000_S_d0 h_S_),
    StableHlo.TRef.unary (.of main_call3_v0 : StableHlo.TRef sig ⟨S_, .f32⟩) (.of main_call3_v1 : StableHlo.TRef sig ⟨S1, .f32⟩) (broadcastInDim S1 ![] bcast_S_S1),
    StableHlo.TRef.nullary (.of main_call3_cst_0 : StableHlo.TRef sig ⟨S_, .f32⟩) (constant S_ .f32 0x49435000#32),
    StableHlo.TRef.unary (.of main_call3_cst_0 : StableHlo.TRef sig ⟨S_, .f32⟩) (.of main_call3_v2 : StableHlo.TRef sig ⟨S1, .f32⟩) (broadcastInDim S1 ![] bcast_S_S1),
    StableHlo.TRef.binary (.of main_call3_v1 : StableHlo.TRef sig ⟨S1, .f32⟩) (.of main_call3_v2 : StableHlo.TRef sig ⟨S1, .f32⟩) (.of main_call3_v3 : StableHlo.TRef sig ⟨S1, .f32⟩) Host.divf,
    StableHlo.TRef.unary (.of main_call3_v3 : StableHlo.TRef sig ⟨S1, .f32⟩) (.of main_call3_v4 : StableHlo.TRef sig ⟨S800000, .f32⟩) (broadcastInDim S800000 ![0] bcast_S1_S800000_0),
    StableHlo.TRef.binary (.of main_v14 : StableHlo.TRef sig ⟨S800000, .f32⟩) (.of main_call3_v4 : StableHlo.TRef sig ⟨S800000, .f32⟩) (.of main_call3_v5 : StableHlo.TRef sig ⟨S800000, .f32⟩) subf,
    StableHlo.TRef.binary (.of main_call3_v5 : StableHlo.TRef sig ⟨S800000, .f32⟩) (.of main_call3_v5 : StableHlo.TRef sig ⟨S800000, .f32⟩) (.of main_call3_v6 : StableHlo.TRef sig ⟨S800000, .f32⟩) mulf,
    StableHlo.TRef.unary (.of main_c : StableHlo.TRef sig ⟨S_, .i32⟩) (.of main_call3_v7 : StableHlo.TRef sig ⟨S_, .f32⟩) (sitofp .f32),
    StableHlo.TRef.nullary (.of main_call3_cst_1 : StableHlo.TRef sig ⟨S_, .f32⟩) (constant S_ .f32 0x49435000#32),
    StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
    StableHlo.TRef.nullary (.of main_call3_cst_2 : StableHlo.TRef sig ⟨S_, .f32⟩) (constant S_ .f32 0x00000000#32),
    StableHlo.TRef.binary (.of main_call3_v6 : StableHlo.TRef sig ⟨S800000, .f32⟩) (.of main_call3_cst_2 : StableHlo.TRef sig ⟨S_, .f32⟩) (.of main_call3_v9 : StableHlo.TRef sig ⟨S_, .f32⟩) (fun x v => Host.reduceAdd x v reducesTo_S800000_S_d0 h_S_),
    StableHlo.TRef.binary (.of main_call3_v9 : StableHlo.TRef sig ⟨S_, .f32⟩) (.of main_call3_v8 : StableHlo.TRef sig ⟨S_, .f32⟩) (.of main_call3_v10 : StableHlo.TRef sig ⟨S_, .f32⟩) Host.divf,
    StableHlo.TRef.nullary (.of main_call3_cst_3 : StableHlo.TRef sig ⟨S_, .f32⟩) (constant S_ .f32 0x00000000#32),
    StableHlo.TRef.binary (.of main_call3_v8 : StableHlo.TRef sig ⟨S_, .f32⟩) (.of main_call3_cst_3 : StableHlo.TRef sig ⟨S_, .f32⟩) (.of main_call3_v11 : StableHlo.TRef sig ⟨S_, .i1⟩) (cmpf .ogt),
    StableHlo.TRef.nullary (.of main_call3_cst_4 : StableHlo.TRef sig ⟨S_, .f32⟩) (constant S_ .f32 0x7FC00000#32),
    StableHlo.TRef.unary (.of main_call3_cst_4 : StableHlo.TRef sig ⟨S_, .f32⟩) (.of main_call3_call0_v0 : StableHlo.TRef sig ⟨S_, .f32⟩) id,
    StableHlo.TRef.ternary (.of main_call3_v11 : StableHlo.TRef sig ⟨S_, .i1⟩) (.of main_call3_v10 : StableHlo.TRef sig ⟨S_, .f32⟩) (.of main_call3_call0_v0 : StableHlo.TRef sig ⟨S_, .f32⟩) (.of main_v17 : StableHlo.TRef sig ⟨S_, .f32⟩) select,
    StableHlo.unary main_v16 main_v18 (broadcastInDim S800000 ![] bcast_S_S800000 : (⟨S_, .f32⟩ : BufTy).Contents (Elt F) → (⟨S800000, .f32⟩ : BufTy).Contents (Elt F)),
    StableHlo.binary main_v14 main_v18 main_v19 (subf : (⟨S800000, .f32⟩ : BufTy).Contents (Elt F) → (⟨S800000, .f32⟩ : BufTy).Contents (Elt F) → (⟨S800000, .f32⟩ : BufTy).Contents (Elt F)),
    StableHlo.nullary main_cst_3 (constant S_ .f32 0x38D1B717#32),
    StableHlo.binary main_cst_3 main_v17 main_v20 (Host.divf : (⟨S_, .f32⟩ : BufTy).Contents (Elt F) → (⟨S_, .f32⟩ : BufTy).Contents (Elt F) → (⟨S_, .f32⟩ : BufTy).Contents (Elt F)),
    StableHlo.unary main_v20 main_v21 (Host.sqrt : (⟨S_, .f32⟩ : BufTy).Contents (Elt F) → (⟨S_, .f32⟩ : BufTy).Contents (Elt F)),
    StableHlo.unary main_v21 main_v22 (broadcastInDim S800000 ![] bcast_S_S800000 : (⟨S_, .f32⟩ : BufTy).Contents (Elt F) → (⟨S800000, .f32⟩ : BufTy).Contents (Elt F)),
    StableHlo.binary main_v19 main_v22 main_v23 (mulf : (⟨S800000, .f32⟩ : BufTy).Contents (Elt F) → (⟨S800000, .f32⟩ : BufTy).Contents (Elt F) → (⟨S800000, .f32⟩ : BufTy).Contents (Elt F)),
    StableHlo.nullary main_cst_4 (constant S_ .f32 0x3F800000#32),
    StableHlo.unary main_cst_4 main_v24 (broadcastInDim S800000 ![] bcast_S_S800000 : (⟨S_, .f32⟩ : BufTy).Contents (Elt F) → (⟨S800000, .f32⟩ : BufTy).Contents (Elt F)),
    StableHlo.binary main_v23 main_v24 main_v25 (addf : (⟨S800000, .f32⟩ : BufTy).Contents (Elt F) → (⟨S800000, .f32⟩ : BufTy).Contents (Elt F) → (⟨S800000, .f32⟩ : BufTy).Contents (Elt F)) ]
/-- The buffers kWeight writes, in order. -/
abbrev kWeight_outs : List (Ref sig .tc) :=
  [main_cst_1, main_v15, main_cst_2, main_v16, main_c, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_cst_3, main_call3_v11, main_call3_cst_4, main_call3_call0_v0, main_v17, main_v18, main_v19, main_cst_3, main_v20, main_v21, main_v22, main_v23, main_cst_4, main_v24, main_v25]
/-- A buffer that kWeight does not write keeps its contents through it. -/
theorem keep_kWeight (V : Valuation τ sig (Elt F)) (r : Ref sig .tc) (hr : r ∉ kWeight_outs) :
    StableHlo.after kWeight V (Proc.devRef .tc r) = V (Proc.devRef .tc r) :=
  StableHlo.after_of_forall_not_mem (b := Proc.devRef .tc r) _ _ (List.forall_iff_forall_mem.mp (by
    simp only [kWeight, List.Forall, StableHlo.nullary_writes, StableHlo.unary_writes, StableHlo.binary_writes, StableHlo.ternary_writes, StableHlo.reshape_writes, Finset.mem_singleton]
    repeat' apply And.intro
    all_goals exact StableHlo.devRef_ne_of_ne (fun e => hr (by rw [e]; decide))))

/-- 55 operations. -/
abbrev kAgg0 : List (HloOp τ sig (Elt F)) :=
  [ StableHlo.nullary main_v26 (iotaInDim S50000 32 0),
    StableHlo.binary main_v1 main_v26 main_v27 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v26 main_v28 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_5 (constant S_ .f32 0x3F800000#32),
    StableHlo.unary main_cst_5 main_v29 (broadcastInDim S50000 ![] bcast_S_S50000 : (⟨S_, .f32⟩ : BufTy).Contents (Elt F) → (⟨S50000, .f32⟩ : BufTy).Contents (Elt F)),
    StableHlo.binary main_v25 main_v29 main_v30 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    StableHlo.nullary main_cst_6 (constant S_ .f32 0x00000000#32),
    StableHlo.unary main_cst_6 main_v31 (broadcastInDim S50000 ![] bcast_S_S50000 : (⟨S_, .f32⟩ : BufTy).Contents (Elt F) → (⟨S50000, .f32⟩ : BufTy).Contents (Elt F)),
    StableHlo.unary main_v28 main_v32 (broadcastInDim S850000x1 ![0] bcast_S850000_S850000x1_0 : (⟨S850000, .i32⟩ : BufTy).Contents (Elt F) → (⟨S850000x1, .i32⟩ : BufTy).Contents (Elt F)),
    StableHlo.ternary main_v31 main_v32 main_v30 main_v33 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_7 (constant S_ .f32 0x00000000#32),
    StableHlo.unary main_cst_7 main_v34 (broadcastInDim S50000 ![] bcast_S_S50000 : (⟨S_, .f32⟩ : BufTy).Contents (Elt F) → (⟨S50000, .f32⟩ : BufTy).Contents (Elt F)),
    StableHlo.binary main_v33 main_v34 main_v35 (cmpf .ogt : (⟨S50000, .f32⟩ : BufTy).Contents (Elt F) → (⟨S50000, .f32⟩ : BufTy).Contents (Elt F) → (⟨S50000, .i1⟩ : BufTy).Contents (Elt F)),
    StableHlo.unary main_v33 main_v36 (Host.rsqrt : (⟨S50000, .f32⟩ : BufTy).Contents (Elt F) → (⟨S50000, .f32⟩ : BufTy).Contents (Elt F)),
    StableHlo.nullary main_cst_8 (constant S_ .f32 0x00000000#32),
    StableHlo.TRef.unary (.of main_cst_8 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S50000, .f32⟩) (broadcastInDim S50000 ![] bcast_S_S50000),
    StableHlo.TRef.ternary (.of main_v35 : StableHlo.TRef sig ⟨S50000, .i1⟩) (.of main_v36 : StableHlo.TRef sig ⟨S50000, .f32⟩) (.of main_call4_v1 : StableHlo.TRef sig ⟨S50000, .f32⟩) (.of main_v37 : StableHlo.TRef sig ⟨S50000, .f32⟩) select,
    StableHlo.nullary main_c_9 (constantI S_ 32 0#32),
    StableHlo.unary main_c_9 main_v38 (broadcastInDim S850000 ![] bcast_S_S850000 : (⟨S_, .i32⟩ : BufTy).Contents (Elt F) → (⟨S850000, .i32⟩ : BufTy).Contents (Elt F)),
    StableHlo.binary main_v27 main_v38 main_v39 (cmpi .slt : (⟨S850000, .i32⟩ : BufTy).Contents (Elt F) → (⟨S850000, .i32⟩ : BufTy).Contents (Elt F) → (⟨S850000, .i1⟩ : BufTy).Contents (Elt F)),
    StableHlo.nullary main_c_10 (constantI S_ 32 50000#32),
    StableHlo.unary main_c_10 main_v40 (broadcastInDim S850000 ![] bcast_S_S850000 : (⟨S_, .i32⟩ : BufTy).Contents (Elt F) → (⟨S850000, .i32⟩ : BufTy).Contents (Elt F)),
    StableHlo.binary main_v27 main_v40 main_v41 (addi : (⟨S850000, .i32⟩ : BufTy).Contents (Elt F) → (⟨S850000, .i32⟩ : BufTy).Contents (Elt F) → (⟨S850000, .i32⟩ : BufTy).Contents (Elt F)),
    StableHlo.ternary main_v39 main_v41 main_v27 main_v42 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v42 main_v43 (broadcastInDim S850000x1 ![0] bcast_S850000_S850000x1_0 : (⟨S850000, .i32⟩ : BufTy).Contents (Elt F) → (⟨S850000x1, .i32⟩ : BufTy).Contents (Elt F)),
    StableHlo.binary main_v37 main_v43 main_v44 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v44 main_v30 main_v45 (mulf : (⟨S850000, .f32⟩ : BufTy).Contents (Elt F) → (⟨S850000, .f32⟩ : BufTy).Contents (Elt F) → (⟨S850000, .f32⟩ : BufTy).Contents (Elt F)),
    StableHlo.nullary main_c_11 (constantI S_ 32 0#32),
    StableHlo.unary main_c_11 main_v46 (broadcastInDim S850000 ![] bcast_S_S850000 : (⟨S_, .i32⟩ : BufTy).Contents (Elt F) → (⟨S850000, .i32⟩ : BufTy).Contents (Elt F)),
    StableHlo.binary main_v28 main_v46 main_v47 (cmpi .slt : (⟨S850000, .i32⟩ : BufTy).Contents (Elt F) → (⟨S850000, .i32⟩ : BufTy).Contents (Elt F) → (⟨S850000, .i1⟩ : BufTy).Contents (Elt F)),
    StableHlo.nullary main_c_12 (constantI S_ 32 50000#32),
    StableHlo.unary main_c_12 main_v48 (broadcastInDim S850000 ![] bcast_S_S850000 : (⟨S_, .i32⟩ : BufTy).Contents (Elt F) → (⟨S850000, .i32⟩ : BufTy).Contents (Elt F)),
    StableHlo.binary main_v28 main_v48 main_v49 (addi : (⟨S850000, .i32⟩ : BufTy).Contents (Elt F) → (⟨S850000, .i32⟩ : BufTy).Contents (Elt F) → (⟨S850000, .i32⟩ : BufTy).Contents (Elt F)),
    StableHlo.ternary main_v47 main_v49 main_v28 main_v50 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v50 main_v51 (broadcastInDim S850000x1 ![0] bcast_S850000_S850000x1_0 : (⟨S850000, .i32⟩ : BufTy).Contents (Elt F) → (⟨S850000x1, .i32⟩ : BufTy).Contents (Elt F)),
    StableHlo.binary main_v37 main_v51 main_v52 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v45 main_v52 main_v53 (mulf : (⟨S850000, .f32⟩ : BufTy).Contents (Elt F) → (⟨S850000, .f32⟩ : BufTy).Contents (Elt F) → (⟨S850000, .f32⟩ : BufTy).Contents (Elt F)),
    StableHlo.unary main_v53 main_v54 (broadcastInDim S850000x1 ![0] bcast_S850000_S850000x1_0 : (⟨S850000, .f32⟩ : BufTy).Contents (Elt F) → (⟨S850000x1, .f32⟩ : BufTy).Contents (Elt F)),
    StableHlo.nullary main_c_13 (constantI S_ 32 0#32),
    StableHlo.unary main_c_13 main_v55 (broadcastInDim S850000 ![] bcast_S_S850000 : (⟨S_, .i32⟩ : BufTy).Contents (Elt F) → (⟨S850000, .i32⟩ : BufTy).Contents (Elt F)),
    StableHlo.binary main_v27 main_v55 main_v56 (cmpi .slt : (⟨S850000, .i32⟩ : BufTy).Contents (Elt F) → (⟨S850000, .i32⟩ : BufTy).Contents (Elt F) → (⟨S850000, .i1⟩ : BufTy).Contents (Elt F)),
    StableHlo.nullary main_c_14 (constantI S_ 32 50000#32),
    StableHlo.unary main_c_14 main_v57 (broadcastInDim S850000 ![] bcast_S_S850000 : (⟨S_, .i32⟩ : BufTy).Contents (Elt F) → (⟨S850000, .i32⟩ : BufTy).Contents (Elt F)),
    StableHlo.binary main_v27 main_v57 main_v58 (addi : (⟨S850000, .i32⟩ : BufTy).Contents (Elt F) → (⟨S850000, .i32⟩ : BufTy).Contents (Elt F) → (⟨S850000, .i32⟩ : BufTy).Contents (Elt F)),
    StableHlo.ternary main_v56 main_v58 main_v27 main_v59 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v59 main_v60 (broadcastInDim S850000x1 ![0] bcast_S850000_S850000x1_0 : (⟨S850000, .i32⟩ : BufTy).Contents (Elt F) → (⟨S850000x1, .i32⟩ : BufTy).Contents (Elt F)),
    StableHlo.binary main_v10_2 main_v60 main_v61 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v54 main_v62 (broadcastInDim S850000x128 ![0, 1] bcast_S850000x1_S850000x128_0_1 : (⟨S850000x1, .f32⟩ : BufTy).Contents (Elt F) → (⟨S850000x128, .f32⟩ : BufTy).Contents (Elt F)),
    StableHlo.binary main_v62 main_v61 main_v63 (mulf : (⟨S850000x128, .f32⟩ : BufTy).Contents (Elt F) → (⟨S850000x128, .f32⟩ : BufTy).Contents (Elt F) → (⟨S850000x128, .f32⟩ : BufTy).Contents (Elt F)),
    StableHlo.nullary main_cst_15 (constant S_ .f32 0x00000000#32),
    StableHlo.unary main_cst_15 main_v64 (broadcastInDim S50000x128 ![] bcast_S_S50000x128 : (⟨S_, .f32⟩ : BufTy).Contents (Elt F) → (⟨S50000x128, .f32⟩ : BufTy).Contents (Elt F)),
    StableHlo.unary main_v28 main_v65 (broadcastInDim S850000x1 ![0] bcast_S850000_S850000x1_0 : (⟨S850000, .i32⟩ : BufTy).Contents (Elt F) → (⟨S850000x1, .i32⟩ : BufTy).Contents (Elt F)),
    StableHlo.ternary main_v64 main_v65 main_v63 main_v66 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.reshape main_arg10 main_v67 rfl shapeCasts_S128_S1x128 ]
/-- The buffers kAgg0 writes, in order. -/
abbrev kAgg0_outs : List (Ref sig .tc) :=
  [main_v26, main_v27, main_v28, main_cst_5, main_v29, main_v30, main_cst_6, main_v31, main_v32, main_v33, main_cst_7, main_v34, main_v35, main_v36, main_cst_8, main_call4_v0, main_call4_v1, main_v37, main_c_9, main_v38, main_v39, main_c_10, main_v40, main_v41, main_v42, main_v43, main_v44, main_v45, main_c_11, main_v46, main_v47, main_c_12, main_v48, main_v49, main_v50, main_v51, main_v52, main_v53, main_v54, main_c_13, main_v55, main_v56, main_c_14, main_v57, main_v58, main_v59, main_v60, main_v61, main_v62, main_v63, main_cst_15, main_v64, main_v65, main_v66, main_v67]
/-- A buffer that kAgg0 does not write keeps its contents through it. -/
theorem keep_kAgg0 (V : Valuation τ sig (Elt F)) (r : Ref sig .tc) (hr : r ∉ kAgg0_outs) :
    StableHlo.after kAgg0 V (Proc.devRef .tc r) = V (Proc.devRef .tc r) :=
  StableHlo.after_of_forall_not_mem (b := Proc.devRef .tc r) _ _ (List.forall_iff_forall_mem.mp (by
    simp only [kAgg0, List.Forall, StableHlo.nullary_writes, StableHlo.unary_writes, StableHlo.binary_writes, StableHlo.ternary_writes, StableHlo.reshape_writes, Finset.mem_singleton]
    repeat' apply And.intro
    all_goals exact StableHlo.devRef_ne_of_ne (fun e => hr (by rw [e]; decide))))

/-- 59 operations. -/
abbrev kAgg1 : List (HloOp τ sig (Elt F)) :=
  [ StableHlo.nullary main_v69 (iotaInDim S50000 32 0),
    StableHlo.binary main_v1 main_v69 main_v70 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v69 main_v71 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_16 (constant S_ .f32 0x3F800000#32),
    StableHlo.unary main_cst_16 main_v72 (broadcastInDim S50000 ![] bcast_S_S50000 : (⟨S_, .f32⟩ : BufTy).Contents (Elt F) → (⟨S50000, .f32⟩ : BufTy).Contents (Elt F)),
    StableHlo.binary main_v25 main_v72 main_v73 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    StableHlo.nullary main_cst_17 (constant S_ .f32 0x00000000#32),
    StableHlo.unary main_cst_17 main_v74 (broadcastInDim S50000 ![] bcast_S_S50000 : (⟨S_, .f32⟩ : BufTy).Contents (Elt F) → (⟨S50000, .f32⟩ : BufTy).Contents (Elt F)),
    StableHlo.unary main_v71 main_v75 (broadcastInDim S850000x1 ![0] bcast_S850000_S850000x1_0 : (⟨S850000, .i32⟩ : BufTy).Contents (Elt F) → (⟨S850000x1, .i32⟩ : BufTy).Contents (Elt F)),
    StableHlo.ternary main_v74 main_v75 main_v73 main_v76 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_18 (constant S_ .f32 0x00000000#32),
    StableHlo.unary main_cst_18 main_v77 (broadcastInDim S50000 ![] bcast_S_S50000 : (⟨S_, .f32⟩ : BufTy).Contents (Elt F) → (⟨S50000, .f32⟩ : BufTy).Contents (Elt F)),
    StableHlo.binary main_v76 main_v77 main_v78 (cmpf .ogt : (⟨S50000, .f32⟩ : BufTy).Contents (Elt F) → (⟨S50000, .f32⟩ : BufTy).Contents (Elt F) → (⟨S50000, .i1⟩ : BufTy).Contents (Elt F)),
    StableHlo.unary main_v76 main_v79 (Host.rsqrt : (⟨S50000, .f32⟩ : BufTy).Contents (Elt F) → (⟨S50000, .f32⟩ : BufTy).Contents (Elt F)),
    StableHlo.nullary main_cst_19 (constant S_ .f32 0x00000000#32),
    StableHlo.TRef.unary (.of main_cst_19 : StableHlo.TRef sig ⟨S_, .f32⟩) (.of main_call5_v0 : StableHlo.TRef sig ⟨S_, .f32⟩) id,
    StableHlo.TRef.unary (.of main_call5_v0 : StableHlo.TRef sig ⟨S_, .f32⟩) (.of main_call5_v1 : StableHlo.TRef sig ⟨S50000, .f32⟩) (broadcastInDim S50000 ![] bcast_S_S50000),
    StableHlo.TRef.ternary (.of main_v78 : StableHlo.TRef sig ⟨S50000, .i1⟩) (.of main_v79 : StableHlo.TRef sig ⟨S50000, .f32⟩) (.of main_call5_v1 : StableHlo.TRef sig ⟨S50000, .f32⟩) (.of main_v80 : StableHlo.TRef sig ⟨S50000, .f32⟩) select,
    StableHlo.nullary main_c_20 (constantI S_ 32 0#32),
    StableHlo.unary main_c_20 main_v81 (broadcastInDim S850000 ![] bcast_S_S850000 : (⟨S_, .i32⟩ : BufTy).Contents (Elt F) → (⟨S850000, .i32⟩ : BufTy).Contents (Elt F)),
    StableHlo.binary main_v70 main_v81 main_v82 (cmpi .slt : (⟨S850000, .i32⟩ : BufTy).Contents (Elt F) → (⟨S850000, .i32⟩ : BufTy).Contents (Elt F) → (⟨S850000, .i1⟩ : BufTy).Contents (Elt F)),
    StableHlo.nullary main_c_21 (constantI S_ 32 50000#32),
    StableHlo.unary main_c_21 main_v83 (broadcastInDim S850000 ![] bcast_S_S850000 : (⟨S_, .i32⟩ : BufTy).Contents (Elt F) → (⟨S850000, .i32⟩ : BufTy).Contents (Elt F)),
    StableHlo.binary main_v70 main_v83 main_v84 (addi : (⟨S850000, .i32⟩ : BufTy).Contents (Elt F) → (⟨S850000, .i32⟩ : BufTy).Contents (Elt F) → (⟨S850000, .i32⟩ : BufTy).Contents (Elt F)),
    StableHlo.ternary main_v82 main_v84 main_v70 main_v85 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v85 main_v86 (broadcastInDim S850000x1 ![0] bcast_S850000_S850000x1_0 : (⟨S850000, .i32⟩ : BufTy).Contents (Elt F) → (⟨S850000x1, .i32⟩ : BufTy).Contents (Elt F)),
    StableHlo.binary main_v80 main_v86 main_v87 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v87 main_v73 main_v88 (mulf : (⟨S850000, .f32⟩ : BufTy).Contents (Elt F) → (⟨S850000, .f32⟩ : BufTy).Contents (Elt F) → (⟨S850000, .f32⟩ : BufTy).Contents (Elt F)),
    StableHlo.nullary main_c_22 (constantI S_ 32 0#32),
    StableHlo.unary main_c_22 main_v89 (broadcastInDim S850000 ![] bcast_S_S850000 : (⟨S_, .i32⟩ : BufTy).Contents (Elt F) → (⟨S850000, .i32⟩ : BufTy).Contents (Elt F)),
    StableHlo.binary main_v71 main_v89 main_v90 (cmpi .slt : (⟨S850000, .i32⟩ : BufTy).Contents (Elt F) → (⟨S850000, .i32⟩ : BufTy).Contents (Elt F) → (⟨S850000, .i1⟩ : BufTy).Contents (Elt F)),
    StableHlo.nullary main_c_23 (constantI S_ 32 50000#32),
    StableHlo.unary main_c_23 main_v91 (broadcastInDim S850000 ![] bcast_S_S850000 : (⟨S_, .i32⟩ : BufTy).Contents (Elt F) → (⟨S850000, .i32⟩ : BufTy).Contents (Elt F)),
    StableHlo.binary main_v71 main_v91 main_v92 (addi : (⟨S850000, .i32⟩ : BufTy).Contents (Elt F) → (⟨S850000, .i32⟩ : BufTy).Contents (Elt F) → (⟨S850000, .i32⟩ : BufTy).Contents (Elt F)),
    StableHlo.ternary main_v90 main_v92 main_v71 main_v93 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v93 main_v94 (broadcastInDim S850000x1 ![0] bcast_S850000_S850000x1_0 : (⟨S850000, .i32⟩ : BufTy).Contents (Elt F) → (⟨S850000x1, .i32⟩ : BufTy).Contents (Elt F)),
    StableHlo.binary main_v80 main_v94 main_v95 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v88 main_v95 main_v96 (mulf : (⟨S850000, .f32⟩ : BufTy).Contents (Elt F) → (⟨S850000, .f32⟩ : BufTy).Contents (Elt F) → (⟨S850000, .f32⟩ : BufTy).Contents (Elt F)),
    StableHlo.unary main_v96 main_v97 (broadcastInDim S850000x1 ![0] bcast_S850000_S850000x1_0 : (⟨S850000, .f32⟩ : BufTy).Contents (Elt F) → (⟨S850000x1, .f32⟩ : BufTy).Contents (Elt F)),
    StableHlo.nullary main_c_24 (constantI S_ 32 0#32),
    StableHlo.unary main_c_24 main_v98 (broadcastInDim S850000 ![] bcast_S_S850000 : (⟨S_, .i32⟩ : BufTy).Contents (Elt F) → (⟨S850000, .i32⟩ : BufTy).Contents (Elt F)),
    StableHlo.binary main_v70 main_v98 main_v99 (cmpi .slt : (⟨S850000, .i32⟩ : BufTy).Contents (Elt F) → (⟨S850000, .i32⟩ : BufTy).Contents (Elt F) → (⟨S850000, .i1⟩ : BufTy).Contents (Elt F)),
    StableHlo.nullary main_c_25 (constantI S_ 32 50000#32),
    StableHlo.unary main_c_25 main_v100 (broadcastInDim S850000 ![] bcast_S_S850000 : (⟨S_, .i32⟩ : BufTy).Contents (Elt F) → (⟨S850000, .i32⟩ : BufTy).Contents (Elt F)),
    StableHlo.binary main_v70 main_v100 main_v101 (addi : (⟨S850000, .i32⟩ : BufTy).Contents (Elt F) → (⟨S850000, .i32⟩ : BufTy).Contents (Elt F) → (⟨S850000, .i32⟩ : BufTy).Contents (Elt F)),
    StableHlo.ternary main_v99 main_v101 main_v70 main_v102 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v102 main_v103 (broadcastInDim S850000x1 ![0] bcast_S850000_S850000x1_0 : (⟨S850000, .i32⟩ : BufTy).Contents (Elt F) → (⟨S850000x1, .i32⟩ : BufTy).Contents (Elt F)),
    StableHlo.binary main_v68_1 main_v103 main_v104 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v97 main_v105 (broadcastInDim S850000x128 ![0, 1] bcast_S850000x1_S850000x128_0_1 : (⟨S850000x1, .f32⟩ : BufTy).Contents (Elt F) → (⟨S850000x128, .f32⟩ : BufTy).Contents (Elt F)),
    StableHlo.binary main_v105 main_v104 main_v106 (mulf : (⟨S850000x128, .f32⟩ : BufTy).Contents (Elt F) → (⟨S850000x128, .f32⟩ : BufTy).Contents (Elt F) → (⟨S850000x128, .f32⟩ : BufTy).Contents (Elt F)),
    StableHlo.nullary main_cst_26 (constant S_ .f32 0x00000000#32),
    StableHlo.unary main_cst_26 main_v107 (broadcastInDim S50000x128 ![] bcast_S_S50000x128 : (⟨S_, .f32⟩ : BufTy).Contents (Elt F) → (⟨S50000x128, .f32⟩ : BufTy).Contents (Elt F)),
    StableHlo.unary main_v71 main_v108 (broadcastInDim S850000x1 ![0] bcast_S850000_S850000x1_0 : (⟨S850000, .i32⟩ : BufTy).Contents (Elt F) → (⟨S850000x1, .i32⟩ : BufTy).Contents (Elt F)),
    StableHlo.ternary main_v107 main_v108 main_v106 main_v109 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg15 main_v110 ((extractStridedSlice S128x128 ![0, 0] · slices_S256x128_S128x128_0_0) : (⟨S256x128, .f32⟩ : BufTy).Contents (Elt F) → (⟨S128x128, .f32⟩ : BufTy).Contents (Elt F)),
    StableHlo.unary main_arg15 main_v111 ((extractStridedSlice S128x128 ![128, 0] · slices_S256x128_S128x128_128_0) : (⟨S256x128, .f32⟩ : BufTy).Contents (Elt F) → (⟨S128x128, .f32⟩ : BufTy).Contents (Elt F)),
    StableHlo.reshape main_arg12 main_v112 rfl shapeCasts_S128_S1x128,
    StableHlo.reshape main_arg16 main_v113 rfl shapeCasts_S128_S1x128,
    StableHlo.reshape main_arg18 main_v114 rfl shapeCasts_S64_S1x64 ]
/-- The buffers kAgg1 writes, in order. -/
abbrev kAgg1_outs : List (Ref sig .tc) :=
  [main_v69, main_v70, main_v71, main_cst_16, main_v72, main_v73, main_cst_17, main_v74, main_v75, main_v76, main_cst_18, main_v77, main_v78, main_v79, main_cst_19, main_call5_v0, main_call5_v1, main_v80, main_c_20, main_v81, main_v82, main_c_21, main_v83, main_v84, main_v85, main_v86, main_v87, main_v88, main_c_22, main_v89, main_v90, main_c_23, main_v91, main_v92, main_v93, main_v94, main_v95, main_v96, main_v97, main_c_24, main_v98, main_v99, main_c_25, main_v100, main_v101, main_v102, main_v103, main_v104, main_v105, main_v106, main_cst_26, main_v107, main_v108, main_v109, main_v110, main_v111, main_v112, main_v113, main_v114]
/-- A buffer that kAgg1 does not write keeps its contents through it. -/
theorem keep_kAgg1 (V : Valuation τ sig (Elt F)) (r : Ref sig .tc) (hr : r ∉ kAgg1_outs) :
    StableHlo.after kAgg1 V (Proc.devRef .tc r) = V (Proc.devRef .tc r) :=
  StableHlo.after_of_forall_not_mem (b := Proc.devRef .tc r) _ _ (List.forall_iff_forall_mem.mp (by
    simp only [kAgg1, List.Forall, StableHlo.nullary_writes, StableHlo.unary_writes, StableHlo.binary_writes, StableHlo.ternary_writes, StableHlo.reshape_writes, Finset.mem_singleton]
    repeat' apply And.intro
    all_goals exact StableHlo.devRef_ne_of_ne (fun e => hr (by rw [e]; decide))))

theorem stretch0_eq : (hostOps0 ++ (hostOps0_1 ++ hostOps0_2) : List (HloOp τ sig (Elt F))) = kPre := rfl
theorem stretch1_eq : (hostOps1 ++ (hostOps1_1 ++ (hostOps1_2 ++ (hostOps1_3 ++ (hostOps1_4 ++ (hostOps1_5 ++ hostOps1_6))))) : List (HloOp τ sig (Elt F))) = kScore ++ (kWeight ++ kAgg0) := rfl
theorem stretch2_eq : (hostOps2 ++ (hostOps2_1 ++ hostOps2_2) : List (HloOp τ sig (Elt F))) = kAgg1 := rfl

end Cert.KernelIdeal.Hand

end
-- ==== Proof.Names.lean ====
/-
  Shorthand for the two programs' buffer contents at the ideal instance, and the one fact about the edge list the
  comparison needs: every entry, read as a signed number, is a node number.
-/
import proofs.«415847_j84524956385823_2_alg».proof.Proof.KernelOps
import proofs.«415847_j84524956385823_2_alg».proof.Proof.RefRun
import Idealize.ShloMosaic.PureOps.Ideal
import Idealize.ShloMosaic.Lib.ValueIdx
import Idealize.ShloMosaic.Lib.StableHlo.Run

noncomputable section

namespace Cert.Bridge

open Idealize.ShloMosaic Idealize.ShloMosaic.TcCoe Idealize.SL.Sem

/-- Contents of every TensorCore buffer of the kernel program, at the ideal instance. -/
abbrev KV := Valuation Cert.KernelIdeal.τ Cert.KernelIdeal.sig (Elt Ideal)
/-- Contents of every TensorCore buffer of the reference program, at the ideal instance. -/
abbrev RV := Valuation Cert.ReferenceIdeal.τ Cert.ReferenceIdeal.sig (Elt Ideal)

/-- An entry of a matrix of extended reals, by its row and its column. -/
abbrev at2 {n0 n1 : Nat} (x : FVec Ideal ⟨2, ![n0, n1]⟩ .f32) (a : Fin n0) (b : Fin n1) : EReal := x (ValueIdx.ix2 a b)

/-- Every entry of an edge list, read as a signed 32-bit number, lies in [0, 50000): it names a node. -/
def InRange (e : IVec Cert.KernelIdeal.S2x800000 32) : Prop :=
  ∀ i : Cert.KernelIdeal.S2x800000.Idx, 0 ≤ (e i).toInt ∧ (e i).toInt < 50000

end Cert.Bridge

end
-- ==== Proof.PreRange.lean ====
/-
  The precondition's last conjunct, read: every entry of the edge list is a node number.

  The precondition is one bit: the conjunction of eighteen finiteness tests and, last, of the test that
  every entry e of the edge list has 0 ≤ e (signed) and e < 50000 (signed), taken over all 2 × 800000 entries by an
  and-reduction from 1. When the whole conjunction is 1 its last conjunct is 1; an and-reduction that is 1 met only
  1s, so at every index both compares are 1; a signed compare that is 1 says its operands, read as integers, are so
  ordered; the words 0 and 50000 read as the integers 0 and 50000.
-/
import proofs.«415847_j84524956385823_2_alg».proof.Proof.Names
import proofs.«415847_j84524956385823_2_alg».proof.Defs
import proofs.«415847_j84524956385823_2_alg».proof.Proof.Gen.Pre_finite_inputs
import Idealize.ShloMosaic.Lib.ReduceAll
import Idealize.ShloMosaic.Lib.Affine

noncomputable section

namespace Cert.Bridge.Pre
open Idealize.ShloMosaic Idealize.ShloMosaic.TcCoe Idealize.SL.Sem Idealize.ShloMosaic.StableHlo
open Idealize.ShloMosaic.ValueIdx

/-- The shape with no axes has exactly one index. -/
instance scalarIdx_subsingleton : Subsingleton Cert.Pre_finite_inputs.S_.Idx :=
  ⟨fun a b => funext fun d => d.elim0⟩

/-- The word 0 reads as the integer 0. -/
theorem toInt_zero32 : (0#32 : BitVec 32).toInt = 0 := by decide

/-- The word 50000 reads as the integer 50000. -/
theorem toInt_50000 : (50000#32 : BitVec 32).toInt = 50000 := by decide

/-- The last part of the precondition, when its bit is 1, bounds every entry of the edge list: its final conjunct
    is the and-reduction over all entries of (0 ≤ e) and (e < 50000), both signed. -/
theorem range_of_last_part (e : IVec Cert.Pre_finite_inputs.S2x800000 32) (p : IVec Cert.Pre_finite_inputs.S_ 1)
    (x : FVec Ideal Cert.Pre_finite_inputs.S64 .f32) (k : FVec Ideal Cert.Pre_finite_inputs.S_ .f32)
    (j : Cert.Pre_finite_inputs.S_.Idx)
    (h : Cert.Pre_finite_inputs.fn_part5 (F := Ideal) e p x k j = 1#1) (i : Cert.Pre_finite_inputs.S2x800000.Idx) :
    0 ≤ (e i).toInt ∧ (e i).toInt < 50000 := by
  dsimp only [Cert.Pre_finite_inputs.fn_part5] at h
  -- the whole bit is the and of the earlier tests with the range test
  have hlast := (IntOp.andi_eq_one.1 h).2
  -- an and-reduction that is 1 met a 1 at every entry
  have hi := Host.reduce_andi_all _ _ _ _ j hlast i
  -- at entry i: both compares are 1
  obtain ⟨hge, hlt⟩ := IntOp.andi_eq_one.1 hi
  have hge' : (0#32 : BitVec 32).toInt ≤ (e i).toInt := IntOp.cmpi_sge.1 hge
  have hlt' : (e i).toInt < (50000#32 : BitVec 32).toInt := IntOp.cmpi_slt.1 hlt
  rw [toInt_zero32] at hge'
  rw [toInt_50000] at hlt'
  exact ⟨hge', hlt'⟩

theorem range_of_pre (m : (ℓ : Loc Cert.KernelIdeal.nD Cert.KernelIdeal.τ Cert.KernelIdeal.sig) → Buf (Elt Ideal) ℓ) (h : Cert.Pre_KernelIdeal m) (c : Dev Cert.KernelIdeal.nD) :
    InRange (m ((c.tc : Thread Cert.KernelIdeal.nD Cert.KernelIdeal.τ).loc Cert.KernelIdeal.main_arg1)) := by
  intro i
  have h0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  exact range_of_last_part _ _ _ _ _ h0 i

end Cert.Bridge.Pre
end
-- ==== Proof.AggCuts.lean ====
/- Each normalised-neighbourhood-sum stretch of the two programs cut in two: first the index rows and the weights extended by
   the self loops, the degrees (a scatter-add of the weights) and their inverse square roots where positive (kDeg0, kDeg1,
   rDeg0, rDeg1); then the per-edge coefficients, the scaled gathered rows and their scatter-add (kSum0, kSum1, rSum0, rSum1).
   With each list the buffers it writes and that any other buffer keeps its contents through it; the closing equations say
   each stretch is its two parts in order. -/
import proofs.«415847_j84524956385823_2_alg».proof.Proof.KernelOps
import proofs.«415847_j84524956385823_2_alg».proof.Proof.RefOps

noncomputable section

namespace Cert.KernelIdeal.Hand

open Cert.KernelIdeal Cert.KernelIdeal.Gen Idealize.ShloMosaic Idealize.ShloMosaic.TcCoe Idealize.SL.Sem

variable {F : FTy → Type} [FloatOps F]

/-- 18 operations. -/
abbrev kDeg0 : List (HloOp τ sig (Elt F)) :=
  [ StableHlo.nullary main_v26 (iotaInDim S50000 32 0),
    StableHlo.binary main_v1 main_v26 main_v27 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v26 main_v28 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_5 (constant S_ .f32 0x3F800000#32),
    StableHlo.unary main_cst_5 main_v29 (broadcastInDim S50000 ![] bcast_S_S50000 : (⟨S_, .f32⟩ : BufTy).Contents (Elt F) → (⟨S50000, .f32⟩ : BufTy).Contents (Elt F)),
    StableHlo.binary main_v25 main_v29 main_v30 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    StableHlo.nullary main_cst_6 (constant S_ .f32 0x00000000#32),
    StableHlo.unary main_cst_6 main_v31 (broadcastInDim S50000 ![] bcast_S_S50000 : (⟨S_, .f32⟩ : BufTy).Contents (Elt F) → (⟨S50000, .f32⟩ : BufTy).Contents (Elt F)),
    StableHlo.unary main_v28 main_v32 (broadcastInDim S850000x1 ![0] bcast_S850000_S850000x1_0 : (⟨S850000, .i32⟩ : BufTy).Contents (Elt F) → (⟨S850000x1, .i32⟩ : BufTy).Contents (Elt F)),
    StableHlo.ternary main_v31 main_v32 main_v30 main_v33 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_7 (constant S_ .f32 0x00000000#32),
    StableHlo.unary main_cst_7 main_v34 (broadcastInDim S50000 ![] bcast_S_S50000 : (⟨S_, .f32⟩ : BufTy).Contents (Elt F) → (⟨S50000, .f32⟩ : BufTy).Contents (Elt F)),
    StableHlo.binary main_v33 main_v34 main_v35 (cmpf .ogt : (⟨S50000, .f32⟩ : BufTy).Contents (Elt F) → (⟨S50000, .f32⟩ : BufTy).Contents (Elt F) → (⟨S50000, .i1⟩ : BufTy).Contents (Elt F)),
    StableHlo.unary main_v33 main_v36 (Host.rsqrt : (⟨S50000, .f32⟩ : BufTy).Contents (Elt F) → (⟨S50000, .f32⟩ : BufTy).Contents (Elt F)),
    StableHlo.nullary main_cst_8 (constant S_ .f32 0x00000000#32),
    StableHlo.TRef.unary (.of main_cst_8 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S50000, .f32⟩) (broadcastInDim S50000 ![] bcast_S_S50000),
    StableHlo.TRef.ternary (.of main_v35 : StableHlo.TRef sig ⟨S50000, .i1⟩) (.of main_v36 : StableHlo.TRef sig ⟨S50000, .f32⟩) (.of main_call4_v1 : StableHlo.TRef sig ⟨S50000, .f32⟩) (.of main_v37 : StableHlo.TRef sig ⟨S50000, .f32⟩) select ]
/-- The buffers kDeg0 writes, in order. -/
abbrev kDeg0_outs : List (Ref sig .tc) :=
  [main_v26, main_v27, main_v28, main_cst_5, main_v29, main_v30, main_cst_6, main_v31, main_v32, main_v33, main_cst_7, main_v34, main_v35, main_v36, main_cst_8, main_call4_v0, main_call4_v1, main_v37]
/-- A buffer that kDeg0 does not write keeps its contents through it. -/
theorem keep_kDeg0 (V : Valuation τ sig (Elt F)) (r : Ref sig .tc) (hr : r ∉ kDeg0_outs) :
    StableHlo.after kDeg0 V (Proc.devRef .tc r) = V (Proc.devRef .tc r) :=
  StableHlo.after_of_forall_not_mem (b := Proc.devRef .tc r) _ _ (List.forall_iff_forall_mem.mp (by
    simp only [kDeg0, List.Forall, StableHlo.nullary_writes, StableHlo.unary_writes, StableHlo.binary_writes, StableHlo.ternary_writes, StableHlo.reshape_writes, Finset.mem_singleton]
    repeat' apply And.intro
    all_goals exact StableHlo.devRef_ne_of_ne (fun e => hr (by rw [e]; decide))))

/-- 37 operations. -/
abbrev kSum0 : List (HloOp τ sig (Elt F)) :=
  [ StableHlo.nullary main_c_9 (constantI S_ 32 0#32),
    StableHlo.unary main_c_9 main_v38 (broadcastInDim S850000 ![] bcast_S_S850000 : (⟨S_, .i32⟩ : BufTy).Contents (Elt F) → (⟨S850000, .i32⟩ : BufTy).Contents (Elt F)),
    StableHlo.binary main_v27 main_v38 main_v39 (cmpi .slt : (⟨S850000, .i32⟩ : BufTy).Contents (Elt F) → (⟨S850000, .i32⟩ : BufTy).Contents (Elt F) → (⟨S850000, .i1⟩ : BufTy).Contents (Elt F)),
    StableHlo.nullary main_c_10 (constantI S_ 32 50000#32),
    StableHlo.unary main_c_10 main_v40 (broadcastInDim S850000 ![] bcast_S_S850000 : (⟨S_, .i32⟩ : BufTy).Contents (Elt F) → (⟨S850000, .i32⟩ : BufTy).Contents (Elt F)),
    StableHlo.binary main_v27 main_v40 main_v41 (addi : (⟨S850000, .i32⟩ : BufTy).Contents (Elt F) → (⟨S850000, .i32⟩ : BufTy).Contents (Elt F) → (⟨S850000, .i32⟩ : BufTy).Contents (Elt F)),
    StableHlo.ternary main_v39 main_v41 main_v27 main_v42 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v42 main_v43 (broadcastInDim S850000x1 ![0] bcast_S850000_S850000x1_0 : (⟨S850000, .i32⟩ : BufTy).Contents (Elt F) → (⟨S850000x1, .i32⟩ : BufTy).Contents (Elt F)),
    StableHlo.binary main_v37 main_v43 main_v44 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v44 main_v30 main_v45 (mulf : (⟨S850000, .f32⟩ : BufTy).Contents (Elt F) → (⟨S850000, .f32⟩ : BufTy).Contents (Elt F) → (⟨S850000, .f32⟩ : BufTy).Contents (Elt F)),
    StableHlo.nullary main_c_11 (constantI S_ 32 0#32),
    StableHlo.unary main_c_11 main_v46 (broadcastInDim S850000 ![] bcast_S_S850000 : (⟨S_, .i32⟩ : BufTy).Contents (Elt F) → (⟨S850000, .i32⟩ : BufTy).Contents (Elt F)),
    StableHlo.binary main_v28 main_v46 main_v47 (cmpi .slt : (⟨S850000, .i32⟩ : BufTy).Contents (Elt F) → (⟨S850000, .i32⟩ : BufTy).Contents (Elt F) → (⟨S850000, .i1⟩ : BufTy).Contents (Elt F)),
    StableHlo.nullary main_c_12 (constantI S_ 32 50000#32),
    StableHlo.unary main_c_12 main_v48 (broadcastInDim S850000 ![] bcast_S_S850000 : (⟨S_, .i32⟩ : BufTy).Contents (Elt F) → (⟨S850000, .i32⟩ : BufTy).Contents (Elt F)),
    StableHlo.binary main_v28 main_v48 main_v49 (addi : (⟨S850000, .i32⟩ : BufTy).Contents (Elt F) → (⟨S850000, .i32⟩ : BufTy).Contents (Elt F) → (⟨S850000, .i32⟩ : BufTy).Contents (Elt F)),
    StableHlo.ternary main_v47 main_v49 main_v28 main_v50 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v50 main_v51 (broadcastInDim S850000x1 ![0] bcast_S850000_S850000x1_0 : (⟨S850000, .i32⟩ : BufTy).Contents (Elt F) → (⟨S850000x1, .i32⟩ : BufTy).Contents (Elt F)),
    StableHlo.binary main_v37 main_v51 main_v52 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v45 main_v52 main_v53 (mulf : (⟨S850000, .f32⟩ : BufTy).Contents (Elt F) → (⟨S850000, .f32⟩ : BufTy).Contents (Elt F) → (⟨S850000, .f32⟩ : BufTy).Contents (Elt F)),
    StableHlo.unary main_v53 main_v54 (broadcastInDim S850000x1 ![0] bcast_S850000_S850000x1_0 : (⟨S850000, .f32⟩ : BufTy).Contents (Elt F) → (⟨S850000x1, .f32⟩ : BufTy).Contents (Elt F)),
    StableHlo.nullary main_c_13 (constantI S_ 32 0#32),
    StableHlo.unary main_c_13 main_v55 (broadcastInDim S850000 ![] bcast_S_S850000 : (⟨S_, .i32⟩ : BufTy).Contents (Elt F) → (⟨S850000, .i32⟩ : BufTy).Contents (Elt F)),
    StableHlo.binary main_v27 main_v55 main_v56 (cmpi .slt : (⟨S850000, .i32⟩ : BufTy).Contents (Elt F) → (⟨S850000, .i32⟩ : BufTy).Contents (Elt F) → (⟨S850000, .i1⟩ : BufTy).Contents (Elt F)),
    StableHlo.nullary main_c_14 (constantI S_ 32 50000#32),
    StableHlo.unary main_c_14 main_v57 (broadcastInDim S850000 ![] bcast_S_S850000 : (⟨S_, .i32⟩ : BufTy).Contents (Elt F) → (⟨S850000, .i32⟩ : BufTy).Contents (Elt F)),
    StableHlo.binary main_v27 main_v57 main_v58 (addi : (⟨S850000, .i32⟩ : BufTy).Contents (Elt F) → (⟨S850000, .i32⟩ : BufTy).Contents (Elt F) → (⟨S850000, .i32⟩ : BufTy).Contents (Elt F)),
    StableHlo.ternary main_v56 main_v58 main_v27 main_v59 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v59 main_v60 (broadcastInDim S850000x1 ![0] bcast_S850000_S850000x1_0 : (⟨S850000, .i32⟩ : BufTy).Contents (Elt F) → (⟨S850000x1, .i32⟩ : BufTy).Contents (Elt F)),
    StableHlo.binary main_v10_2 main_v60 main_v61 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v54 main_v62 (broadcastInDim S850000x128 ![0, 1] bcast_S850000x1_S850000x128_0_1 : (⟨S850000x1, .f32⟩ : BufTy).Contents (Elt F) → (⟨S850000x128, .f32⟩ : BufTy).Contents (Elt F)),
    StableHlo.binary main_v62 main_v61 main_v63 (mulf : (⟨S850000x128, .f32⟩ : BufTy).Contents (Elt F) → (⟨S850000x128, .f32⟩ : BufTy).Contents (Elt F) → (⟨S850000x128, .f32⟩ : BufTy).Contents (Elt F)),
    StableHlo.nullary main_cst_15 (constant S_ .f32 0x00000000#32),
    StableHlo.unary main_cst_15 main_v64 (broadcastInDim S50000x128 ![] bcast_S_S50000x128 : (⟨S_, .f32⟩ : BufTy).Contents (Elt F) → (⟨S50000x128, .f32⟩ : BufTy).Contents (Elt F)),
    StableHlo.unary main_v28 main_v65 (broadcastInDim S850000x1 ![0] bcast_S850000_S850000x1_0 : (⟨S850000, .i32⟩ : BufTy).Contents (Elt F) → (⟨S850000x1, .i32⟩ : BufTy).Contents (Elt F)),
    StableHlo.ternary main_v64 main_v65 main_v63 main_v66 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.reshape main_arg10 main_v67 rfl shapeCasts_S128_S1x128 ]
/-- The buffers kSum0 writes, in order. -/
abbrev kSum0_outs : List (Ref sig .tc) :=
  [main_c_9, main_v38, main_v39, main_c_10, main_v40, main_v41, main_v42, main_v43, main_v44, main_v45, main_c_11, main_v46, main_v47, main_c_12, main_v48, main_v49, main_v50, main_v51, main_v52, main_v53, main_v54, main_c_13, main_v55, main_v56, main_c_14, main_v57, main_v58, main_v59, main_v60, main_v61, main_v62, main_v63, main_cst_15, main_v64, main_v65, main_v66, main_v67]
/-- A buffer that kSum0 does not write keeps its contents through it. -/
theorem keep_kSum0 (V : Valuation τ sig (Elt F)) (r : Ref sig .tc) (hr : r ∉ kSum0_outs) :
    StableHlo.after kSum0 V (Proc.devRef .tc r) = V (Proc.devRef .tc r) :=
  StableHlo.after_of_forall_not_mem (b := Proc.devRef .tc r) _ _ (List.forall_iff_forall_mem.mp (by
    simp only [kSum0, List.Forall, StableHlo.nullary_writes, StableHlo.unary_writes, StableHlo.binary_writes, StableHlo.ternary_writes, StableHlo.reshape_writes, Finset.mem_singleton]
    repeat' apply And.intro
    all_goals exact StableHlo.devRef_ne_of_ne (fun e => hr (by rw [e]; decide))))

/-- 18 operations. -/
abbrev kDeg1 : List (HloOp τ sig (Elt F)) :=
  [ StableHlo.nullary main_v69 (iotaInDim S50000 32 0),
    StableHlo.binary main_v1 main_v69 main_v70 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v69 main_v71 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_16 (constant S_ .f32 0x3F800000#32),
    StableHlo.unary main_cst_16 main_v72 (broadcastInDim S50000 ![] bcast_S_S50000 : (⟨S_, .f32⟩ : BufTy).Contents (Elt F) → (⟨S50000, .f32⟩ : BufTy).Contents (Elt F)),
    StableHlo.binary main_v25 main_v72 main_v73 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    StableHlo.nullary main_cst_17 (constant S_ .f32 0x00000000#32),
    StableHlo.unary main_cst_17 main_v74 (broadcastInDim S50000 ![] bcast_S_S50000 : (⟨S_, .f32⟩ : BufTy).Contents (Elt F) → (⟨S50000, .f32⟩ : BufTy).Contents (Elt F)),
    StableHlo.unary main_v71 main_v75 (broadcastInDim S850000x1 ![0] bcast_S850000_S850000x1_0 : (⟨S850000, .i32⟩ : BufTy).Contents (Elt F) → (⟨S850000x1, .i32⟩ : BufTy).Contents (Elt F)),
    StableHlo.ternary main_v74 main_v75 main_v73 main_v76 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_18 (constant S_ .f32 0x00000000#32),
    StableHlo.unary main_cst_18 main_v77 (broadcastInDim S50000 ![] bcast_S_S50000 : (⟨S_, .f32⟩ : BufTy).Contents (Elt F) → (⟨S50000, .f32⟩ : BufTy).Contents (Elt F)),
    StableHlo.binary main_v76 main_v77 main_v78 (cmpf .ogt : (⟨S50000, .f32⟩ : BufTy).Contents (Elt F) → (⟨S50000, .f32⟩ : BufTy).Contents (Elt F) → (⟨S50000, .i1⟩ : BufTy).Contents (Elt F)),
    StableHlo.unary main_v76 main_v79 (Host.rsqrt : (⟨S50000, .f32⟩ : BufTy).Contents (Elt F) → (⟨S50000, .f32⟩ : BufTy).Contents (Elt F)),
    StableHlo.nullary main_cst_19 (constant S_ .f32 0x00000000#32),
    StableHlo.TRef.unary (.of main_cst_19 : StableHlo.TRef sig ⟨S_, .f32⟩) (.of main_call5_v0 : StableHlo.TRef sig ⟨S_, .f32⟩) id,
    StableHlo.TRef.unary (.of main_call5_v0 : StableHlo.TRef sig ⟨S_, .f32⟩) (.of main_call5_v1 : StableHlo.TRef sig ⟨S50000, .f32⟩) (broadcastInDim S50000 ![] bcast_S_S50000),
    StableHlo.TRef.ternary (.of main_v78 : StableHlo.TRef sig ⟨S50000, .i1⟩) (.of main_v79 : StableHlo.TRef sig ⟨S50000, .f32⟩) (.of main_call5_v1 : StableHlo.TRef sig ⟨S50000, .f32⟩) (.of main_v80 : StableHlo.TRef sig ⟨S50000, .f32⟩) select ]
/-- The buffers kDeg1 writes, in order. -/
abbrev kDeg1_outs : List (Ref sig .tc) :=
  [main_v69, main_v70, main_v71, main_cst_16, main_v72, main_v73, main_cst_17, main_v74, main_v75, main_v76, main_cst_18, main_v77, main_v78, main_v79, main_cst_19, main_call5_v0, main_call5_v1, main_v80]
/-- A buffer that kDeg1 does not write keeps its contents through it. -/
theorem keep_kDeg1 (V : Valuation τ sig (Elt F)) (r : Ref sig .tc) (hr : r ∉ kDeg1_outs) :
    StableHlo.after kDeg1 V (Proc.devRef .tc r) = V (Proc.devRef .tc r) :=
  StableHlo.after_of_forall_not_mem (b := Proc.devRef .tc r) _ _ (List.forall_iff_forall_mem.mp (by
    simp only [kDeg1, List.Forall, StableHlo.nullary_writes, StableHlo.unary_writes, StableHlo.binary_writes, StableHlo.ternary_writes, StableHlo.reshape_writes, Finset.mem_singleton]
    repeat' apply And.intro
    all_goals exact StableHlo.devRef_ne_of_ne (fun e => hr (by rw [e]; decide))))

/-- 41 operations. -/
abbrev kSum1 : List (HloOp τ sig (Elt F)) :=
  [ StableHlo.nullary main_c_20 (constantI S_ 32 0#32),
    StableHlo.unary main_c_20 main_v81 (broadcastInDim S850000 ![] bcast_S_S850000 : (⟨S_, .i32⟩ : BufTy).Contents (Elt F) → (⟨S850000, .i32⟩ : BufTy).Contents (Elt F)),
    StableHlo.binary main_v70 main_v81 main_v82 (cmpi .slt : (⟨S850000, .i32⟩ : BufTy).Contents (Elt F) → (⟨S850000, .i32⟩ : BufTy).Contents (Elt F) → (⟨S850000, .i1⟩ : BufTy).Contents (Elt F)),
    StableHlo.nullary main_c_21 (constantI S_ 32 50000#32),
    StableHlo.unary main_c_21 main_v83 (broadcastInDim S850000 ![] bcast_S_S850000 : (⟨S_, .i32⟩ : BufTy).Contents (Elt F) → (⟨S850000, .i32⟩ : BufTy).Contents (Elt F)),
    StableHlo.binary main_v70 main_v83 main_v84 (addi : (⟨S850000, .i32⟩ : BufTy).Contents (Elt F) → (⟨S850000, .i32⟩ : BufTy).Contents (Elt F) → (⟨S850000, .i32⟩ : BufTy).Contents (Elt F)),
    StableHlo.ternary main_v82 main_v84 main_v70 main_v85 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v85 main_v86 (broadcastInDim S850000x1 ![0] bcast_S850000_S850000x1_0 : (⟨S850000, .i32⟩ : BufTy).Contents (Elt F) → (⟨S850000x1, .i32⟩ : BufTy).Contents (Elt F)),
    StableHlo.binary main_v80 main_v86 main_v87 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v87 main_v73 main_v88 (mulf : (⟨S850000, .f32⟩ : BufTy).Contents (Elt F) → (⟨S850000, .f32⟩ : BufTy).Contents (Elt F) → (⟨S850000, .f32⟩ : BufTy).Contents (Elt F)),
    StableHlo.nullary main_c_22 (constantI S_ 32 0#32),
    StableHlo.unary main_c_22 main_v89 (broadcastInDim S850000 ![] bcast_S_S850000 : (⟨S_, .i32⟩ : BufTy).Contents (Elt F) → (⟨S850000, .i32⟩ : BufTy).Contents (Elt F)),
    StableHlo.binary main_v71 main_v89 main_v90 (cmpi .slt : (⟨S850000, .i32⟩ : BufTy).Contents (Elt F) → (⟨S850000, .i32⟩ : BufTy).Contents (Elt F) → (⟨S850000, .i1⟩ : BufTy).Contents (Elt F)),
    StableHlo.nullary main_c_23 (constantI S_ 32 50000#32),
    StableHlo.unary main_c_23 main_v91 (broadcastInDim S850000 ![] bcast_S_S850000 : (⟨S_, .i32⟩ : BufTy).Contents (Elt F) → (⟨S850000, .i32⟩ : BufTy).Contents (Elt F)),
    StableHlo.binary main_v71 main_v91 main_v92 (addi : (⟨S850000, .i32⟩ : BufTy).Contents (Elt F) → (⟨S850000, .i32⟩ : BufTy).Contents (Elt F) → (⟨S850000, .i32⟩ : BufTy).Contents (Elt F)),
    StableHlo.ternary main_v90 main_v92 main_v71 main_v93 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v93 main_v94 (broadcastInDim S850000x1 ![0] bcast_S850000_S850000x1_0 : (⟨S850000, .i32⟩ : BufTy).Contents (Elt F) → (⟨S850000x1, .i32⟩ : BufTy).Contents (Elt F)),
    StableHlo.binary main_v80 main_v94 main_v95 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v88 main_v95 main_v96 (mulf : (⟨S850000, .f32⟩ : BufTy).Contents (Elt F) → (⟨S850000, .f32⟩ : BufTy).Contents (Elt F) → (⟨S850000, .f32⟩ : BufTy).Contents (Elt F)),
    StableHlo.unary main_v96 main_v97 (broadcastInDim S850000x1 ![0] bcast_S850000_S850000x1_0 : (⟨S850000, .f32⟩ : BufTy).Contents (Elt F) → (⟨S850000x1, .f32⟩ : BufTy).Contents (Elt F)),
    StableHlo.nullary main_c_24 (constantI S_ 32 0#32),
    StableHlo.unary main_c_24 main_v98 (broadcastInDim S850000 ![] bcast_S_S850000 : (⟨S_, .i32⟩ : BufTy).Contents (Elt F) → (⟨S850000, .i32⟩ : BufTy).Contents (Elt F)),
    StableHlo.binary main_v70 main_v98 main_v99 (cmpi .slt : (⟨S850000, .i32⟩ : BufTy).Contents (Elt F) → (⟨S850000, .i32⟩ : BufTy).Contents (Elt F) → (⟨S850000, .i1⟩ : BufTy).Contents (Elt F)),
    StableHlo.nullary main_c_25 (constantI S_ 32 50000#32),
    StableHlo.unary main_c_25 main_v100 (broadcastInDim S850000 ![] bcast_S_S850000 : (⟨S_, .i32⟩ : BufTy).Contents (Elt F) → (⟨S850000, .i32⟩ : BufTy).Contents (Elt F)),
    StableHlo.binary main_v70 main_v100 main_v101 (addi : (⟨S850000, .i32⟩ : BufTy).Contents (Elt F) → (⟨S850000, .i32⟩ : BufTy).Contents (Elt F) → (⟨S850000, .i32⟩ : BufTy).Contents (Elt F)),
    StableHlo.ternary main_v99 main_v101 main_v70 main_v102 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v102 main_v103 (broadcastInDim S850000x1 ![0] bcast_S850000_S850000x1_0 : (⟨S850000, .i32⟩ : BufTy).Contents (Elt F) → (⟨S850000x1, .i32⟩ : BufTy).Contents (Elt F)),
    StableHlo.binary main_v68_1 main_v103 main_v104 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v97 main_v105 (broadcastInDim S850000x128 ![0, 1] bcast_S850000x1_S850000x128_0_1 : (⟨S850000x1, .f32⟩ : BufTy).Contents (Elt F) → (⟨S850000x128, .f32⟩ : BufTy).Contents (Elt F)),
    StableHlo.binary main_v105 main_v104 main_v106 (mulf : (⟨S850000x128, .f32⟩ : BufTy).Contents (Elt F) → (⟨S850000x128, .f32⟩ : BufTy).Contents (Elt F) → (⟨S850000x128, .f32⟩ : BufTy).Contents (Elt F)),
    StableHlo.nullary main_cst_26 (constant S_ .f32 0x00000000#32),
    StableHlo.unary main_cst_26 main_v107 (broadcastInDim S50000x128 ![] bcast_S_S50000x128 : (⟨S_, .f32⟩ : BufTy).Contents (Elt F) → (⟨S50000x128, .f32⟩ : BufTy).Contents (Elt F)),
    StableHlo.unary main_v71 main_v108 (broadcastInDim S850000x1 ![0] bcast_S850000_S850000x1_0 : (⟨S850000, .i32⟩ : BufTy).Contents (Elt F) → (⟨S850000x1, .i32⟩ : BufTy).Contents (Elt F)),
    StableHlo.ternary main_v107 main_v108 main_v106 main_v109 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg15 main_v110 ((extractStridedSlice S128x128 ![0, 0] · slices_S256x128_S128x128_0_0) : (⟨S256x128, .f32⟩ : BufTy).Contents (Elt F) → (⟨S128x128, .f32⟩ : BufTy).Contents (Elt F)),
    StableHlo.unary main_arg15 main_v111 ((extractStridedSlice S128x128 ![128, 0] · slices_S256x128_S128x128_128_0) : (⟨S256x128, .f32⟩ : BufTy).Contents (Elt F) → (⟨S128x128, .f32⟩ : BufTy).Contents (Elt F)),
    StableHlo.reshape main_arg12 main_v112 rfl shapeCasts_S128_S1x128,
    StableHlo.reshape main_arg16 main_v113 rfl shapeCasts_S128_S1x128,
    StableHlo.reshape main_arg18 main_v114 rfl shapeCasts_S64_S1x64 ]
/-- The buffers kSum1 writes, in order. -/
abbrev kSum1_outs : List (Ref sig .tc) :=
  [main_c_20, main_v81, main_v82, main_c_21, main_v83, main_v84, main_v85, main_v86, main_v87, main_v88, main_c_22, main_v89, main_v90, main_c_23, main_v91, main_v92, main_v93, main_v94, main_v95, main_v96, main_v97, main_c_24, main_v98, main_v99, main_c_25, main_v100, main_v101, main_v102, main_v103, main_v104, main_v105, main_v106, main_cst_26, main_v107, main_v108, main_v109, main_v110, main_v111, main_v112, main_v113, main_v114]
/-- A buffer that kSum1 does not write keeps its contents through it. -/
theorem keep_kSum1 (V : Valuation τ sig (Elt F)) (r : Ref sig .tc) (hr : r ∉ kSum1_outs) :
    StableHlo.after kSum1 V (Proc.devRef .tc r) = V (Proc.devRef .tc r) :=
  StableHlo.after_of_forall_not_mem (b := Proc.devRef .tc r) _ _ (List.forall_iff_forall_mem.mp (by
    simp only [kSum1, List.Forall, StableHlo.nullary_writes, StableHlo.unary_writes, StableHlo.binary_writes, StableHlo.ternary_writes, StableHlo.reshape_writes, Finset.mem_singleton]
    repeat' apply And.intro
    all_goals exact StableHlo.devRef_ne_of_ne (fun e => hr (by rw [e]; decide))))

theorem kAgg0_cut : (kAgg0 : List (HloOp τ sig (Elt F))) = kDeg0 ++ kSum0 := rfl
theorem kAgg1_cut : (kAgg1 : List (HloOp τ sig (Elt F))) = kDeg1 ++ kSum1 := rfl

end Cert.KernelIdeal.Hand

namespace Cert.ReferenceIdeal.Hand

open Cert.ReferenceIdeal Cert.ReferenceIdeal.Gen Idealize.ShloMosaic Idealize.ShloMosaic.TcCoe Idealize.SL.Sem

variable {F : FTy → Type} [FloatOps F]

/-- 18 operations. -/
abbrev rDeg0 : List (HloOp τ sig (Elt F)) :=
  [ StableHlo.nullary main_v54 (iotaInDim S50000 32 0),
    StableHlo.binary main_v51 main_v54 main_v55 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v53 main_v54 main_v56 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_9 (constant S_ .f32 0x3F800000#32),
    StableHlo.unary main_cst_9 main_v57 (broadcastInDim S50000 ![] bcast_S_S50000 : (⟨S_, .f32⟩ : BufTy).Contents (Elt F) → (⟨S50000, .f32⟩ : BufTy).Contents (Elt F)),
    StableHlo.binary main_v48 main_v57 main_v58 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    StableHlo.nullary main_cst_10 (constant S_ .f32 0x00000000#32),
    StableHlo.unary main_cst_10 main_v59 (broadcastInDim S50000 ![] bcast_S_S50000 : (⟨S_, .f32⟩ : BufTy).Contents (Elt F) → (⟨S50000, .f32⟩ : BufTy).Contents (Elt F)),
    StableHlo.unary main_v56 main_v60 (broadcastInDim S850000x1 ![0] bcast_S850000_S850000x1_0 : (⟨S850000, .i32⟩ : BufTy).Contents (Elt F) → (⟨S850000x1, .i32⟩ : BufTy).Contents (Elt F)),
    StableHlo.ternary main_v59 main_v60 main_v58 main_v61 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_11 (constant S_ .f32 0x00000000#32),
    StableHlo.unary main_cst_11 main_v62 (broadcastInDim S50000 ![] bcast_S_S50000 : (⟨S_, .f32⟩ : BufTy).Contents (Elt F) → (⟨S50000, .f32⟩ : BufTy).Contents (Elt F)),
    StableHlo.binary main_v61 main_v62 main_v63 (cmpf .ogt : (⟨S50000, .f32⟩ : BufTy).Contents (Elt F) → (⟨S50000, .f32⟩ : BufTy).Contents (Elt F) → (⟨S50000, .i1⟩ : BufTy).Contents (Elt F)),
    StableHlo.unary main_v61 main_v64 (Host.rsqrt : (⟨S50000, .f32⟩ : BufTy).Contents (Elt F) → (⟨S50000, .f32⟩ : BufTy).Contents (Elt F)),
    StableHlo.nullary main_cst_12 (constant S_ .f32 0x00000000#32),
    StableHlo.TRef.unary (.of main_cst_12 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S50000, .f32⟩) (broadcastInDim S50000 ![] bcast_S_S50000),
    StableHlo.TRef.ternary (.of main_v63 : StableHlo.TRef sig ⟨S50000, .i1⟩) (.of main_v64 : StableHlo.TRef sig ⟨S50000, .f32⟩) (.of main_call4_v1 : StableHlo.TRef sig ⟨S50000, .f32⟩) (.of main_v65 : StableHlo.TRef sig ⟨S50000, .f32⟩) select ]
/-- The buffers rDeg0 writes, in order. -/
abbrev rDeg0_outs : List (Ref sig .tc) :=
  [main_v54, main_v55, main_v56, main_cst_9, main_v57, main_v58, main_cst_10, main_v59, main_v60, main_v61, main_cst_11, main_v62, main_v63, main_v64, main_cst_12, main_call4_v0, main_call4_v1, main_v65]
/-- A buffer that rDeg0 does not write keeps its contents through it. -/
theorem keep_rDeg0 (V : Valuation τ sig (Elt F)) (r : Ref sig .tc) (hr : r ∉ rDeg0_outs) :
    StableHlo.after rDeg0 V (Proc.devRef .tc r) = V (Proc.devRef .tc r) :=
  StableHlo.after_of_forall_not_mem (b := Proc.devRef .tc r) _ _ (List.forall_iff_forall_mem.mp (by
    simp only [rDeg0, List.Forall, StableHlo.nullary_writes, StableHlo.unary_writes, StableHlo.binary_writes, StableHlo.ternary_writes, StableHlo.reshape_writes, Finset.mem_singleton]
    repeat' apply And.intro
    all_goals exact StableHlo.devRef_ne_of_ne (fun e => hr (by rw [e]; decide))))

/-- 36 operations. -/
abbrev rSum0 : List (HloOp τ sig (Elt F)) :=
  [ StableHlo.nullary main_c_13 (constantI S_ 32 0#32),
    StableHlo.unary main_c_13 main_v66 (broadcastInDim S850000 ![] bcast_S_S850000 : (⟨S_, .i32⟩ : BufTy).Contents (Elt F) → (⟨S850000, .i32⟩ : BufTy).Contents (Elt F)),
    StableHlo.binary main_v55 main_v66 main_v67 (cmpi .slt : (⟨S850000, .i32⟩ : BufTy).Contents (Elt F) → (⟨S850000, .i32⟩ : BufTy).Contents (Elt F) → (⟨S850000, .i1⟩ : BufTy).Contents (Elt F)),
    StableHlo.nullary main_c_14 (constantI S_ 32 50000#32),
    StableHlo.unary main_c_14 main_v68 (broadcastInDim S850000 ![] bcast_S_S850000 : (⟨S_, .i32⟩ : BufTy).Contents (Elt F) → (⟨S850000, .i32⟩ : BufTy).Contents (Elt F)),
    StableHlo.binary main_v55 main_v68 main_v69 (addi : (⟨S850000, .i32⟩ : BufTy).Contents (Elt F) → (⟨S850000, .i32⟩ : BufTy).Contents (Elt F) → (⟨S850000, .i32⟩ : BufTy).Contents (Elt F)),
    StableHlo.ternary main_v67 main_v69 main_v55 main_v70 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v70 main_v71 (broadcastInDim S850000x1 ![0] bcast_S850000_S850000x1_0 : (⟨S850000, .i32⟩ : BufTy).Contents (Elt F) → (⟨S850000x1, .i32⟩ : BufTy).Contents (Elt F)),
    StableHlo.binary main_v65 main_v71 main_v72 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v72 main_v58 main_v73 (mulf : (⟨S850000, .f32⟩ : BufTy).Contents (Elt F) → (⟨S850000, .f32⟩ : BufTy).Contents (Elt F) → (⟨S850000, .f32⟩ : BufTy).Contents (Elt F)),
    StableHlo.nullary main_c_15 (constantI S_ 32 0#32),
    StableHlo.unary main_c_15 main_v74 (broadcastInDim S850000 ![] bcast_S_S850000 : (⟨S_, .i32⟩ : BufTy).Contents (Elt F) → (⟨S850000, .i32⟩ : BufTy).Contents (Elt F)),
    StableHlo.binary main_v56 main_v74 main_v75 (cmpi .slt : (⟨S850000, .i32⟩ : BufTy).Contents (Elt F) → (⟨S850000, .i32⟩ : BufTy).Contents (Elt F) → (⟨S850000, .i1⟩ : BufTy).Contents (Elt F)),
    StableHlo.nullary main_c_16 (constantI S_ 32 50000#32),
    StableHlo.unary main_c_16 main_v76 (broadcastInDim S850000 ![] bcast_S_S850000 : (⟨S_, .i32⟩ : BufTy).Contents (Elt F) → (⟨S850000, .i32⟩ : BufTy).Contents (Elt F)),
    StableHlo.binary main_v56 main_v76 main_v77 (addi : (⟨S850000, .i32⟩ : BufTy).Contents (Elt F) → (⟨S850000, .i32⟩ : BufTy).Contents (Elt F) → (⟨S850000, .i32⟩ : BufTy).Contents (Elt F)),
    StableHlo.ternary main_v75 main_v77 main_v56 main_v78 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v78 main_v79 (broadcastInDim S850000x1 ![0] bcast_S850000_S850000x1_0 : (⟨S850000, .i32⟩ : BufTy).Contents (Elt F) → (⟨S850000x1, .i32⟩ : BufTy).Contents (Elt F)),
    StableHlo.binary main_v65 main_v79 main_v80 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v73 main_v80 main_v81 (mulf : (⟨S850000, .f32⟩ : BufTy).Contents (Elt F) → (⟨S850000, .f32⟩ : BufTy).Contents (Elt F) → (⟨S850000, .f32⟩ : BufTy).Contents (Elt F)),
    StableHlo.unary main_v81 main_v82 (broadcastInDim S850000x1 ![0] bcast_S850000_S850000x1_0 : (⟨S850000, .f32⟩ : BufTy).Contents (Elt F) → (⟨S850000x1, .f32⟩ : BufTy).Contents (Elt F)),
    StableHlo.nullary main_c_17 (constantI S_ 32 0#32),
    StableHlo.unary main_c_17 main_v83 (broadcastInDim S850000 ![] bcast_S_S850000 : (⟨S_, .i32⟩ : BufTy).Contents (Elt F) → (⟨S850000, .i32⟩ : BufTy).Contents (Elt F)),
    StableHlo.binary main_v55 main_v83 main_v84 (cmpi .slt : (⟨S850000, .i32⟩ : BufTy).Contents (Elt F) → (⟨S850000, .i32⟩ : BufTy).Contents (Elt F) → (⟨S850000, .i1⟩ : BufTy).Contents (Elt F)),
    StableHlo.nullary main_c_18 (constantI S_ 32 50000#32),
    StableHlo.unary main_c_18 main_v85 (broadcastInDim S850000 ![] bcast_S_S850000 : (⟨S_, .i32⟩ : BufTy).Contents (Elt F) → (⟨S850000, .i32⟩ : BufTy).Contents (Elt F)),
    StableHlo.binary main_v55 main_v85 main_v86 (addi : (⟨S850000, .i32⟩ : BufTy).Contents (Elt F) → (⟨S850000, .i32⟩ : BufTy).Contents (Elt F) → (⟨S850000, .i32⟩ : BufTy).Contents (Elt F)),
    StableHlo.ternary main_v84 main_v86 main_v55 main_v87 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v87 main_v88 (broadcastInDim S850000x1 ![0] bcast_S850000_S850000x1_0 : (⟨S850000, .i32⟩ : BufTy).Contents (Elt F) → (⟨S850000x1, .i32⟩ : BufTy).Contents (Elt F)),
    StableHlo.binary main_v49 main_v88 main_v89 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v82 main_v90 (broadcastInDim S850000x128 ![0, 1] bcast_S850000x1_S850000x128_0_1 : (⟨S850000x1, .f32⟩ : BufTy).Contents (Elt F) → (⟨S850000x128, .f32⟩ : BufTy).Contents (Elt F)),
    StableHlo.binary main_v90 main_v89 main_v91 (mulf : (⟨S850000x128, .f32⟩ : BufTy).Contents (Elt F) → (⟨S850000x128, .f32⟩ : BufTy).Contents (Elt F) → (⟨S850000x128, .f32⟩ : BufTy).Contents (Elt F)),
    StableHlo.nullary main_cst_19 (constant S_ .f32 0x00000000#32),
    StableHlo.unary main_cst_19 main_v92 (broadcastInDim S50000x128 ![] bcast_S_S50000x128 : (⟨S_, .f32⟩ : BufTy).Contents (Elt F) → (⟨S50000x128, .f32⟩ : BufTy).Contents (Elt F)),
    StableHlo.unary main_v56 main_v93 (broadcastInDim S850000x1 ![0] bcast_S850000_S850000x1_0 : (⟨S850000, .i32⟩ : BufTy).Contents (Elt F) → (⟨S850000x1, .i32⟩ : BufTy).Contents (Elt F)),
    StableHlo.ternary main_v92 main_v93 main_v91 main_v94 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]
/-- The buffers rSum0 writes, in order. -/
abbrev rSum0_outs : List (Ref sig .tc) :=
  [main_c_13, main_v66, main_v67, main_c_14, main_v68, main_v69, main_v70, main_v71, main_v72, main_v73, main_c_15, main_v74, main_v75, main_c_16, main_v76, main_v77, main_v78, main_v79, main_v80, main_v81, main_v82, main_c_17, main_v83, main_v84, main_c_18, main_v85, main_v86, main_v87, main_v88, main_v89, main_v90, main_v91, main_cst_19, main_v92, main_v93, main_v94]
/-- A buffer that rSum0 does not write keeps its contents through it. -/
theorem keep_rSum0 (V : Valuation τ sig (Elt F)) (r : Ref sig .tc) (hr : r ∉ rSum0_outs) :
    StableHlo.after rSum0 V (Proc.devRef .tc r) = V (Proc.devRef .tc r) :=
  StableHlo.after_of_forall_not_mem (b := Proc.devRef .tc r) _ _ (List.forall_iff_forall_mem.mp (by
    simp only [rSum0, List.Forall, StableHlo.nullary_writes, StableHlo.unary_writes, StableHlo.binary_writes, StableHlo.ternary_writes, StableHlo.reshape_writes, Finset.mem_singleton]
    repeat' apply And.intro
    all_goals exact StableHlo.devRef_ne_of_ne (fun e => hr (by rw [e]; decide))))

/-- 18 operations. -/
abbrev rDeg1 : List (HloOp τ sig (Elt F)) :=
  [ StableHlo.nullary main_v104 (iotaInDim S50000 32 0),
    StableHlo.binary main_v101 main_v104 main_v105 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v103 main_v104 main_v106 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_20 (constant S_ .f32 0x3F800000#32),
    StableHlo.unary main_cst_20 main_v107 (broadcastInDim S50000 ![] bcast_S_S50000 : (⟨S_, .f32⟩ : BufTy).Contents (Elt F) → (⟨S50000, .f32⟩ : BufTy).Contents (Elt F)),
    StableHlo.binary main_v48 main_v107 main_v108 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    StableHlo.nullary main_cst_21 (constant S_ .f32 0x00000000#32),
    StableHlo.unary main_cst_21 main_v109 (broadcastInDim S50000 ![] bcast_S_S50000 : (⟨S_, .f32⟩ : BufTy).Contents (Elt F) → (⟨S50000, .f32⟩ : BufTy).Contents (Elt F)),
    StableHlo.unary main_v106 main_v110 (broadcastInDim S850000x1 ![0] bcast_S850000_S850000x1_0 : (⟨S850000, .i32⟩ : BufTy).Contents (Elt F) → (⟨S850000x1, .i32⟩ : BufTy).Contents (Elt F)),
    StableHlo.ternary main_v109 main_v110 main_v108 main_v111 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_22 (constant S_ .f32 0x00000000#32),
    StableHlo.unary main_cst_22 main_v112 (broadcastInDim S50000 ![] bcast_S_S50000 : (⟨S_, .f32⟩ : BufTy).Contents (Elt F) → (⟨S50000, .f32⟩ : BufTy).Contents (Elt F)),
    StableHlo.binary main_v111 main_v112 main_v113 (cmpf .ogt : (⟨S50000, .f32⟩ : BufTy).Contents (Elt F) → (⟨S50000, .f32⟩ : BufTy).Contents (Elt F) → (⟨S50000, .i1⟩ : BufTy).Contents (Elt F)),
    StableHlo.unary main_v111 main_v114 (Host.rsqrt : (⟨S50000, .f32⟩ : BufTy).Contents (Elt F) → (⟨S50000, .f32⟩ : BufTy).Contents (Elt F)),
    StableHlo.nullary main_cst_23 (constant S_ .f32 0x00000000#32),
    StableHlo.TRef.unary (.of main_cst_23 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S50000, .f32⟩) (broadcastInDim S50000 ![] bcast_S_S50000),
    StableHlo.TRef.ternary (.of main_v113 : StableHlo.TRef sig ⟨S50000, .i1⟩) (.of main_v114 : StableHlo.TRef sig ⟨S50000, .f32⟩) (.of main_call6_v1 : StableHlo.TRef sig ⟨S50000, .f32⟩) (.of main_v115 : StableHlo.TRef sig ⟨S50000, .f32⟩) select ]
/-- The buffers rDeg1 writes, in order. -/
abbrev rDeg1_outs : List (Ref sig .tc) :=
  [main_v104, main_v105, main_v106, main_cst_20, main_v107, main_v108, main_cst_21, main_v109, main_v110, main_v111, main_cst_22, main_v112, main_v113, main_v114, main_cst_23, main_call6_v0, main_call6_v1, main_v115]
/-- A buffer that rDeg1 does not write keeps its contents through it. -/
theorem keep_rDeg1 (V : Valuation τ sig (Elt F)) (r : Ref sig .tc) (hr : r ∉ rDeg1_outs) :
    StableHlo.after rDeg1 V (Proc.devRef .tc r) = V (Proc.devRef .tc r) :=
  StableHlo.after_of_forall_not_mem (b := Proc.devRef .tc r) _ _ (List.forall_iff_forall_mem.mp (by
    simp only [rDeg1, List.Forall, StableHlo.nullary_writes, StableHlo.unary_writes, StableHlo.binary_writes, StableHlo.ternary_writes, StableHlo.reshape_writes, Finset.mem_singleton]
    repeat' apply And.intro
    all_goals exact StableHlo.devRef_ne_of_ne (fun e => hr (by rw [e]; decide))))

/-- 36 operations. -/
abbrev rSum1 : List (HloOp τ sig (Elt F)) :=
  [ StableHlo.nullary main_c_24 (constantI S_ 32 0#32),
    StableHlo.unary main_c_24 main_v116 (broadcastInDim S850000 ![] bcast_S_S850000 : (⟨S_, .i32⟩ : BufTy).Contents (Elt F) → (⟨S850000, .i32⟩ : BufTy).Contents (Elt F)),
    StableHlo.binary main_v105 main_v116 main_v117 (cmpi .slt : (⟨S850000, .i32⟩ : BufTy).Contents (Elt F) → (⟨S850000, .i32⟩ : BufTy).Contents (Elt F) → (⟨S850000, .i1⟩ : BufTy).Contents (Elt F)),
    StableHlo.nullary main_c_25 (constantI S_ 32 50000#32),
    StableHlo.unary main_c_25 main_v118 (broadcastInDim S850000 ![] bcast_S_S850000 : (⟨S_, .i32⟩ : BufTy).Contents (Elt F) → (⟨S850000, .i32⟩ : BufTy).Contents (Elt F)),
    StableHlo.binary main_v105 main_v118 main_v119 (addi : (⟨S850000, .i32⟩ : BufTy).Contents (Elt F) → (⟨S850000, .i32⟩ : BufTy).Contents (Elt F) → (⟨S850000, .i32⟩ : BufTy).Contents (Elt F)),
    StableHlo.ternary main_v117 main_v119 main_v105 main_v120 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v120 main_v121 (broadcastInDim S850000x1 ![0] bcast_S850000_S850000x1_0 : (⟨S850000, .i32⟩ : BufTy).Contents (Elt F) → (⟨S850000x1, .i32⟩ : BufTy).Contents (Elt F)),
    StableHlo.binary main_v115 main_v121 main_v122 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v122 main_v108 main_v123 (mulf : (⟨S850000, .f32⟩ : BufTy).Contents (Elt F) → (⟨S850000, .f32⟩ : BufTy).Contents (Elt F) → (⟨S850000, .f32⟩ : BufTy).Contents (Elt F)),
    StableHlo.nullary main_c_26 (constantI S_ 32 0#32),
    StableHlo.unary main_c_26 main_v124 (broadcastInDim S850000 ![] bcast_S_S850000 : (⟨S_, .i32⟩ : BufTy).Contents (Elt F) → (⟨S850000, .i32⟩ : BufTy).Contents (Elt F)),
    StableHlo.binary main_v106 main_v124 main_v125 (cmpi .slt : (⟨S850000, .i32⟩ : BufTy).Contents (Elt F) → (⟨S850000, .i32⟩ : BufTy).Contents (Elt F) → (⟨S850000, .i1⟩ : BufTy).Contents (Elt F)),
    StableHlo.nullary main_c_27 (constantI S_ 32 50000#32),
    StableHlo.unary main_c_27 main_v126 (broadcastInDim S850000 ![] bcast_S_S850000 : (⟨S_, .i32⟩ : BufTy).Contents (Elt F) → (⟨S850000, .i32⟩ : BufTy).Contents (Elt F)),
    StableHlo.binary main_v106 main_v126 main_v127 (addi : (⟨S850000, .i32⟩ : BufTy).Contents (Elt F) → (⟨S850000, .i32⟩ : BufTy).Contents (Elt F) → (⟨S850000, .i32⟩ : BufTy).Contents (Elt F)),
    StableHlo.ternary main_v125 main_v127 main_v106 main_v128 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v128 main_v129 (broadcastInDim S850000x1 ![0] bcast_S850000_S850000x1_0 : (⟨S850000, .i32⟩ : BufTy).Contents (Elt F) → (⟨S850000x1, .i32⟩ : BufTy).Contents (Elt F)),
    StableHlo.binary main_v115 main_v129 main_v130 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v123 main_v130 main_v131 (mulf : (⟨S850000, .f32⟩ : BufTy).Contents (Elt F) → (⟨S850000, .f32⟩ : BufTy).Contents (Elt F) → (⟨S850000, .f32⟩ : BufTy).Contents (Elt F)),
    StableHlo.unary main_v131 main_v132 (broadcastInDim S850000x1 ![0] bcast_S850000_S850000x1_0 : (⟨S850000, .f32⟩ : BufTy).Contents (Elt F) → (⟨S850000x1, .f32⟩ : BufTy).Contents (Elt F)),
    StableHlo.nullary main_c_28 (constantI S_ 32 0#32),
    StableHlo.unary main_c_28 main_v133 (broadcastInDim S850000 ![] bcast_S_S850000 : (⟨S_, .i32⟩ : BufTy).Contents (Elt F) → (⟨S850000, .i32⟩ : BufTy).Contents (Elt F)),
    StableHlo.binary main_v105 main_v133 main_v134 (cmpi .slt : (⟨S850000, .i32⟩ : BufTy).Contents (Elt F) → (⟨S850000, .i32⟩ : BufTy).Contents (Elt F) → (⟨S850000, .i1⟩ : BufTy).Contents (Elt F)),
    StableHlo.nullary main_c_29 (constantI S_ 32 50000#32),
    StableHlo.unary main_c_29 main_v135 (broadcastInDim S850000 ![] bcast_S_S850000 : (⟨S_, .i32⟩ : BufTy).Contents (Elt F) → (⟨S850000, .i32⟩ : BufTy).Contents (Elt F)),
    StableHlo.binary main_v105 main_v135 main_v136 (addi : (⟨S850000, .i32⟩ : BufTy).Contents (Elt F) → (⟨S850000, .i32⟩ : BufTy).Contents (Elt F) → (⟨S850000, .i32⟩ : BufTy).Contents (Elt F)),
    StableHlo.ternary main_v134 main_v136 main_v105 main_v137 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v137 main_v138 (broadcastInDim S850000x1 ![0] bcast_S850000_S850000x1_0 : (⟨S850000, .i32⟩ : BufTy).Contents (Elt F) → (⟨S850000x1, .i32⟩ : BufTy).Contents (Elt F)),
    StableHlo.binary main_v99 main_v138 main_v139 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v132 main_v140 (broadcastInDim S850000x128 ![0, 1] bcast_S850000x1_S850000x128_0_1 : (⟨S850000x1, .f32⟩ : BufTy).Contents (Elt F) → (⟨S850000x128, .f32⟩ : BufTy).Contents (Elt F)),
    StableHlo.binary main_v140 main_v139 main_v141 (mulf : (⟨S850000x128, .f32⟩ : BufTy).Contents (Elt F) → (⟨S850000x128, .f32⟩ : BufTy).Contents (Elt F) → (⟨S850000x128, .f32⟩ : BufTy).Contents (Elt F)),
    StableHlo.nullary main_cst_30 (constant S_ .f32 0x00000000#32),
    StableHlo.unary main_cst_30 main_v142 (broadcastInDim S50000x128 ![] bcast_S_S50000x128 : (⟨S_, .f32⟩ : BufTy).Contents (Elt F) → (⟨S50000x128, .f32⟩ : BufTy).Contents (Elt F)),
    StableHlo.unary main_v106 main_v143 (broadcastInDim S850000x1 ![0] bcast_S850000_S850000x1_0 : (⟨S850000, .i32⟩ : BufTy).Contents (Elt F) → (⟨S850000x1, .i32⟩ : BufTy).Contents (Elt F)),
    StableHlo.ternary main_v142 main_v143 main_v141 main_v144 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]
/-- The buffers rSum1 writes, in order. -/
abbrev rSum1_outs : List (Ref sig .tc) :=
  [main_c_24, main_v116, main_v117, main_c_25, main_v118, main_v119, main_v120, main_v121, main_v122, main_v123, main_c_26, main_v124, main_v125, main_c_27, main_v126, main_v127, main_v128, main_v129, main_v130, main_v131, main_v132, main_c_28, main_v133, main_v134, main_c_29, main_v135, main_v136, main_v137, main_v138, main_v139, main_v140, main_v141, main_cst_30, main_v142, main_v143, main_v144]
/-- A buffer that rSum1 does not write keeps its contents through it. -/
theorem keep_rSum1 (V : Valuation τ sig (Elt F)) (r : Ref sig .tc) (hr : r ∉ rSum1_outs) :
    StableHlo.after rSum1 V (Proc.devRef .tc r) = V (Proc.devRef .tc r) :=
  StableHlo.after_of_forall_not_mem (b := Proc.devRef .tc r) _ _ (List.forall_iff_forall_mem.mp (by
    simp only [rSum1, List.Forall, StableHlo.nullary_writes, StableHlo.unary_writes, StableHlo.binary_writes, StableHlo.ternary_writes, StableHlo.reshape_writes, Finset.mem_singleton]
    repeat' apply And.intro
    all_goals exact StableHlo.devRef_ne_of_ne (fun e => hr (by rw [e]; decide))))

theorem rAgg0_cut : (rAgg0 : List (HloOp τ sig (Elt F))) = rDeg0 ++ rSum0 := rfl
theorem rAgg1_cut : (rAgg1 : List (HloOp τ sig (Elt F))) = rDeg1 ++ rSum1 := rfl

end Cert.ReferenceIdeal.Hand

end
-- ==== Proof.Sims.lean ====
/-
  The stretches of host operations the two programs share. Where both programs apply the same operations, in the same
  order, to buffers that hold equal contents, the results are equal: the standardisation of the per-edge scores into
  edge weights, and each layer's normalised neighbourhood sum (degrees by a scatter-add of the weights with self loops,
  the inverse square roots, the per-edge coefficients, the scatter-add of the scaled rows), as well as the small
  opening pieces (the two rows of the edge list, the rectified doubled parsing matrix).
-/
import proofs.«415847_j84524956385823_2_alg».proof.Proof.Names
import proofs.«415847_j84524956385823_2_alg».proof.Proof.AggCuts
import Idealize.ShloMosaic.Lib.StableHlo.Run

set_option maxRecDepth 16384
set_option maxHeartbeats 1600000

noncomputable section

namespace Cert.Bridge

open Idealize.ShloMosaic Idealize.ShloMosaic.TcCoe Idealize.SL.Sem Idealize.ShloMosaic.StableHlo
open Idealize.ShloMosaic.ValueIdx

theorem sim_parsing (Vk : KV) (Vr : RV) (h8 : Vr (Proc.devRef .tc Cert.ReferenceIdeal.main_arg8 : DevRef Cert.ReferenceIdeal.τ Cert.ReferenceIdeal.sig) = Vk (Proc.devRef .tc Cert.KernelIdeal.main_arg8 : DevRef Cert.KernelIdeal.τ Cert.KernelIdeal.sig)) :
    after Cert.ReferenceIdeal.Hand.rParsing Vr (Proc.devRef .tc Cert.ReferenceIdeal.main_v16 : DevRef Cert.ReferenceIdeal.τ Cert.ReferenceIdeal.sig) = after Cert.KernelIdeal.Hand.kPre Vk (Proc.devRef .tc Cert.KernelIdeal.main_v6 : DevRef Cert.KernelIdeal.τ Cert.KernelIdeal.sig) := by
  after_results_simp
  rw [h8]
  try rfl

theorem sim_row (Vk : KV) (Vr : RV) (h1 : Vr (Proc.devRef .tc Cert.ReferenceIdeal.main_arg1 : DevRef Cert.ReferenceIdeal.τ Cert.ReferenceIdeal.sig) = Vk (Proc.devRef .tc Cert.KernelIdeal.main_arg1 : DevRef Cert.KernelIdeal.τ Cert.KernelIdeal.sig)) :
    after Cert.ReferenceIdeal.Hand.rIdx0 Vr (Proc.devRef .tc Cert.ReferenceIdeal.main_v51 : DevRef Cert.ReferenceIdeal.τ Cert.ReferenceIdeal.sig) = after Cert.KernelIdeal.Hand.kPre Vk (Proc.devRef .tc Cert.KernelIdeal.main_v1 : DevRef Cert.KernelIdeal.τ Cert.KernelIdeal.sig) := by
  after_results_simp
  rw [h1]
  try rfl

theorem sim_col (Vk : KV) (Vr : RV) (h1 : Vr (Proc.devRef .tc Cert.ReferenceIdeal.main_arg1 : DevRef Cert.ReferenceIdeal.τ Cert.ReferenceIdeal.sig) = Vk (Proc.devRef .tc Cert.KernelIdeal.main_arg1 : DevRef Cert.KernelIdeal.τ Cert.KernelIdeal.sig)) :
    after Cert.ReferenceIdeal.Hand.rIdx0 Vr (Proc.devRef .tc Cert.ReferenceIdeal.main_v53 : DevRef Cert.ReferenceIdeal.τ Cert.ReferenceIdeal.sig) = after Cert.KernelIdeal.Hand.kPre Vk (Proc.devRef .tc Cert.KernelIdeal.main_v3 : DevRef Cert.KernelIdeal.τ Cert.KernelIdeal.sig) := by
  after_results_simp
  rw [h1]
  try rfl

theorem sim_row1 (Vk : KV) (Vr : RV) (h1 : Vr (Proc.devRef .tc Cert.ReferenceIdeal.main_arg1 : DevRef Cert.ReferenceIdeal.τ Cert.ReferenceIdeal.sig) = Vk (Proc.devRef .tc Cert.KernelIdeal.main_arg1 : DevRef Cert.KernelIdeal.τ Cert.KernelIdeal.sig)) :
    after Cert.ReferenceIdeal.Hand.rIdx1 Vr (Proc.devRef .tc Cert.ReferenceIdeal.main_v101 : DevRef Cert.ReferenceIdeal.τ Cert.ReferenceIdeal.sig) = after Cert.KernelIdeal.Hand.kPre Vk (Proc.devRef .tc Cert.KernelIdeal.main_v1 : DevRef Cert.KernelIdeal.τ Cert.KernelIdeal.sig) := by
  after_results_simp
  rw [h1]
  try rfl

theorem sim_col1 (Vk : KV) (Vr : RV) (h1 : Vr (Proc.devRef .tc Cert.ReferenceIdeal.main_arg1 : DevRef Cert.ReferenceIdeal.τ Cert.ReferenceIdeal.sig) = Vk (Proc.devRef .tc Cert.KernelIdeal.main_arg1 : DevRef Cert.KernelIdeal.τ Cert.KernelIdeal.sig)) :
    after Cert.ReferenceIdeal.Hand.rIdx1 Vr (Proc.devRef .tc Cert.ReferenceIdeal.main_v103 : DevRef Cert.ReferenceIdeal.τ Cert.ReferenceIdeal.sig) = after Cert.KernelIdeal.Hand.kPre Vk (Proc.devRef .tc Cert.KernelIdeal.main_v3 : DevRef Cert.KernelIdeal.τ Cert.KernelIdeal.sig) := by
  after_results_simp
  rw [h1]
  try rfl

theorem sim_weight (Vk : KV) (Vr : RV) (h : Vr (Proc.devRef .tc Cert.ReferenceIdeal.main_v37 : DevRef Cert.ReferenceIdeal.τ Cert.ReferenceIdeal.sig) = Vk (Proc.devRef .tc Cert.KernelIdeal.main_v14 : DevRef Cert.KernelIdeal.τ Cert.KernelIdeal.sig)) :
    after Cert.ReferenceIdeal.Hand.rWeight Vr (Proc.devRef .tc Cert.ReferenceIdeal.main_v48 : DevRef Cert.ReferenceIdeal.τ Cert.ReferenceIdeal.sig) = after Cert.KernelIdeal.Hand.kWeight Vk (Proc.devRef .tc Cert.KernelIdeal.main_v25 : DevRef Cert.KernelIdeal.τ Cert.KernelIdeal.sig) := by
  after_results_simp
  rw [h]
  try rfl

/-! The first layer's sum, in its two parts. -/

theorem sim_deg0_row2 (Vk : KV) (Vr : RV) (hr : Vr (Proc.devRef .tc Cert.ReferenceIdeal.main_v51 : DevRef Cert.ReferenceIdeal.τ Cert.ReferenceIdeal.sig) = Vk (Proc.devRef .tc Cert.KernelIdeal.main_v1 : DevRef Cert.KernelIdeal.τ Cert.KernelIdeal.sig)) :
    after Cert.ReferenceIdeal.Hand.rDeg0 Vr (Proc.devRef .tc Cert.ReferenceIdeal.main_v55 : DevRef Cert.ReferenceIdeal.τ Cert.ReferenceIdeal.sig) = after Cert.KernelIdeal.Hand.kDeg0 Vk (Proc.devRef .tc Cert.KernelIdeal.main_v27 : DevRef Cert.KernelIdeal.τ Cert.KernelIdeal.sig) := by
  after_results
  rw [hr]
  try rfl

theorem sim_deg0_col2 (Vk : KV) (Vr : RV) (hc : Vr (Proc.devRef .tc Cert.ReferenceIdeal.main_v53 : DevRef Cert.ReferenceIdeal.τ Cert.ReferenceIdeal.sig) = Vk (Proc.devRef .tc Cert.KernelIdeal.main_v3 : DevRef Cert.KernelIdeal.τ Cert.KernelIdeal.sig)) :
    after Cert.ReferenceIdeal.Hand.rDeg0 Vr (Proc.devRef .tc Cert.ReferenceIdeal.main_v56 : DevRef Cert.ReferenceIdeal.τ Cert.ReferenceIdeal.sig) = after Cert.KernelIdeal.Hand.kDeg0 Vk (Proc.devRef .tc Cert.KernelIdeal.main_v28 : DevRef Cert.KernelIdeal.τ Cert.KernelIdeal.sig) := by
  after_results
  rw [hc]
  try rfl

theorem sim_deg0_w2 (Vk : KV) (Vr : RV) (hw : Vr (Proc.devRef .tc Cert.ReferenceIdeal.main_v48 : DevRef Cert.ReferenceIdeal.τ Cert.ReferenceIdeal.sig) = Vk (Proc.devRef .tc Cert.KernelIdeal.main_v25 : DevRef Cert.KernelIdeal.τ Cert.KernelIdeal.sig)) :
    after Cert.ReferenceIdeal.Hand.rDeg0 Vr (Proc.devRef .tc Cert.ReferenceIdeal.main_v58 : DevRef Cert.ReferenceIdeal.τ Cert.ReferenceIdeal.sig) = after Cert.KernelIdeal.Hand.kDeg0 Vk (Proc.devRef .tc Cert.KernelIdeal.main_v30 : DevRef Cert.KernelIdeal.τ Cert.KernelIdeal.sig) := by
  after_results
  rw [hw]
  try rfl

theorem sim_deg0_dis (Vk : KV) (Vr : RV) (hc : Vr (Proc.devRef .tc Cert.ReferenceIdeal.main_v53 : DevRef Cert.ReferenceIdeal.τ Cert.ReferenceIdeal.sig) = Vk (Proc.devRef .tc Cert.KernelIdeal.main_v3 : DevRef Cert.KernelIdeal.τ Cert.KernelIdeal.sig)) (hw : Vr (Proc.devRef .tc Cert.ReferenceIdeal.main_v48 : DevRef Cert.ReferenceIdeal.τ Cert.ReferenceIdeal.sig) = Vk (Proc.devRef .tc Cert.KernelIdeal.main_v25 : DevRef Cert.KernelIdeal.τ Cert.KernelIdeal.sig)) :
    after Cert.ReferenceIdeal.Hand.rDeg0 Vr (Proc.devRef .tc Cert.ReferenceIdeal.main_v65 : DevRef Cert.ReferenceIdeal.τ Cert.ReferenceIdeal.sig) = after Cert.KernelIdeal.Hand.kDeg0 Vk (Proc.devRef .tc Cert.KernelIdeal.main_v37 : DevRef Cert.KernelIdeal.τ Cert.KernelIdeal.sig) := by
  after_results
  rw [hc, hw]
  try rfl

theorem sim_sum0 (Vk : KV) (Vr : RV) (hx : Vr (Proc.devRef .tc Cert.ReferenceIdeal.main_v49 : DevRef Cert.ReferenceIdeal.τ Cert.ReferenceIdeal.sig) = Vk (Proc.devRef .tc Cert.KernelIdeal.main_v10_2 : DevRef Cert.KernelIdeal.τ Cert.KernelIdeal.sig))
    (h1 : Vr (Proc.devRef .tc Cert.ReferenceIdeal.main_v55 : DevRef Cert.ReferenceIdeal.τ Cert.ReferenceIdeal.sig) = Vk (Proc.devRef .tc Cert.KernelIdeal.main_v27 : DevRef Cert.KernelIdeal.τ Cert.KernelIdeal.sig))
    (h2 : Vr (Proc.devRef .tc Cert.ReferenceIdeal.main_v56 : DevRef Cert.ReferenceIdeal.τ Cert.ReferenceIdeal.sig) = Vk (Proc.devRef .tc Cert.KernelIdeal.main_v28 : DevRef Cert.KernelIdeal.τ Cert.KernelIdeal.sig))
    (h3 : Vr (Proc.devRef .tc Cert.ReferenceIdeal.main_v58 : DevRef Cert.ReferenceIdeal.τ Cert.ReferenceIdeal.sig) = Vk (Proc.devRef .tc Cert.KernelIdeal.main_v30 : DevRef Cert.KernelIdeal.τ Cert.KernelIdeal.sig))
    (h4 : Vr (Proc.devRef .tc Cert.ReferenceIdeal.main_v65 : DevRef Cert.ReferenceIdeal.τ Cert.ReferenceIdeal.sig) = Vk (Proc.devRef .tc Cert.KernelIdeal.main_v37 : DevRef Cert.KernelIdeal.τ Cert.KernelIdeal.sig)) :
    after Cert.ReferenceIdeal.Hand.rSum0 Vr (Proc.devRef .tc Cert.ReferenceIdeal.main_v94 : DevRef Cert.ReferenceIdeal.τ Cert.ReferenceIdeal.sig) = after Cert.KernelIdeal.Hand.kSum0 Vk (Proc.devRef .tc Cert.KernelIdeal.main_v66 : DevRef Cert.KernelIdeal.τ Cert.KernelIdeal.sig) := by
  after_results_simp
  rw [hx, h1, h2, h3, h4]
  try rfl

theorem sim_agg0 (Vk : KV) (Vr : RV) (hx : Vr (Proc.devRef .tc Cert.ReferenceIdeal.main_v49 : DevRef Cert.ReferenceIdeal.τ Cert.ReferenceIdeal.sig) = Vk (Proc.devRef .tc Cert.KernelIdeal.main_v10_2 : DevRef Cert.KernelIdeal.τ Cert.KernelIdeal.sig))
    (hr : Vr (Proc.devRef .tc Cert.ReferenceIdeal.main_v51 : DevRef Cert.ReferenceIdeal.τ Cert.ReferenceIdeal.sig) = Vk (Proc.devRef .tc Cert.KernelIdeal.main_v1 : DevRef Cert.KernelIdeal.τ Cert.KernelIdeal.sig)) (hc : Vr (Proc.devRef .tc Cert.ReferenceIdeal.main_v53 : DevRef Cert.ReferenceIdeal.τ Cert.ReferenceIdeal.sig) = Vk (Proc.devRef .tc Cert.KernelIdeal.main_v3 : DevRef Cert.KernelIdeal.τ Cert.KernelIdeal.sig))
    (hw : Vr (Proc.devRef .tc Cert.ReferenceIdeal.main_v48 : DevRef Cert.ReferenceIdeal.τ Cert.ReferenceIdeal.sig) = Vk (Proc.devRef .tc Cert.KernelIdeal.main_v25 : DevRef Cert.KernelIdeal.τ Cert.KernelIdeal.sig)) :
    after Cert.ReferenceIdeal.Hand.rAgg0 Vr (Proc.devRef .tc Cert.ReferenceIdeal.main_v94 : DevRef Cert.ReferenceIdeal.τ Cert.ReferenceIdeal.sig) = after Cert.KernelIdeal.Hand.kAgg0 Vk (Proc.devRef .tc Cert.KernelIdeal.main_v66 : DevRef Cert.KernelIdeal.τ Cert.KernelIdeal.sig) := by
  rw [Cert.ReferenceIdeal.Hand.rAgg0_cut, Cert.KernelIdeal.Hand.kAgg0_cut, StableHlo.after_append, StableHlo.after_append]
  exact sim_sum0 (after Cert.KernelIdeal.Hand.kDeg0 Vk) (after Cert.ReferenceIdeal.Hand.rDeg0 Vr)
    (((Cert.ReferenceIdeal.Hand.keep_rDeg0 Vr _ (by decide)).trans hx).trans (Cert.KernelIdeal.Hand.keep_kDeg0 Vk _ (by decide)).symm)
    (sim_deg0_row2 Vk Vr hr) (sim_deg0_col2 Vk Vr hc) (sim_deg0_w2 Vk Vr hw) (sim_deg0_dis Vk Vr hc hw)

/-! The second layer's sum, in its two parts. -/

theorem sim_deg1_row2 (Vk : KV) (Vr : RV) (hr : Vr (Proc.devRef .tc Cert.ReferenceIdeal.main_v101 : DevRef Cert.ReferenceIdeal.τ Cert.ReferenceIdeal.sig) = Vk (Proc.devRef .tc Cert.KernelIdeal.main_v1 : DevRef Cert.KernelIdeal.τ Cert.KernelIdeal.sig)) :
    after Cert.ReferenceIdeal.Hand.rDeg1 Vr (Proc.devRef .tc Cert.ReferenceIdeal.main_v105 : DevRef Cert.ReferenceIdeal.τ Cert.ReferenceIdeal.sig) = after Cert.KernelIdeal.Hand.kDeg1 Vk (Proc.devRef .tc Cert.KernelIdeal.main_v70 : DevRef Cert.KernelIdeal.τ Cert.KernelIdeal.sig) := by
  after_results
  rw [hr]
  try rfl

theorem sim_deg1_col2 (Vk : KV) (Vr : RV) (hc : Vr (Proc.devRef .tc Cert.ReferenceIdeal.main_v103 : DevRef Cert.ReferenceIdeal.τ Cert.ReferenceIdeal.sig) = Vk (Proc.devRef .tc Cert.KernelIdeal.main_v3 : DevRef Cert.KernelIdeal.τ Cert.KernelIdeal.sig)) :
    after Cert.ReferenceIdeal.Hand.rDeg1 Vr (Proc.devRef .tc Cert.ReferenceIdeal.main_v106 : DevRef Cert.ReferenceIdeal.τ Cert.ReferenceIdeal.sig) = after Cert.KernelIdeal.Hand.kDeg1 Vk (Proc.devRef .tc Cert.KernelIdeal.main_v71 : DevRef Cert.KernelIdeal.τ Cert.KernelIdeal.sig) := by
  after_results
  rw [hc]
  try rfl

theorem sim_deg1_w2 (Vk : KV) (Vr : RV) (hw : Vr (Proc.devRef .tc Cert.ReferenceIdeal.main_v48 : DevRef Cert.ReferenceIdeal.τ Cert.ReferenceIdeal.sig) = Vk (Proc.devRef .tc Cert.KernelIdeal.main_v25 : DevRef Cert.KernelIdeal.τ Cert.KernelIdeal.sig)) :
    after Cert.ReferenceIdeal.Hand.rDeg1 Vr (Proc.devRef .tc Cert.ReferenceIdeal.main_v108 : DevRef Cert.ReferenceIdeal.τ Cert.ReferenceIdeal.sig) = after Cert.KernelIdeal.Hand.kDeg1 Vk (Proc.devRef .tc Cert.KernelIdeal.main_v73 : DevRef Cert.KernelIdeal.τ Cert.KernelIdeal.sig) := by
  after_results
  rw [hw]
  try rfl

theorem sim_deg1_dis (Vk : KV) (Vr : RV) (hc : Vr (Proc.devRef .tc Cert.ReferenceIdeal.main_v103 : DevRef Cert.ReferenceIdeal.τ Cert.ReferenceIdeal.sig) = Vk (Proc.devRef .tc Cert.KernelIdeal.main_v3 : DevRef Cert.KernelIdeal.τ Cert.KernelIdeal.sig)) (hw : Vr (Proc.devRef .tc Cert.ReferenceIdeal.main_v48 : DevRef Cert.ReferenceIdeal.τ Cert.ReferenceIdeal.sig) = Vk (Proc.devRef .tc Cert.KernelIdeal.main_v25 : DevRef Cert.KernelIdeal.τ Cert.KernelIdeal.sig)) :
    after Cert.ReferenceIdeal.Hand.rDeg1 Vr (Proc.devRef .tc Cert.ReferenceIdeal.main_v115 : DevRef Cert.ReferenceIdeal.τ Cert.ReferenceIdeal.sig) = after Cert.KernelIdeal.Hand.kDeg1 Vk (Proc.devRef .tc Cert.KernelIdeal.main_v80 : DevRef Cert.KernelIdeal.τ Cert.KernelIdeal.sig) := by
  after_results
  rw [hc, hw]
  try rfl

theorem sim_sum1 (Vk : KV) (Vr : RV) (hx : Vr (Proc.devRef .tc Cert.ReferenceIdeal.main_v99 : DevRef Cert.ReferenceIdeal.τ Cert.ReferenceIdeal.sig) = Vk (Proc.devRef .tc Cert.KernelIdeal.main_v68_1 : DevRef Cert.KernelIdeal.τ Cert.KernelIdeal.sig))
    (h1 : Vr (Proc.devRef .tc Cert.ReferenceIdeal.main_v105 : DevRef Cert.ReferenceIdeal.τ Cert.ReferenceIdeal.sig) = Vk (Proc.devRef .tc Cert.KernelIdeal.main_v70 : DevRef Cert.KernelIdeal.τ Cert.KernelIdeal.sig))
    (h2 : Vr (Proc.devRef .tc Cert.ReferenceIdeal.main_v106 : DevRef Cert.ReferenceIdeal.τ Cert.ReferenceIdeal.sig) = Vk (Proc.devRef .tc Cert.KernelIdeal.main_v71 : DevRef Cert.KernelIdeal.τ Cert.KernelIdeal.sig))
    (h3 : Vr (Proc.devRef .tc Cert.ReferenceIdeal.main_v108 : DevRef Cert.ReferenceIdeal.τ Cert.ReferenceIdeal.sig) = Vk (Proc.devRef .tc Cert.KernelIdeal.main_v73 : DevRef Cert.KernelIdeal.τ Cert.KernelIdeal.sig))
    (h4 : Vr (Proc.devRef .tc Cert.ReferenceIdeal.main_v115 : DevRef Cert.ReferenceIdeal.τ Cert.ReferenceIdeal.sig) = Vk (Proc.devRef .tc Cert.KernelIdeal.main_v80 : DevRef Cert.KernelIdeal.τ Cert.KernelIdeal.sig)) :
    after Cert.ReferenceIdeal.Hand.rSum1 Vr (Proc.devRef .tc Cert.ReferenceIdeal.main_v144 : DevRef Cert.ReferenceIdeal.τ Cert.ReferenceIdeal.sig) = after Cert.KernelIdeal.Hand.kSum1 Vk (Proc.devRef .tc Cert.KernelIdeal.main_v109 : DevRef Cert.KernelIdeal.τ Cert.KernelIdeal.sig) := by
  after_results_simp
  rw [hx, h1, h2, h3, h4]
  try rfl

theorem sim_agg1 (Vk : KV) (Vr : RV) (hx : Vr (Proc.devRef .tc Cert.ReferenceIdeal.main_v99 : DevRef Cert.ReferenceIdeal.τ Cert.ReferenceIdeal.sig) = Vk (Proc.devRef .tc Cert.KernelIdeal.main_v68_1 : DevRef Cert.KernelIdeal.τ Cert.KernelIdeal.sig))
    (hr : Vr (Proc.devRef .tc Cert.ReferenceIdeal.main_v101 : DevRef Cert.ReferenceIdeal.τ Cert.ReferenceIdeal.sig) = Vk (Proc.devRef .tc Cert.KernelIdeal.main_v1 : DevRef Cert.KernelIdeal.τ Cert.KernelIdeal.sig)) (hc : Vr (Proc.devRef .tc Cert.ReferenceIdeal.main_v103 : DevRef Cert.ReferenceIdeal.τ Cert.ReferenceIdeal.sig) = Vk (Proc.devRef .tc Cert.KernelIdeal.main_v3 : DevRef Cert.KernelIdeal.τ Cert.KernelIdeal.sig))
    (hw : Vr (Proc.devRef .tc Cert.ReferenceIdeal.main_v48 : DevRef Cert.ReferenceIdeal.τ Cert.ReferenceIdeal.sig) = Vk (Proc.devRef .tc Cert.KernelIdeal.main_v25 : DevRef Cert.KernelIdeal.τ Cert.KernelIdeal.sig)) :
    after Cert.ReferenceIdeal.Hand.rAgg1 Vr (Proc.devRef .tc Cert.ReferenceIdeal.main_v144 : DevRef Cert.ReferenceIdeal.τ Cert.ReferenceIdeal.sig) = after Cert.KernelIdeal.Hand.kAgg1 Vk (Proc.devRef .tc Cert.KernelIdeal.main_v109 : DevRef Cert.KernelIdeal.τ Cert.KernelIdeal.sig) := by
  rw [Cert.ReferenceIdeal.Hand.rAgg1_cut, Cert.KernelIdeal.Hand.kAgg1_cut, StableHlo.after_append, StableHlo.after_append]
  exact sim_sum1 (after Cert.KernelIdeal.Hand.kDeg1 Vk) (after Cert.ReferenceIdeal.Hand.rDeg1 Vr)
    (((Cert.ReferenceIdeal.Hand.keep_rDeg1 Vr _ (by decide)).trans hx).trans (Cert.KernelIdeal.Hand.keep_kDeg1 Vk _ (by decide)).symm)
    (sim_deg1_row2 Vk Vr hr) (sim_deg1_col2 Vk Vr hc) (sim_deg1_w2 Vk Vr hw) (sim_deg1_dis Vk Vr hc hw)

end Cert.Bridge

end
-- ==== Proof.KernelBounds.lean ====
/-
  The kernel program's buffer contents at its region boundaries, over the operation lists cut by what is computed:
  the contents at the first region's entry are the fold of the opening operations over the launch memory; at the second
  region's entry the folds of the score, the weight and the first neighbourhood-sum operations over the first region's
  exit; at the third region's entry the fold of the second neighbourhood-sum operations over the second region's exit.
  A buffer none of these writes, and no region holds as an array, still has its launch contents.
-/
import proofs.«415847_j84524956385823_2_alg».proof.Proof.KernelOps

noncomputable section

namespace Cert.KernelIdeal.Hand

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

theorem W3_eq (c : Dev nD) : W3 m ρ c = after kPre (W0 m ρ c) := by
  have h := congrArg (fun l => after l (W0 m ρ c)) (stretch0_eq (F := F))
  simp only [StableHlo.after_append] at h
  exact h

theorem W11_eq (c : Dev nD) : W11 m ρ c = after kAgg0 (after kWeight (after kScore (W4 m ρ c))) := by
  have h := congrArg (fun l => after l (W4 m ρ c)) (stretch1_eq (F := F))
  simp only [StableHlo.after_append] at h
  exact h

theorem W15_eq (c : Dev nD) : W15 m ρ c = after kAgg1 (W12 m ρ c) := by
  have h := congrArg (fun l => after l (W12 m ρ c)) (stretch2_eq (F := F))
  simp only [StableHlo.after_append] at h
  exact h

/-- A buffer the opening operations do not write has its launch contents at the first region's entry. -/
theorem W3_keep (c : Dev nD) (r : Ref sig .tc) (h0 : r ∉ kPre_outs) :
    W3 m ρ c (Proc.devRef .tc r) = m ((c : Thread nD τ).loc r) := by
  rw [W3_eq, keep_kPre _ r h0]

/-- A buffer that is no array of the first region and that the operations before the second region do not write is,
    at the second region's entry, as it was at the first region's entry. -/
theorem W11_keep (c : Dev nD) (r : Ref sig .tc) (h1 : ∀ w, Pipeline.arrRef spec0 w ≠ r)
    (h2 : r ∉ kScore_outs) (h3 : r ∉ kWeight_outs) (h4 : r ∉ kAgg0_outs) :
    W11 m ρ c (Proc.devRef .tc r) = W3 m ρ c (Proc.devRef .tc r) := by
  rw [W11_eq, keep_kAgg0 _ r h4, keep_kWeight _ r h3, keep_kScore _ r h2, W4_of_ne m ρ c r h1]

/-- A buffer that is no array of the second region and that the operations before the third region do not write is,
    at the third region's entry, as it was at the second region's entry. -/
theorem W15_keep (c : Dev nD) (r : Ref sig .tc) (h5 : ∀ w, Pipeline.arrRef spec1 w ≠ r) (h6 : r ∉ kAgg1_outs) :
    W15 m ρ c (Proc.devRef .tc r) = W11 m ρ c (Proc.devRef .tc r) := by
  rw [W15_eq, keep_kAgg1 _ r h6, W12_of_ne m ρ c r h5]

end Cert.KernelIdeal.Hand

end
-- ==== Proof.Region0.lean ====
/-
  The first region against the reference's perceptron.

  A row of the logits depends on the same row of the node features only: with W1, W2, W3 the three weight matrices and
  b1, b2, b3 the biases, row r of the logits is  lin W3 b3 (relu (lin W2 b2 (relu (lin W1 b1 (row r of x))))),  where
  lin W b v = v · W + b  and relu is the maximum with zero, entry by entry. The kernel computes this on blocks of 2000
  rows (grid point t holds rows 2000·t … 2000·t + 1999), each product a matrix product accumulated into zero; the
  reference computes it on the whole array with the biases broadcast down the rows. The 25 blocks tile the 50000 rows,
  so the array the region leaves is that function of the whole input; the biases reach the region as one-row matrices,
  the reshapes of the bias vectors. The second output t is, entry by entry, the logits' row times the parsing matrix's
  column, the parsing matrix as the region finds it.
-/
import proofs.«415847_j84524956385823_2_alg».proof.Proof.Names
import proofs.«415847_j84524956385823_2_alg».proof.Proof.KernelBounds
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.Lib.StableHlo.Run
import Idealize.ShloMosaic.PureOps.Ideal.Laws

noncomputable section

namespace Cert.Bridge.Mlp
open Idealize.ShloMosaic Idealize.ShloMosaic.TcCoe Idealize.SL.Sem Idealize.ShloMosaic.StableHlo
open Idealize.ShloMosaic.ValueIdx

/-! ## The perceptron on one row -/

/-- A matrix of extended reals with `a` rows and `b` columns. -/
abbrev Mat (a b : Nat) := FVec Ideal ⟨2, ![a, b]⟩ .f32

/-- The zero the rectifier compares with. -/
abbrev zeroR : EReal := Ideal.ofBits .f32 0x00000000#32

/-- One linear layer on a row: entry `e` of  v · W + b. -/
def linRow {n k : Nat} (W : Mat n k) (b : Fin k → EReal) (v : Fin n → EReal) : Fin k → EReal :=
  fun e => (∑ f : Fin n, v f * W (ix2 f e)) + b e

/-- The rectifier on a row: the maximum with zero, entry by entry. -/
def reluRow {k : Nat} (v : Fin k → EReal) : Fin k → EReal := fun e => max (v e) zeroR

/-- The three layers on one row of node features. -/
def mlpRow (W1 : Mat 512 512) (b1 : Fin 512 → EReal) (W2 : Mat 512 64) (b2 : Fin 64 → EReal) (W3 : Mat 64 64)
    (b3 : Fin 64 → EReal) (v : Fin 512 → EReal) : Fin 64 → EReal :=
  linRow W3 b3 (reluRow (linRow W2 b2 (reluRow (linRow W1 b1 v))))

/-! ## One layer read at an entry: the kernel's spelling and the reference's -/

/-- A one-row matrix broadcast down the rows, read at (a, e), is the row's entry e. -/
theorem broadcastTo_oneRow_apply {m n : Nat} (y : Mat 1 n) (hb : (⟨2, ![1, n]⟩ : Shape).Broadcasts ⟨2, ![m, n]⟩)
    (a : Fin m) (e : Fin n) : broadcastTo ⟨2, ![m, n]⟩ y hb (ix2 a e) = y (ix2 (0 : Fin 1) e) := by
  refine broadcastTo_apply y hb (ix2 a e) (ix2 (0 : Fin 1) e) ?_
  intro ax
  match ax with
  | ⟨0, _⟩ => rfl
  | ⟨1, _⟩ =>
    show e.val = if n = 1 then 0 else e.val
    split
    · have := e.isLt; omega
    · rfl

/-- The kernel's layer: a product accumulated into zero plus the bias row broadcast down the rows, at (a, e). -/
theorem kLayer_apply {m k n : Nat} (D : DotDims ⟨2, ![m, k]⟩ ⟨2, ![k, n]⟩ ⟨2, ![m, n]⟩) (hD : D = DotDims.plain m k n)
    (prec : Option ContractPrecision) (A : Mat m k) (W : Mat k n) (b : Mat 1 n)
    (hc : (⟨2, ![1, n]⟩ : Shape).ShapeCasts ⟨2, ![1, n]⟩) (hb : (⟨2, ![1, n]⟩ : Shape).Broadcasts ⟨2, ![m, n]⟩)
    (a : Fin m) (e : Fin n) :
    addf (matmul D prec A W (constant ⟨2, ![m, n]⟩ .f32 0x00000000#32)) (broadcastTo ⟨2, ![m, n]⟩ (shapeCast ⟨2, ![1, n]⟩ b hc) hb) (ix2 a e)
      = linRow W (fun e => b (ix2 (0 : Fin 1) e)) (fun f => A (ix2 a f)) e := by
  subst hD
  rw [addf_apply, matmul_zero_eq_dotGeneral, StackMember.dotGeneral_plain_apply, broadcastTo_oneRow_apply, shapeCast_self]
  rfl

/-- A vector made a one-row matrix, read at (0, e), is the vector's entry e. -/
theorem broadcastInDim_vecRow_apply {n : Nat} (b : FVec Ideal ⟨1, ![n]⟩ .f32)
    (h1 : (⟨1, ![n]⟩ : Shape).BroadcastsInDim ⟨2, ![1, n]⟩ ![1]) (e : Fin n) :
    broadcastInDim ⟨2, ![1, n]⟩ ![1] h1 b (ix2 (0 : Fin 1) e) = b (ix1 e) := by
  refine broadcastInDim_apply ![1] h1 b (ix2 (0 : Fin 1) e) (ix1 e) ?_
  intro ax
  match ax with
  | ⟨0, _⟩ =>
    show e.val = if n = 1 then 0 else e.val
    split
    · have := e.isLt; omega
    · rfl

/-- The reference's layer: the host's product plus the bias vector broadcast to a row and down the rows, at (a, e). -/
theorem rLayer_apply {m k n : Nat} (D : DotDims ⟨2, ![m, k]⟩ ⟨2, ![k, n]⟩ ⟨2, ![m, n]⟩) (hD : D = DotDims.plain m k n)
    (prec : Option ContractPrecision) (A : Mat m k) (W : Mat k n) (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1])
    (a : Fin m) (e : Fin n) :
    addf (Host.dotGeneral D prec A W) (broadcastInDim ⟨2, ![m, n]⟩ ![0, 1] h2 (broadcastInDim ⟨2, ![1, n]⟩ ![1] h1 b)) (ix2 a e)
      = linRow W (fun e => b (ix1 e)) (fun f => A (ix2 a f)) e := by
  subst hD
  rw [addf_apply, StackMember.dotGeneral_plain_apply, broadcastInDim_oneRow_apply, broadcastInDim_vecRow_apply]
  rfl

/-! ## The kernel's two payloads at an entry -/

section Payloads
open Cert.KernelIdeal Cert.KernelIdeal.Gen

/-- The block of logits the body stores: at (p, q), the three layers on row p of the block of node features. -/
theorem logitsBlock_apply (v0 : Mat 2000 512) (v1 : Mat 512 512) (v3 : Mat 1 512) (v9 : Mat 512 64) (v11 : Mat 1 64)
    (v17 : Mat 64 64) (v19 : Mat 1 64) (p : Fin 2000) (q : Fin 64) :
    k0_pay2 (F := Ideal) v0 v1 v3 v9 v11 v17 v19 (ix2 p q)
      = mlpRow v1 (fun e => v3 (ix2 (0 : Fin 1) e)) v9 (fun e => v11 (ix2 (0 : Fin 1) e)) v17 (fun e => v19 (ix2 (0 : Fin 1) e))
          (fun f => v0 (ix2 p f)) q := by
  unfold k0_pay2 mlpRow
  refine (kLayer_apply (m := 2000) (k := 64) (n := 64) _ rfl _ _ v17 v19 _ _ p q).trans ?_
  refine congrArg (fun w => linRow v17 (fun e => v19 (ix2 (0 : Fin 1) e)) w q) (funext fun d => ?_)
  refine congrArg (fun z => max z zeroR) ?_
  refine (kLayer_apply (m := 2000) (k := 512) (n := 64) _ rfl _ _ v9 v11 _ _ p d).trans ?_
  refine congrArg (fun w => linRow v9 (fun e => v11 (ix2 (0 : Fin 1) e)) w d) (funext fun g => ?_)
  refine congrArg (fun z => max z zeroR) ?_
  exact kLayer_apply (m := 2000) (k := 512) (n := 512) _ rfl _ v0 v1 v3 _ _ p g

/-- The block of the second output the body stores: at (p, q), the logits' row p times column q of the parsing matrix. -/
theorem tBlock_apply (v0 : Mat 2000 512) (v1 : Mat 512 512) (v3 : Mat 1 512) (v9 : Mat 512 64) (v11 : Mat 1 64)
    (v17 : Mat 64 64) (v19 : Mat 1 64) (v24 : Mat 64 64) (p : Fin 2000) (q : Fin 64) :
    k0_pay3 (F := Ideal) v0 v1 v3 v9 v11 v17 v19 v24 (ix2 p q)
      = ∑ d : Fin 64, k0_pay2 (F := Ideal) v0 v1 v3 v9 v11 v17 v19 (ix2 p d) * v24 (ix2 d q) := by
  unfold k0_pay3
  rw [shapeCast_self]
  have hD : dot_S2000x64_S64x64_S2000x64_1_0_0_1_n_n = DotDims.plain 2000 64 64 := rfl
  rw [hD, matmul_zero_eq_dotGeneral]
  exact StackMember.dotGeneral_plain_apply _ _ v24 p q

end Payloads

/-! ## From blocks to the arrays -/

section Blocks
open Cert.KernelIdeal Cert.KernelIdeal.Gen
open Idealize.ShloMosaic.Pipeline (Dat)

/-- The logits as one function of the whole arrays: row r is the three layers on row r of the node features. -/
def logitsOf (X : Mat 50000 512) (W1 : Mat 512 512) (B1 : Mat 1 512) (W2 : Mat 512 64) (B2 : Mat 1 64) (W3 : Mat 64 64)
    (B3 : Mat 1 64) : Mat 50000 64 :=
  fun i => mlpRow W1 (fun e => B1 (ix2 (0 : Fin 1) e)) W2 (fun e => B2 (ix2 (0 : Fin 1) e)) W3 (fun e => B3 (ix2 (0 : Fin 1) e))
    (fun f => X (ix2 (i 0 : Fin 50000) f)) (i 1 : Fin 64)

/-- The second output as one function of the logits and the parsing matrix: row times column. -/
def tOf (Lg : Mat 50000 64) (P : Mat 64 64) : Mat 50000 64 :=
  fun i => ∑ d : Fin 64, Lg (ix2 (i 0 : Fin 50000) d) * P (ix2 d (i 1 : Fin 64))

/-- The zero offsets of a whole-buffer access, as the constant function. -/
theorem zeroOff : (![0, 0] : Fin 2 → Nat) = fun _ => 0 := funext fun a => by fin_cases a <;> rfl

/-- What the body leaves in the logits window is the block of logits, -/
theorem out9_eq (x0 : Mat 2000 512) (x1 : Mat 512 512) (x2 : Mat 1 512) (x3 : Mat 512 64) (x4 : Mat 1 64) (x5 : Mat 64 64)
    (x6 : Mat 1 64) (x7 : Mat 512 128) (x8 : Mat 64 64) :
    out0_9 (F := Ideal) x0 x1 x2 x3 x4 x5 x6 x7 x8 = k0_pay2 (F := Ideal) x0 x1 x2 x3 x4 x5 x6 := by
  unfold out0_9
  rw [View.canon_unit_zero zeroOff]
  simp only [View.ld_unit_zero (S := S2000x512) zeroOff, View.ld_unit_zero (S := S512x512) zeroOff,
    View.ld_unit_zero (S := S1x512) zeroOff, View.ld_unit_zero (S := S512x64) zeroOff,
    View.ld_unit_zero (S := S1x64) zeroOff, View.ld_unit_zero (S := S64x64) zeroOff]

/-- and in the second output's window the block of logits times the parsing matrix. -/
theorem out10_eq (x0 : Mat 2000 512) (x1 : Mat 512 512) (x2 : Mat 1 512) (x3 : Mat 512 64) (x4 : Mat 1 64) (x5 : Mat 64 64)
    (x6 : Mat 1 64) (x7 : Mat 512 128) (x8 : Mat 64 64) :
    out0_10 (F := Ideal) x0 x1 x2 x3 x4 x5 x6 x7 x8 = k0_pay3 (F := Ideal) x0 x1 x2 x3 x4 x5 x6 x8 := by
  unfold out0_10
  rw [View.canon_unit_zero zeroOff]
  simp only [View.ld_unit_zero (S := S2000x512) zeroOff, View.ld_unit_zero (S := S512x512) zeroOff,
    View.ld_unit_zero (S := S1x512) zeroOff, View.ld_unit_zero (S := S512x64) zeroOff,
    View.ld_unit_zero (S := S1x64) zeroOff, View.ld_unit_zero (S := S64x64) zeroOff]

/-- The printed index maps over the grid: the node features and the two outputs move one block of rows per point, every
    weight, bias and the parsing matrix stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_8.index t (0 : Fin 2) = 0 ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

variable (V : (c : Dev nD) → (b : Ref sig .tc) → Buf (Elt Ideal) ((c : Thread nD τ).loc b))

/-- The block of node features at point t is rows 2000·t … 2000·t + 1999 of the array. -/
theorem xBlock_apply (c : Dev nD) (t : Fin cfg0.N) (p : Fin 2000) (f : Fin 512) (r : Fin 50000)
    (hr : r.val = t.val * 2000 + p.val) :
    (iblk0 V c 0 t : Mat 2000 512) (ix2 p f) = (V c main_arg0 : Mat 50000 512) (ix2 r f) := by
  obtain ⟨e00, e01, -⟩ := idx_facts t
  unfold iblk0
  rw [View.read_apply]
  have h : ((cfg0.win 0).blk t).view.emb (ix2 p f) = (ix2 r f : S50000x512.Idx) := by
    funext a; apply Fin.ext
    match a with
    | ⟨0, _⟩ => show win0_0.index t (0 : Fin 2) * 2000 + 1 * p.val = r.val; omega
    | ⟨1, _⟩ => show win0_0.index t (1 : Fin 2) * 512 + 1 * f.val = f.val; omega
  rw [h]
  rfl

/-- The first layer's weight matrix is staged whole (window 1): at every point the window's one block is the array. -/
theorem whole1 (c : Dev nD) (t : Fin cfg0.N) : (iblk0 V c 1 t : Mat 512 512) = V c main_arg2 := by
  obtain ⟨-, -, e10, e11, e20, e21, e30, e31, e40, e41, e50, e51, e60, e61, e80, e81, -⟩ := idx_facts t
  funext y
  unfold iblk0
  rw [View.read_apply]
  have h : ((cfg0.win 1).blk t).view.emb y = (y : S512x512.Idx) := by
    funext a; apply Fin.ext
    match a with
    | ⟨0, _⟩ => show win0_1.index t (0 : Fin 2) * 512 + 1 * (y 0).val = (y 0).val; omega
    | ⟨1, _⟩ => show win0_1.index t (1 : Fin 2) * 512 + 1 * (y 1).val = (y 1).val; omega
  rw [h]
  rfl

/-- The first layer's bias row is staged whole (window 2): at every point the window's one block is the array. -/
theorem whole2 (c : Dev nD) (t : Fin cfg0.N) : (iblk0 V c 2 t : Mat 1 512) = V c main_v7 := by
  obtain ⟨-, -, e10, e11, e20, e21, e30, e31, e40, e41, e50, e51, e60, e61, e80, e81, -⟩ := idx_facts t
  funext y
  unfold iblk0
  rw [View.read_apply]
  have h : ((cfg0.win 2).blk t).view.emb y = (y : S1x512.Idx) := by
    funext a; apply Fin.ext
    match a with
    | ⟨0, _⟩ => show win0_2.index t (0 : Fin 2) * 1 + 1 * (y 0).val = (y 0).val; omega
    | ⟨1, _⟩ => show win0_2.index t (1 : Fin 2) * 512 + 1 * (y 1).val = (y 1).val; omega
  rw [h]
  rfl

/-- The second layer's weight matrix is staged whole (window 3): at every point the window's one block is the array. -/
theorem whole3 (c : Dev nD) (t : Fin cfg0.N) : (iblk0 V c 3 t : Mat 512 64) = V c main_arg4 := by
  obtain ⟨-, -, e10, e11, e20, e21, e30, e31, e40, e41, e50, e51, e60, e61, e80, e81, -⟩ := idx_facts t
  funext y
  unfold iblk0
  rw [View.read_apply]
  have h : ((cfg0.win 3).blk t).view.emb y = (y : S512x64.Idx) := by
    funext a; apply Fin.ext
    match a with
    | ⟨0, _⟩ => show win0_3.index t (0 : Fin 2) * 512 + 1 * (y 0).val = (y 0).val; omega
    | ⟨1, _⟩ => show win0_3.index t (1 : Fin 2) * 64 + 1 * (y 1).val = (y 1).val; omega
  rw [h]
  rfl

/-- The second layer's bias row is staged whole (window 4): at every point the window's one block is the array. -/
theorem whole4 (c : Dev nD) (t : Fin cfg0.N) : (iblk0 V c 4 t : Mat 1 64) = V c main_v8 := by
  obtain ⟨-, -, e10, e11, e20, e21, e30, e31, e40, e41, e50, e51, e60, e61, e80, e81, -⟩ := idx_facts t
  funext y
  unfold iblk0
  rw [View.read_apply]
  have h : ((cfg0.win 4).blk t).view.emb y = (y : S1x64.Idx) := by
    funext a; apply Fin.ext
    match a with
    | ⟨0, _⟩ => show win0_4.index t (0 : Fin 2) * 1 + 1 * (y 0).val = (y 0).val; omega
    | ⟨1, _⟩ => show win0_4.index t (1 : Fin 2) * 64 + 1 * (y 1).val = (y 1).val; omega
  rw [h]
  rfl

/-- The third layer's weight matrix is staged whole (window 5): at every point the window's one block is the array. -/
theorem whole5 (c : Dev nD) (t : Fin cfg0.N) : (iblk0 V c 5 t : Mat 64 64) = V c main_arg6 := by
  obtain ⟨-, -, e10, e11, e20, e21, e30, e31, e40, e41, e50, e51, e60, e61, e80, e81, -⟩ := idx_facts t
  funext y
  unfold iblk0
  rw [View.read_apply]
  have h : ((cfg0.win 5).blk t).view.emb y = (y : S64x64.Idx) := by
    funext a; apply Fin.ext
    match a with
    | ⟨0, _⟩ => show win0_5.index t (0 : Fin 2) * 64 + 1 * (y 0).val = (y 0).val; omega
    | ⟨1, _⟩ => show win0_5.index t (1 : Fin 2) * 64 + 1 * (y 1).val = (y 1).val; omega
  rw [h]
  rfl

/-- The third layer's bias row is staged whole (window 6): at every point the window's one block is the array. -/
theorem whole6 (c : Dev nD) (t : Fin cfg0.N) : (iblk0 V c 6 t : Mat 1 64) = V c main_v9 := by
  obtain ⟨-, -, e10, e11, e20, e21, e30, e31, e40, e41, e50, e51, e60, e61, e80, e81, -⟩ := idx_facts t
  funext y
  unfold iblk0
  rw [View.read_apply]
  have h : ((cfg0.win 6).blk t).view.emb y = (y : S1x64.Idx) := by
    funext a; apply Fin.ext
    match a with
    | ⟨0, _⟩ => show win0_6.index t (0 : Fin 2) * 1 + 1 * (y 0).val = (y 0).val; omega
    | ⟨1, _⟩ => show win0_6.index t (1 : Fin 2) * 64 + 1 * (y 1).val = (y 1).val; omega
  rw [h]
  rfl

/-- The parsing matrix is staged whole (window 8): at every point the window's one block is the array. -/
theorem whole8 (c : Dev nD) (t : Fin cfg0.N) : (iblk0 V c 8 t : Mat 64 64) = V c main_v6 := by
  obtain ⟨-, -, e10, e11, e20, e21, e30, e31, e40, e41, e50, e51, e60, e61, e80, e81, -⟩ := idx_facts t
  funext y
  unfold iblk0
  rw [View.read_apply]
  have h : ((cfg0.win 8).blk t).view.emb y = (y : S64x64.Idx) := by
    funext a; apply Fin.ext
    match a with
    | ⟨0, _⟩ => show win0_8.index t (0 : Fin 2) * 64 + 1 * (y 0).val = (y 0).val; omega
    | ⟨1, _⟩ => show win0_8.index t (1 : Fin 2) * 64 + 1 * (y 1).val = (y 1).val; omega
  rw [h]
  rfl

/-- An output block through its window: nothing is cut, the entry at (p, q) is the block's entry there. -/
theorem cut9_apply (t : Fin cfg0.N) (X : Mat 2000 64) (j : ((cfg0.win 9).xblock (cfg0.grid.coords t)).Idx) :
    (cfg0.win 9).cut (grid0.coords t) X j = X (ix2 (⟨(j 0).val, (j 0).isLt⟩ : Fin 2000) (⟨(j 1).val, (j 1).isLt⟩ : Fin 64)) :=
  congrArg X (funext fun a => by match a with | ⟨0, _⟩ => rfl | ⟨1, _⟩ => rfl)

/-- The same for the second output's window. -/
theorem cut10_apply (t : Fin cfg0.N) (X : Mat 2000 64) (j : ((cfg0.win 10).xblock (cfg0.grid.coords t)).Idx) :
    (cfg0.win 10).cut (grid0.coords t) X j = X (ix2 (⟨(j 0).val, (j 0).isLt⟩ : Fin 2000) (⟨(j 1).val, (j 1).isLt⟩ : Fin 64)) :=
  congrArg X (funext fun a => by match a with | ⟨0, _⟩ => rfl | ⟨1, _⟩ => rfl)

/-- Row p of the block of logits at point t is row 2000·t + p of the logits of the whole arrays. -/
theorem logitsBlock_eq (c : Dev nD) (t : Fin cfg0.N) (p : Fin 2000) (d : Fin 64) (r : Fin 50000) (hr : r.val = t.val * 2000 + p.val) :
    k0_pay2 (F := Ideal) (iblk0 V c 0 t) (V c main_arg2) (V c main_v7) (V c main_arg4) (V c main_v8) (V c main_arg6) (V c main_v9) (ix2 p d)
      = logitsOf (V c main_arg0) (V c main_arg2) (V c main_v7) (V c main_arg4) (V c main_v8) (V c main_arg6) (V c main_v9) (ix2 r d) := by
  rw [logitsBlock_apply]
  unfold logitsOf
  exact congrArg (fun v => mlpRow _ _ _ _ _ _ v _) (funext fun f => xBlock_apply V c t p f r hr)

/-- Row p of the second output's block at point t is row 2000·t + p of the whole logits times the parsing matrix. -/
theorem tBlock_eq (c : Dev nD) (t : Fin cfg0.N) (p : Fin 2000) (q : Fin 64) (r : Fin 50000) (hr : r.val = t.val * 2000 + p.val) :
    k0_pay3 (F := Ideal) (iblk0 V c 0 t) (V c main_arg2) (V c main_v7) (V c main_arg4) (V c main_v8) (V c main_arg6) (V c main_v9) (V c main_v6) (ix2 p q)
      = tOf (logitsOf (V c main_arg0) (V c main_arg2) (V c main_v7) (V c main_arg4) (V c main_v8) (V c main_arg6) (V c main_v9)) (V c main_v6) (ix2 r q) := by
  rw [tBlock_apply]
  unfold tOf
  exact Finset.sum_congr rfl fun d _ => congrArg (fun z : EReal => z * (V c main_v6 : Mat 64 64) (ix2 d q)) (logitsBlock_eq V c t p d r hr)

/-- WHAT POINT t WRITES BACK to the logits array is block t of the logits of the whole arrays. -/
theorem flushed9_eq (c : Dev nD) (t : Fin cfg0.N) :
    (dat0 V c).flushed 9 t = ((cfg0.win 9).blk t).view.read (Elt Ideal)
      (logitsOf (V c main_arg0) (V c main_arg2) (V c main_v7) (V c main_arg4) (V c main_v8) (V c main_arg6) (V c main_v9)) := by
  show (cfg0.win 9).cut (grid0.coords t) ((dat0 V c).after 9 t) = _
  rw [after0_9, out9_eq, whole1 V c t, whole2 V c t, whole3 V c t, whole4 V c t, whole5 V c t, whole6 V c t]
  obtain ⟨-, -, -, -, -, -, -, -, -, -, -, -, -, -, -, -, e90, e91, -⟩ := idx_facts t
  funext j
  rw [View.read_apply, cut9_apply]
  have hp : (j 0).val < 2000 := (j 0).isLt
  have hq : (j 1).val < 64 := (j 1).isLt
  have ht : t.val < 25 := lt_of_lt_of_eq t.isLt N_0
  have h : ((cfg0.win 9).blk t).view.emb j
      = (ix2 (⟨t.val * 2000 + (j 0).val, by omega⟩ : Fin 50000) (⟨(j 1).val, hq⟩ : Fin 64) : S50000x64.Idx) := by
    funext a; apply Fin.ext
    match a with
    | ⟨0, _⟩ => show win0_9.index t (0 : Fin 2) * 2000 + 1 * (j 0).val = t.val * 2000 + (j 0).val; omega
    | ⟨1, _⟩ => show win0_9.index t (1 : Fin 2) * 64 + 1 * (j 1).val = (j 1).val; omega
  rw [h]
  exact logitsBlock_eq V c t _ _ _ rfl

/-- WHAT POINT t WRITES BACK to the second output's array is block t of the logits times the parsing matrix. -/
theorem flushed10_eq (c : Dev nD) (t : Fin cfg0.N) :
    (dat0 V c).flushed 10 t = ((cfg0.win 10).blk t).view.read (Elt Ideal)
      (tOf (logitsOf (V c main_arg0) (V c main_arg2) (V c main_v7) (V c main_arg4) (V c main_v8) (V c main_arg6) (V c main_v9)) (V c main_v6)) := by
  show (cfg0.win 10).cut (grid0.coords t) ((dat0 V c).after 10 t) = _
  rw [after0_10, out10_eq, whole1 V c t, whole2 V c t, whole3 V c t, whole4 V c t, whole5 V c t, whole6 V c t, whole8 V c t]
  obtain ⟨-, -, -, -, -, -, -, -, -, -, -, -, -, -, -, -, -, -, e100, e101⟩ := idx_facts t
  funext j
  rw [View.read_apply, cut10_apply]
  have hp : (j 0).val < 2000 := (j 0).isLt
  have hq : (j 1).val < 64 := (j 1).isLt
  have ht : t.val < 25 := lt_of_lt_of_eq t.isLt N_0
  have h : ((cfg0.win 10).blk t).view.emb j
      = (ix2 (⟨t.val * 2000 + (j 0).val, by omega⟩ : Fin 50000) (⟨(j 1).val, hq⟩ : Fin 64) : S50000x64.Idx) := by
    funext a; apply Fin.ext
    match a with
    | ⟨0, _⟩ => show win0_10.index t (0 : Fin 2) * 2000 + 1 * (j 0).val = t.val * 2000 + (j 0).val; omega
    | ⟨1, _⟩ => show win0_10.index t (1 : Fin 2) * 64 + 1 * (j 1).val = (j 1).val; omega
  rw [h]
  exact tBlock_eq V c t _ _ _ rfl

/-- An index of a [50000, 64] output is in point t's block iff its row is among the block's 2000 rows. -/
theorem mem_blk9 (t : Fin cfg0.N) (i : S50000x64.Idx) :
    i ∈ ((cfg0.win 9).blk t).view.set ↔ ∀ a : Fin 2, win0_9.index t a * S2000x64.size a ≤ (i a).val ∧ (i a).val < win0_9.index t a * S2000x64.size a + S2000x64.size a := by
  show i ∈ ((View.whole main_v10_0).slice (win0_9.rect t)).set ↔ _
  rw [View.set_slice_whole, Rect.mem_set_unit]
  exact Iff.rfl

/-- The same for the second output's window. -/
theorem mem_blk10 (t : Fin cfg0.N) (i : S50000x64.Idx) :
    i ∈ ((cfg0.win 10).blk t).view.set ↔ ∀ a : Fin 2, win0_10.index t a * S2000x64.size a ≤ (i a).val ∧ (i a).val < win0_10.index t a * S2000x64.size a + S2000x64.size a := by
  show i ∈ ((View.whole main_v10_1).slice (win0_10.rect t)).set ↔ _
  rw [View.set_slice_whole, Rect.mem_set_unit]
  exact Iff.rfl

/-- Row r is in the block of point r / 2000: the 25 blocks of 2000 rows tile the 50000 rows. -/
theorem cover9 (i : S50000x64.Idx) : ∃ t : Fin cfg0.N, (cfg0.win 9).flush t = true ∧ i ∈ ((cfg0.win 9).blk t).view.set := by
  have hi0 : (i 0).val < 50000 := (i 0).isLt
  have hi1 : (i 1).val < 64 := (i 1).isLt
  have hN : (i 0).val / 2000 < cfg0.N := lt_of_lt_of_eq (show (i 0).val / 2000 < 25 by omega) N_0.symm
  obtain ⟨-, -, -, -, -, -, -, -, -, -, -, -, -, -, -, -, e90, e91, -⟩ := idx_facts ⟨(i 0).val / 2000, hN⟩
  refine ⟨⟨(i 0).val / 2000, hN⟩, flush0_9 _, ?_⟩
  rw [mem_blk9]
  intro a
  match a with
  | ⟨0, _⟩ =>
    show win0_9.index ⟨(i 0).val / 2000, hN⟩ (0 : Fin 2) * 2000 ≤ (i 0).val ∧ (i 0).val < win0_9.index ⟨(i 0).val / 2000, hN⟩ (0 : Fin 2) * 2000 + 2000
    rw [e90]; show (i 0).val / 2000 * 2000 ≤ (i 0).val ∧ (i 0).val < (i 0).val / 2000 * 2000 + 2000; omega
  | ⟨1, _⟩ =>
    show win0_9.index ⟨(i 0).val / 2000, hN⟩ (1 : Fin 2) * 64 ≤ (i 1).val ∧ (i 1).val < win0_9.index ⟨(i 0).val / 2000, hN⟩ (1 : Fin 2) * 64 + 64
    rw [e91]; omega

/-- The same for the second output's window. -/
theorem cover10 (i : S50000x64.Idx) : ∃ t : Fin cfg0.N, (cfg0.win 10).flush t = true ∧ i ∈ ((cfg0.win 10).blk t).view.set := by
  have hi0 : (i 0).val < 50000 := (i 0).isLt
  have hi1 : (i 1).val < 64 := (i 1).isLt
  have hN : (i 0).val / 2000 < cfg0.N := lt_of_lt_of_eq (show (i 0).val / 2000 < 25 by omega) N_0.symm
  obtain ⟨-, -, -, -, -, -, -, -, -, -, -, -, -, -, -, -, -, -, e100, e101⟩ := idx_facts ⟨(i 0).val / 2000, hN⟩
  refine ⟨⟨(i 0).val / 2000, hN⟩, flush0_10 _, ?_⟩
  rw [mem_blk10]
  intro a
  match a with
  | ⟨0, _⟩ =>
    show win0_10.index ⟨(i 0).val / 2000, hN⟩ (0 : Fin 2) * 2000 ≤ (i 0).val ∧ (i 0).val < win0_10.index ⟨(i 0).val / 2000, hN⟩ (0 : Fin 2) * 2000 + 2000
    rw [e100]; show (i 0).val / 2000 * 2000 ≤ (i 0).val ∧ (i 0).val < (i 0).val / 2000 * 2000 + 2000; omega
  | ⟨1, _⟩ =>
    show win0_10.index ⟨(i 0).val / 2000, hN⟩ (1 : Fin 2) * 64 ≤ (i 1).val ∧ (i 1).val < win0_10.index ⟨(i 0).val / 2000, hN⟩ (1 : Fin 2) * 64 + 64
    rw [e101]; omega

/-- THE LOGITS ARRAY the region leaves: the logits of the whole arrays as the region finds them. -/
theorem final9 (c : Dev nD) : (dat0 V c).arrAt 9 cfg0.N
    = logitsOf (V c main_arg0) (V c main_arg2) (V c main_v7) (V c main_arg4) (V c main_v8) (V c main_arg6) (V c main_v9) :=
  (dat0 V c).arrAt_eq_of_cover 9 _ (fun t _ => flushed9_eq V c t) cover9

/-- THE SECOND OUTPUT'S ARRAY the region leaves: those logits times the parsing matrix as the region finds it. -/
theorem final10 (c : Dev nD) : (dat0 V c).arrAt 10 cfg0.N
    = tOf (logitsOf (V c main_arg0) (V c main_arg2) (V c main_v7) (V c main_arg4) (V c main_v8) (V c main_arg6) (V c main_v9)) (V c main_v6) :=
  (dat0 V c).arrAt_eq_of_cover 10 _ (fun t _ => flushed10_eq V c t) cover10

end Blocks

/-! ## The reference's logits at an entry -/

/-- The reference's logits at (r, q): the three layers on row r of the node features, each bias vector read entry by
    entry (the rectifier's zero is a broadcast constant, which reads its value everywhere). -/
theorem refLogits_apply (Vr : RV) (r : Fin 50000) (q : Fin 64) :
    (after Cert.ReferenceIdeal.Hand.rLogits Vr (Proc.devRef .tc Cert.ReferenceIdeal.main_v13 : DevRef Cert.ReferenceIdeal.τ Cert.ReferenceIdeal.sig) : Mat 50000 64) (ix2 r q)
      = mlpRow (Vr (Proc.devRef .tc Cert.ReferenceIdeal.main_arg2)) (fun e => (Vr (Proc.devRef .tc Cert.ReferenceIdeal.main_arg3) : FVec Ideal ⟨1, ![512]⟩ .f32) (ix1 e))
          (Vr (Proc.devRef .tc Cert.ReferenceIdeal.main_arg4)) (fun e => (Vr (Proc.devRef .tc Cert.ReferenceIdeal.main_arg5) : FVec Ideal ⟨1, ![64]⟩ .f32) (ix1 e))
          (Vr (Proc.devRef .tc Cert.ReferenceIdeal.main_arg6)) (fun e => (Vr (Proc.devRef .tc Cert.ReferenceIdeal.main_arg7) : FVec Ideal ⟨1, ![64]⟩ .f32) (ix1 e))
          (fun f => (Vr (Proc.devRef .tc Cert.ReferenceIdeal.main_arg0) : Mat 50000 512) (ix2 r f)) q := by
  simp only [Cert.ReferenceIdeal.Hand.rLogits]
  after_results
  simp only [TRef.ofBuf, TRef.toBuf, cast_eq]
  unfold mlpRow
  refine (rLayer_apply (m := 50000) (k := 64) (n := 64) _ rfl _ _ _ _ _ _ r q).trans ?_
  refine congrArg (fun w => linRow _ _ w q) (funext fun d => ?_)
  refine congrArg (fun z => max z zeroR) ?_
  refine (rLayer_apply (m := 50000) (k := 512) (n := 64) _ rfl _ _ _ _ _ _ r d).trans ?_
  refine congrArg (fun w => linRow _ _ w d) (funext fun g => ?_)
  refine congrArg (fun z => max z zeroR) ?_
  exact rLayer_apply (m := 50000) (k := 512) (n := 512) _ rfl _ _ _ _ _ _ r g

/-- The three layers on a row depend on the biases and on the row entry by entry. -/
theorem mlpRow_congr {W1 : Mat 512 512} {W2 : Mat 512 64} {W3 : Mat 64 64} {b1 b1' : Fin 512 → EReal} {b2 b2' b3 b3' : Fin 64 → EReal}
    {v v' : Fin 512 → EReal} (q : Fin 64) (h1 : ∀ e, b1 e = b1' e) (h2 : ∀ e, b2 e = b2' e) (h3 : ∀ e, b3 e = b3' e)
    (hv : ∀ f, v f = v' f) : mlpRow W1 b1 W2 b2 W3 b3 v q = mlpRow W1 b1' W2 b2' W3 b3' v' q := by
  obtain rfl : b1 = b1' := funext h1
  obtain rfl : b2 = b2' := funext h2
  obtain rfl : b3 = b3' := funext h3
  obtain rfl : v = v' := funext hv
  rfl

/-- A vector reshaped to a one-row matrix, read at (0, e), is the vector's entry e. -/
theorem shapeCast_vecRow_apply {n : Nat} (b : FVec Ideal ⟨1, ![n]⟩ .f32) (h : (⟨1, ![n]⟩ : Shape).ShapeCasts ⟨2, ![1, n]⟩) (e : Fin n) :
    shapeCast ⟨2, ![1, n]⟩ b h (ix2 (0 : Fin 1) e) = b (ix1 e) :=
  shapeCast_apply b h (ix2 (0 : Fin 1) e) (ix1 e) (by
    rw [Shape.rowMajor_val_two, Shape.rowMajor_val_one]; show e.val = 0 * n + e.val; omega)

/-! ## The region's exit and entry -/

section Assembly
open Cert.KernelIdeal Cert.KernelIdeal.Gen Cert.KernelIdeal.Hand

variable (m : (ℓ : Loc nD τ sig) → Buf (Elt Ideal) ℓ) (ρ : Dev nD → PrngReg) (c : Dev nD)

/-- The logits array at the region's exit, over the arrays at its entry. -/
theorem exit9 : W4 (F := Ideal) m ρ c (Proc.devRef .tc main_v10_0)
    = logitsOf (W3 (F := Ideal) m ρ c (Proc.devRef .tc main_arg0)) (W3 (F := Ideal) m ρ c (Proc.devRef .tc main_arg2))
        (W3 (F := Ideal) m ρ c (Proc.devRef .tc main_v7)) (W3 (F := Ideal) m ρ c (Proc.devRef .tc main_arg4))
        (W3 (F := Ideal) m ρ c (Proc.devRef .tc main_v8)) (W3 (F := Ideal) m ρ c (Proc.devRef .tc main_arg6))
        (W3 (F := Ideal) m ρ c (Proc.devRef .tc main_v9)) :=
  (W4_arr m ρ c 9).trans (final9 (V3 m ρ) c)

/-- The second output's array at the region's exit, over the arrays at its entry. -/
theorem exit10 : W4 (F := Ideal) m ρ c (Proc.devRef .tc main_v10_1)
    = tOf (logitsOf (W3 (F := Ideal) m ρ c (Proc.devRef .tc main_arg0)) (W3 (F := Ideal) m ρ c (Proc.devRef .tc main_arg2))
        (W3 (F := Ideal) m ρ c (Proc.devRef .tc main_v7)) (W3 (F := Ideal) m ρ c (Proc.devRef .tc main_arg4))
        (W3 (F := Ideal) m ρ c (Proc.devRef .tc main_v8)) (W3 (F := Ideal) m ρ c (Proc.devRef .tc main_arg6))
        (W3 (F := Ideal) m ρ c (Proc.devRef .tc main_v9))) (W3 (F := Ideal) m ρ c (Proc.devRef .tc main_v6)) :=
  (W4_arr m ρ c 10).trans (final10 (V3 m ρ) c)

/-- At the region's entry the three bias rows are the bias vectors reshaped to one row. -/
theorem entry_v7 : W3 (F := Ideal) m ρ c (Proc.devRef .tc main_v7)
    = shapeCast S1x512 (m ((c : Thread nD τ).loc main_arg3)) shapeCasts_S512_S1x512 := by
  rw [W3_eq]
  simp only [kPre]
  after_results
  rfl

/-- The second layer's bias row. -/
theorem entry_v8 : W3 (F := Ideal) m ρ c (Proc.devRef .tc main_v8)
    = shapeCast S1x64 (m ((c : Thread nD τ).loc main_arg5)) shapeCasts_S64_S1x64 := by
  rw [W3_eq]
  simp only [kPre]
  after_results
  rfl

/-- The third layer's bias row. -/
theorem entry_v9 : W3 (F := Ideal) m ρ c (Proc.devRef .tc main_v9)
    = shapeCast S1x64 (m ((c : Thread nD τ).loc main_arg7)) shapeCasts_S64_S1x64 := by
  rw [W3_eq]
  simp only [kPre]
  after_results
  rfl

end Assembly

theorem logits_eq (m : (ℓ : Loc Cert.KernelIdeal.nD Cert.KernelIdeal.τ Cert.KernelIdeal.sig) → Buf (Elt Ideal) ℓ) (ρ : Dev Cert.KernelIdeal.nD → PrngReg) (c : Dev Cert.KernelIdeal.nD) (Vr : RV)
    (h0 : Vr (Proc.devRef .tc Cert.ReferenceIdeal.main_arg0 : DevRef Cert.ReferenceIdeal.τ Cert.ReferenceIdeal.sig) = m ((c.tc : Thread Cert.KernelIdeal.nD Cert.KernelIdeal.τ).loc Cert.KernelIdeal.main_arg0))
    (h2 : Vr (Proc.devRef .tc Cert.ReferenceIdeal.main_arg2 : DevRef Cert.ReferenceIdeal.τ Cert.ReferenceIdeal.sig) = m ((c.tc : Thread Cert.KernelIdeal.nD Cert.KernelIdeal.τ).loc Cert.KernelIdeal.main_arg2))
    (h3 : Vr (Proc.devRef .tc Cert.ReferenceIdeal.main_arg3 : DevRef Cert.ReferenceIdeal.τ Cert.ReferenceIdeal.sig) = m ((c.tc : Thread Cert.KernelIdeal.nD Cert.KernelIdeal.τ).loc Cert.KernelIdeal.main_arg3))
    (h4 : Vr (Proc.devRef .tc Cert.ReferenceIdeal.main_arg4 : DevRef Cert.ReferenceIdeal.τ Cert.ReferenceIdeal.sig) = m ((c.tc : Thread Cert.KernelIdeal.nD Cert.KernelIdeal.τ).loc Cert.KernelIdeal.main_arg4))
    (h5 : Vr (Proc.devRef .tc Cert.ReferenceIdeal.main_arg5 : DevRef Cert.ReferenceIdeal.τ Cert.ReferenceIdeal.sig) = m ((c.tc : Thread Cert.KernelIdeal.nD Cert.KernelIdeal.τ).loc Cert.KernelIdeal.main_arg5))
    (h6 : Vr (Proc.devRef .tc Cert.ReferenceIdeal.main_arg6 : DevRef Cert.ReferenceIdeal.τ Cert.ReferenceIdeal.sig) = m ((c.tc : Thread Cert.KernelIdeal.nD Cert.KernelIdeal.τ).loc Cert.KernelIdeal.main_arg6))
    (h7 : Vr (Proc.devRef .tc Cert.ReferenceIdeal.main_arg7 : DevRef Cert.ReferenceIdeal.τ Cert.ReferenceIdeal.sig) = m ((c.tc : Thread Cert.KernelIdeal.nD Cert.KernelIdeal.τ).loc Cert.KernelIdeal.main_arg7)) :
    Cert.KernelIdeal.Gen.W4 (F := Ideal) m ρ c (Proc.devRef .tc Cert.KernelIdeal.main_v10_0 : DevRef Cert.KernelIdeal.τ Cert.KernelIdeal.sig) = after Cert.ReferenceIdeal.Hand.rLogits Vr (Proc.devRef .tc Cert.ReferenceIdeal.main_v13 : DevRef Cert.ReferenceIdeal.τ Cert.ReferenceIdeal.sig) := by
  rw [exit9 m ρ c, Cert.KernelIdeal.Hand.W3_keep m ρ c Cert.KernelIdeal.main_arg0 (by decide),
    Cert.KernelIdeal.Hand.W3_keep m ρ c Cert.KernelIdeal.main_arg2 (by decide),
    Cert.KernelIdeal.Hand.W3_keep m ρ c Cert.KernelIdeal.main_arg4 (by decide),
    Cert.KernelIdeal.Hand.W3_keep m ρ c Cert.KernelIdeal.main_arg6 (by decide),
    entry_v7 m ρ c, entry_v8 m ρ c, entry_v9 m ρ c]
  funext i
  obtain ⟨r, q, rfl⟩ : ∃ (r : Fin 50000) (q : Fin 64), i = ix2 r q := ⟨i 0, i 1, eq_ix2 i⟩
  refine Eq.trans ?_ (refLogits_apply Vr r q).symm
  rw [h0, h2, h3, h4, h5, h6, h7]
  unfold logitsOf
  refine mlpRow_congr q ?_ ?_ ?_ ?_
  · intro e; exact shapeCast_vecRow_apply _ _ e
  · intro e; exact shapeCast_vecRow_apply _ _ e
  · intro e; exact shapeCast_vecRow_apply _ _ e
  · intro f; rfl

theorem t_spec (m : (ℓ : Loc Cert.KernelIdeal.nD Cert.KernelIdeal.τ Cert.KernelIdeal.sig) → Buf (Elt Ideal) ℓ) (ρ : Dev Cert.KernelIdeal.nD → PrngReg) (c : Dev Cert.KernelIdeal.nD) (r : Fin 50000) (k : Fin 64) :
    at2 (n0 := 50000) (n1 := 64) (Cert.KernelIdeal.Gen.W4 (F := Ideal) m ρ c (Proc.devRef .tc Cert.KernelIdeal.main_v10_1 : DevRef Cert.KernelIdeal.τ Cert.KernelIdeal.sig)) r k
      = ∑ d : Fin 64, at2 (n0 := 50000) (n1 := 64) (Cert.KernelIdeal.Gen.W4 (F := Ideal) m ρ c (Proc.devRef .tc Cert.KernelIdeal.main_v10_0 : DevRef Cert.KernelIdeal.τ Cert.KernelIdeal.sig)) r d
          * at2 (n0 := 64) (n1 := 64) (Cert.KernelIdeal.Gen.W3 (F := Ideal) m ρ c (Proc.devRef .tc Cert.KernelIdeal.main_v6 : DevRef Cert.KernelIdeal.τ Cert.KernelIdeal.sig)) d k := by
  rw [exit10 m ρ c, exit9 m ρ c]
  rfl

end Cert.Bridge.Mlp
end
-- ==== Proof.MatProduct.lean ====
/-
  The product of two matrices of extended reals, entry by entry, as one function of the two factors: entry (a, b) is the
  sum over the contracted coordinate c of A(a, c) · B(c, b). At the ideal values both the host's plain dot product and the
  matrix unit's plain product into a zero accumulator are this function: each is the bare sum over the contraction index,
  re-indexed by the index's one coordinate.
-/
import Idealize.ShloMosaic.PureOps.Ideal
import Idealize.ShloMosaic.PureOps.Ideal.Laws
import Idealize.ShloMosaic.Lib.ValueIdx
import Idealize.ShloMosaic.Lib.StackMember

noncomputable section

namespace Cert.Bridge.MatProduct

open Idealize.ShloMosaic Idealize.ShloMosaic.ValueIdx

/-- The product of an M×K by a K×N matrix of extended reals, entry by entry: the sum over the contracted coordinate. -/
def mprod {M K N : Nat} (A : FVec Ideal ⟨2, ![M, K]⟩ .f32) (B : FVec Ideal ⟨2, ![K, N]⟩ .f32) : FVec Ideal ⟨2, ![M, N]⟩ .f32 :=
  fun i => ∑ c : Fin K, A (ix2 (n0 := M) (n1 := K) (i 0) c) * B (ix2 (n0 := K) (n1 := N) c (i 1))

/-- Its entry at a row and a column. -/
theorem mprod_apply {M K N : Nat} (A : FVec Ideal ⟨2, ![M, K]⟩ .f32) (B : FVec Ideal ⟨2, ![K, N]⟩ .f32) (a : Fin M) (b : Fin N) :
    mprod A B (ix2 a b) = ∑ c : Fin K, A (ix2 a c) * B (ix2 c b) := rfl

/-- Two products agree at two entries when the factors do, term by term of the sum. -/
theorem mprod_congr {M M' K N N' : Nat} (A : FVec Ideal ⟨2, ![M, K]⟩ .f32) (B : FVec Ideal ⟨2, ![K, N]⟩ .f32)
    (A' : FVec Ideal ⟨2, ![M', K]⟩ .f32) (B' : FVec Ideal ⟨2, ![K, N']⟩ .f32)
    (i : (⟨2, ![M, N]⟩ : Shape).Idx) (i' : (⟨2, ![M', N']⟩ : Shape).Idx)
    (hA : ∀ k : Fin K, A (ix2 (n0 := M) (n1 := K) (i 0) k) = A' (ix2 (n0 := M') (n1 := K) (i' 0) k))
    (hB : ∀ k : Fin K, B (ix2 (n0 := K) (n1 := N) k (i 1)) = B' (ix2 (n0 := K) (n1 := N') k (i' 1))) :
    mprod A B i = mprod A' B' i' :=
  Finset.sum_congr rfl fun k _ => by rw [hA k, hB k]

/-- The host's plain matrix product is that product. -/
theorem dotGeneral_plain_eq {M K N : Nat} (prec : Option ContractPrecision) (A : FVec Ideal ⟨2, ![M, K]⟩ .f32) (B : FVec Ideal ⟨2, ![K, N]⟩ .f32) :
    Host.dotGeneral (F := Ideal) (DotDims.plain M K N) prec A B = mprod A B := by
  funext i
  obtain ⟨a, b, rfl⟩ : ∃ (a : Fin M) (b : Fin N), i = ix2 a b := ⟨i 0, i 1, eq_ix2 i⟩
  exact StackMember.dotGeneral_plain_apply prec A B a b

/-- The matrix unit's plain product into a zero accumulator is that product too: at the ideal values both are the bare sum. -/
theorem matmul_plain_zero_eq {M K N : Nat} (prec : Option ContractPrecision) (A : FVec Ideal ⟨2, ![M, K]⟩ .f32) (B : FVec Ideal ⟨2, ![K, N]⟩ .f32) :
    matmul (F := Ideal) (DotDims.plain M K N) prec A B (constant ⟨2, ![M, N]⟩ .f32 0x00000000#32) = mprod A B := by
  funext i
  refine (Ideal.matmul_constant_zero_apply (DotDims.plain M K N) prec A B i).trans ?_
  refine (Ideal.dotGeneral_apply (DotDims.plain M K N) prec default A B i).symm.trans ?_
  exact congrFun (dotGeneral_plain_eq prec A B) i

end Cert.Bridge.MatProduct

end
-- ==== Proof.Region0Lin.lean ====
/-
  The first region's third output against the reference's first linear map.

  The region runs over twenty-five points; at point t its body multiplies rows 2000·t … 2000·t+1999 of the node features
  (a 2000×512 block) by the whole 512×128 weight matrix of the first graph layer, with one matrix-unit product into a zero
  accumulator, and writes the 2000×128 result back as rows 2000·t … 2000·t+1999 of the output. At the ideal values that
  product is, entry by entry, the sum over the 512 contracted coordinates; an entry of the feature block is the entry of the
  feature array on the point's rows, and the weight block is the whole weight matrix. So every point writes back its block
  of ONE function of the launch arrays, the whole product features · weights; the twenty-five blocks tile the 50000 rows
  (row r lies in the block of point r / 2000), hence the output array ends holding that product. Neither factor is written
  before the region, so both are the launch arrays. The reference's linear map is one host dot product of the same two
  arrays, which at the ideal values is the same sum.
-/
import proofs.«415847_j84524956385823_2_alg».proof.Proof.Names
import proofs.«415847_j84524956385823_2_alg».proof.Proof.KernelBounds
import proofs.«415847_j84524956385823_2_alg».proof.Proof.MatProduct
import Idealize.ShloMosaic.Lib.Pipeline.Value

noncomputable section

namespace Cert.Bridge

open Idealize.ShloMosaic Idealize.ShloMosaic.TcCoe Idealize.SL.Sem Idealize.ShloMosaic.StableHlo
open Idealize.ShloMosaic.ValueIdx
open Idealize.ShloMosaic.Pipeline (Dat)
open Cert.Bridge.MatProduct

namespace Lin0

open Cert.KernelIdeal Cert.KernelIdeal.Gen Cert.KernelIdeal.Hand

variable (m : (ℓ : Loc nD τ sig) → Buf (Elt Ideal) ℓ) (ρ : Dev nD → PrngReg)

/-- The whole product the first region's third output ends holding: the launch node features times the first layer's weights. -/
abbrev xw0 (c : Dev nD) : FVec Ideal S50000x128 .f32 :=
  mprod (M := 50000) (K := 512) (N := 128) (m ((c : Thread nD τ).loc main_arg0)) (m ((c : Thread nD τ).loc main_arg9))

/-- At the first region's entry the node features are the launch ones. -/
theorem entry_x (c : Dev nD) : V3 m ρ c main_arg0 = m ((c : Thread nD τ).loc main_arg0) :=
  W3_keep m ρ c main_arg0 (by decide)

/-- At the first region's entry the first layer's weights are the launch ones. -/
theorem entry_w (c : Dev nD) : V3 m ρ c main_arg9 = m ((c : Thread nD τ).loc main_arg9) :=
  W3_keep m ρ c main_arg9 (by decide)

/-- The body's third store is the product of its feature block by the weights. -/
theorem pay_lin (x : Vec Ideal S2000x512 .f32) (w : Vec Ideal S512x128 .f32) :
    k0_pay1 (F := Ideal) x w = mprod (M := 2000) (K := 512) (N := 128) x w := by
  unfold k0_pay1
  exact matmul_plain_zero_eq (M := 2000) (K := 512) (N := 128) (some .fp32) x w

/-- The block index maps over the grid: the feature window and the output window sit at the point's number on the rows
    and at zero on the columns, the weight window at zero on both. -/
theorem idx_facts : ∀ t : Fin cfg0.N, win0_0.index t (0 : Fin 2) = t.val ∧ win0_0.index t (1 : Fin 2) = 0
    ∧ win0_7.index t (0 : Fin 2) = 0 ∧ win0_7.index t (1 : Fin 2) = 0
    ∧ win0_11.index t (0 : Fin 2) = t.val ∧ win0_11.index t (1 : Fin 2) = 0 :=
  (by decide +kernel : ∀ t : Fin grid0.N, _)

/-- The body's loads and stores start at the origin of their staging buffers. -/
theorem origin : (![0, 0] : Fin 2 → Nat) = fun _ => 0 := funext fun a => by fin_cases a <;> rfl

/-- An entry of the feature block at a point is the entry of the launch features on the point's rows. -/
theorem x_blk (c : Dev nD) (t : Fin cfg0.N) (p : Fin 2000) (k : Fin 512) (r : Fin 50000) (hr : r.val = t.val * 2000 + p.val) :
    iblk0 (V3 m ρ) c 0 t (ix2 p k) = m ((c : Thread nD τ).loc main_arg0) (ix2 r k) := by
  obtain ⟨e0, e1, -, -, -, -⟩ := idx_facts t
  show V3 m ρ c main_arg0 (((cfg0.win 0).blk t).view.emb (ix2 p k)) = _
  rw [entry_x]
  refine congrArg _ ?_
  funext a; apply Fin.ext
  match a with
  | ⟨0, _⟩ => show win0_0.index t (0 : Fin 2) * 2000 + 1 * p.val = r.val; omega
  | ⟨1, _⟩ => show win0_0.index t (1 : Fin 2) * 512 + 1 * k.val = k.val; omega

/-- The weight window's block at every point is the whole launch weight matrix. -/
theorem w_blk (c : Dev nD) (t : Fin cfg0.N) (k : Fin 512) (q : Fin 128) :
    iblk0 (V3 m ρ) c 7 t (ix2 k q) = m ((c : Thread nD τ).loc main_arg9) (ix2 k q) := by
  obtain ⟨-, -, e2, e3, -, -⟩ := idx_facts t
  show V3 m ρ c main_arg9 (((cfg0.win 7).blk t).view.emb (ix2 k q)) = _
  rw [entry_w]
  refine congrArg _ ?_
  funext a; apply Fin.ext
  match a with
  | ⟨0, _⟩ => show win0_7.index t (0 : Fin 2) * 512 + 1 * k.val = k.val; omega
  | ⟨1, _⟩ => show win0_7.index t (1 : Fin 2) * 128 + 1 * q.val = q.val; omega

/-- What a point writes back to the third output is its block of the whole product. -/
theorem flushed_eq (c : Dev nD) (t : Fin cfg0.N) :
    (dat0 (V3 m ρ) c).flushed 11 t = ((cfg0.win 11).blk t).view.read (Elt Ideal) (xw0 m c) := by
  show (cfg0.win 11).cut (grid0.coords t) ((dat0 (V3 m ρ) c).after 11 t) = _
  rw [after0_11]
  unfold out0_11
  rw [View.canon_unit_zero origin]
  simp only [View.ld_unit_zero (S := S2000x512) origin, View.ld_unit_zero (S := S512x128) origin]
  rw [pay_lin]
  obtain ⟨e0, e1, e2, e3, e4, e5⟩ := idx_facts t
  funext j
  show mprod (M := 2000) (K := 512) (N := 128) (iblk0 (V3 m ρ) c 0 t) (iblk0 (V3 m ρ) c 7 t) j = xw0 m c (((cfg0.win 11).blk t).view.emb j)
  refine mprod_congr (M := 2000) (M' := 50000) (K := 512) (N := 128) (N' := 128) _ _ _ _ j (((cfg0.win 11).blk t).view.emb j) ?_ ?_
  · intro k
    refine x_blk m ρ c t (j 0) k (((cfg0.win 11).blk t).view.emb j 0) ?_
    show win0_11.index t (0 : Fin 2) * 2000 + 1 * (j 0).val = _
    omega
  · intro k
    refine (w_blk m ρ c t k (j 1)).trans ?_
    refine congrArg _ ?_
    funext a; apply Fin.ext
    match a with
    | ⟨0, _⟩ => rfl
    | ⟨1, _⟩ => show (j 1).val = win0_11.index t (1 : Fin 2) * 128 + 1 * (j 1).val; omega

/-- A row and a column lie in a point's output block exactly when each lies in the block's range on its axis. -/
theorem mem_blk (t : Fin cfg0.N) (i : S50000x128.Idx) :
    i ∈ ((cfg0.win 11).blk t).view.set ↔ ∀ a : Fin 2, win0_11.index t a * S2000x128.size a ≤ (i a).val ∧ (i a).val < win0_11.index t a * S2000x128.size a + S2000x128.size a := by
  show i ∈ ((View.whole main_v10_2).slice (win0_11.rect t)).set ↔ _
  rw [View.set_slice_whole, Rect.mem_set_unit]
  exact Iff.rfl

/-- Row r of the output lies in the block of point r / 2000: the twenty-five blocks of 2000 rows tile the 50000 rows. -/
theorem cover (i : S50000x128.Idx) : ∃ t : Fin cfg0.N, (cfg0.win 11).flush t = true ∧ i ∈ ((cfg0.win 11).blk t).view.set := by
  have hN : cfg0.N = 25 := N_0
  have hi0 : (i 0).val < 50000 := (i 0).isLt
  have hi1 : (i 1).val < 128 := (i 1).isLt
  obtain ⟨t, ht⟩ : ∃ t : Fin cfg0.N, t.val = (i 0).val / 2000 := ⟨⟨(i 0).val / 2000, by rw [hN]; omega⟩, rfl⟩
  obtain ⟨-, -, -, -, e4, e5⟩ := idx_facts t
  refine ⟨t, flush0_11 t, ?_⟩
  rw [mem_blk]
  intro a
  match a with
  | ⟨0, _⟩ => show win0_11.index t (0 : Fin 2) * 2000 ≤ (i 0).val ∧ (i 0).val < win0_11.index t (0 : Fin 2) * 2000 + 2000; omega
  | ⟨1, _⟩ => show win0_11.index t (1 : Fin 2) * 128 ≤ (i 1).val ∧ (i 1).val < win0_11.index t (1 : Fin 2) * 128 + 128; omega

/-- After the first region its third output array is the whole product. -/
theorem final (c : Dev nD) : (dat0 (V3 m ρ) c).arrAt 11 cfg0.N = xw0 m c :=
  (dat0 (V3 m ρ) c).arrAt_eq_of_cover 11 (xw0 m c) (fun t _ => flushed_eq m ρ c t) cover

end Lin0

theorem xw0_eq (m : (ℓ : Loc Cert.KernelIdeal.nD Cert.KernelIdeal.τ Cert.KernelIdeal.sig) → Buf (Elt Ideal) ℓ) (ρ : Dev Cert.KernelIdeal.nD → PrngReg) (c : Dev Cert.KernelIdeal.nD) (Vr : RV)
    (h0 : Vr (Proc.devRef .tc Cert.ReferenceIdeal.main_arg0 : DevRef Cert.ReferenceIdeal.τ Cert.ReferenceIdeal.sig) = m ((c.tc : Thread Cert.KernelIdeal.nD Cert.KernelIdeal.τ).loc Cert.KernelIdeal.main_arg0))
    (h9 : Vr (Proc.devRef .tc Cert.ReferenceIdeal.main_arg9 : DevRef Cert.ReferenceIdeal.τ Cert.ReferenceIdeal.sig) = m ((c.tc : Thread Cert.KernelIdeal.nD Cert.KernelIdeal.τ).loc Cert.KernelIdeal.main_arg9)) :
    Cert.KernelIdeal.Gen.W4 (F := Ideal) m ρ c (Proc.devRef .tc Cert.KernelIdeal.main_v10_2 : DevRef Cert.KernelIdeal.τ Cert.KernelIdeal.sig) = after Cert.ReferenceIdeal.Hand.rLin0 Vr (Proc.devRef .tc Cert.ReferenceIdeal.main_v49 : DevRef Cert.ReferenceIdeal.τ Cert.ReferenceIdeal.sig) := by
  refine (Cert.KernelIdeal.Gen.W4_arr (F := Ideal) m ρ c 11).trans ?_
  rw [Lin0.final]
  symm
  simp only [Cert.ReferenceIdeal.Hand.rLin0]
  after_results
  rw [h0, h9]
  exact dotGeneral_plain_eq (M := 50000) (K := 512) (N := 128) none _ _

end Cert.Bridge

end
-- ==== Proof.Region1.lean ====
/-
  The second region against the reference's first activation and second linear map.

  The region runs over twenty-five points; at point t its body reads rows 2000·t … 2000·t+1999 of the first layer's
  neighbourhood sums (a 2000×128 block), the bias as one 1×128 row and the whole 128×128 weight matrix of the second
  layer; it adds the bias row to every row of the block and rectifies (the maximum with zero), stores that as rows
  2000·t … 2000·t+1999 of the first output, multiplies it by the weight matrix with one matrix-unit product into a zero
  accumulator, and stores the product as the same rows of the second output.

  Entry by entry: the bias row broadcast down the block reads the row's entry in the column, and the row is the launch
  bias vector with a unit axis in front (the last host operation before the region reshapes it, nothing earlier writes
  it), so the first store at (p, q) is max (sums(2000·t + p, q) + bias(q), 0): the point's block of ONE function of the
  region's entry arrays. At the ideal values the matrix-unit product is the bare sum over the 128 contracted coordinates,
  the factors being that first store and the launch weights (nothing before the region writes them): the point's block of
  the whole product activations · weights. The twenty-five blocks tile the 50000 rows (row r lies in the block of point
  r / 2000), so the two output arrays end holding the two whole functions.

  The reference adds the bias broadcast to a row and then down the rows, takes the maximum with a broadcast zero, and
  multiplies by the weights with one host dot product: entry by entry the same two functions.
-/
import proofs.«415847_j84524956385823_2_alg».proof.Proof.Names
import proofs.«415847_j84524956385823_2_alg».proof.Proof.KernelBounds
import proofs.«415847_j84524956385823_2_alg».proof.Proof.MatProduct
import Idealize.ShloMosaic.Lib.Pipeline.Value
import Idealize.ShloMosaic.Lib.ValueLayout
import Idealize.ShloMosaic.Lib.IdealHost

noncomputable section

namespace Cert.Bridge

open Idealize.ShloMosaic Idealize.ShloMosaic.TcCoe Idealize.SL.Sem Idealize.ShloMosaic.StableHlo
open Idealize.ShloMosaic.ValueIdx
open Idealize.ShloMosaic.Pipeline (Dat)
open Cert.Bridge.MatProduct

namespace Gcn1

open Cert.KernelIdeal Cert.KernelIdeal.Gen Cert.KernelIdeal.Hand

/-- A matrix plus a bias vector along its rows, rectified: entry (r, q) is max (A(r, q) + b(q), 0). -/
def biasRelu {M N : Nat} (A : FVec Ideal ⟨2, ![M, N]⟩ .f32) (b : FVec Ideal ⟨1, ![N]⟩ .f32) : FVec Ideal ⟨2, ![M, N]⟩ .f32 :=
  fun i => max (A i + b (ix1 (n := N) (i 1))) (Ideal.ofBits .f32 0x00000000#32)

theorem biasRelu_apply {M N : Nat} (A : FVec Ideal ⟨2, ![M, N]⟩ .f32) (b : FVec Ideal ⟨1, ![N]⟩ .f32) (r : Fin M) (q : Fin N) :
    biasRelu A b (ix2 r q) = max (A (ix2 r q) + b (ix1 q)) (Ideal.ofBits .f32 0x00000000#32) := rfl

/-- The body's first store: the block plus the bias row, rectified, entry by entry. -/
theorem pay_act (x : Vec Ideal S2000x128 .f32) (b : Vec Ideal S1x128 .f32) (p : Fin 2000) (q : Fin 128) :
    k1_pay1 (F := Ideal) x b (ix2 p q) = max (x (ix2 p q) + b (ix2 (0 : Fin 1) q)) (Ideal.ofBits .f32 0x00000000#32) := by
  unfold k1_pay1
  simp only [shapeCast_self]
  show max (x (ix2 p q) + broadcastTo S2000x128 b broadcasts_S1x128_S2000x128 (ix2 p q)) (Ideal.ofBits .f32 0x00000000#32) = _
  rw [broadcastTo_1b_ab_apply]

/-- The block index maps over the grid: the neighbourhood-sum window and both output windows sit at the point's number
    on the rows and at zero on the columns; the bias window and the weight window at zero on both. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The body's loads and stores start at the origin of their staging buffers. -/
theorem origin : (![0, 0] : Fin 2 → Nat) = fun _ => 0 := funext fun a => by fin_cases a <;> rfl

section AtEntry
/- The region's half, at ANY contents `V` of the buffers when the region is entered. -/
variable (V : (c : Dev nD) → (b : Ref sig .tc) → Buf (Elt Ideal) ((c : Thread nD τ).loc b))

/-- An entry of the neighbourhood-sum block at a point is the entry of the array on the point's rows. -/
theorem agg_blk (c : Dev nD) (t : Fin cfg1.N) (p : Fin 2000) (q : Fin 128) (r : Fin 50000) (hr : r.val = t.val * 2000 + p.val) :
    iblk1 V c 0 t (ix2 p q) = V c main_v66 (ix2 r q) := by
  obtain ⟨e0, e1, -⟩ := idx_facts t
  show V c main_v66 (((cfg1.win 0).blk t).view.emb (ix2 p q)) = _
  refine congrArg (V c main_v66) ?_
  funext a; apply Fin.ext
  match a with
  | ⟨0, _⟩ => show win1_0.index t (0 : Fin 2) * 2000 + 1 * p.val = r.val; omega
  | ⟨1, _⟩ => show win1_0.index t (1 : Fin 2) * 128 + 1 * q.val = q.val; omega

/-- The bias window's block at every point is the whole bias row. -/
theorem bias_blk (c : Dev nD) (t : Fin cfg1.N) (q : Fin 128) :
    iblk1 V c 1 t (ix2 (0 : Fin 1) q) = V c main_v67 (ix2 (0 : Fin 1) q) := by
  obtain ⟨-, -, e2, e3, -⟩ := idx_facts t
  show V c main_v67 (((cfg1.win 1).blk t).view.emb (ix2 (0 : Fin 1) q)) = _
  refine congrArg (V c main_v67) ?_
  funext a; apply Fin.ext
  match a with
  | ⟨0, _⟩ => show win1_1.index t (0 : Fin 2) * 1 + 1 * 0 = 0; omega
  | ⟨1, _⟩ => show win1_1.index t (1 : Fin 2) * 128 + 1 * q.val = q.val; omega

/-- The body's first store at a point, entry by entry, is the whole activation array on the point's rows: the
    neighbourhood sums `A` plus the bias `b` (the bias row is `b` with a unit axis in front), rectified. -/
theorem act_blk (c : Dev nD) (A : FVec Ideal S50000x128 .f32) (b : FVec Ideal S128 .f32) (hA : V c main_v66 = A)
    (hb : V c main_v67 = shapeCast S1x128 b shapeCasts_S128_S1x128)
    (t : Fin cfg1.N) (p : Fin 2000) (q : Fin 128) (r : Fin 50000) (hr : r.val = t.val * 2000 + p.val) :
    k1_pay1 (F := Ideal) (iblk1 V c 0 t) (iblk1 V c 1 t) (ix2 p q) = biasRelu (M := 50000) (N := 128) A b (ix2 r q) := by
  refine (pay_act (iblk1 V c 0 t) (iblk1 V c 1 t) p q).trans ?_
  have h1 : iblk1 V c 0 t (ix2 p q) = A (ix2 r q) := (agg_blk V c t p q r hr).trans (congrFun hA _)
  have h2 : iblk1 V c 1 t (ix2 (0 : Fin 1) q) = b (ix1 q) := by
    refine (bias_blk V c t q).trans ?_
    refine (congrFun hb _).trans ?_
    refine (shapeCast_addUnit_apply ![128] b shapeCasts_S128_S1x128 (ix2 (0 : Fin 1) q)).trans ?_
    refine congrArg b ?_
    funext a
    match a with
    | ⟨0, _⟩ => rfl
  rw [h1, h2]
  rfl

/-- The same at any index of the block and the index of the array it sits at. -/
theorem act_idx (c : Dev nD) (A : FVec Ideal S50000x128 .f32) (b : FVec Ideal S128 .f32) (hA : V c main_v66 = A)
    (hb : V c main_v67 = shapeCast S1x128 b shapeCasts_S128_S1x128)
    (t : Fin cfg1.N) (y : S2000x128.Idx) (i : S50000x128.Idx) (h0 : (i 0).val = t.val * 2000 + (y 0).val) (h1 : (i 1).val = (y 1).val) :
    k1_pay1 (F := Ideal) (iblk1 V c 0 t) (iblk1 V c 1 t) y = biasRelu (M := 50000) (N := 128) A b i := by
  obtain ⟨p, q, rfl⟩ : ∃ (p : Fin 2000) (q : Fin 128), y = ix2 p q := ⟨y 0, y 1, eq_ix2 y⟩
  obtain ⟨r, q', rfl⟩ : ∃ (r : Fin 50000) (q' : Fin 128), i = ix2 r q' := ⟨i 0, i 1, eq_ix2 i⟩
  obtain rfl : q' = q := Fin.ext h1
  exact act_blk V c A b hA hb t p q' r h0

/-- What a point writes back to the first output is its block of the whole activation array. -/
theorem flushed_x1 (c : Dev nD) (A : FVec Ideal S50000x128 .f32) (b : FVec Ideal S128 .f32) (hA : V c main_v66 = A)
    (hb : V c main_v67 = shapeCast S1x128 b shapeCasts_S128_S1x128) (t : Fin cfg1.N) :
    (dat1 V c).flushed 3 t = ((cfg1.win 3).blk t).view.read (Elt Ideal) (biasRelu (M := 50000) (N := 128) A b) := by
  show (cfg1.win 3).cut (grid1.coords t) ((dat1 V c).after 3 t) = _
  rw [after1_3]
  unfold out1_3
  rw [View.canon_unit_zero origin]
  simp only [View.ld_unit_zero (S := S2000x128) origin, View.ld_unit_zero (S := S1x128) origin]
  obtain ⟨-, -, -, -, -, -, e6, e7, -⟩ := idx_facts t
  funext j
  show k1_pay1 (F := Ideal) (iblk1 V c 0 t) (iblk1 V c 1 t) j = biasRelu (M := 50000) (N := 128) A b (((cfg1.win 3).blk t).view.emb j)
  refine act_idx V c A b hA hb t j (((cfg1.win 3).blk t).view.emb j) ?_ ?_
  · show win1_3.index t (0 : Fin 2) * 2000 + 1 * (j 0).val = _
    omega
  · show win1_3.index t (1 : Fin 2) * 128 + 1 * (j 1).val = _
    omega

/-- A row and a column lie in a point's block of the first output exactly when each lies in the block's range on its axis. -/
theorem mem_blk3 (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v68_0).slice (win1_3.rect t)).set ↔ _
  rw [View.set_slice_whole, Rect.mem_set_unit]
  exact Iff.rfl

/-- The same for the second output. -/
theorem mem_blk4 (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v68_1).slice (win1_4.rect t)).set ↔ _
  rw [View.set_slice_whole, Rect.mem_set_unit]
  exact Iff.rfl

/-- Row r of the first output lies in the block of point r / 2000: the twenty-five blocks of 2000 rows tile the 50000 rows. -/
theorem cover3 (i : S50000x128.Idx) : ∃ t : Fin cfg1.N, (cfg1.win 3).flush t = true ∧ i ∈ ((cfg1.win 3).blk t).view.set := by
  have hN : cfg1.N = 25 := N_1
  have hi0 : (i 0).val < 50000 := (i 0).isLt
  have hi1 : (i 1).val < 128 := (i 1).isLt
  obtain ⟨t, ht⟩ : ∃ t : Fin cfg1.N, t.val = (i 0).val / 2000 := ⟨⟨(i 0).val / 2000, by rw [hN]; omega⟩, rfl⟩
  obtain ⟨-, -, -, -, -, -, e6, e7, -⟩ := idx_facts t
  refine ⟨t, flush1_3 t, ?_⟩
  rw [mem_blk3]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- The same for the second output. -/
theorem cover4 (i : S50000x128.Idx) : ∃ t : Fin cfg1.N, (cfg1.win 4).flush t = true ∧ i ∈ ((cfg1.win 4).blk t).view.set := by
  have hN : cfg1.N = 25 := N_1
  have hi0 : (i 0).val < 50000 := (i 0).isLt
  have hi1 : (i 1).val < 128 := (i 1).isLt
  obtain ⟨t, ht⟩ : ∃ t : Fin cfg1.N, t.val = (i 0).val / 2000 := ⟨⟨(i 0).val / 2000, by rw [hN]; omega⟩, rfl⟩
  obtain ⟨-, -, -, -, -, -, -, -, e8, e9⟩ := idx_facts t
  refine ⟨t, flush1_4 t, ?_⟩
  rw [mem_blk4]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- After the region its first output array is the whole activation array. -/
theorem final_x1 (c : Dev nD) (A : FVec Ideal S50000x128 .f32) (b : FVec Ideal S128 .f32) (hA : V c main_v66 = A)
    (hb : V c main_v67 = shapeCast S1x128 b shapeCasts_S128_S1x128) :
    (dat1 V c).arrAt 3 cfg1.N = biasRelu (M := 50000) (N := 128) A b :=
  (dat1 V c).arrAt_eq_of_cover 3 (biasRelu (M := 50000) (N := 128) A b) (fun t _ => flushed_x1 V c A b hA hb t) cover3

/-- The body's second store is the product of its first store by the weight block. -/
theorem pay_lin (x : Vec Ideal S2000x128 .f32) (b : Vec Ideal S1x128 .f32) (w : Vec Ideal S128x128 .f32) :
    k1_pay2 (F := Ideal) x b w = mprod (M := 2000) (K := 128) (N := 128) (k1_pay1 (F := Ideal) x b) w := by
  unfold k1_pay2
  exact matmul_plain_zero_eq (M := 2000) (K := 128) (N := 128) (some .fp32) (k1_pay1 (F := Ideal) x b) w

/-- The weight window's block at every point is the whole weight matrix. -/
theorem w_blk (c : Dev nD) (t : Fin cfg1.N) (k : Fin 128) (q : Fin 128) :
    iblk1 V c 2 t (ix2 k q) = V c main_arg11 (ix2 k q) := by
  obtain ⟨-, -, -, -, e4, e5, -⟩ := idx_facts t
  show V c main_arg11 (((cfg1.win 2).blk t).view.emb (ix2 k q)) = _
  refine congrArg (V c main_arg11) ?_
  funext a; apply Fin.ext
  match a with
  | ⟨0, _⟩ => show win1_2.index t (0 : Fin 2) * 128 + 1 * k.val = k.val; omega
  | ⟨1, _⟩ => show win1_2.index t (1 : Fin 2) * 128 + 1 * q.val = q.val; omega

/-- What a point writes back to the second output is its block of the whole product activations · weights. -/
theorem flushed_xw1 (c : Dev nD) (A : FVec Ideal S50000x128 .f32) (b : FVec Ideal S128 .f32) (W : FVec Ideal S128x128 .f32)
    (hA : V c main_v66 = A) (hb : V c main_v67 = shapeCast S1x128 b shapeCasts_S128_S1x128) (hW : V c main_arg11 = W) (t : Fin cfg1.N) :
    (dat1 V c).flushed 4 t = ((cfg1.win 4).blk t).view.read (Elt Ideal)
      (mprod (M := 50000) (K := 128) (N := 128) (biasRelu (M := 50000) (N := 128) A b) W) := by
  show (cfg1.win 4).cut (grid1.coords t) ((dat1 V c).after 4 t) = _
  rw [after1_4]
  unfold out1_4
  rw [View.canon_unit_zero origin]
  simp only [View.ld_unit_zero (S := S2000x128) origin, View.ld_unit_zero (S := S1x128) origin, View.ld_unit_zero (S := S128x128) origin]
  rw [pay_lin]
  obtain ⟨-, -, -, -, -, -, -, -, e8, e9⟩ := idx_facts t
  funext j
  show mprod (M := 2000) (K := 128) (N := 128) (k1_pay1 (F := Ideal) (iblk1 V c 0 t) (iblk1 V c 1 t)) (iblk1 V c 2 t) j
    = mprod (M := 50000) (K := 128) (N := 128) (biasRelu (M := 50000) (N := 128) A b) W (((cfg1.win 4).blk t).view.emb j)
  refine mprod_congr (M := 2000) (M' := 50000) (K := 128) (N := 128) (N' := 128)
    (k1_pay1 (F := Ideal) (iblk1 V c 0 t) (iblk1 V c 1 t)) (iblk1 V c 2 t) (biasRelu (M := 50000) (N := 128) A b) W
    j (((cfg1.win 4).blk t).view.emb j) ?_ ?_
  · intro k
    refine act_blk V c A b hA hb t (j 0) k (((cfg1.win 4).blk t).view.emb j 0) ?_
    show win1_4.index t (0 : Fin 2) * 2000 + 1 * (j 0).val = _
    omega
  · intro k
    refine ((w_blk V c t k (j 1)).trans (congrFun hW _)).trans ?_
    refine congrArg W ?_
    funext a; apply Fin.ext
    match a with
    | ⟨0, _⟩ => rfl
    | ⟨1, _⟩ => show (j 1).val = win1_4.index t (1 : Fin 2) * 128 + 1 * (j 1).val; omega

/-- After the region its second output array is the whole product. -/
theorem final_xw1 (c : Dev nD) (A : FVec Ideal S50000x128 .f32) (b : FVec Ideal S128 .f32) (W : FVec Ideal S128x128 .f32)
    (hA : V c main_v66 = A) (hb : V c main_v67 = shapeCast S1x128 b shapeCasts_S128_S1x128) (hW : V c main_arg11 = W) :
    (dat1 V c).arrAt 4 cfg1.N = mprod (M := 50000) (K := 128) (N := 128) (biasRelu (M := 50000) (N := 128) A b) W :=
  (dat1 V c).arrAt_eq_of_cover 4 _ (fun t _ => flushed_xw1 V c A b W hA hb hW t) cover4

end AtEntry

variable (m : (ℓ : Loc nD τ sig) → Buf (Elt Ideal) ℓ) (ρ : Dev nD → PrngReg)

/-- At the second region's entry the bias row is the launch bias vector with a unit axis in front: the last operation
    before the region reshapes it, and nothing earlier writes the bias. -/
theorem entry_b (c : Dev nD) : V11 m ρ c main_v67 = shapeCast S1x128 (m ((c : Thread nD τ).loc main_arg10)) shapeCasts_S128_S1x128 := by
  show W11 m ρ c (Proc.devRef .tc main_v67) = _
  rw [W11_eq]
  simp only [kAgg0]
  after_results_simp
  rw [W4_of_ne m ρ c main_arg10 (by decide), W3_keep m ρ c main_arg10 (by decide)]
  rfl

/-- At the second region's entry the second layer's weights are the launch ones. -/
theorem entry_w (c : Dev nD) : V11 m ρ c main_arg11 = m ((c : Thread nD τ).loc main_arg11) :=
  (W11_keep m ρ c main_arg11 (by decide) (by decide) (by decide) (by decide)).trans (W3_keep m ρ c main_arg11 (by decide))

/-- The reference's bias, broadcast first to a row and then down the rows, read at an entry is the bias at the column. -/
theorem host_bias (b : FVec Ideal Cert.ReferenceIdeal.S128 .f32) (r : Fin 50000) (q : Fin 128) :
    broadcastInDim Cert.ReferenceIdeal.S50000x128 ![0, 1] Cert.ReferenceIdeal.Gen.bcast_S1x128_S50000x128_0_1
      (broadcastInDim Cert.ReferenceIdeal.S1x128 ![1] Cert.ReferenceIdeal.Gen.bcast_S128_S1x128_1 b) (ix2 r q) = b (ix1 q) := by
  refine (broadcastInDim_apply _ _ _ (ix2 r q) (ix2 (0 : Fin 1) q) ?_).trans ?_
  · intro a
    match a with
    | ⟨0, _⟩ => rfl
    | ⟨1, _⟩ => rfl
  · refine broadcastInDim_apply _ _ b (ix2 (0 : Fin 1) q) (ix1 q) ?_
    intro a
    match a with
    | ⟨0, _⟩ => rfl

/-- The reference's bias and rectifier are that function of the neighbourhood sums and the bias. -/
theorem host_act (A : FVec Ideal Cert.ReferenceIdeal.S50000x128 .f32) (b : FVec Ideal Cert.ReferenceIdeal.S128 .f32) :
    maximumf (addf A (broadcastInDim Cert.ReferenceIdeal.S50000x128 ![0, 1] Cert.ReferenceIdeal.Gen.bcast_S1x128_S50000x128_0_1
        (broadcastInDim Cert.ReferenceIdeal.S1x128 ![1] Cert.ReferenceIdeal.Gen.bcast_S128_S1x128_1 b)))
      (broadcastInDim Cert.ReferenceIdeal.S50000x128 ![] Cert.ReferenceIdeal.Gen.bcast_S_S50000x128 (constant (F := Ideal) Cert.ReferenceIdeal.S_ .f32 0x00000000#32))
      = biasRelu (M := 50000) (N := 128) A b := by
  funext i
  obtain ⟨r, q, rfl⟩ : ∃ (r : Fin 50000) (q : Fin 128), i = ix2 r q := ⟨i 0, i 1, eq_ix2 i⟩
  show max (A (ix2 r q) + broadcastInDim Cert.ReferenceIdeal.S50000x128 ![0, 1] Cert.ReferenceIdeal.Gen.bcast_S1x128_S50000x128_0_1
        (broadcastInDim Cert.ReferenceIdeal.S1x128 ![1] Cert.ReferenceIdeal.Gen.bcast_S128_S1x128_1 b) (ix2 r q))
      (broadcastInDim Cert.ReferenceIdeal.S50000x128 ![] Cert.ReferenceIdeal.Gen.bcast_S_S50000x128 (constant (F := Ideal) Cert.ReferenceIdeal.S_ .f32 0x00000000#32) (ix2 r q))
    = max (A (ix2 r q) + b (ix1 q)) (Ideal.ofBits .f32 0x00000000#32)
  rw [host_bias, broadcastInDim_scalar_apply]
  rfl

end Gcn1

theorem x1_eq (m : (ℓ : Loc Cert.KernelIdeal.nD Cert.KernelIdeal.τ Cert.KernelIdeal.sig) → Buf (Elt Ideal) ℓ) (ρ : Dev Cert.KernelIdeal.nD → PrngReg) (c : Dev Cert.KernelIdeal.nD) (Vr : RV)
    (hagg : Vr (Proc.devRef .tc Cert.ReferenceIdeal.main_v94 : DevRef Cert.ReferenceIdeal.τ Cert.ReferenceIdeal.sig) = Cert.KernelIdeal.Gen.W11 (F := Ideal) m ρ c (Proc.devRef .tc Cert.KernelIdeal.main_v66 : DevRef Cert.KernelIdeal.τ Cert.KernelIdeal.sig))
    (h10 : Vr (Proc.devRef .tc Cert.ReferenceIdeal.main_arg10 : DevRef Cert.ReferenceIdeal.τ Cert.ReferenceIdeal.sig) = m ((c.tc : Thread Cert.KernelIdeal.nD Cert.KernelIdeal.τ).loc Cert.KernelIdeal.main_arg10)) :
    Cert.KernelIdeal.Gen.W12 (F := Ideal) m ρ c (Proc.devRef .tc Cert.KernelIdeal.main_v68_0 : DevRef Cert.KernelIdeal.τ Cert.KernelIdeal.sig) = after Cert.ReferenceIdeal.Hand.rAct1 Vr (Proc.devRef .tc Cert.ReferenceIdeal.main_v98 : DevRef Cert.ReferenceIdeal.τ Cert.ReferenceIdeal.sig) := by
  have hA : Cert.KernelIdeal.Gen.V11 (F := Ideal) m ρ c Cert.KernelIdeal.main_v66 = Vr (Proc.devRef .tc Cert.ReferenceIdeal.main_v94 : DevRef Cert.ReferenceIdeal.τ Cert.ReferenceIdeal.sig) := hagg.symm
  refine (Cert.KernelIdeal.Gen.W12_arr (F := Ideal) m ρ c 3).trans ?_
  rw [Gcn1.final_x1 (Cert.KernelIdeal.Gen.V11 (F := Ideal) m ρ) c _ _ hA (Gcn1.entry_b m ρ c)]
  symm
  simp only [Cert.ReferenceIdeal.Hand.rAct1]
  after_results
  simp only [StableHlo.TRef.ofBuf, StableHlo.TRef.toBuf, cast_eq]
  rw [h10]
  exact Gcn1.host_act _ _

theorem xw1_eq (m : (ℓ : Loc Cert.KernelIdeal.nD Cert.KernelIdeal.τ Cert.KernelIdeal.sig) → Buf (Elt Ideal) ℓ) (ρ : Dev Cert.KernelIdeal.nD → PrngReg) (c : Dev Cert.KernelIdeal.nD) (Vr : RV)
    (hx1 : Vr (Proc.devRef .tc Cert.ReferenceIdeal.main_v98 : DevRef Cert.ReferenceIdeal.τ Cert.ReferenceIdeal.sig) = Cert.KernelIdeal.Gen.W12 (F := Ideal) m ρ c (Proc.devRef .tc Cert.KernelIdeal.main_v68_0 : DevRef Cert.KernelIdeal.τ Cert.KernelIdeal.sig))
    (h11 : Vr (Proc.devRef .tc Cert.ReferenceIdeal.main_arg11 : DevRef Cert.ReferenceIdeal.τ Cert.ReferenceIdeal.sig) = m ((c.tc : Thread Cert.KernelIdeal.nD Cert.KernelIdeal.τ).loc Cert.KernelIdeal.main_arg11)) :
    Cert.KernelIdeal.Gen.W12 (F := Ideal) m ρ c (Proc.devRef .tc Cert.KernelIdeal.main_v68_1 : DevRef Cert.KernelIdeal.τ Cert.KernelIdeal.sig) = after Cert.ReferenceIdeal.Hand.rLin1 Vr (Proc.devRef .tc Cert.ReferenceIdeal.main_v99 : DevRef Cert.ReferenceIdeal.τ Cert.ReferenceIdeal.sig) := by
  have hb := Gcn1.entry_b m ρ c
  have hW := Gcn1.entry_w m ρ c
  have hx : Cert.KernelIdeal.Gen.W12 (F := Ideal) m ρ c (Proc.devRef .tc Cert.KernelIdeal.main_v68_0 : DevRef Cert.KernelIdeal.τ Cert.KernelIdeal.sig)
      = Gcn1.biasRelu (M := 50000) (N := 128) (Cert.KernelIdeal.Gen.V11 (F := Ideal) m ρ c Cert.KernelIdeal.main_v66)
          (m ((c.tc : Thread Cert.KernelIdeal.nD Cert.KernelIdeal.τ).loc Cert.KernelIdeal.main_arg10)) :=
    (Cert.KernelIdeal.Gen.W12_arr (F := Ideal) m ρ c 3).trans
      (Gcn1.final_x1 (Cert.KernelIdeal.Gen.V11 (F := Ideal) m ρ) c (Cert.KernelIdeal.Gen.V11 (F := Ideal) m ρ c Cert.KernelIdeal.main_v66) _ rfl hb)
  refine (Cert.KernelIdeal.Gen.W12_arr (F := Ideal) m ρ c 4).trans ?_
  rw [Gcn1.final_xw1 (Cert.KernelIdeal.Gen.V11 (F := Ideal) m ρ) c (Cert.KernelIdeal.Gen.V11 (F := Ideal) m ρ c Cert.KernelIdeal.main_v66) _ _ rfl hb hW]
  symm
  simp only [Cert.ReferenceIdeal.Hand.rLin1]
  after_results
  rw [hx1, h11, hx]
  exact dotGeneral_plain_eq (M := 50000) (K := 128) (N := 128) none _ _

end Cert.Bridge

end
-- ==== Proof.Region2.lean ====
/-
  The third region against the reference's second activation and head.

  Row r of the result depends on row r of the first layer's output x1 and of the second layer's neighbourhood sum agg
  only: with x2 = max (agg + bg, 0), the hidden row is h = max (x1 · Wa + x2 · Wb + b1, 0) and the result row is
  h · W2 + b2, where Wa and Wb are the upper and the lower 128 rows of the head's first weight matrix. The kernel
  computes this on blocks of 2000 rows, each product a sum over 128 columns accumulated into zero; the reference lays
  x1 and x2 side by side into 256 columns and takes one product with the whole first weight matrix. The one law that
  joins the two sides: a sum over the 256 columns is the sum over the first 128 plus the sum over the last 128 (only
  commutativity and associativity of the extended reals' addition), the two matrices laid side by side read at a
  column below 128 or from 128 on, the two halves of the weight matrix read at their rows. The kernel's biases are
  one-row matrices cast from the vectors the reference lays along every row. The result array is put together from its
  25 blocks: block t holds rows 2000 · t to 2000 · t + 1999, so row r lies in the block of grid point r / 2000.
-/
import proofs.«415847_j84524956385823_2_alg».proof.Proof.Names
import proofs.«415847_j84524956385823_2_alg».proof.Proof.KernelBounds
import Idealize.ShloMosaic.Lib.StackMember
import Idealize.ShloMosaic.Lib.ValueLayout
import Idealize.ShloMosaic.Lib.KernelVsHost
import Idealize.ShloMosaic.Lib.Pipeline.Value
import Idealize.ShloMosaic.Lib.ValueIdx
import Idealize.ShloMosaic.PureOps.Ideal.Laws

noncomputable section

namespace Cert.Bridge.Head
open Idealize.ShloMosaic Idealize.ShloMosaic.TcCoe Idealize.SL.Sem Idealize.ShloMosaic.StableHlo
open Idealize.ShloMosaic.ValueIdx
open scoped BigOperators

/-- One row of the head. -/
def headRow (x1r aggr bg : Fin 128 → EReal) (Wa Wb : Fin 128 → Fin 128 → EReal) (b1 : Fin 128 → EReal)
    (W2 : Fin 128 → Fin 64 → EReal) (b2 : Fin 64 → EReal) (z : EReal) (q : Fin 64) : EReal :=
  (∑ k : Fin 128, max (((∑ j : Fin 128, x1r j * Wa j k) + ∑ j : Fin 128, max (aggr j + bg j) z * Wb j k) + b1 k) z * W2 k q) + b2 q

/-- The head of one row depends on its arguments entry by entry. -/
theorem headRow_congr {x1r x1r' aggr aggr' bg bg' : Fin 128 → EReal} {Wa Wa' Wb Wb' : Fin 128 → Fin 128 → EReal}
    {b1 b1' : Fin 128 → EReal} {W2 W2' : Fin 128 → Fin 64 → EReal} {b2 b2' : Fin 64 → EReal} (z : EReal) (q : Fin 64)
    (h1 : ∀ j, x1r j = x1r' j) (h2 : ∀ j, aggr j = aggr' j) (h3 : ∀ j, bg j = bg' j) (h4 : ∀ j k, Wa j k = Wa' j k)
    (h5 : ∀ j k, Wb j k = Wb' j k) (h6 : ∀ k, b1 k = b1' k) (h7 : ∀ k q, W2 k q = W2' k q) (h8 : ∀ q, b2 q = b2' q) :
    headRow x1r aggr bg Wa Wb b1 W2 b2 z q = headRow x1r' aggr' bg' Wa' Wb' b1' W2' b2' z q := by
  obtain rfl : x1r = x1r' := funext h1
  obtain rfl : aggr = aggr' := funext h2
  obtain rfl : bg = bg' := funext h3
  obtain rfl : Wa = Wa' := funext fun j => funext (h4 j)
  obtain rfl : Wb = Wb' := funext fun j => funext (h5 j)
  obtain rfl : b1 = b1' := funext h6
  obtain rfl : W2 = W2' := funext fun k => funext (h7 k)
  obtain rfl : b2 = b2' := funext h8
  rfl

/-- A product of an m×k by a k×n matrix accumulated into zero, at an entry: the sum over the contracted coordinate. -/
theorem matmul_plain_apply {m k n : Nat} (D : DotDims ⟨2, ![m, k]⟩ ⟨2, ![k, n]⟩ ⟨2, ![m, n]⟩) (hD : D = DotDims.plain m k n)
    (prec : Option ContractPrecision) (A : FVec Ideal ⟨2, ![m, k]⟩ .f32) (B : FVec Ideal ⟨2, ![k, n]⟩ .f32) (a : Fin m) (b : Fin n) :
    matmul D prec A B (constant ⟨2, ![m, n]⟩ .f32 0x00000000#32) (ix2 a b) = ∑ c : Fin k, A (ix2 a c) * B (ix2 c b) := by
  subst hD
  rw [matmul_zero_eq_dotGeneral]
  exact StackMember.dotGeneral_plain_apply prec A B a b

/-- The reference's product of an m×k by a k×n matrix, at an entry: the same sum, with no accumulator. -/
theorem dotGeneral_plain_apply' {m k n : Nat} (D : DotDims ⟨2, ![m, k]⟩ ⟨2, ![k, n]⟩ ⟨2, ![m, n]⟩) (hD : D = DotDims.plain m k n)
    (prec : Option ContractPrecision) (A : FVec Ideal ⟨2, ![m, k]⟩ .f32) (B : FVec Ideal ⟨2, ![k, n]⟩ .f32) (a : Fin m) (b : Fin n) :
    Host.dotGeneral D prec A B (ix2 a b) = ∑ c : Fin k, A (ix2 a c) * B (ix2 c b) := by
  subst hD
  exact StackMember.dotGeneral_plain_apply prec A B a b

open Cert.KernelIdeal Cert.KernelIdeal.Gen in
/-- What the kernel's body stores, at row p and column q of its block: the head of row p of its input blocks. -/
theorem pay_apply (v0 : Vec Ideal S2000x128 .f32) (v2 : Vec Ideal S1x128 .f32) (v8 : Vec Ideal S2000x128 .f32) (v10 : Vec Ideal S128x128 .f32) (v13 : Vec Ideal S128x128 .f32) (v17 : Vec Ideal S1x128 .f32) (v23 : Vec Ideal S128x64 .f32) (v25 : Vec Ideal S1x64 .f32)
    (p : Fin 2000) (q : Fin 64) :
    k2_pay1 (F := Ideal) v0 v2 v8 v10 v13 v17 v23 v25 (ix2 p q)
      = headRow (fun j => v8 (ix2 p j)) (fun j => v0 (ix2 p j)) (fun j => v2 (ix2 (0 : Fin 1) j)) (fun j k => v10 (ix2 j k)) (fun j k => v13 (ix2 j k))
          (fun k => v17 (ix2 (0 : Fin 1) k)) (fun k q => v23 (ix2 k q)) (fun q => v25 (ix2 (0 : Fin 1) q)) (Ideal.ofBits .f32 0x00000000#32) q := by
  unfold k2_pay1 headRow
  simp only [shapeCast_self]
  have hD3 : dot_S2000x128_S128x64_S2000x64_1_0_0_1_n_n = DotDims.plain 2000 128 64 := rfl
  have hD1 : dot_S2000x128_S128x128_S2000x128_1_0_0_1_n_n = DotDims.plain 2000 128 128 := rfl
  simp only [addf_apply, maximumf_apply, broadcast_apply, matmul_plain_apply _ hD3, matmul_plain_apply _ hD1, broadcastTo_1b_ab_apply]
  rfl

section Ref
open Cert.ReferenceIdeal Cert.ReferenceIdeal.Gen Cert.ReferenceIdeal.Hand

/-- The reference's second activation on whole arrays: the neighbourhood sum plus its bias, rectified. -/
def refAct (agg : FVec Ideal S50000x128 .f32) (b12 : FVec Ideal S128 .f32) : FVec Ideal S50000x128 .f32 :=
  maximumf (addf agg (broadcastInDim S50000x128 ![0, 1] bcast_S1x128_S50000x128_0_1 (broadcastInDim S1x128 ![1] bcast_S128_S1x128_1 b12)))
    (broadcastInDim S50000x128 ![] bcast_S_S50000x128 (constant (F := Ideal) S_ .f32 0x00000000#32))

/-- The reference's second activation is that function of the second neighbourhood sum and its bias. -/
theorem after_rAct2 (Vr : RV) :
    after rAct2 Vr (Proc.devRef .tc main_v148 : DevRef τ sig)
      = refAct (Vr (Proc.devRef .tc main_v144 : DevRef τ sig)) (Vr (Proc.devRef .tc main_arg12 : DevRef τ sig)) := by
  simp only [rAct2]
  after_results
  simp only [TRef.ofBuf, TRef.toBuf, cast_eq]
  rfl

/-- The reference's head on whole arrays: the two layers' outputs laid side by side, a product, a bias, the rectifier,
    a product, a bias. -/
def refHead (x1 x2 : FVec Ideal S50000x128 .f32) (W15 : FVec Ideal S256x128 .f32) (b16 : FVec Ideal S128 .f32)
    (W17 : FVec Ideal S128x64 .f32) (b18 : FVec Ideal S64 .f32) : FVec Ideal S50000x64 .f32 :=
  addf (Host.dotGeneral dot_S50000x128_S128x64_S50000x64_1_0_0_1_n_n none
      (maximumf (addf (Host.dotGeneral dot_S50000x256_S256x128_S50000x128_1_0_0_1_n_n none
            (concatenate S50000x256 1 [⟨S50000x128, x1⟩, ⟨S50000x128, x2⟩] concatenates_S50000x128_S50000x128_S50000x256_d1) W15)
          (broadcastInDim S50000x128 ![0, 1] bcast_S1x128_S50000x128_0_1 (broadcastInDim S1x128 ![1] bcast_S128_S1x128_1 b16)))
        (broadcastInDim S50000x128 ![] bcast_S_S50000x128 (constant (F := Ideal) S_ .f32 0x00000000#32)))
      W17)
    (broadcastInDim S50000x64 ![0, 1] bcast_S1x64_S50000x64_0_1 (broadcastInDim S1x64 ![1] bcast_S64_S1x64_1 b18))

/-- The reference's result is that function of the two layers' outputs and the head's weights and biases. -/
theorem after_rHead (V : RV) :
    after rHead V (Proc.devRef .tc main_v158 : DevRef τ sig)
      = refHead (V (Proc.devRef .tc main_v98 : DevRef τ sig)) (V (Proc.devRef .tc main_v148 : DevRef τ sig))
          (V (Proc.devRef .tc main_arg15 : DevRef τ sig)) (V (Proc.devRef .tc main_arg16 : DevRef τ sig))
          (V (Proc.devRef .tc main_arg17 : DevRef τ sig)) (V (Proc.devRef .tc main_arg18 : DevRef τ sig)) := by
  simp only [rHead]
  after_results
  simp only [TRef.ofBuf, TRef.toBuf, cast_eq]
  rfl

end Ref

section RefRead
open Cert.ReferenceIdeal Cert.ReferenceIdeal.Gen Cert.ReferenceIdeal.Hand

/-- A vector laid as the one row of a one-row matrix, at an entry. -/
theorem broadcastInDim_vec_row_apply {α : Type} {n : Nat} (h : (⟨1, ![n]⟩ : Shape).BroadcastsInDim ⟨2, ![1, n]⟩ ![1])
    (b : (⟨1, ![n]⟩ : Shape).Idx → α) (u : Fin 1) (j : Fin n) :
    broadcastInDim ⟨2, ![1, n]⟩ ![1] h b (ix2 u j) = b (ix1 j) := by
  refine broadcastInDim_apply ![1] h b (ix2 u j) (ix1 j) ?_
  intro a
  match a with
  | ⟨0, _⟩ =>
    show j.val = if n = 1 then 0 else j.val
    split
    · have := j.isLt; omega
    · rfl

/-- Two matrices of 128 columns side by side: a column below 128 reads the first. -/
theorem concat_left {α : Type} {n : Nat} (x1 x2 : (⟨2, ![n, 128]⟩ : Shape).Idx → α)
    (h : Shape.Concatenates [(⟨2, ![n, 128]⟩ : Shape), ⟨2, ![n, 128]⟩] ⟨2, ![n, 256]⟩ 1) (r : Fin n) (j : Fin 128) :
    concatenate ⟨2, ![n, 256]⟩ 1 [⟨⟨2, ![n, 128]⟩, x1⟩, ⟨⟨2, ![n, 128]⟩, x2⟩] h (ix2 r (⟨j.val, by omega⟩ : Fin 256)) = x1 (ix2 r j) := by
  refine concatenate_pair_apply_left (t := ⟨2, ![n, 256]⟩) (1 : Fin 2) x1 x2 h _ rfl (ix2 r j) ?_
  intro b
  match b with
  | ⟨0, _⟩ => rfl
  | ⟨1, _⟩ => rfl

/-- … and a column from 128 on reads the second, 128 columns back. -/
theorem concat_right {α : Type} {n : Nat} (x1 x2 : (⟨2, ![n, 128]⟩ : Shape).Idx → α)
    (h : Shape.Concatenates [(⟨2, ![n, 128]⟩ : Shape), ⟨2, ![n, 128]⟩] ⟨2, ![n, 256]⟩ 1) (r : Fin n) (j : Fin 128) :
    concatenate ⟨2, ![n, 256]⟩ 1 [⟨⟨2, ![n, 128]⟩, x1⟩, ⟨⟨2, ![n, 128]⟩, x2⟩] h (ix2 r (⟨128 + j.val, by omega⟩ : Fin 256)) = x2 (ix2 r j) := by
  refine concatenate_pair_apply_right (t := ⟨2, ![n, 256]⟩) (1 : Fin 2) x1 x2 h _ rfl rfl (ix2 r j) ?_ ?_
  · intro b hb
    match b with
    | ⟨0, _⟩ => rfl
    | ⟨1, _⟩ => exact absurd rfl hb
  · show j.val + 128 = 128 + j.val
    omega

/-- A sum over 256 columns is the sum over the first 128 plus the sum over the last 128. -/
theorem sum_split (f : Fin 256 → EReal) :
    ∑ j : Fin 256, f j = ∑ j : Fin 128, f ⟨j.val, by omega⟩ + ∑ j : Fin 128, f ⟨128 + j.val, by omega⟩ :=
  Fin.sum_univ_add (a := 128) (b := 128) f

/-- A vector laid along every row of a matrix, through its one-row form, at an entry. -/
theorem bias_apply {α : Type} {m n : Nat} (h1 : (⟨2, ![1, n]⟩ : Shape).BroadcastsInDim ⟨2, ![m, n]⟩ ![0, 1])
    (h2 : (⟨1, ![n]⟩ : Shape).BroadcastsInDim ⟨2, ![1, n]⟩ ![1]) (b : (⟨1, ![n]⟩ : Shape).Idx → α) (r : Fin m) (j : Fin n) :
    broadcastInDim ⟨2, ![m, n]⟩ ![0, 1] h1 (broadcastInDim ⟨2, ![1, n]⟩ ![1] h2 b) (ix2 r j) = b (ix1 j) := by
  rw [broadcastInDim_oneRow_apply, broadcastInDim_vec_row_apply]

/-- The second activation at an entry: the sum plus the bias, rectified. -/
theorem refAct_apply (agg : FVec Ideal S50000x128 .f32) (b12 : FVec Ideal S128 .f32) (r : Fin 50000) (j : Fin 128) :
    refAct agg b12 (ix2 r j) = max (agg (ix2 r j) + b12 (ix1 j)) (Ideal.ofBits .f32 0x00000000#32) := by
  unfold refAct
  rw [maximumf_apply, addf_apply, broadcastInDim_oneRow_apply, broadcastInDim_vec_row_apply]
  rfl

/-- The reference's head at an entry is the head of that row: the sum over the 256 columns laid side by side splits
    into the sum over the first layer's 128 and the sum over the second activation's 128. -/
theorem refHead_apply (x1 agg : FVec Ideal S50000x128 .f32) (b12 : FVec Ideal S128 .f32) (W15 : FVec Ideal S256x128 .f32) (b16 : FVec Ideal S128 .f32)
    (W17 : FVec Ideal S128x64 .f32) (b18 : FVec Ideal S64 .f32) (r : Fin 50000) (q : Fin 64) :
    refHead x1 (refAct agg b12) W15 b16 W17 b18 (ix2 r q)
      = headRow (fun j => x1 (ix2 r j)) (fun j => agg (ix2 r j)) (fun j => b12 (ix1 j))
          (fun j k => W15 (ix2 (⟨j.val, by omega⟩ : Fin 256) k)) (fun j k => W15 (ix2 (⟨128 + j.val, by omega⟩ : Fin 256) k))
          (fun k => b16 (ix1 k)) (fun k q => W17 (ix2 k q)) (fun q => b18 (ix1 q)) (Ideal.ofBits .f32 0x00000000#32) q := by
  unfold refHead headRow
  have hD3 : dot_S50000x128_S128x64_S50000x64_1_0_0_1_n_n = DotDims.plain 50000 128 64 := rfl
  have hD1 : dot_S50000x256_S256x128_S50000x128_1_0_0_1_n_n = DotDims.plain 50000 256 128 := rfl
  rw [addf_apply, dotGeneral_plain_apply' _ hD3, bias_apply]
  refine congrArg (fun s : EReal => s + b18 (ix1 q)) (Finset.sum_congr rfl fun k _ => ?_)
  rw [maximumf_apply, addf_apply, dotGeneral_plain_apply' _ hD1, bias_apply, sum_split]
  simp only [concat_left, concat_right, refAct_apply]
  rfl

end RefRead

section Kernel
open Cert.KernelIdeal Cert.KernelIdeal.Gen Cert.KernelIdeal.Hand
open Idealize.ShloMosaic.Pipeline (Dat)

/-- The zero offsets of a whole block, as a function. -/
theorem hz : (![0, 0] : Fin 2 → Nat) = fun _ => 0 := funext fun a => by fin_cases a <;> rfl

/-- The windows' block indices over the grid: the two row-blocked inputs and the output sit at block (t, 0) at grid
    point t, every other window at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

variable (V : (c : Dev nD) → (b : Ref sig .tc) → Buf (Elt Ideal) ((c : Thread nD τ).loc b)) (c : Dev nD)

/-- Row p of block t of the first layer's output is row 2000·t + p of the array. -/
theorem blk0_apply (t : Fin cfg2.N) (p : Fin 2000) (j : Fin 128) (r : Fin 50000) (hr : r.val = 2000 * t.val + p.val) :
    (iblk2 V c 0 t : Vec Ideal S2000x128 .f32) (ix2 p j) = (V c main_v68_0 : FVec Ideal S50000x128 .f32) (ix2 r j) := by
  obtain ⟨e0, e1, -⟩ := idx_facts t
  unfold iblk2
  rw [View.read_apply]
  show V c main_v68_0 _ = V c main_v68_0 _
  congr 1
  funext a; apply Fin.ext
  match a with
  | ⟨0, _⟩ => show win2_0.index t (0 : Fin 2) * 2000 + 1 * p.val = r.val; rw [e0, hr]; omega
  | ⟨1, _⟩ => show win2_0.index t (1 : Fin 2) * 128 + 1 * j.val = j.val; rw [e1]; omega

/-- Row p of block t of the second neighbourhood sum is row 2000·t + p of the array. -/
theorem blk1_apply (t : Fin cfg2.N) (p : Fin 2000) (j : Fin 128) (r : Fin 50000) (hr : r.val = 2000 * t.val + p.val) :
    (iblk2 V c 1 t : Vec Ideal S2000x128 .f32) (ix2 p j) = (V c main_v109 : FVec Ideal S50000x128 .f32) (ix2 r j) := by
  obtain ⟨-, -, e0, e1, -⟩ := idx_facts t
  unfold iblk2
  rw [View.read_apply]
  show V c main_v109 _ = V c main_v109 _
  congr 1
  funext a; apply Fin.ext
  match a with
  | ⟨0, _⟩ => show win2_1.index t (0 : Fin 2) * 2000 + 1 * p.val = r.val; rw [e0, hr]; omega
  | ⟨1, _⟩ => show win2_1.index t (1 : Fin 2) * 128 + 1 * j.val = j.val; rw [e1]; omega

/-- The second layer's bias row is one block, the whole array, at every grid point. -/
theorem blk2_eq (t : Fin cfg2.N) : (iblk2 V c 2 t : Vec Ideal S1x128 .f32) = V c main_v112 := by
  obtain ⟨-, -, -, -, e0, e1, -, -, -, -, -, -, -, -, -, -, -, -⟩ := idx_facts t
  funext y
  unfold iblk2
  rw [View.read_apply]
  show V c main_v112 _ = V c main_v112 _
  congr 1
  funext a; apply Fin.ext
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

/-- So is the upper half of the first weight matrix; -/
theorem blk3_eq (t : Fin cfg2.N) : (iblk2 V c 3 t : Vec Ideal S128x128 .f32) = V c main_v110 := by
  obtain ⟨-, -, -, -, -, -, e0, e1, -, -, -, -, -, -, -, -, -, -⟩ := idx_facts t
  funext y
  unfold iblk2
  rw [View.read_apply]
  show V c main_v110 _ = V c main_v110 _
  congr 1
  funext a; apply Fin.ext
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

/-- its lower half; -/
theorem blk4_eq (t : Fin cfg2.N) : (iblk2 V c 4 t : Vec Ideal S128x128 .f32) = V c main_v111 := by
  obtain ⟨-, -, -, -, -, -, -, -, e0, e1, -, -, -, -, -, -, -, -⟩ := idx_facts t
  funext y
  unfold iblk2
  rw [View.read_apply]
  show V c main_v111 _ = V c main_v111 _
  congr 1
  funext a; apply Fin.ext
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega

/-- the head's first bias row; -/
theorem blk5_eq (t : Fin cfg2.N) : (iblk2 V c 5 t : Vec Ideal S1x128 .f32) = V c main_v113 := by
  obtain ⟨-, -, -, -, -, -, -, -, -, -, e0, e1, -, -, -, -, -, -⟩ := idx_facts t
  funext y
  unfold iblk2
  rw [View.read_apply]
  show V c main_v113 _ = V c main_v113 _
  congr 1
  funext a; apply Fin.ext
  match a with
  | ⟨0, _⟩ => show win2_5.index t (0 : Fin 2) * 1 + 1 * (y 0).val = (y 0).val; rw [e0]; omega
  | ⟨1, _⟩ => show win2_5.index t (1 : Fin 2) * 128 + 1 * (y 1).val = (y 1).val; rw [e1]; omega

/-- the second weight matrix; -/
theorem blk6_eq (t : Fin cfg2.N) : (iblk2 V c 6 t : Vec Ideal S128x64 .f32) = V c main_arg17 := by
  obtain ⟨-, -, -, -, -, -, -, -, -, -, -, -, e0, e1, -, -, -, -⟩ := idx_facts t
  funext y
  unfold iblk2
  rw [View.read_apply]
  show V c main_arg17 _ = V c main_arg17 _
  congr 1
  funext a; apply Fin.ext
  match a with
  | ⟨0, _⟩ => show win2_6.index t (0 : Fin 2) * 128 + 1 * (y 0).val = (y 0).val; rw [e0]; omega
  | ⟨1, _⟩ => show win2_6.index t (1 : Fin 2) * 64 + 1 * (y 1).val = (y 1).val; rw [e1]; omega

/-- and the head's second bias row. -/
theorem blk7_eq (t : Fin cfg2.N) : (iblk2 V c 7 t : Vec Ideal S1x64 .f32) = V c main_v114 := by
  obtain ⟨-, -, -, -, -, -, -, -, -, -, -, -, -, -, e0, e1, -, -⟩ := idx_facts t
  funext y
  unfold iblk2
  rw [View.read_apply]
  show V c main_v114 _ = V c main_v114 _
  congr 1
  funext a; apply Fin.ext
  match a with
  | ⟨0, _⟩ => show win2_7.index t (0 : Fin 2) * 1 + 1 * (y 0).val = (y 0).val; rw [e0]; omega
  | ⟨1, _⟩ => show win2_7.index t (1 : Fin 2) * 64 + 1 * (y 1).val = (y 1).val; rw [e1]; omega

/-- The head on whole arrays, row by row. -/
def headArr (x1 agg : FVec Ideal S50000x128 .f32) (bg : FVec Ideal S1x128 .f32) (Wa Wb : FVec Ideal S128x128 .f32)
    (b1 : FVec Ideal S1x128 .f32) (W2 : FVec Ideal S128x64 .f32) (b2 : FVec Ideal S1x64 .f32) : FVec Ideal S50000x64 .f32 :=
  fun i => headRow (fun j => x1 (ix2 (i 0) j)) (fun j => agg (ix2 (i 0) j)) (fun j => bg (ix2 (0 : Fin 1) j)) (fun j k => Wa (ix2 j k))
    (fun j k => Wb (ix2 j k)) (fun k => b1 (ix2 (0 : Fin 1) k)) (fun k q => W2 (ix2 k q)) (fun q => b2 (ix2 (0 : Fin 1) q))
    (Ideal.ofBits .f32 0x00000000#32) (i 1)

/-- What grid point t writes back is block t of the head of the arrays as the region finds them. -/
theorem flushed_eq (t : Fin cfg2.N) :
    (dat2 V c).flushed 8 t = ((cfg2.win 8).blk t).view.read (Elt Ideal)
      (headArr (V c main_v68_0) (V c main_v109) (V c main_v112) (V c main_v110) (V c main_v111) (V c main_v113) (V c main_arg17) (V c main_v114)) := by
  obtain ⟨e00, e01, e10, e11, e20, e21, e30, e31, e40, e41, e50, e51, e60, e61, e70, e71, e80, e81⟩ := idx_facts t
  show (cfg2.win 8).cut (grid2.coords t) ((dat2 V c).after 8 t) = _
  rw [after2_8]
  unfold out2_8
  rw [View.canon_unit_zero hz]
  simp only [View.ld_unit_zero (S := S2000x128) hz, View.ld_unit_zero (S := S1x128) hz, View.ld_unit_zero (S := S128x128) hz,
    View.ld_unit_zero (S := S128x64) hz, View.ld_unit_zero (S := S1x64) hz]
  rw [blk2_eq, blk3_eq, blk4_eq, blk5_eq, blk6_eq, blk7_eq]
  funext y
  obtain ⟨p, q, rfl⟩ : ∃ (p : Fin 2000) (q : Fin 64), y = ix2 p q := ⟨y 0, y 1, eq_ix2 y⟩
  refine (pay_apply (iblk2 V c 1 t) (V c main_v112) (iblk2 V c 0 t) (V c main_v110) (V c main_v111) (V c main_v113) (V c main_arg17) (V c main_v114) p q).trans ?_
  show _ = headArr (V c main_v68_0) (V c main_v109) (V c main_v112) (V c main_v110) (V c main_v111) (V c main_v113) (V c main_arg17) (V c main_v114) (((cfg2.win 8).blk t).view.emb (ix2 p q))
  unfold headArr
  have hr : ((((cfg2.win 8).blk t).view.emb (ix2 p q)) 0).val = 2000 * t.val + p.val := by
    show win2_8.index t (0 : Fin 2) * 2000 + 1 * p.val = _
    rw [e80]; omega
  have hq : (((cfg2.win 8).blk t).view.emb (ix2 p q)) 1 = q := by
    apply Fin.ext
    show win2_8.index t (1 : Fin 2) * 64 + 1 * q.val = q.val
    rw [e81]; omega
  rw [hq]
  congr 1
  · funext j; exact blk0_apply V c t p j _ hr
  · funext j; exact blk1_apply V c t p j _ hr

/-- An index of the result is in point t's block iff each coordinate is in the block's range on its axis. -/
theorem mem_blk (t : Fin cfg2.N) (i : S50000x64.Idx) :
    i ∈ ((cfg2.win 8).blk t).view.set ↔ ∀ a : Fin 2, win2_8.index t a * S2000x64.size a ≤ (i a).val ∧ (i a).val < win2_8.index t a * S2000x64.size a + S2000x64.size a := by
  show i ∈ ((View.whole main_v115).slice (win2_8.rect t)).set ↔ _
  rw [View.set_slice_whole, Rect.mem_set_unit]
  exact Iff.rfl

/-- Row r of the result lies in the block of point r / 2000. -/
theorem cover (i : S50000x64.Idx) : ∃ t : Fin cfg2.N, (cfg2.win 8).flush t = true ∧ i ∈ ((cfg2.win 8).blk t).view.set := by
  have h0 : (i 0).val < 50000 := (i 0).isLt
  have h1 : (i 1).val < 64 := (i 1).isLt
  have hN : cfg2.N = 25 := N_2
  have ht : (i 0).val / 2000 < cfg2.N := by rw [hN]; omega
  obtain ⟨-, -, -, -, -, -, -, -, -, -, -, -, -, -, -, -, e80, e81⟩ := idx_facts ⟨(i 0).val / 2000, ht⟩
  refine ⟨⟨(i 0).val / 2000, ht⟩, flush2_8 _, ?_⟩
  rw [mem_blk]
  intro a
  match a with
  | ⟨0, _⟩ =>
    show win2_8.index ⟨(i 0).val / 2000, ht⟩ (0 : Fin 2) * 2000 ≤ (i 0).val ∧ (i 0).val < win2_8.index ⟨(i 0).val / 2000, ht⟩ (0 : Fin 2) * 2000 + 2000
    rw [e80]
    show (i 0).val / 2000 * 2000 ≤ (i 0).val ∧ (i 0).val < (i 0).val / 2000 * 2000 + 2000
    omega
  | ⟨1, _⟩ =>
    show win2_8.index ⟨(i 0).val / 2000, ht⟩ (1 : Fin 2) * 64 ≤ (i 1).val ∧ (i 1).val < win2_8.index ⟨(i 0).val / 2000, ht⟩ (1 : Fin 2) * 64 + 64
    rw [e81]
    omega

/-- The result array after the region is the head of the arrays as the region finds them. -/
theorem final (c : Dev nD) : (dat2 V c).arrAt 8 cfg2.N
    = headArr (V c main_v68_0) (V c main_v109) (V c main_v112) (V c main_v110) (V c main_v111) (V c main_v113) (V c main_arg17) (V c main_v114) :=
  (dat2 V c).arrAt_eq_of_cover 8 _ (fun t _ => flushed_eq V c t) cover

end Kernel

section Inputs
open Cert.KernelIdeal Cert.KernelIdeal.Gen Cert.KernelIdeal.Hand

variable (m : (ℓ : Loc nD τ sig) → Buf (Elt Ideal) ℓ) (ρ : Dev nD → PrngReg) (c : Dev nD)

/-- A launch argument that no region and no host operation writes is as launched at the second region's exit. -/
theorem W12_arg (r : Ref sig .tc) (h5 : ∀ w, Pipeline.arrRef spec1 w ≠ r) (h1 : ∀ w, Pipeline.arrRef spec0 w ≠ r)
    (h2 : r ∉ kScore_outs) (h3 : r ∉ kWeight_outs) (h4 : r ∉ kAgg0_outs) (h0 : r ∉ kPre_outs) :
    W12 (F := Ideal) m ρ c (Proc.devRef .tc r) = m ((c : Thread nD τ).loc r) := by
  rw [W12_of_ne m ρ c r h5, W11_keep m ρ c r h1 h2 h3 h4, W3_keep m ρ c r h0]

/-! The head's weights and biases as the third region finds them: the first weight matrix's upper and lower halves, and
    each bias as a one-row matrix, of the launch arguments. -/

theorem W15_v110 : W15 (F := Ideal) m ρ c (Proc.devRef .tc main_v110)
    = extractStridedSlice S128x128 ![0, 0] (m ((c : Thread nD τ).loc main_arg15)) slices_S256x128_S128x128_0_0 := by
  rw [W15_eq]
  simp only [kAgg1]
  after_results_simp
  rw [W12_arg m ρ c main_arg15 (by decide) (by decide) (by decide) (by decide) (by decide) (by decide)]

theorem W15_v111 : W15 (F := Ideal) m ρ c (Proc.devRef .tc main_v111)
    = extractStridedSlice S128x128 ![128, 0] (m ((c : Thread nD τ).loc main_arg15)) slices_S256x128_S128x128_128_0 := by
  rw [W15_eq]
  simp only [kAgg1]
  after_results_simp
  rw [W12_arg m ρ c main_arg15 (by decide) (by decide) (by decide) (by decide) (by decide) (by decide)]

theorem W15_v112 : W15 (F := Ideal) m ρ c (Proc.devRef .tc main_v112)
    = shapeCast S1x128 (m ((c : Thread nD τ).loc main_arg12)) shapeCasts_S128_S1x128 := by
  rw [W15_eq]
  simp only [kAgg1]
  after_results_simp
  rw [W12_arg m ρ c main_arg12 (by decide) (by decide) (by decide) (by decide) (by decide) (by decide)]
  rfl

theorem W15_v113 : W15 (F := Ideal) m ρ c (Proc.devRef .tc main_v113)
    = shapeCast S1x128 (m ((c : Thread nD τ).loc main_arg16)) shapeCasts_S128_S1x128 := by
  rw [W15_eq]
  simp only [kAgg1]
  after_results_simp
  rw [W12_arg m ρ c main_arg16 (by decide) (by decide) (by decide) (by decide) (by decide) (by decide)]
  rfl

theorem W15_v114 : W15 (F := Ideal) m ρ c (Proc.devRef .tc main_v114)
    = shapeCast S1x64 (m ((c : Thread nD τ).loc main_arg18)) shapeCasts_S64_S1x64 := by
  rw [W15_eq]
  simp only [kAgg1]
  after_results_simp
  rw [W12_arg m ρ c main_arg18 (by decide) (by decide) (by decide) (by decide) (by decide) (by decide)]
  rfl

/-- The head's second weight matrix is as launched at the third region's entry. -/
theorem W15_arg17 : W15 (F := Ideal) m ρ c (Proc.devRef .tc main_arg17) = m ((c : Thread nD τ).loc main_arg17) := by
  rw [W15_keep m ρ c main_arg17 (by decide) (by decide), W11_keep m ρ c main_arg17 (by decide) (by decide) (by decide) (by decide),
    W3_keep m ρ c main_arg17 (by decide)]

/-- The head of the arrays as the third region finds them, at an entry, over the launch arguments. -/
theorem headArr_W15 (r : Fin 50000) (q : Fin 64) :
    headArr (W15 (F := Ideal) m ρ c (Proc.devRef .tc main_v68_0)) (W15 (F := Ideal) m ρ c (Proc.devRef .tc main_v109))
        (W15 (F := Ideal) m ρ c (Proc.devRef .tc main_v112)) (W15 (F := Ideal) m ρ c (Proc.devRef .tc main_v110))
        (W15 (F := Ideal) m ρ c (Proc.devRef .tc main_v111)) (W15 (F := Ideal) m ρ c (Proc.devRef .tc main_v113))
        (W15 (F := Ideal) m ρ c (Proc.devRef .tc main_arg17)) (W15 (F := Ideal) m ρ c (Proc.devRef .tc main_v114)) (ix2 r q)
      = headRow (fun j => (W15 (F := Ideal) m ρ c (Proc.devRef .tc main_v68_0) : FVec Ideal S50000x128 .f32) (ix2 r j))
          (fun j => (W15 (F := Ideal) m ρ c (Proc.devRef .tc main_v109) : FVec Ideal S50000x128 .f32) (ix2 r j))
          (fun j => (m ((c : Thread nD τ).loc main_arg12) : FVec Ideal S128 .f32) (ix1 j))
          (fun j k => (m ((c : Thread nD τ).loc main_arg15) : FVec Ideal S256x128 .f32) (ix2 (⟨j.val, by omega⟩ : Fin 256) k))
          (fun j k => (m ((c : Thread nD τ).loc main_arg15) : FVec Ideal S256x128 .f32) (ix2 (⟨128 + j.val, by omega⟩ : Fin 256) k))
          (fun k => (m ((c : Thread nD τ).loc main_arg16) : FVec Ideal S128 .f32) (ix1 k))
          (fun k q => (m ((c : Thread nD τ).loc main_arg17) : FVec Ideal S128x64 .f32) (ix2 k q))
          (fun q => (m ((c : Thread nD τ).loc main_arg18) : FVec Ideal S64 .f32) (ix1 q))
          (Ideal.ofBits .f32 0x00000000#32) q := by
  rw [W15_v110, W15_v111, W15_v112, W15_v113, W15_v114, W15_arg17]
  unfold headArr
  refine headRow_congr _ _ (fun j => rfl) (fun j => rfl) (fun j => ?_) (fun j k => ?_) (fun j k => ?_) (fun k => ?_) (fun k q => rfl) (fun q => ?_)
  · exact shapeCast_a_1a_apply _ _ 0 j
  · exact slice2_axis0_apply 0 _ _ j k ⟨j.val, by omega⟩ (Nat.zero_add _).symm
  · exact slice2_axis0_apply 128 _ _ j k ⟨128 + j.val, by omega⟩ rfl
  · exact shapeCast_a_1a_apply _ _ 0 k
  · exact shapeCast_a_1a_apply _ _ 0 q

end Inputs

theorem out_eq (m : (ℓ : Loc Cert.KernelIdeal.nD Cert.KernelIdeal.τ Cert.KernelIdeal.sig) → Buf (Elt Ideal) ℓ) (ρ : Dev Cert.KernelIdeal.nD → PrngReg) (c : Dev Cert.KernelIdeal.nD) (Vr : RV)
    (hx1 : Vr (Proc.devRef .tc Cert.ReferenceIdeal.main_v98 : DevRef Cert.ReferenceIdeal.τ Cert.ReferenceIdeal.sig) = Cert.KernelIdeal.Gen.W15 (F := Ideal) m ρ c (Proc.devRef .tc Cert.KernelIdeal.main_v68_0 : DevRef Cert.KernelIdeal.τ Cert.KernelIdeal.sig))
    (hagg1 : Vr (Proc.devRef .tc Cert.ReferenceIdeal.main_v144 : DevRef Cert.ReferenceIdeal.τ Cert.ReferenceIdeal.sig) = Cert.KernelIdeal.Gen.W15 (F := Ideal) m ρ c (Proc.devRef .tc Cert.KernelIdeal.main_v109 : DevRef Cert.KernelIdeal.τ Cert.KernelIdeal.sig))
    (h12 : Vr (Proc.devRef .tc Cert.ReferenceIdeal.main_arg12 : DevRef Cert.ReferenceIdeal.τ Cert.ReferenceIdeal.sig) = m ((c.tc : Thread Cert.KernelIdeal.nD Cert.KernelIdeal.τ).loc Cert.KernelIdeal.main_arg12))
    (h15 : Vr (Proc.devRef .tc Cert.ReferenceIdeal.main_arg15 : DevRef Cert.ReferenceIdeal.τ Cert.ReferenceIdeal.sig) = m ((c.tc : Thread Cert.KernelIdeal.nD Cert.KernelIdeal.τ).loc Cert.KernelIdeal.main_arg15))
    (h16 : Vr (Proc.devRef .tc Cert.ReferenceIdeal.main_arg16 : DevRef Cert.ReferenceIdeal.τ Cert.ReferenceIdeal.sig) = m ((c.tc : Thread Cert.KernelIdeal.nD Cert.KernelIdeal.τ).loc Cert.KernelIdeal.main_arg16))
    (h17 : Vr (Proc.devRef .tc Cert.ReferenceIdeal.main_arg17 : DevRef Cert.ReferenceIdeal.τ Cert.ReferenceIdeal.sig) = m ((c.tc : Thread Cert.KernelIdeal.nD Cert.KernelIdeal.τ).loc Cert.KernelIdeal.main_arg17))
    (h18 : Vr (Proc.devRef .tc Cert.ReferenceIdeal.main_arg18 : DevRef Cert.ReferenceIdeal.τ Cert.ReferenceIdeal.sig) = m ((c.tc : Thread Cert.KernelIdeal.nD Cert.KernelIdeal.τ).loc Cert.KernelIdeal.main_arg18)) :
    Cert.KernelIdeal.Gen.W16 (F := Ideal) m ρ c (Proc.devRef .tc Cert.KernelIdeal.main_v115 : DevRef Cert.KernelIdeal.τ Cert.KernelIdeal.sig) = after Cert.ReferenceIdeal.Hand.rHead (after Cert.ReferenceIdeal.Hand.rAct2 Vr) (Proc.devRef .tc Cert.ReferenceIdeal.main_v158 : DevRef Cert.ReferenceIdeal.τ Cert.ReferenceIdeal.sig) := by
  refine (Cert.KernelIdeal.Gen.W16_arr (F := Ideal) m ρ c 8).trans ?_
  refine (final (Cert.KernelIdeal.Gen.V15 (F := Ideal) m ρ) c).trans ?_
  rw [after_rHead, after_rAct2,
    Cert.ReferenceIdeal.Hand.keep_rAct2 Vr Cert.ReferenceIdeal.main_v98 (by decide),
    Cert.ReferenceIdeal.Hand.keep_rAct2 Vr Cert.ReferenceIdeal.main_arg15 (by decide),
    Cert.ReferenceIdeal.Hand.keep_rAct2 Vr Cert.ReferenceIdeal.main_arg16 (by decide),
    Cert.ReferenceIdeal.Hand.keep_rAct2 Vr Cert.ReferenceIdeal.main_arg17 (by decide),
    Cert.ReferenceIdeal.Hand.keep_rAct2 Vr Cert.ReferenceIdeal.main_arg18 (by decide)]
  funext i
  obtain ⟨r, q, rfl⟩ : ∃ (r : Fin 50000) (q : Fin 64), i = ix2 r q := ⟨i 0, i 1, eq_ix2 i⟩
  refine (headArr_W15 m ρ c r q).trans ?_
  refine Eq.trans ?_ (refHead_apply _ _ _ _ _ _ _ r q).symm
  rw [hx1, hagg1, h12, h15, h16, h17, h18]

end Cert.Bridge.Head
end
-- ==== Proof.LibGatherRows.lean ====
/-
  Rows of a table taken at a column of start indices (the table indexed by a one-axis array of row numbers, the
  start indices as an [N, 1] array): the result's entry (n, k) is the table's entry at row  idx[n, 0]  (that word read
  as a signed integer and clamped into the table's rows) and column k. Operand axis 0 is collapsed and indexed, operand
  axis 1 is an offset axis taken whole, and the index vector lies on axis 1 of the start indices.
  When the word reads as a row number of the table the clamp does nothing, and the entry is the table's at that row.
-/
import Idealize.ShloMosaic.PureOps
import Idealize.ShloMosaic.Lib.ValueIdx

noncomputable section

open Idealize.ShloMosaic Idealize.ShloMosaic.ValueIdx

namespace Cert.GatherRows

variable {α : Type}

/-- The dimension numbers of the row gather for a [T, C] table and an [N, 1] column of start indices: axis 0 collapsed
    and indexed, axis 1 an offset axis taken whole; the result is [N, C]. -/
abbrev rowsDims (T C N : ℕ)
    (wf : GatherDims.WF ⟨2, ![T, C]⟩ ⟨2, ![N, 1]⟩ ⟨2, ![N, C]⟩ [1] [0] [] [0] [] 1 ![1, C]) :
    GatherDims ⟨2, ![T, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- The row gather read at (n, k), at dimension numbers given by their literals: the table at row  idx[n, 0]
    (signed, clamped into [0, T − 1]) and column k. -/
theorem gather_rows_lit {T C N w : ℕ} (hT : 0 < T)
    (wf : GatherDims.WF ⟨2, ![T, C]⟩ ⟨2, ![N, 1]⟩ ⟨2, ![N, C]⟩ [1] [0] [] [0] [] 1 ![1, C])
    (x : (⟨2, ![T, C]⟩ : Shape).Idx → α) (idx : IVec ⟨2, ![N, 1]⟩ w) (n : Fin N) (k : Fin C) :
    Host.gather (rowsDims T C N wf) x idx (ix2 n k)
      = x (ix2 ⟨min (idx (ix2 n 0)).toInt.toNat (T - 1), by omega⟩ k) := by
  unfold Host.gather
  congr 1
  funext a
  refine Fin.ext ?_
  match a with
  | ⟨0, _⟩ =>
    show (rowsDims T C N wf).start (ix2 n k) idx 0 + (rowsDims T C N wf).batchCoord (ix2 n k) 0
      + (rowsDims T C N wf).offCoord (ix2 n k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims T C N wf).startIndexMap from List.mem_singleton.mpr rfl)]
    have hsi : (rowsDims T C N wf).siIdx (ix2 n k) ⟨List.idxOf (0 : Fin 2) (rowsDims T C N wf).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    rfl
  | ⟨1, _⟩ =>
    have h10 : (1 : Fin 2) ∉ ([0] : List (Fin 2)) := by decide
    show (rowsDims T C N wf).start (ix2 n k) idx 1 + (rowsDims T C N wf).batchCoord (ix2 n k) 1
      + (rowsDims T C N wf).offCoord (ix2 n k) 1 = k.val
    rw [GatherDims.batchCoord_eq_zero _ _ _ List.not_mem_nil]
    unfold GatherDims.start
    rw [dif_neg (show (1 : Fin 2) ∉ (rowsDims T C N wf).startIndexMap from h10)]
    unfold GatherDims.offCoord
    rw [dif_pos (show (1 : Fin 2) ∈ (rowsDims T C N wf).sKept from
      (GatherDims.mem_sKept _ _).mpr ⟨h10, List.not_mem_nil⟩)]
    simp only [Nat.zero_add, Nat.add_zero]
    rfl

/-- The row gather read at (n, k), for any record with these dimension numbers (each hypothesis is `rfl` for a record
    defined by the seven literals): the table at row  idx[n, 0]  (signed, clamped into [0, T − 1]) and column k. -/
theorem gather_rows_apply {T C N w : ℕ} (hT : 0 < T)
    (d : GatherDims (⟨2, ![T, C]⟩ : Shape) (⟨2, ![N, 1]⟩ : Shape) (⟨2, ![N, C]⟩ : Shape))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![T, C]⟩ : Shape).Idx → α) (idx : IVec ⟨2, ![N, 1]⟩ w) (n : Fin N) (k : Fin C) :
    Host.gather d x idx (ix2 n k) = x (ix2 ⟨min (idx (ix2 n 0)).toInt.toNat (T - 1), by omega⟩ k) := by
  obtain ⟨od, cs, ob, sb, sm, iv, ss, wf⟩ := d
  dsimp only at h1 h2 h3 h4 h5 h6 h7
  subst h1 h2 h3 h4 h5 h6 h7
  exact gather_rows_lit hT wf x idx n k

/-- The same when the start index, read signed, is a row number of the table: the clamp does nothing. -/
theorem gather_rows_apply_of_lt {T C N w : ℕ}
    (d : GatherDims (⟨2, ![T, C]⟩ : Shape) (⟨2, ![N, 1]⟩ : Shape) (⟨2, ![N, C]⟩ : Shape))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![T, C]⟩ : Shape).Idx → α) (idx : IVec ⟨2, ![N, 1]⟩ w) (n : Fin N) (k : Fin C)
    (h0 : 0 ≤ (idx (ix2 n 0)).toInt) (hlt : (idx (ix2 n 0)).toInt < (T : ℤ)) :
    Host.gather d x idx (ix2 n k) = x (ix2 ⟨(idx (ix2 n 0)).toInt.toNat, by omega⟩ k) := by
  have hT : 0 < T := by omega
  rw [gather_rows_apply hT d h1 h2 h3 h4 h5 h6 h7 x idx n k]
  congr 2
  exact Fin.ext (Nat.min_eq_left (by omega))

end Cert.GatherRows

end
-- ==== Proof.LibIndexWrap.lean ====
/-
  Signed index words wrapped the NumPy way, and masks that are all ones.

  An index word `s` into an axis of extent `n` is wrapped as `if s < 0 then s + n else s` (signed compare, wrapping
  add). If `-n ≤ s < n` as a signed integer, the wrapped word lies in `[0, n)`, so a range test
  `0 ≤ s' ∧ s' ≤ n - 1` of it is the bit 1 (`wrap_inRange`, `rangeTest_wrap`). A reduce by `and` from the initial
  bit 1 over bits that are all 1 is 1 at every result index (`reduce_andi_of_all`, the converse of the library's
  `Host.reduce_andi_eq_one`), and a select under a mask that is 1 everywhere is its first branch (`select_of_ones`).
-/
import Idealize.ShloMosaic.Lib.ReduceAll
import Idealize.ShloMosaic.Lib.StableHlo.Predicate

namespace Idealize.ShloMosaic.IndexWrap

open Idealize.ShloMosaic

/-- NumPy's wrap of a signed index word into an axis of extent `n`: a negative index counts from the end. -/
def wrapWord (n s : BitVec 32) : BitVec 32 := Scalar.select (IntOp.cmpi .slt s 0#32) (IntOp.addi s n) s

/-- A signed index in `[-n, n)` wraps into `[0, n)`. -/
theorem wrap_inRange (n : Nat) (hn : n < 2 ^ 30) (s : BitVec 32) (h1 : -(n : Int) ≤ s.toInt) (h2 : s.toInt < n) :
    0 ≤ (wrapWord (BitVec.ofNat 32 n) s).toInt ∧ (wrapWord (BitVec.ofNat 32 n) s).toInt < n := by
  have hz : (0#32 : BitVec 32).toInt = 0 := by decide
  have hnI : (BitVec.ofNat 32 n).toInt = n := StableHlo.Predicate.toInt_ofNat_small n (by omega)
  unfold wrapWord Scalar.select
  by_cases hs : IntOp.cmpi .slt s 0#32 = 1
  · rw [if_pos hs]
    have hneg : s.toInt < 0 := by have := IntOp.cmpi_slt.1 hs; rwa [hz] at this
    have hsum : (IntOp.addi s (BitVec.ofNat 32 n)).toInt = s.toInt + n := by
      rw [IntOp.addi, BitVec.toInt_add, hnI]
      exact Int.bmod_eq_of_le (by omega) (by omega)
    rw [hsum]; omega
  · rw [if_neg hs]
    have hnn : ¬ s.toInt < 0 := fun h => hs (IntOp.cmpi_slt.2 (by rw [hz]; exact h))
    omega

/-- The range test `0 ≤ s' ∧ s' ≤ hi` (signed) of a wrapped index, `hi` the word of `n - 1`, is the bit 1. -/
theorem rangeTest_wrap (n : Nat) (hn0 : 0 < n) (hn : n < 2 ^ 30) (hi : BitVec 32) (hhi : hi.toInt = (n : Int) - 1)
    (s : BitVec 32) (h1 : -(n : Int) ≤ s.toInt) (h2 : s.toInt < n) :
    IntOp.andi (IntOp.cmpi .sge (wrapWord (BitVec.ofNat 32 n) s) 0#32) (IntOp.cmpi .sle (wrapWord (BitVec.ofNat 32 n) s) hi) = 1#1 := by
  have hz : (0#32 : BitVec 32).toInt = 0 := by decide
  obtain ⟨h0, hlt⟩ := wrap_inRange n hn s h1 h2
  exact IntOp.andi_eq_one.2 ⟨IntOp.cmpi_sge.2 (by rw [hz]; exact h0), IntOp.cmpi_sle.2 (by rw [hhi]; omega)⟩

/-- A left fold by `and` from 1 over bits that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_ones f l _ (IntOp.andi_eq_one.2 ⟨h, hl a (List.mem_cons_self ..)⟩) (fun n hn => hl n (List.mem_cons_of_mem _ hn))

/-- A reduce by `and` from the initial bit 1 over an operand that is 1 everywhere is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_ones x _ _ (hinit _) (fun i _ => hx i)

/-- Under a mask that is 1 everywhere a select is its first branch. -/
theorem select_of_ones {α : Type} {s : Shape} (c : IVec s 1) (a b : s.Idx → α) (hc : ∀ i, c i = 1#1) : select c a b = a :=
  funext fun i => by
    show Scalar.select (c i) (a i) (b i) = a i
    rw [hc i]; exact if_pos rfl

end Idealize.ShloMosaic.IndexWrap
-- ==== Proof.Score.lean ====
/-
  The per-edge score. Both programs select, for every edge e, the row of the logits at the edge's first end and a row
  at its second end, multiply the two rows entry by entry and sum the 64 products. The reference selects both rows from
  the logits and multiplies the second by the parsing matrix P before the product; the kernel selects the second row
  from t = logits · P. A row selection reads its table at a row number that depends on the edge alone (the index word
  wrapped, then clamped into the table), so it commutes with the product by P, and both scores are
    Σ_k logits[row e, k] · (Σ_d logits[col e, d] · P[d, k])
  up to commutativity of the product. The kernel's selections also carry an in-bounds mask choosing between the
  selected row and a row of ⊥; since every index word is a node number, the wrapped index passes the range test, the
  mask is 1 everywhere and the choice is the selected row.
-/
import proofs.«415847_j84524956385823_2_alg».proof.Proof.Names
import proofs.«415847_j84524956385823_2_alg».proof.Proof.LibGatherRows
import proofs.«415847_j84524956385823_2_alg».proof.Proof.LibIndexWrap
import Idealize.ShloMosaic.PureOps.Ideal.Laws
import Idealize.ShloMosaic.Lib.IdealHost
import Idealize.ShloMosaic.Lib.StackMember
import Idealize.ShloMosaic.Lib.ValueIdx
import Idealize.ShloMosaic.Lib.StableHlo.Run

noncomputable section

namespace Cert.Bridge.Edge
open Idealize.ShloMosaic Idealize.ShloMosaic.TcCoe Idealize.SL.Sem Idealize.ShloMosaic.StableHlo
open Idealize.ShloMosaic.ValueIdx

/-! ## The column of start indices of a row selection -/

section Rows
variable {N : ℕ}

/-- The start indices of a row selection from a table of 50000 rows: each index word wrapped (a negative word counts
    from the table's end), laid out as an [N, 1] column. -/
def startCol (h0 : (⟨0, ![]⟩ : Shape).BroadcastsInDim ⟨1, ![N]⟩ ![])
    (h1 : (⟨1, ![N]⟩ : Shape).BroadcastsInDim ⟨2, ![N, 1]⟩ ![0]) (i : IVec ⟨1, ![N]⟩ 32) : IVec ⟨2, ![N, 1]⟩ 32 :=
  broadcastInDim ⟨2, ![N, 1]⟩ ![0] h1
    (select (cmpi .slt i (broadcastInDim ⟨1, ![N]⟩ ![] h0 (constantI ⟨0, ![]⟩ 32 0#32)))
      (addi i (broadcastInDim ⟨1, ![N]⟩ ![] h0 (constantI ⟨0, ![]⟩ 32 50000#32))) i)

/-- Every entry of the column is the wrap of one of the index words. -/
theorem startCol_eq_wrap (h0 : (⟨0, ![]⟩ : Shape).BroadcastsInDim ⟨1, ![N]⟩ ![])
    (h1 : (⟨1, ![N]⟩ : Shape).BroadcastsInDim ⟨2, ![N, 1]⟩ ![0]) (i : IVec ⟨1, ![N]⟩ 32) (j : (⟨2, ![N, 1]⟩ : Shape).Idx) :
    ∃ j', startCol h0 h1 i j = IndexWrap.wrapWord 50000#32 (i j') :=
  ⟨_, rfl⟩

/-- The range test 0 ≤ c ≤ 49999 of the column of wrapped node numbers is 1 at every entry. -/
theorem rangeTest_startCol (h0 : (⟨0, ![]⟩ : Shape).BroadcastsInDim ⟨1, ![N]⟩ ![])
    (h1 : (⟨1, ![N]⟩ : Shape).BroadcastsInDim ⟨2, ![N, 1]⟩ ![0]) (i : IVec ⟨1, ![N]⟩ 32)
    (hi : ∀ j, 0 ≤ (i j).toInt ∧ (i j).toInt < 50000) (z top : IVec ⟨2, ![N, 1]⟩ 32)
    (hz : ∀ j, z j = 0#32) (htop : ∀ j, top j = 49999#32) (j : (⟨2, ![N, 1]⟩ : Shape).Idx) :
    andi (cmpi .sge (startCol h0 h1 i) z) (cmpi .sle (startCol h0 h1 i) top) j = 1#1 := by
  obtain ⟨j', hj⟩ := startCol_eq_wrap h0 h1 i j
  show IntOp.andi (IntOp.cmpi .sge (startCol h0 h1 i j) (z j)) (IntOp.cmpi .sle (startCol h0 h1 i j) (top j)) = 1#1
  rw [hj, hz, htop]
  exact IndexWrap.rangeTest_wrap 50000 (by norm_num) (by norm_num) 49999#32 (by decide) (i j')
    (by have := (hi j').1; omega) (hi j').2

/-- A broadcast of an array of ones is one at every index. -/
theorem bcast_ones {s t : Shape} (dims : Fin s.rank → Fin t.rank) (h : s.BroadcastsInDim t dims) (x : s.Idx → BitVec 1)
    (hx : ∀ k, x k = 1#1) (j : t.Idx) : broadcastInDim t dims h x j = 1#1 := hx _

/-- The table row a start-index column names for result row n: the word read signed and clamped into the table. -/
def rowAt (c : IVec ⟨2, ![N, 1]⟩ 32) (n : Fin N) : Fin 50000 :=
  ⟨min (c (ix2 n 0)).toInt.toNat (50000 - 1), by omega⟩

/-- The sum over the columns of an [N, C] array, read at row n: the initial value plus the sum of the row's entries. -/
theorem rowSum_apply {C : ℕ} (x : FVec Ideal ⟨2, ![N, C]⟩ .f32) (init : (⟨0, ![]⟩ : Shape).Idx → Ideal .f32)
    (h' : (⟨2, ![N, C]⟩ : Shape).ReducesTo [1] ⟨1, ![N]⟩) (hu : 0 < (⟨0, ![]⟩ : Shape).numel) (n : Fin N) :
    Host.reduceAdd x init h' hu (ix1 n) = init (Shape.Idx.first hu) + ∑ k : Fin C, x (ix2 n k) := by
  have h : (⟨2, ![N, C]⟩ : Shape).Reduces [1] ⟨1, ![N]⟩ := ⟨h'.1, Nat.one_pos, h'.2⟩
  show Ideal.hostReduceAdd h' x _ (ix1 n) = _
  rw [Ideal.hostReduceAdd_single h' h]
  refine congrArg (_ + ·) (Finset.sum_congr rfl fun k _ => ?_)
  refine congrArg x (funext fun a => Fin.ext ?_)
  match a with
  | ⟨0, _⟩ => rfl
  | ⟨1, _⟩ => rfl

end Rows

/-! ## The reference's score -/

section Ref
open Cert.ReferenceIdeal Cert.ReferenceIdeal.Gen

/-- The edges' first ends: row 0 of the edge list, as a vector. -/
def rowsR (a : IVec S2x800000 32) : IVec S800000 32 :=
  shapeCast S800000 (extractStridedSlice S1x800000 ![0, 0] a slices_S2x800000_S1x800000_0_0) shapeCasts_S1x800000_S800000
/-- The edges' second ends: row 1 of the edge list, as a vector. -/
def colsR (a : IVec S2x800000 32) : IVec S800000 32 :=
  shapeCast S800000 (extractStridedSlice S1x800000 ![1, 0] a slices_S2x800000_S1x800000_1_0) shapeCasts_S1x800000_S800000

/-- The reference's score: rows of L at the second ends times P, times rows of L at the first ends, summed over the columns. -/
def scoreR (L : FVec Ideal S50000x64 .f32) (P : FVec Ideal S64x64 .f32) (row col : IVec S800000 32) : FVec Ideal S800000 .f32 :=
  Host.reduceAdd
    (mulf
      (Host.dotGeneral dot_S800000x64_S64x64_S800000x64_1_0_0_1_n_n none
        (Host.gather gather_S50000x64_S800000x1_S800000x64_1_0_n_n_0_1_164 L (startCol bcast_S_S800000 bcast_S800000_S800000x1_0 col)) P)
      (Host.gather gather_S50000x64_S800000x1_S800000x64_1_0_n_n_0_1_164 L (startCol bcast_S_S800000 bcast_S800000_S800000x1_0 row)))
    (constant (F := Ideal) S_ .f32 0x00000000#32) reducesTo_S800000x64_S800000_d1 h_S_

/-- The reference's score stage computes scoreR of the logits, the parsing matrix and the edge list's two rows. -/
theorem rScore_val (Vr : RV) :
    after Hand.rScore Vr (Proc.devRef .tc main_v37 : DevRef τ sig)
      = scoreR (Vr (Proc.devRef .tc main_v13 : DevRef τ sig)) (Vr (Proc.devRef .tc main_v16 : DevRef τ sig))
          (rowsR (Vr (Proc.devRef .tc main_arg1 : DevRef τ sig))) (colsR (Vr (Proc.devRef .tc main_arg1 : DevRef τ sig))) := by
  simp only [Hand.rScore]
  after_results_simp
  rfl

/-- The two index rows the reference reads again later are the same two rows. -/
theorem rIdx0_rows (Vr : RV) :
    after Hand.rIdx0 Vr (Proc.devRef .tc main_v51 : DevRef τ sig) = rowsR (Vr (Proc.devRef .tc main_arg1 : DevRef τ sig)) := by
  simp only [Hand.rIdx0]
  after_results_simp
  rfl
theorem rIdx0_cols (Vr : RV) :
    after Hand.rIdx0 Vr (Proc.devRef .tc main_v53 : DevRef τ sig) = colsR (Vr (Proc.devRef .tc main_arg1 : DevRef τ sig)) := by
  simp only [Hand.rIdx0]
  after_results_simp
  rfl

/-- Every entry of either row of an edge list of node numbers is a node number. -/
theorem rowsR_inRange (a : IVec S2x800000 32) (ha : InRange a) (j : S800000.Idx) :
    0 ≤ (rowsR a j).toInt ∧ (rowsR a j).toInt < 50000 := ha _
theorem colsR_inRange (a : IVec S2x800000 32) (ha : InRange a) (j : S800000.Idx) :
    0 ≤ (colsR a j).toInt ∧ (colsR a j).toInt < 50000 := ha _

/-- The reference's row selection at (n, k): the table at the row the start-index column names. -/
theorem gatherR_apply (x : FVec Ideal S50000x64 .f32) (c : IVec S800000x1 32) (n : Fin 800000) (k : Fin 64) :
    Host.gather gather_S50000x64_S800000x1_S800000x64_1_0_n_n_0_1_164 x c (ix2 n k) = x (ix2 (rowAt c n) k) :=
  GatherRows.gather_rows_apply (by norm_num) _ rfl rfl rfl rfl rfl rfl rfl x c n k

/-- The product by the parsing matrix at (n, k). -/
theorem dotR_apply (A : FVec Ideal S800000x64 .f32) (B : FVec Ideal S64x64 .f32) (n : Fin 800000) (k : Fin 64) :
    Host.dotGeneral dot_S800000x64_S64x64_S800000x64_1_0_0_1_n_n none A B (ix2 n k) = ∑ d : Fin 64, A (ix2 n d) * B (ix2 d k) :=
  StackMember.dotGeneral_plain_apply (m := 800000) (n := 64) (k := 64) none A B n k

end Ref

/-! ## The kernel program's score -/

section Ker
open Cert.KernelIdeal Cert.KernelIdeal.Gen

/-- The in-bounds mask of a row selection: 1 on the rows whose start index lies in [0, 49999], spread over the 64 columns. -/
def maskK (c : IVec S800000x1 32) : IVec S800000x64 1 :=
  broadcastInDim S800000x64 ![0] bcast_S800000_S800000x64_0
    (Host.reduce IntOp.andi
      (andi (cmpi .sge c (broadcastInDim S800000x1 ![] bcast_S_S800000x1 (constantI S_ 32 0#32)))
        (cmpi .sle c (broadcastInDim S800000x1 ![0, 1] bcast_S1x1_S800000x1_0_1
          (broadcastInDim S1x1 ![1] bcast_S1_S1x1_1 (constantI S1 32 49999#32)))))
      (constantI S_ 1 1#1) reducesTo_S800000x1_S800000_d1 h_S_)

/-- The kernel program's row selection: the selected rows where the mask is 1, rows of ⊥ elsewhere. -/
def takeK (t : FVec Ideal S50000x64 .f32) (i : IVec S800000 32) : FVec Ideal S800000x64 .f32 :=
  select (maskK (startCol bcast_S_S800000 bcast_S800000_S800000x1_0 i))
    (Host.gather gather_S50000x64_S800000x1_S800000x64_1_0_n_n_0_1_164 t (startCol bcast_S_S800000 bcast_S800000_S800000x1_0 i))
    (broadcastInDim S800000x64 ![] bcast_S_S800000x64 (constant (F := Ideal) S_ .f32 0x7FC00000#32))

/-- The kernel program's score: rows of L at the first ends times rows of T at the second ends, summed over the columns. -/
def scoreK (L T : FVec Ideal S50000x64 .f32) (row col : IVec S800000 32) : FVec Ideal S800000 .f32 :=
  Host.reduceAdd (mulf (takeK L row) (takeK T col)) (constant (F := Ideal) S_ .f32 0x00000000#32)
    reducesTo_S800000x64_S800000_d1 h_S_

/-! Contents carried to a buffer's own type and back: the transport is the identity, for a pair and for each of the
    stage's boundary buffers. -/

theorem ofBuf_toBuf {T : BufTy} (x : TRef sig T) (v : T.Contents (Elt Ideal)) : x.ofBuf (x.toBuf v) = v := by
  obtain ⟨r, hty, h1, h2⟩ := x
  subst hty
  rfl

theorem ofBuf_v1 (p1 : main_v1.ty = ⟨S800000, .i32⟩) (p2 : main_v1.space ≠ .host) (p3 : main_v1.isScoped = false)
    (v : main_v1.ty.Contents (Elt Ideal)) : (TRef.of main_v1 p1 p2 p3 : TRef sig ⟨S800000, .i32⟩).ofBuf v = v := rfl
theorem ofBuf_v3 (p1 : main_v3.ty = ⟨S800000, .i32⟩) (p2 : main_v3.space ≠ .host) (p3 : main_v3.isScoped = false)
    (v : main_v3.ty.Contents (Elt Ideal)) : (TRef.of main_v3 p1 p2 p3 : TRef sig ⟨S800000, .i32⟩).ofBuf v = v := rfl
theorem ofBuf_v10_0 (p1 : main_v10_0.ty = ⟨S50000x64, .f32⟩) (p2 : main_v10_0.space ≠ .host) (p3 : main_v10_0.isScoped = false)
    (v : main_v10_0.ty.Contents (Elt Ideal)) : (TRef.of main_v10_0 p1 p2 p3 : TRef sig ⟨S50000x64, .f32⟩).ofBuf v = v := rfl
theorem ofBuf_v10_1 (p1 : main_v10_1.ty = ⟨S50000x64, .f32⟩) (p2 : main_v10_1.space ≠ .host) (p3 : main_v10_1.isScoped = false)
    (v : main_v10_1.ty.Contents (Elt Ideal)) : (TRef.of main_v10_1 p1 p2 p3 : TRef sig ⟨S50000x64, .f32⟩).ofBuf v = v := rfl
theorem toBuf_v11 (p1 : main_v11.ty = ⟨S800000x64, .f32⟩) (p2 : main_v11.space ≠ .host) (p3 : main_v11.isScoped = false)
    (v : (⟨S800000x64, .f32⟩ : BufTy).Contents (Elt Ideal)) : (TRef.of main_v11 p1 p2 p3 : TRef sig ⟨S800000x64, .f32⟩).toBuf v = v := rfl
theorem toBuf_v12 (p1 : main_v12.ty = ⟨S800000x64, .f32⟩) (p2 : main_v12.space ≠ .host) (p3 : main_v12.isScoped = false)
    (v : (⟨S800000x64, .f32⟩ : BufTy).Contents (Elt Ideal)) : (TRef.of main_v12 p1 p2 p3 : TRef sig ⟨S800000x64, .f32⟩).toBuf v = v := rfl

/-- The kernel program's score stage computes scoreK of the two tables and the two index vectors. -/
theorem kScore_val (Vk : KV) :
    after Hand.kScore Vk (Proc.devRef .tc main_v14 : DevRef τ sig)
      = scoreK (Vk (Proc.devRef .tc main_v10_0 : DevRef τ sig)) (Vk (Proc.devRef .tc main_v10_1 : DevRef τ sig))
          (Vk (Proc.devRef .tc main_v1 : DevRef τ sig)) (Vk (Proc.devRef .tc main_v3 : DevRef τ sig)) := by
  simp only [Hand.kScore]
  after_results_simp
  simp only [ofBuf_toBuf, ofBuf_v1, ofBuf_v3, ofBuf_v10_0, ofBuf_v10_1, toBuf_v11, toBuf_v12]
  rfl

/-- With every index word a node number the mask is 1 everywhere, and the selection is the selected rows. -/
theorem takeK_eq_gather (t : FVec Ideal S50000x64 .f32) (i : IVec S800000 32)
    (hi : ∀ j, 0 ≤ (i j).toInt ∧ (i j).toInt < 50000) :
    takeK t i = Host.gather gather_S50000x64_S800000x1_S800000x64_1_0_n_n_0_1_164 t
      (startCol bcast_S_S800000 bcast_S800000_S800000x1_0 i) := by
  unfold takeK maskK
  refine IndexWrap.select_of_ones _ _ _ (fun j => ?_)
  refine bcast_ones _ _ _ (fun k => ?_) j
  refine IndexWrap.reduce_andi_of_all _ _ _ _ (fun _ => rfl) (fun j' => ?_) k
  exact rangeTest_startCol _ _ i hi _ _ (fun _ => rfl) (fun _ => rfl) j'

/-- The kernel program's row selection at (n, k): the table at the row the start-index column names. -/
theorem gatherK_apply (x : FVec Ideal S50000x64 .f32) (c : IVec S800000x1 32) (n : Fin 800000) (k : Fin 64) :
    Host.gather gather_S50000x64_S800000x1_S800000x64_1_0_n_n_0_1_164 x c (ix2 n k) = x (ix2 (rowAt c n) k) :=
  GatherRows.gather_rows_apply (by norm_num) _ rfl rfl rfl rfl rfl rfl rfl x c n k

end Ker

/-! ## The two scores are equal -/

/-- With T = L · P entry by entry and every index word a node number, the two scores agree at every edge. -/
theorem score_core (L T : FVec Ideal Cert.KernelIdeal.S50000x64 .f32) (P : FVec Ideal Cert.ReferenceIdeal.S64x64 .f32)
    (row col : IVec Cert.KernelIdeal.S800000 32)
    (hr : ∀ j, 0 ≤ (row j).toInt ∧ (row j).toInt < 50000) (hc : ∀ j, 0 ≤ (col j).toInt ∧ (col j).toInt < 50000)
    (ht : ∀ (r : Fin 50000) (k : Fin 64), T (ix2 r k) = ∑ d : Fin 64, L (ix2 r d) * P (ix2 d k)) :
    scoreR L P row col = scoreK L T row col := by
  unfold scoreR scoreK
  rw [takeK_eq_gather L row hr, takeK_eq_gather T col hc]
  funext e
  obtain ⟨n, rfl⟩ : ∃ n : Fin 800000, e = ix1 n := ⟨e 0, eq_ix1 e⟩
  refine (rowSum_apply _ _ _ _ n).trans ((rowSum_apply _ _ _ _ n).trans ?_).symm
  refine congrArg (_ + ·) (Finset.sum_congr rfl fun k _ => ?_)
  rw [mulf_apply, mulf_apply, gatherK_apply, gatherK_apply, gatherR_apply, dotR_apply, ht]
  refine (mul_comm _ _).trans (congrArg (· * _) (Finset.sum_congr rfl fun d _ => ?_))
  rw [gatherR_apply]

theorem score_eq (Vk : KV) (Vr : RV)
    (hl : Vr (Proc.devRef .tc Cert.ReferenceIdeal.main_v13 : DevRef Cert.ReferenceIdeal.τ Cert.ReferenceIdeal.sig) = Vk (Proc.devRef .tc Cert.KernelIdeal.main_v10_0 : DevRef Cert.KernelIdeal.τ Cert.KernelIdeal.sig))
    (ht : ∀ (r : Fin 50000) (k : Fin 64), at2 (n0 := 50000) (n1 := 64) (Vk (Proc.devRef .tc Cert.KernelIdeal.main_v10_1 : DevRef Cert.KernelIdeal.τ Cert.KernelIdeal.sig)) r k
      = ∑ d : Fin 64, at2 (n0 := 50000) (n1 := 64) (Vk (Proc.devRef .tc Cert.KernelIdeal.main_v10_0 : DevRef Cert.KernelIdeal.τ Cert.KernelIdeal.sig)) r d
          * at2 (n0 := 64) (n1 := 64) (Vr (Proc.devRef .tc Cert.ReferenceIdeal.main_v16 : DevRef Cert.ReferenceIdeal.τ Cert.ReferenceIdeal.sig)) d k)
    (hrow : Vk (Proc.devRef .tc Cert.KernelIdeal.main_v1 : DevRef Cert.KernelIdeal.τ Cert.KernelIdeal.sig) = after Cert.ReferenceIdeal.Hand.rIdx0 Vr (Proc.devRef .tc Cert.ReferenceIdeal.main_v51 : DevRef Cert.ReferenceIdeal.τ Cert.ReferenceIdeal.sig))
    (hcol : Vk (Proc.devRef .tc Cert.KernelIdeal.main_v3 : DevRef Cert.KernelIdeal.τ Cert.KernelIdeal.sig) = after Cert.ReferenceIdeal.Hand.rIdx0 Vr (Proc.devRef .tc Cert.ReferenceIdeal.main_v53 : DevRef Cert.ReferenceIdeal.τ Cert.ReferenceIdeal.sig))
    (hrange : InRange (Vr (Proc.devRef .tc Cert.ReferenceIdeal.main_arg1 : DevRef Cert.ReferenceIdeal.τ Cert.ReferenceIdeal.sig))) :
    after Cert.ReferenceIdeal.Hand.rScore Vr (Proc.devRef .tc Cert.ReferenceIdeal.main_v37 : DevRef Cert.ReferenceIdeal.τ Cert.ReferenceIdeal.sig) = after Cert.KernelIdeal.Hand.kScore Vk (Proc.devRef .tc Cert.KernelIdeal.main_v14 : DevRef Cert.KernelIdeal.τ Cert.KernelIdeal.sig) := by
  rw [rScore_val, kScore_val, hl, hrow, hcol, rIdx0_rows, rIdx0_cols]
  exact score_core _ _ _ _ _ (rowsR_inRange _ hrange) (colsR_inRange _ hrange) ht

end Cert.Bridge.Edge
end
-- ==== Proof.Assemble.lean ====
/-
  The two programs' results are equal. Stage by stage, from argument arrays that agree and an edge list whose entries
  are node numbers: the perceptron's logits are the reference's; the kernel's t is logits times the parsing matrix, so
  the per-edge scores agree; the shared standardisation gives equal edge weights; the first linear map and the shared
  normalised neighbourhood sum give equal first aggregates; bias and rectifier, then the second linear map, then the
  shared sum again give equal second aggregates; and the head on the two activations is the reference's head on their
  concatenation. Between the stages a buffer that nothing writes keeps its contents, on either side.
-/
import proofs.«415847_j84524956385823_2_alg».proof.Proof.Sims
import proofs.«415847_j84524956385823_2_alg».proof.Proof.RefKeep
import proofs.«415847_j84524956385823_2_alg».proof.Proof.Region0
import proofs.«415847_j84524956385823_2_alg».proof.Proof.Region0Lin
import proofs.«415847_j84524956385823_2_alg».proof.Proof.Region1
import proofs.«415847_j84524956385823_2_alg».proof.Proof.Region2
import proofs.«415847_j84524956385823_2_alg».proof.Proof.Score

noncomputable section

namespace Cert.Bridge

open Idealize.ShloMosaic Idealize.ShloMosaic.TcCoe Idealize.SL.Sem Idealize.ShloMosaic.StableHlo

/-- The kernel program's contents after its score and weight operations, from the first region's exit. -/
abbrev Kw (m : (ℓ : Loc Cert.KernelIdeal.nD Cert.KernelIdeal.τ Cert.KernelIdeal.sig) → Buf (Elt Ideal) ℓ) (ρ : Dev Cert.KernelIdeal.nD → PrngReg) (c : Dev Cert.KernelIdeal.nD) : KV :=
  after Cert.KernelIdeal.Hand.kWeight (after Cert.KernelIdeal.Hand.kScore (Cert.KernelIdeal.Gen.W4 (F := Ideal) m ρ c))

theorem result_eq (m : (ℓ : Loc Cert.KernelIdeal.nD Cert.KernelIdeal.τ Cert.KernelIdeal.sig) → Buf (Elt Ideal) ℓ) (ρ : Dev Cert.KernelIdeal.nD → PrngReg) (c : Dev Cert.KernelIdeal.nD) (Vr0 : RV)
    (a0 : Vr0 (Proc.devRef .tc Cert.ReferenceIdeal.main_arg0 : DevRef Cert.ReferenceIdeal.τ Cert.ReferenceIdeal.sig) = m ((c.tc : Thread Cert.KernelIdeal.nD Cert.KernelIdeal.τ).loc Cert.KernelIdeal.main_arg0))
    (a1 : Vr0 (Proc.devRef .tc Cert.ReferenceIdeal.main_arg1 : DevRef Cert.ReferenceIdeal.τ Cert.ReferenceIdeal.sig) = m ((c.tc : Thread Cert.KernelIdeal.nD Cert.KernelIdeal.τ).loc Cert.KernelIdeal.main_arg1))
    (a2 : Vr0 (Proc.devRef .tc Cert.ReferenceIdeal.main_arg2 : DevRef Cert.ReferenceIdeal.τ Cert.ReferenceIdeal.sig) = m ((c.tc : Thread Cert.KernelIdeal.nD Cert.KernelIdeal.τ).loc Cert.KernelIdeal.main_arg2))
    (a3 : Vr0 (Proc.devRef .tc Cert.ReferenceIdeal.main_arg3 : DevRef Cert.ReferenceIdeal.τ Cert.ReferenceIdeal.sig) = m ((c.tc : Thread Cert.KernelIdeal.nD Cert.KernelIdeal.τ).loc Cert.KernelIdeal.main_arg3))
    (a4 : Vr0 (Proc.devRef .tc Cert.ReferenceIdeal.main_arg4 : DevRef Cert.ReferenceIdeal.τ Cert.ReferenceIdeal.sig) = m ((c.tc : Thread Cert.KernelIdeal.nD Cert.KernelIdeal.τ).loc Cert.KernelIdeal.main_arg4))
    (a5 : Vr0 (Proc.devRef .tc Cert.ReferenceIdeal.main_arg5 : DevRef Cert.ReferenceIdeal.τ Cert.ReferenceIdeal.sig) = m ((c.tc : Thread Cert.KernelIdeal.nD Cert.KernelIdeal.τ).loc Cert.KernelIdeal.main_arg5))
    (a6 : Vr0 (Proc.devRef .tc Cert.ReferenceIdeal.main_arg6 : DevRef Cert.ReferenceIdeal.τ Cert.ReferenceIdeal.sig) = m ((c.tc : Thread Cert.KernelIdeal.nD Cert.KernelIdeal.τ).loc Cert.KernelIdeal.main_arg6))
    (a7 : Vr0 (Proc.devRef .tc Cert.ReferenceIdeal.main_arg7 : DevRef Cert.ReferenceIdeal.τ Cert.ReferenceIdeal.sig) = m ((c.tc : Thread Cert.KernelIdeal.nD Cert.KernelIdeal.τ).loc Cert.KernelIdeal.main_arg7))
    (a8 : Vr0 (Proc.devRef .tc Cert.ReferenceIdeal.main_arg8 : DevRef Cert.ReferenceIdeal.τ Cert.ReferenceIdeal.sig) = m ((c.tc : Thread Cert.KernelIdeal.nD Cert.KernelIdeal.τ).loc Cert.KernelIdeal.main_arg8))
    (a9 : Vr0 (Proc.devRef .tc Cert.ReferenceIdeal.main_arg9 : DevRef Cert.ReferenceIdeal.τ Cert.ReferenceIdeal.sig) = m ((c.tc : Thread Cert.KernelIdeal.nD Cert.KernelIdeal.τ).loc Cert.KernelIdeal.main_arg9))
    (a10 : Vr0 (Proc.devRef .tc Cert.ReferenceIdeal.main_arg10 : DevRef Cert.ReferenceIdeal.τ Cert.ReferenceIdeal.sig) = m ((c.tc : Thread Cert.KernelIdeal.nD Cert.KernelIdeal.τ).loc Cert.KernelIdeal.main_arg10))
    (a11 : Vr0 (Proc.devRef .tc Cert.ReferenceIdeal.main_arg11 : DevRef Cert.ReferenceIdeal.τ Cert.ReferenceIdeal.sig) = m ((c.tc : Thread Cert.KernelIdeal.nD Cert.KernelIdeal.τ).loc Cert.KernelIdeal.main_arg11))
    (a12 : Vr0 (Proc.devRef .tc Cert.ReferenceIdeal.main_arg12 : DevRef Cert.ReferenceIdeal.τ Cert.ReferenceIdeal.sig) = m ((c.tc : Thread Cert.KernelIdeal.nD Cert.KernelIdeal.τ).loc Cert.KernelIdeal.main_arg12))
    (a13 : Vr0 (Proc.devRef .tc Cert.ReferenceIdeal.main_arg13 : DevRef Cert.ReferenceIdeal.τ Cert.ReferenceIdeal.sig) = m ((c.tc : Thread Cert.KernelIdeal.nD Cert.KernelIdeal.τ).loc Cert.KernelIdeal.main_arg13))
    (a14 : Vr0 (Proc.devRef .tc Cert.ReferenceIdeal.main_arg14 : DevRef Cert.ReferenceIdeal.τ Cert.ReferenceIdeal.sig) = m ((c.tc : Thread Cert.KernelIdeal.nD Cert.KernelIdeal.τ).loc Cert.KernelIdeal.main_arg14))
    (a15 : Vr0 (Proc.devRef .tc Cert.ReferenceIdeal.main_arg15 : DevRef Cert.ReferenceIdeal.τ Cert.ReferenceIdeal.sig) = m ((c.tc : Thread Cert.KernelIdeal.nD Cert.KernelIdeal.τ).loc Cert.KernelIdeal.main_arg15))
    (a16 : Vr0 (Proc.devRef .tc Cert.ReferenceIdeal.main_arg16 : DevRef Cert.ReferenceIdeal.τ Cert.ReferenceIdeal.sig) = m ((c.tc : Thread Cert.KernelIdeal.nD Cert.KernelIdeal.τ).loc Cert.KernelIdeal.main_arg16))
    (a17 : Vr0 (Proc.devRef .tc Cert.ReferenceIdeal.main_arg17 : DevRef Cert.ReferenceIdeal.τ Cert.ReferenceIdeal.sig) = m ((c.tc : Thread Cert.KernelIdeal.nD Cert.KernelIdeal.τ).loc Cert.KernelIdeal.main_arg17))
    (a18 : Vr0 (Proc.devRef .tc Cert.ReferenceIdeal.main_arg18 : DevRef Cert.ReferenceIdeal.τ Cert.ReferenceIdeal.sig) = m ((c.tc : Thread Cert.KernelIdeal.nD Cert.KernelIdeal.τ).loc Cert.KernelIdeal.main_arg18))
    (hrange : InRange (m ((c.tc : Thread Cert.KernelIdeal.nD Cert.KernelIdeal.τ).loc Cert.KernelIdeal.main_arg1))) :
    Cert.KernelIdeal.Gen.W16 (F := Ideal) m ρ c (Proc.devRef .tc Cert.KernelIdeal.main_v115 : DevRef Cert.KernelIdeal.τ Cert.KernelIdeal.sig) = Cert.ReferenceIdeal.Hand.R13 Vr0 (Proc.devRef .tc Cert.ReferenceIdeal.main_v158 : DevRef Cert.ReferenceIdeal.τ Cert.ReferenceIdeal.sig) := by
  -- the opening operations: the two index rows and the parsing matrix
  have hW3row : Cert.KernelIdeal.Gen.W3 (F := Ideal) m ρ c (Proc.devRef .tc Cert.KernelIdeal.main_v1 : DevRef Cert.KernelIdeal.τ Cert.KernelIdeal.sig) = after Cert.KernelIdeal.Hand.kPre (Cert.KernelIdeal.Gen.W0 (F := Ideal) m ρ c) (Proc.devRef .tc Cert.KernelIdeal.main_v1 : DevRef Cert.KernelIdeal.τ Cert.KernelIdeal.sig) := by rw [Cert.KernelIdeal.Hand.W3_eq]
  have hW3col : Cert.KernelIdeal.Gen.W3 (F := Ideal) m ρ c (Proc.devRef .tc Cert.KernelIdeal.main_v3 : DevRef Cert.KernelIdeal.τ Cert.KernelIdeal.sig) = after Cert.KernelIdeal.Hand.kPre (Cert.KernelIdeal.Gen.W0 (F := Ideal) m ρ c) (Proc.devRef .tc Cert.KernelIdeal.main_v3 : DevRef Cert.KernelIdeal.τ Cert.KernelIdeal.sig) := by rw [Cert.KernelIdeal.Hand.W3_eq]
  have hW3par : Cert.KernelIdeal.Gen.W3 (F := Ideal) m ρ c (Proc.devRef .tc Cert.KernelIdeal.main_v6 : DevRef Cert.KernelIdeal.τ Cert.KernelIdeal.sig) = after Cert.KernelIdeal.Hand.kPre (Cert.KernelIdeal.Gen.W0 (F := Ideal) m ρ c) (Proc.devRef .tc Cert.KernelIdeal.main_v6 : DevRef Cert.KernelIdeal.τ Cert.KernelIdeal.sig) := by rw [Cert.KernelIdeal.Hand.W3_eq]
  have hpar : Cert.ReferenceIdeal.Hand.R2 Vr0 (Proc.devRef .tc Cert.ReferenceIdeal.main_v16 : DevRef Cert.ReferenceIdeal.τ Cert.ReferenceIdeal.sig) = Cert.KernelIdeal.Gen.W3 (F := Ideal) m ρ c (Proc.devRef .tc Cert.KernelIdeal.main_v6 : DevRef Cert.KernelIdeal.τ Cert.KernelIdeal.sig) :=
    (sim_parsing (Cert.KernelIdeal.Gen.W0 (F := Ideal) m ρ c) (Cert.ReferenceIdeal.Hand.R1 Vr0) ((Cert.ReferenceIdeal.Hand.R1_keep Vr0 _ (by decide)).trans a8)).trans hW3par.symm
  -- logits and t
  have hlog : Cert.ReferenceIdeal.Hand.R2 Vr0 (Proc.devRef .tc Cert.ReferenceIdeal.main_v13 : DevRef Cert.ReferenceIdeal.τ Cert.ReferenceIdeal.sig) = Cert.KernelIdeal.Gen.W4 (F := Ideal) m ρ c (Proc.devRef .tc Cert.KernelIdeal.main_v10_0 : DevRef Cert.KernelIdeal.τ Cert.KernelIdeal.sig) :=
    (Cert.ReferenceIdeal.Hand.keep_rParsing _ _ (by decide)).trans (Mlp.logits_eq m ρ c Vr0 a0 a2 a3 a4 a5 a6 a7).symm
  have ht : ∀ (r : Fin 50000) (k : Fin 64), at2 (n0 := 50000) (n1 := 64) (Cert.KernelIdeal.Gen.W4 (F := Ideal) m ρ c (Proc.devRef .tc Cert.KernelIdeal.main_v10_1 : DevRef Cert.KernelIdeal.τ Cert.KernelIdeal.sig)) r k
      = ∑ d : Fin 64, at2 (n0 := 50000) (n1 := 64) (Cert.KernelIdeal.Gen.W4 (F := Ideal) m ρ c (Proc.devRef .tc Cert.KernelIdeal.main_v10_0 : DevRef Cert.KernelIdeal.τ Cert.KernelIdeal.sig)) r d
          * at2 (n0 := 64) (n1 := 64) (Cert.ReferenceIdeal.Hand.R2 Vr0 (Proc.devRef .tc Cert.ReferenceIdeal.main_v16 : DevRef Cert.ReferenceIdeal.τ Cert.ReferenceIdeal.sig)) d k := by
    intro r k
    rw [hpar]
    exact Mlp.t_spec m ρ c r k
  -- the index rows as the first region's exit holds them
  have hrow4 : Cert.KernelIdeal.Gen.W4 (F := Ideal) m ρ c (Proc.devRef .tc Cert.KernelIdeal.main_v1 : DevRef Cert.KernelIdeal.τ Cert.KernelIdeal.sig) = after Cert.ReferenceIdeal.Hand.rIdx0 (Cert.ReferenceIdeal.Hand.R2 Vr0) (Proc.devRef .tc Cert.ReferenceIdeal.main_v51 : DevRef Cert.ReferenceIdeal.τ Cert.ReferenceIdeal.sig) :=
    ((Cert.KernelIdeal.Gen.W4_of_ne m ρ c Cert.KernelIdeal.main_v1 (by decide)).trans hW3row).trans
      (sim_row (Cert.KernelIdeal.Gen.W0 (F := Ideal) m ρ c) (Cert.ReferenceIdeal.Hand.R2 Vr0) ((Cert.ReferenceIdeal.Hand.R2_keep Vr0 _ (by decide)).trans a1)).symm
  have hcol4 : Cert.KernelIdeal.Gen.W4 (F := Ideal) m ρ c (Proc.devRef .tc Cert.KernelIdeal.main_v3 : DevRef Cert.KernelIdeal.τ Cert.KernelIdeal.sig) = after Cert.ReferenceIdeal.Hand.rIdx0 (Cert.ReferenceIdeal.Hand.R2 Vr0) (Proc.devRef .tc Cert.ReferenceIdeal.main_v53 : DevRef Cert.ReferenceIdeal.τ Cert.ReferenceIdeal.sig) :=
    ((Cert.KernelIdeal.Gen.W4_of_ne m ρ c Cert.KernelIdeal.main_v3 (by decide)).trans hW3col).trans
      (sim_col (Cert.KernelIdeal.Gen.W0 (F := Ideal) m ρ c) (Cert.ReferenceIdeal.Hand.R2 Vr0) ((Cert.ReferenceIdeal.Hand.R2_keep Vr0 _ (by decide)).trans a1)).symm
  have hrange2 : InRange (Cert.ReferenceIdeal.Hand.R2 Vr0 (Proc.devRef .tc Cert.ReferenceIdeal.main_arg1 : DevRef Cert.ReferenceIdeal.τ Cert.ReferenceIdeal.sig)) := by
    rw [((Cert.ReferenceIdeal.Hand.R2_keep Vr0 _ (by decide)).trans a1)]; exact hrange
  -- the per-edge score and the edge weights
  have hscore : Cert.ReferenceIdeal.Hand.R3 Vr0 (Proc.devRef .tc Cert.ReferenceIdeal.main_v37 : DevRef Cert.ReferenceIdeal.τ Cert.ReferenceIdeal.sig) = after Cert.KernelIdeal.Hand.kScore (Cert.KernelIdeal.Gen.W4 (F := Ideal) m ρ c) (Proc.devRef .tc Cert.KernelIdeal.main_v14 : DevRef Cert.KernelIdeal.τ Cert.KernelIdeal.sig) :=
    Edge.score_eq (Cert.KernelIdeal.Gen.W4 (F := Ideal) m ρ c) (Cert.ReferenceIdeal.Hand.R2 Vr0) hlog ht hrow4 hcol4 hrange2
  have hweight : Cert.ReferenceIdeal.Hand.R4 Vr0 (Proc.devRef .tc Cert.ReferenceIdeal.main_v48 : DevRef Cert.ReferenceIdeal.τ Cert.ReferenceIdeal.sig) = Kw m ρ c (Proc.devRef .tc Cert.KernelIdeal.main_v25 : DevRef Cert.KernelIdeal.τ Cert.KernelIdeal.sig) :=
    sim_weight (after Cert.KernelIdeal.Hand.kScore (Cert.KernelIdeal.Gen.W4 (F := Ideal) m ρ c)) (Cert.ReferenceIdeal.Hand.R3 Vr0) hscore
  -- the first aggregate
  have hxw0 : Cert.ReferenceIdeal.Hand.R6 Vr0 (Proc.devRef .tc Cert.ReferenceIdeal.main_v49 : DevRef Cert.ReferenceIdeal.τ Cert.ReferenceIdeal.sig) = Kw m ρ c (Proc.devRef .tc Cert.KernelIdeal.main_v10_2 : DevRef Cert.KernelIdeal.τ Cert.KernelIdeal.sig) :=
    ((Cert.ReferenceIdeal.Hand.keep_rIdx0 _ _ (by decide)).trans (xw0_eq m ρ c (Cert.ReferenceIdeal.Hand.R4 Vr0) ((Cert.ReferenceIdeal.Hand.R4_keep Vr0 _ (by decide)).trans a0) ((Cert.ReferenceIdeal.Hand.R4_keep Vr0 _ (by decide)).trans a9)).symm).trans
      ((Cert.KernelIdeal.Hand.keep_kWeight _ _ (by decide)).trans (Cert.KernelIdeal.Hand.keep_kScore _ _ (by decide))).symm
  have hKwrow : Kw m ρ c (Proc.devRef .tc Cert.KernelIdeal.main_v1 : DevRef Cert.KernelIdeal.τ Cert.KernelIdeal.sig) = Cert.KernelIdeal.Gen.W3 (F := Ideal) m ρ c (Proc.devRef .tc Cert.KernelIdeal.main_v1 : DevRef Cert.KernelIdeal.τ Cert.KernelIdeal.sig) :=
    ((Cert.KernelIdeal.Hand.keep_kWeight _ _ (by decide)).trans (Cert.KernelIdeal.Hand.keep_kScore _ _ (by decide))).trans (Cert.KernelIdeal.Gen.W4_of_ne m ρ c Cert.KernelIdeal.main_v1 (by decide))
  have hKwcol : Kw m ρ c (Proc.devRef .tc Cert.KernelIdeal.main_v3 : DevRef Cert.KernelIdeal.τ Cert.KernelIdeal.sig) = Cert.KernelIdeal.Gen.W3 (F := Ideal) m ρ c (Proc.devRef .tc Cert.KernelIdeal.main_v3 : DevRef Cert.KernelIdeal.τ Cert.KernelIdeal.sig) :=
    ((Cert.KernelIdeal.Hand.keep_kWeight _ _ (by decide)).trans (Cert.KernelIdeal.Hand.keep_kScore _ _ (by decide))).trans (Cert.KernelIdeal.Gen.W4_of_ne m ρ c Cert.KernelIdeal.main_v3 (by decide))
  have hr6 : Cert.ReferenceIdeal.Hand.R6 Vr0 (Proc.devRef .tc Cert.ReferenceIdeal.main_v51 : DevRef Cert.ReferenceIdeal.τ Cert.ReferenceIdeal.sig) = Kw m ρ c (Proc.devRef .tc Cert.KernelIdeal.main_v1 : DevRef Cert.KernelIdeal.τ Cert.KernelIdeal.sig) :=
    ((sim_row (Cert.KernelIdeal.Gen.W0 (F := Ideal) m ρ c) (Cert.ReferenceIdeal.Hand.R5 Vr0) ((Cert.ReferenceIdeal.Hand.R5_keep Vr0 _ (by decide)).trans a1)).trans hW3row.symm).trans hKwrow.symm
  have hc6 : Cert.ReferenceIdeal.Hand.R6 Vr0 (Proc.devRef .tc Cert.ReferenceIdeal.main_v53 : DevRef Cert.ReferenceIdeal.τ Cert.ReferenceIdeal.sig) = Kw m ρ c (Proc.devRef .tc Cert.KernelIdeal.main_v3 : DevRef Cert.KernelIdeal.τ Cert.KernelIdeal.sig) :=
    ((sim_col (Cert.KernelIdeal.Gen.W0 (F := Ideal) m ρ c) (Cert.ReferenceIdeal.Hand.R5 Vr0) ((Cert.ReferenceIdeal.Hand.R5_keep Vr0 _ (by decide)).trans a1)).trans hW3col.symm).trans hKwcol.symm
  have hw6 : Cert.ReferenceIdeal.Hand.R6 Vr0 (Proc.devRef .tc Cert.ReferenceIdeal.main_v48 : DevRef Cert.ReferenceIdeal.τ Cert.ReferenceIdeal.sig) = Kw m ρ c (Proc.devRef .tc Cert.KernelIdeal.main_v25 : DevRef Cert.KernelIdeal.τ Cert.KernelIdeal.sig) :=
    ((Cert.ReferenceIdeal.Hand.keep_rIdx0 _ _ (by decide)).trans (Cert.ReferenceIdeal.Hand.keep_rLin0 _ _ (by decide))).trans hweight
  have hagg0 : Cert.ReferenceIdeal.Hand.R7 Vr0 (Proc.devRef .tc Cert.ReferenceIdeal.main_v94 : DevRef Cert.ReferenceIdeal.τ Cert.ReferenceIdeal.sig) = Cert.KernelIdeal.Gen.W11 (F := Ideal) m ρ c (Proc.devRef .tc Cert.KernelIdeal.main_v66 : DevRef Cert.KernelIdeal.τ Cert.KernelIdeal.sig) := by
    rw [Cert.KernelIdeal.Hand.W11_eq]
    exact sim_agg0 (Kw m ρ c) (Cert.ReferenceIdeal.Hand.R6 Vr0) hxw0 hr6 hc6 hw6
  -- the second region: bias and rectifier, then the second linear map
  have hx1 : Cert.ReferenceIdeal.Hand.R8 Vr0 (Proc.devRef .tc Cert.ReferenceIdeal.main_v98 : DevRef Cert.ReferenceIdeal.τ Cert.ReferenceIdeal.sig) = Cert.KernelIdeal.Gen.W12 (F := Ideal) m ρ c (Proc.devRef .tc Cert.KernelIdeal.main_v68_0 : DevRef Cert.KernelIdeal.τ Cert.KernelIdeal.sig) :=
    (x1_eq m ρ c (Cert.ReferenceIdeal.Hand.R7 Vr0) hagg0 ((Cert.ReferenceIdeal.Hand.R7_keep Vr0 _ (by decide)).trans a10)).symm
  have hxw1 : Cert.ReferenceIdeal.Hand.R9 Vr0 (Proc.devRef .tc Cert.ReferenceIdeal.main_v99 : DevRef Cert.ReferenceIdeal.τ Cert.ReferenceIdeal.sig) = Cert.KernelIdeal.Gen.W12 (F := Ideal) m ρ c (Proc.devRef .tc Cert.KernelIdeal.main_v68_1 : DevRef Cert.KernelIdeal.τ Cert.KernelIdeal.sig) :=
    (xw1_eq m ρ c (Cert.ReferenceIdeal.Hand.R8 Vr0) hx1 ((Cert.ReferenceIdeal.Hand.R8_keep Vr0 _ (by decide)).trans a11)).symm
  -- the second aggregate
  have hW12row : Cert.KernelIdeal.Gen.W12 (F := Ideal) m ρ c (Proc.devRef .tc Cert.KernelIdeal.main_v1 : DevRef Cert.KernelIdeal.τ Cert.KernelIdeal.sig) = Cert.KernelIdeal.Gen.W3 (F := Ideal) m ρ c (Proc.devRef .tc Cert.KernelIdeal.main_v1 : DevRef Cert.KernelIdeal.τ Cert.KernelIdeal.sig) :=
    (Cert.KernelIdeal.Gen.W12_of_ne m ρ c Cert.KernelIdeal.main_v1 (by decide)).trans (Cert.KernelIdeal.Hand.W11_keep m ρ c Cert.KernelIdeal.main_v1 (by decide) (by decide) (by decide) (by decide))
  have hW12col : Cert.KernelIdeal.Gen.W12 (F := Ideal) m ρ c (Proc.devRef .tc Cert.KernelIdeal.main_v3 : DevRef Cert.KernelIdeal.τ Cert.KernelIdeal.sig) = Cert.KernelIdeal.Gen.W3 (F := Ideal) m ρ c (Proc.devRef .tc Cert.KernelIdeal.main_v3 : DevRef Cert.KernelIdeal.τ Cert.KernelIdeal.sig) :=
    (Cert.KernelIdeal.Gen.W12_of_ne m ρ c Cert.KernelIdeal.main_v3 (by decide)).trans (Cert.KernelIdeal.Hand.W11_keep m ρ c Cert.KernelIdeal.main_v3 (by decide) (by decide) (by decide) (by decide))
  have hW12w : Cert.KernelIdeal.Gen.W12 (F := Ideal) m ρ c (Proc.devRef .tc Cert.KernelIdeal.main_v25 : DevRef Cert.KernelIdeal.τ Cert.KernelIdeal.sig) = Kw m ρ c (Proc.devRef .tc Cert.KernelIdeal.main_v25 : DevRef Cert.KernelIdeal.τ Cert.KernelIdeal.sig) := by
    rw [Cert.KernelIdeal.Gen.W12_of_ne m ρ c Cert.KernelIdeal.main_v25 (by decide), Cert.KernelIdeal.Hand.W11_eq]
    exact Cert.KernelIdeal.Hand.keep_kAgg0 _ _ (by decide)
  have hx10 : Cert.ReferenceIdeal.Hand.R10 Vr0 (Proc.devRef .tc Cert.ReferenceIdeal.main_v99 : DevRef Cert.ReferenceIdeal.τ Cert.ReferenceIdeal.sig) = Cert.KernelIdeal.Gen.W12 (F := Ideal) m ρ c (Proc.devRef .tc Cert.KernelIdeal.main_v68_1 : DevRef Cert.KernelIdeal.τ Cert.KernelIdeal.sig) :=
    (Cert.ReferenceIdeal.Hand.keep_rIdx1 _ _ (by decide)).trans hxw1
  have hr10 : Cert.ReferenceIdeal.Hand.R10 Vr0 (Proc.devRef .tc Cert.ReferenceIdeal.main_v101 : DevRef Cert.ReferenceIdeal.τ Cert.ReferenceIdeal.sig) = Cert.KernelIdeal.Gen.W12 (F := Ideal) m ρ c (Proc.devRef .tc Cert.KernelIdeal.main_v1 : DevRef Cert.KernelIdeal.τ Cert.KernelIdeal.sig) :=
    ((sim_row1 (Cert.KernelIdeal.Gen.W0 (F := Ideal) m ρ c) (Cert.ReferenceIdeal.Hand.R9 Vr0) ((Cert.ReferenceIdeal.Hand.R9_keep Vr0 _ (by decide)).trans a1)).trans hW3row.symm).trans hW12row.symm
  have hc10 : Cert.ReferenceIdeal.Hand.R10 Vr0 (Proc.devRef .tc Cert.ReferenceIdeal.main_v103 : DevRef Cert.ReferenceIdeal.τ Cert.ReferenceIdeal.sig) = Cert.KernelIdeal.Gen.W12 (F := Ideal) m ρ c (Proc.devRef .tc Cert.KernelIdeal.main_v3 : DevRef Cert.KernelIdeal.τ Cert.KernelIdeal.sig) :=
    ((sim_col1 (Cert.KernelIdeal.Gen.W0 (F := Ideal) m ρ c) (Cert.ReferenceIdeal.Hand.R9 Vr0) ((Cert.ReferenceIdeal.Hand.R9_keep Vr0 _ (by decide)).trans a1)).trans hW3col.symm).trans hW12col.symm
  have hw10 : Cert.ReferenceIdeal.Hand.R10 Vr0 (Proc.devRef .tc Cert.ReferenceIdeal.main_v48 : DevRef Cert.ReferenceIdeal.τ Cert.ReferenceIdeal.sig) = Cert.KernelIdeal.Gen.W12 (F := Ideal) m ρ c (Proc.devRef .tc Cert.KernelIdeal.main_v25 : DevRef Cert.KernelIdeal.τ Cert.KernelIdeal.sig) :=
    ((((((Cert.ReferenceIdeal.Hand.keep_rIdx1 _ _ (by decide)).trans (Cert.ReferenceIdeal.Hand.keep_rLin1 _ _ (by decide))).trans (Cert.ReferenceIdeal.Hand.keep_rAct1 _ _ (by decide))).trans
      (Cert.ReferenceIdeal.Hand.keep_rAgg0 _ _ (by decide))).trans (Cert.ReferenceIdeal.Hand.keep_rIdx0 _ _ (by decide))).trans (Cert.ReferenceIdeal.Hand.keep_rLin0 _ _ (by decide))).trans
      (hweight.trans hW12w.symm)
  have hagg1 : Cert.ReferenceIdeal.Hand.R11 Vr0 (Proc.devRef .tc Cert.ReferenceIdeal.main_v144 : DevRef Cert.ReferenceIdeal.τ Cert.ReferenceIdeal.sig) = Cert.KernelIdeal.Gen.W15 (F := Ideal) m ρ c (Proc.devRef .tc Cert.KernelIdeal.main_v109 : DevRef Cert.KernelIdeal.τ Cert.KernelIdeal.sig) := by
    rw [Cert.KernelIdeal.Hand.W15_eq]
    exact sim_agg1 (Cert.KernelIdeal.Gen.W12 (F := Ideal) m ρ c) (Cert.ReferenceIdeal.Hand.R10 Vr0) hx10 hr10 hc10 hw10
  -- the head
  have hx1' : Cert.ReferenceIdeal.Hand.R11 Vr0 (Proc.devRef .tc Cert.ReferenceIdeal.main_v98 : DevRef Cert.ReferenceIdeal.τ Cert.ReferenceIdeal.sig) = Cert.KernelIdeal.Gen.W15 (F := Ideal) m ρ c (Proc.devRef .tc Cert.KernelIdeal.main_v68_0 : DevRef Cert.KernelIdeal.τ Cert.KernelIdeal.sig) := by
    rw [Cert.KernelIdeal.Hand.W15_eq, Cert.KernelIdeal.Hand.keep_kAgg1 _ _ (by decide)]
    exact (((Cert.ReferenceIdeal.Hand.keep_rAgg1 _ _ (by decide)).trans (Cert.ReferenceIdeal.Hand.keep_rIdx1 _ _ (by decide))).trans (Cert.ReferenceIdeal.Hand.keep_rLin1 _ _ (by decide))).trans hx1
  exact Head.out_eq m ρ c (Cert.ReferenceIdeal.Hand.R11 Vr0) hx1' hagg1 ((Cert.ReferenceIdeal.Hand.R11_keep Vr0 _ (by decide)).trans a12) ((Cert.ReferenceIdeal.Hand.R11_keep Vr0 _ (by decide)).trans a15) ((Cert.ReferenceIdeal.Hand.R11_keep Vr0 _ (by decide)).trans a16) ((Cert.ReferenceIdeal.Hand.R11_keep Vr0 _ (by decide)).trans a17) ((Cert.ReferenceIdeal.Hand.R11_keep Vr0 _ (by decide)).trans a18)

end Cert.Bridge

end
-- ==== Proof.lean ====
/-
  The certificate: the kernel program (three Pallas regions among plain host gathers and scatter-adds) and its plain
  jnp reference compute the same graph network over the extended reals, for finite inputs and an edge list of node
  numbers. The three frames: the kernel program's, at the word level and idealized, are the generated launch over its
  sixteen segments; the reference's is its straight-line run with the result dropped. The idealization rewrote nothing.
  The values: the kernel program's result is what its last region's write-backs leave, the reference's the fold of its
  operations, and the two are equal stage by stage.
-/
import proofs.«415847_j84524956385823_2_alg».proof.Defs
import proofs.«415847_j84524956385823_2_alg».proof.Proof.Gen.Kernel
import proofs.«415847_j84524956385823_2_alg».proof.Proof.Gen.Kernel.Frame
import proofs.«415847_j84524956385823_2_alg».proof.Proof.Gen.KernelIdeal
import proofs.«415847_j84524956385823_2_alg».proof.Proof.Gen.KernelIdeal.Frame
import proofs.«415847_j84524956385823_2_alg».proof.Proof.Gen.ReferenceIdeal
import proofs.«415847_j84524956385823_2_alg».proof.Proof.Gen.Pre_finite_inputs
import proofs.«415847_j84524956385823_2_alg».proof.Proof.KernelRun
import proofs.«415847_j84524956385823_2_alg».proof.Proof.RefKeep
import proofs.«415847_j84524956385823_2_alg».proof.Proof.PreRange
import proofs.«415847_j84524956385823_2_alg».proof.Proof.Assemble
import Idealize.ShloMosaic.Adequacy
import Idealize.ShloMosaic.Init

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference's run ends with every argument array as launched: no stage writes one. -/
theorem frame_ri : Cert.frame_ReferenceIdeal := fun m ρ _ =>
  (θ_run Cert.ReferenceIdeal.defs _ _).mono (fun r h c =>
    ⟨(h c Cert.ReferenceIdeal.main_arg0).trans (Cert.ReferenceIdeal.Hand.end_keep m c _ (by decide)),
     (h c Cert.ReferenceIdeal.main_arg1).trans (Cert.ReferenceIdeal.Hand.end_keep m c _ (by decide)),
     (h c Cert.ReferenceIdeal.main_arg2).trans (Cert.ReferenceIdeal.Hand.end_keep m c _ (by decide)),
     (h c Cert.ReferenceIdeal.main_arg3).trans (Cert.ReferenceIdeal.Hand.end_keep m c _ (by decide)),
     (h c Cert.ReferenceIdeal.main_arg4).trans (Cert.ReferenceIdeal.Hand.end_keep m c _ (by decide)),
     (h c Cert.ReferenceIdeal.main_arg5).trans (Cert.ReferenceIdeal.Hand.end_keep m c _ (by decide)),
     (h c Cert.ReferenceIdeal.main_arg6).trans (Cert.ReferenceIdeal.Hand.end_keep m c _ (by decide)),
     (h c Cert.ReferenceIdeal.main_arg7).trans (Cert.ReferenceIdeal.Hand.end_keep m c _ (by decide)),
     (h c Cert.ReferenceIdeal.main_arg8).trans (Cert.ReferenceIdeal.Hand.end_keep m c _ (by decide)),
     (h c Cert.ReferenceIdeal.main_arg9).trans (Cert.ReferenceIdeal.Hand.end_keep m c _ (by decide)),
     (h c Cert.ReferenceIdeal.main_arg10).trans (Cert.ReferenceIdeal.Hand.end_keep m c _ (by decide)),
     (h c Cert.ReferenceIdeal.main_arg11).trans (Cert.ReferenceIdeal.Hand.end_keep m c _ (by decide)),
     (h c Cert.ReferenceIdeal.main_arg12).trans (Cert.ReferenceIdeal.Hand.end_keep m c _ (by decide)),
     (h c Cert.ReferenceIdeal.main_arg13).trans (Cert.ReferenceIdeal.Hand.end_keep m c _ (by decide)),
     (h c Cert.ReferenceIdeal.main_arg14).trans (Cert.ReferenceIdeal.Hand.end_keep m c _ (by decide)),
     (h c Cert.ReferenceIdeal.main_arg15).trans (Cert.ReferenceIdeal.Hand.end_keep m c _ (by decide)),
     (h c Cert.ReferenceIdeal.main_arg16).trans (Cert.ReferenceIdeal.Hand.end_keep m c _ (by decide)),
     (h c Cert.ReferenceIdeal.main_arg17).trans (Cert.ReferenceIdeal.Hand.end_keep m c _ (by decide)),
     (h c Cert.ReferenceIdeal.main_arg18).trans (Cert.ReferenceIdeal.Hand.end_keep m c _ (by decide))⟩)
    (Cert.ReferenceIdeal.Hand.run_main (F := Ideal) m ρ)

/-- Both programs run, and end with equal results: the kernel program's result array holds what its last region leaves,
    the reference's the fold of its operations over arguments that agree, and those are equal. -/
theorem algebraic : Cert.algebraic_KernelIdeal_ReferenceIdeal := by
  intro m ρ m' ρ' hpre hagree
  refine ⟨fun c => Cert.KernelIdeal.Gen.W16 (F := Ideal) m ρ c (Proc.devRef .tc Cert.KernelIdeal.main_v115), Cert.KernelIdeal.Gen.run_value (F := Ideal) m ρ, ?_⟩
  refine (θ_run Cert.ReferenceIdeal.defs _ _).mono (fun r h c => ?_) (Cert.ReferenceIdeal.Hand.run_main (F := Ideal) m' ρ')
  obtain ⟨a0, a1, a2, a3, a4, a5, a6, a7, a8, a9, a10, a11, a12, a13, a14, a15, a16, a17, a18⟩ := hagree c
  refine ⟨(h c Cert.ReferenceIdeal.main_v158).trans ?_,
     (h c Cert.ReferenceIdeal.main_arg0).trans (Cert.ReferenceIdeal.Hand.end_keep m' c _ (by decide)),
     (h c Cert.ReferenceIdeal.main_arg1).trans (Cert.ReferenceIdeal.Hand.end_keep m' c _ (by decide)),
     (h c Cert.ReferenceIdeal.main_arg2).trans (Cert.ReferenceIdeal.Hand.end_keep m' c _ (by decide)),
     (h c Cert.ReferenceIdeal.main_arg3).trans (Cert.ReferenceIdeal.Hand.end_keep m' c _ (by decide)),
     (h c Cert.ReferenceIdeal.main_arg4).trans (Cert.ReferenceIdeal.Hand.end_keep m' c _ (by decide)),
     (h c Cert.ReferenceIdeal.main_arg5).trans (Cert.ReferenceIdeal.Hand.end_keep m' c _ (by decide)),
     (h c Cert.ReferenceIdeal.main_arg6).trans (Cert.ReferenceIdeal.Hand.end_keep m' c _ (by decide)),
     (h c Cert.ReferenceIdeal.main_arg7).trans (Cert.ReferenceIdeal.Hand.end_keep m' c _ (by decide)),
     (h c Cert.ReferenceIdeal.main_arg8).trans (Cert.ReferenceIdeal.Hand.end_keep m' c _ (by decide)),
     (h c Cert.ReferenceIdeal.main_arg9).trans (Cert.ReferenceIdeal.Hand.end_keep m' c _ (by decide)),
     (h c Cert.ReferenceIdeal.main_arg10).trans (Cert.ReferenceIdeal.Hand.end_keep m' c _ (by decide)),
     (h c Cert.ReferenceIdeal.main_arg11).trans (Cert.ReferenceIdeal.Hand.end_keep m' c _ (by decide)),
     (h c Cert.ReferenceIdeal.main_arg12).trans (Cert.ReferenceIdeal.Hand.end_keep m' c _ (by decide)),
     (h c Cert.ReferenceIdeal.main_arg13).trans (Cert.ReferenceIdeal.Hand.end_keep m' c _ (by decide)),
     (h c Cert.ReferenceIdeal.main_arg14).trans (Cert.ReferenceIdeal.Hand.end_keep m' c _ (by decide)),
     (h c Cert.ReferenceIdeal.main_arg15).trans (Cert.ReferenceIdeal.Hand.end_keep m' c _ (by decide)),
     (h c Cert.ReferenceIdeal.main_arg16).trans (Cert.ReferenceIdeal.Hand.end_keep m' c _ (by decide)),
     (h c Cert.ReferenceIdeal.main_arg17).trans (Cert.ReferenceIdeal.Hand.end_keep m' c _ (by decide)),
     (h c Cert.ReferenceIdeal.main_arg18).trans (Cert.ReferenceIdeal.Hand.end_keep m' c _ (by decide))⟩
  rw [Cert.ReferenceIdeal.Hand.after_allOps]
  exact (Cert.Bridge.result_eq m ρ c (launchContents m' c) a0 a1 a2 a3 a4 a5 a6 a7 a8 a9 a10 a11 a12 a13 a14 a15 a16 a17 a18 (Cert.Bridge.Pre.range_of_pre m hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
